-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v76_1)) (v1 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76_1) = v0 c
          ∧ r.2.mem ((c.tc : Thread Cert.KernelIdeal.nD Cert.KernelIdeal.τ).loc Cert.KernelIdeal.main_v121) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v178) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S102400x60 : Shape := ⟨2, ![102400, 60]⟩
abbrev S1638400x1 : Shape := ⟨2, ![1638400, 1]⟩
abbrev S1638400 : Shape := ⟨1, ![1638400]⟩
abbrev S102400 : Shape := ⟨1, ![102400]⟩
abbrev S8x1 : Shape := ⟨2, ![8, 1]⟩
abbrev S8x60 : Shape := ⟨2, ![8, 60]⟩
abbrev S8 : Shape := ⟨1, ![8]⟩
abbrev S16x60 : Shape := ⟨2, ![16, 60]⟩
abbrev S16x8 : Shape := ⟨2, ![16, 8]⟩
abbrev S16 : Shape := ⟨1, ![16]⟩
abbrev S4x8 : Shape := ⟨2, ![4, 8]⟩
abbrev S4x16 : Shape := ⟨2, ![4, 16]⟩
abbrev S4 : Shape := ⟨1, ![4]⟩
abbrev S8x8 : Shape := ⟨2, ![8, 8]⟩
abbrev S8x16 : Shape := ⟨2, ![8, 16]⟩
abbrev S8x4 : Shape := ⟨2, ![8, 4]⟩
abbrev S16x16 : Shape := ⟨2, ![16, 16]⟩
abbrev S16x4 : Shape := ⟨2, ![16, 4]⟩
abbrev S4x4 : Shape := ⟨2, ![4, 4]⟩
abbrev S1x16 : Shape := ⟨2, ![1, 16]⟩
abbrev S1 : Shape := ⟨1, ![1]⟩
abbrev S1x4 : Shape := ⟨2, ![1, 4]⟩
abbrev S_ : Shape := ⟨0, ![]⟩

class Facts : Prop where
  bcast_S_S102400x60 : S_.BroadcastsInDim S102400x60 (![] : Fin 0 → Fin S102400x60.rank)
  reducesTo_S102400x60_S_d0_1 : S102400x60.ReducesTo [0, 1] S_
  h_S_ : 0 < S_.numel
  bcast_S_S1638400x1 : S_.BroadcastsInDim S1638400x1 (![] : Fin 0 → Fin S1638400x1.rank)
  reducesTo_S1638400x1_S_d0_1 : S1638400x1.ReducesTo [0, 1] S_
  bcast_S_S8x1 : S_.BroadcastsInDim S8x1 (![] : Fin 0 → Fin S8x1.rank)
  reducesTo_S8x1_S_d0_1 : S8x1.ReducesTo [0, 1] S_
  bcast_S_S8x60 : S_.BroadcastsInDim S8x60 (![] : Fin 0 → Fin S8x60.rank)
  reducesTo_S8x60_S_d0_1 : S8x60.ReducesTo [0, 1] S_
  bcast_S_S8 : S_.BroadcastsInDim S8 (![] : Fin 0 → Fin S8.rank)
  reducesTo_S8_S_d0 : S8.ReducesTo [0] S_
  bcast_S_S16x60 : S_.BroadcastsInDim S16x60 (![] : Fin 0 → Fin S16x60.rank)
  reducesTo_S16x60_S_d0_1 : S16x60.ReducesTo [0, 1] S_
  bcast_S_S16x8 : S_.BroadcastsInDim S16x8 (![] : Fin 0 → Fin S16x8.rank)
  reducesTo_S16x8_S_d0_1 : S16x8.ReducesTo [0, 1] S_
  bcast_S_S16 : S_.BroadcastsInDim S16 (![] : Fin 0 → Fin S16.rank)
  reducesTo_S16_S_d0 : S16.ReducesTo [0] S_
  bcast_S_S4x8 : S_.BroadcastsInDim S4x8 (![] : Fin 0 → Fin S4x8.rank)
  reducesTo_S4x8_S_d0_1 : S4x8.ReducesTo [0, 1] S_
  bcast_S_S4x16 : S_.BroadcastsInDim S4x16 (![] : Fin 0 → Fin S4x16.rank)
  reducesTo_S4x16_S_d0_1 : S4x16.ReducesTo [0, 1] S_
  bcast_S_S4 : S_.BroadcastsInDim S4 (![] : Fin 0 → Fin S4.rank)
  reducesTo_S4_S_d0 : S4.ReducesTo [0] S_
  bcast_S_S8x8 : S_.BroadcastsInDim S8x8 (![] : Fin 0 → Fin S8x8.rank)
  reducesTo_S8x8_S_d0_1 : S8x8.ReducesTo [0, 1] S_
  bcast_S_S8x16 : S_.BroadcastsInDim S8x16 (![] : Fin 0 → Fin S8x16.rank)
  reducesTo_S8x16_S_d0_1 : S8x16.ReducesTo [0, 1] S_
  bcast_S_S8x4 : S_.BroadcastsInDim S8x4 (![] : Fin 0 → Fin S8x4.rank)
  reducesTo_S8x4_S_d0_1 : S8x4.ReducesTo [0, 1] S_
  bcast_S_S16x16 : S_.BroadcastsInDim S16x16 (![] : Fin 0 → Fin S16x16.rank)
  reducesTo_S16x16_S_d0_1 : S16x16.ReducesTo [0, 1] S_
  bcast_S_S16x4 : S_.BroadcastsInDim S16x4 (![] : Fin 0 → Fin S16x4.rank)
  reducesTo_S16x4_S_d0_1 : S16x4.ReducesTo [0, 1] S_
  bcast_S_S4x4 : S_.BroadcastsInDim S4x4 (![] : Fin 0 → Fin S4x4.rank)
  reducesTo_S4x4_S_d0_1 : S4x4.ReducesTo [0, 1] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_
  bcast_S_S1x4 : S_.BroadcastsInDim S1x4 (![] : Fin 0 → Fin S1x4.rank)
  reducesTo_S1x4_S_d0_1 : S1x4.ReducesTo [0, 1] S_
  bcast_S_S1638400 : S_.BroadcastsInDim S1638400 (![] : Fin 0 → Fin S1638400.rank)
  reducesTo_S1638400_S_d0 : S1638400.ReducesTo [0] S_
  bcast_S_S102400 : S_.BroadcastsInDim S102400 (![] : Fin 0 → Fin S102400.rank)
  reducesTo_S102400_S_d0 : S102400.ReducesTo [0] S_

variable [Facts]

def fn_part9 {F : FTy → Type} [FloatOps F] (main_v147 : IVec S_ 1) (main_v152 : IVec S102400 1) (main_c_60 : IVec S_ 1) : IVec S_ 1 :=
  let main_v153 : IVec S_ 1 := (fun x v => Host.reduce IntOp.andi x v reducesTo_S102400_S_d0 h_S_) main_v152 main_c_60
  let main_v154 : IVec S_ 1 := andi main_v147 main_v153
  main_v154

def fn_part8 {F : FTy → Type} [FloatOps F] (main_arg2 : IVec S1638400 32) (main_arg4 : IVec S102400 32) (main_arg5 : IVec S1638400 32) (main_v133 : IVec S_ 1) (main_v135 : IVec S1638400 1) (main_c_53 : IVec S_ 32) : IVec S_ 1 :=
  let main_v136 : IVec S1638400 32 := broadcastInDim S1638400 ![] bcast_S_S1638400 main_c_53
  let main_v137 : IVec S1638400 1 := cmpi .slt main_arg2 main_v136
  let main_v138 : IVec S1638400 1 := andi main_v135 main_v137
  let main_c_54 : IVec S_ 1 := constantI S_ 1 1#1
  let main_v139 : IVec S_ 1 := (fun x v => Host.reduce IntOp.andi x v reducesTo_S1638400_S_d0 h_S_) main_v138 main_c_54
  let main_v140 : IVec S_ 1 := andi main_v133 main_v139
  let main_c_55 : IVec S_ 32 := constantI S_ 32 4294967232#32
  let main_v141 : IVec S1638400 32 := broadcastInDim S1638400 ![] bcast_S_S1638400 main_c_55
  let main_v142 : IVec S1638400 1 := cmpi .sge main_arg5 main_v141
  let main_c_56 : IVec S_ 32 := constantI S_ 32 64#32
  let main_v143 : IVec S1638400 32 := broadcastInDim S1638400 ![] bcast_S_S1638400 main_c_56
  let main_v144 : IVec S1638400 1 := cmpi .slt main_arg5 main_v143
  let main_v145 : IVec S1638400 1 := andi main_v142 main_v144
  let main_c_57 : IVec S_ 1 := constantI S_ 1 1#1
  let main_v146 : IVec S_ 1 := (fun x v => Host.reduce IntOp.andi x v reducesTo_S1638400_S_d0 h_S_) main_v145 main_c_57
  let main_v147 : IVec S_ 1 := andi main_v140 main_v146
  let main_c_58 : IVec S_ 32 := constantI S_ 32 4294967232#32
  let main_v148 : IVec S102400 32 := broadcastInDim S102400 ![] bcast_S_S102400 main_c_58
  let main_v149 : IVec S102400 1 := cmpi .sge main_arg4 main_v148
  let main_c_59 : IVec S_ 32 := constantI S_ 32 64#32
  let main_v150 : IVec S102400 32 := broadcastInDim S102400 ![] bcast_S_S102400 main_c_59
  let main_v151 : IVec S102400 1 := cmpi .slt main_arg4 main_v150
  let main_v152 : IVec S102400 1 := andi main_v149 main_v151
  let main_c_60 : IVec S_ 1 := constantI S_ 1 1#1
  fn_part9 (F := F) main_v147 main_v152 main_c_60

def fn_part7 {F : FTy → Type} [FloatOps F] (main_arg2 : IVec S1638400 32) (main_arg4 : IVec S102400 32) (main_arg5 : IVec S1638400 32) (main_arg29 : FVec F S1x4 .f32) (main_arg30 : FVec F S1 .f32) (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  let main_v124 : FVec F S1x4 .f32 := Host.absf main_arg29
  let main_cst_48 : FVec F S_ .f32 := constant S_ .f32 0x7F800000#32
  let main_v125 : FVec F S1x4 .f32 := broadcastInDim S1x4 ![] bcast_S_S1x4 main_cst_48
  let main_v126 : IVec S1x4 1 := cmpf .olt main_v124 main_v125
  let main_c_49 : IVec S_ 1 := constantI S_ 1 1#1
  let main_v127 : IVec S_ 1 := (fun x v => Host.reduce IntOp.andi x v reducesTo_S1x4_S_d0_1 h_S_) main_v126 main_c_49
  let main_v128 : IVec S_ 1 := andi main_v123 main_v127
  let main_v129 : FVec F S1 .f32 := Host.absf main_arg30
  let main_cst_50 : FVec F S_ .f32 := constant S_ .f32 0x7F800000#32
  let main_v130 : FVec F S1 .f32 := broadcastInDim S1 ![] bcast_S_S1 main_cst_50
  let main_v131 : IVec S1 1 := cmpf .olt main_v129 main_v130
  let main_c_51 : IVec S_ 1 := constantI S_ 1 1#1
  let main_v132 : IVec S_ 1 := (fun x v => Host.reduce IntOp.andi x v reducesTo_S1_S_d0 h_S_) main_v131 main_c_51
  let main_v133 : IVec S_ 1 := andi main_v128 main_v132
  let main_c_52 : IVec S_ 32 := constantI S_ 32 4294864896#32
  let main_v134 : IVec S1638400 32 := broadcastInDim S1638400 ![] bcast_S_S1638400 main_c_52
  let main_v135 : IVec S1638400 1 := cmpi .sge main_arg2 main_v134
  let main_c_53 : IVec S_ 32 := constantI S_ 32 102400#32
  fn_part8 (F := F) main_arg2 main_arg4 main_arg5 main_v133 main_v135 main_c_53

def fn_part6 {F : FTy → Type} [FloatOps F] (main_arg2 : IVec S1638400 32) (main_arg4 : IVec S102400 32) (main_arg5 : IVec S1638400 32) (main_arg25 : FVec F S4x4 .f32) (main_arg26 : FVec F S4 .f32) (main_arg27 : FVec F S1x16 .f32) (main_arg28 : FVec F S1 .f32) (main_arg29 : FVec F S1x4 .f32) (main_arg30 : FVec F S1 .f32) (main_v98 : IVec S_ 1) (main_v101 : IVec S4x16 1) (main_c_39 : IVec S_ 1) : IVec S_ 1 :=
  let main_v102 : IVec S_ 1 := (fun x v => Host.reduce IntOp.andi x v reducesTo_S4x16_S_d0_1 h_S_) main_v101 main_c_39
  let main_v103 : IVec S_ 1 := andi main_v98 main_v102
  let main_v104 : FVec F S4x4 .f32 := Host.absf main_arg25
  let main_cst_40 : FVec F S_ .f32 := constant S_ .f32 0x7F800000#32
  let main_v105 : FVec F S4x4 .f32 := broadcastInDim S4x4 ![] bcast_S_S4x4 main_cst_40
  let main_v106 : IVec S4x4 1 := cmpf .olt main_v104 main_v105
  let main_c_41 : IVec S_ 1 := constantI S_ 1 1#1
  let main_v107 : IVec S_ 1 := (fun x v => Host.reduce IntOp.andi x v reducesTo_S4x4_S_d0_1 h_S_) main_v106 main_c_41
  let main_v108 : IVec S_ 1 := andi main_v103 main_v107
  let main_v109 : FVec F S4 .f32 := Host.absf main_arg26
  let main_cst_42 : FVec F S_ .f32 := constant S_ .f32 0x7F800000#32
  let main_v110 : FVec F S4 .f32 := broadcastInDim S4 ![] bcast_S_S4 main_cst_42
  let main_v111 : IVec S4 1 := cmpf .olt main_v109 main_v110
  let main_c_43 : IVec S_ 1 := constantI S_ 1 1#1
  let main_v112 : IVec S_ 1 := (fun x v => Host.reduce IntOp.andi x v reducesTo_S4_S_d0 h_S_) main_v111 main_c_43
  let main_v113 : IVec S_ 1 := andi main_v108 main_v112
  let main_v114 : FVec F S1x16 .f32 := Host.absf main_arg27
  let main_cst_44 : FVec F S_ .f32 := constant S_ .f32 0x7F800000#32
  let main_v115 : FVec F S1x16 .f32 := broadcastInDim S1x16 ![] bcast_S_S1x16 main_cst_44
  let main_v116 : IVec S1x16 1 := cmpf .olt main_v114 main_v115
  let main_c_45 : IVec S_ 1 := constantI S_ 1 1#1
  let main_v117 : IVec S_ 1 := (fun x v => Host.reduce IntOp.andi x v reducesTo_S1x16_S_d0_1 h_S_) main_v116 main_c_45
  let main_v118 : IVec S_ 1 := andi main_v113 main_v117
  let main_v119 : FVec F S1 .f32 := Host.absf main_arg28
  fn_part7 (F := F) main_arg2 main_arg4 main_arg5 main_arg29 main_arg30 main_v118 main_v119

def fn_part5 {F : FTy → Type} [FloatOps F] (main_arg2 : IVec S1638400 32) (main_arg4 : IVec S102400 32) (main_arg5 : IVec S1638400 32) (main_arg22 : FVec F S16 .f32) (main_arg23 : FVec F S4x8 .f32) (main_arg24 : FVec F S4x16 .f32) (main_arg25 : FVec F S4x4 .f32) (main_arg26 : FVec F S4 .f32) (main_arg27 : FVec F S1x16 .f32) (main_arg28 : FVec F S1 .f32) (main_arg29 : FVec F S1x4 .f32) (main_arg30 : FVec F S1 .f32) (main_v83 : IVec S_ 1) (main_v84 : FVec F S16x4 .f32) (main_cst_32 : FVec F S_ .f32) : IVec S_ 1 :=
  let main_v85 : FVec F S16x4 .f32 := broadcastInDim S16x4 ![] bcast_S_S16x4 main_cst_32
  let main_v86 : IVec S16x4 1 := cmpf .olt main_v84 main_v85
  let main_c_33 : IVec S_ 1 := constantI S_ 1 1#1
  let main_v87 : IVec S_ 1 := (fun x v => Host.reduce IntOp.andi x v reducesTo_S16x4_S_d0_1 h_S_) main_v86 main_c_33
  let main_v88 : IVec S_ 1 := andi main_v83 main_v87
  let main_v89 : FVec F S16 .f32 := Host.absf main_arg22
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_v94 : FVec F S4x8 .f32 := Host.absf main_arg23
  let main_cst_36 : FVec F S_ .f32 := constant S_ .f32 0x7F800000#32
  let main_v95 : FVec F S4x8 .f32 := broadcastInDim S4x8 ![] bcast_S_S4x8 main_cst_36
  let main_v96 : IVec S4x8 1 := cmpf .olt main_v94 main_v95
  let main_c_37 : IVec S_ 1 := constantI S_ 1 1#1
  let main_v97 : IVec S_ 1 := (fun x v => Host.reduce IntOp.andi x v reducesTo_S4x8_S_d0_1 h_S_) main_v96 main_c_37
  let main_v98 : IVec S_ 1 := andi main_v93 main_v97
  let main_v99 : FVec F S4x16 .f32 := Host.absf main_arg24
  let main_cst_38 : FVec F S_ .f32 := constant S_ .f32 0x7F800000#32
  let main_v100 : FVec F S4x16 .f32 := broadcastInDim S4x16 ![] bcast_S_S4x16 main_cst_38
  let main_v101 : IVec S4x16 1 := cmpf .olt main_v99 main_v100
  let main_c_39 : IVec S_ 1 := constantI S_ 1 1#1
  fn_part6 (F := F) main_arg2 main_arg4 main_arg5 main_arg25 main_arg26 main_arg27 main_arg28 main_arg29 main_arg30 main_v98 main_v101 main_c_39

def fn_part4 {F : FTy → Type} [FloatOps F] (main_arg2 : IVec S1638400 32) (main_arg4 : IVec S102400 32) (main_arg5 : IVec S1638400 32) (main_arg18 : FVec F S8 .f32) (main_arg19 : FVec F S16x16 .f32) (main_arg20 : FVec F S16x8 .f32) (main_arg21 : FVec F S16x4 .f32) (main_arg22 : FVec F S16 .f32) (main_arg23 : FVec F S4x8 .f32) (main_arg24 : FVec F S4x16 .f32) (main_arg25 : FVec F S4x4 .f32) (main_arg26 : FVec F S4 .f32) (main_arg27 : FVec F S1x16 .f32) (main_arg28 : FVec F S1 .f32) (main_arg29 : FVec F S1x4 .f32) (main_arg30 : FVec F S1 .f32) (main_v63 : IVec S_ 1) (main_v67 : IVec S_ 1) : IVec S_ 1 :=
  let main_v68 : IVec S_ 1 := andi main_v63 main_v67
  let main_v69 : FVec F S8 .f32 := Host.absf main_arg18
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  let main_v74 : FVec F S16x16 .f32 := Host.absf main_arg19
  let main_cst_28 : FVec F S_ .f32 := constant S_ .f32 0x7F800000#32
  let main_v75 : FVec F S16x16 .f32 := broadcastInDim S16x16 ![] bcast_S_S16x16 main_cst_28
  let main_v76 : IVec S16x16 1 := cmpf .olt main_v74 main_v75
  let main_c_29 : IVec S_ 1 := constantI S_ 1 1#1
  let main_v77 : IVec S_ 1 := (fun x v => Host.reduce IntOp.andi x v reducesTo_S16x16_S_d0_1 h_S_) main_v76 main_c_29
  let main_v78 : IVec S_ 1 := andi main_v73 main_v77
  let main_v79 : FVec F S16x8 .f32 := Host.absf main_arg20
  let main_cst_30 : FVec F S_ .f32 := constant S_ .f32 0x7F800000#32
  let main_v80 : FVec F S16x8 .f32 := broadcastInDim S16x8 ![] bcast_S_S16x8 main_cst_30
  let main_v81 : IVec S16x8 1 := cmpf .olt main_v79 main_v80
  let main_c_31 : IVec S_ 1 := constantI S_ 1 1#1
  let main_v82 : IVec S_ 1 := (fun x v => Host.reduce IntOp.andi x v reducesTo_S16x8_S_d0_1 h_S_) main_v81 main_c_31
  let main_v83 : IVec S_ 1 := andi main_v78 main_v82
  let main_v84 : FVec F S16x4 .f32 := Host.absf main_arg21
  let main_cst_32 : FVec F S_ .f32 := constant S_ .f32 0x7F800000#32
  fn_part5 (F := F) main_arg2 main_arg4 main_arg5 main_arg22 main_arg23 main_arg24 main_arg25 main_arg26 main_arg27 main_arg28 main_arg29 main_arg30 main_v83 main_v84 main_cst_32

def fn_part3 {F : FTy → Type} [FloatOps F] (main_arg2 : IVec S1638400 32) (main_arg4 : IVec S102400 32) (main_arg5 : IVec S1638400 32) (main_arg15 : FVec F S8x8 .f32) (main_arg16 : FVec F S8x16 .f32) (main_arg17 : FVec F S8x4 .f32) (main_arg18 : FVec F S8 .f32) (main_arg19 : FVec F S16x16 .f32) (main_arg20 : FVec F S16x8 .f32) (main_arg21 : FVec F S16x4 .f32) (main_arg22 : FVec F S16 .f32) (main_arg23 : FVec F S4x8 .f32) (main_arg24 : FVec F S4x16 .f32) (main_arg25 : FVec F S4x4 .f32) (main_arg26 : FVec F S4 .f32) (main_arg27 : FVec F S1x16 .f32) (main_arg28 : FVec F S1 .f32) (main_arg29 : FVec F S1x4 .f32) (main_arg30 : FVec F S1 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S8x8 .f32 := Host.absf main_arg15
  let main_cst_20 : FVec F S_ .f32 := constant S_ .f32 0x7F800000#32
  let main_v55 : FVec F S8x8 .f32 := broadcastInDim S8x8 ![] bcast_S_S8x8 main_cst_20
  let main_v56 : IVec S8x8 1 := cmpf .olt main_v54 main_v55
  let main_c_21 : IVec S_ 1 := constantI S_ 1 1#1
  let main_v57 : IVec S_ 1 := (fun x v => Host.reduce IntOp.andi x v reducesTo_S8x8_S_d0_1 h_S_) main_v56 main_c_21
  let main_v58 : IVec S_ 1 := andi main_v53 main_v57
  let main_v59 : FVec F S8x16 .f32 := Host.absf main_arg16
  let main_cst_22 : FVec F S_ .f32 := constant S_ .f32 0x7F800000#32
  let main_v60 : FVec F S8x16 .f32 := broadcastInDim S8x16 ![] bcast_S_S8x16 main_cst_22
  let main_v61 : IVec S8x16 1 := cmpf .olt main_v59 main_v60
  let main_c_23 : IVec S_ 1 := constantI S_ 1 1#1
  let main_v62 : IVec S_ 1 := (fun x v => Host.reduce IntOp.andi x v reducesTo_S8x16_S_d0_1 h_S_) main_v61 main_c_23
  let main_v63 : IVec S_ 1 := andi main_v58 main_v62
  let main_v64 : FVec F S8x4 .f32 := Host.absf main_arg17
  let main_cst_24 : FVec F S_ .f32 := constant S_ .f32 0x7F800000#32
  let main_v65 : FVec F S8x4 .f32 := broadcastInDim S8x4 ![] bcast_S_S8x4 main_cst_24
  let main_v66 : IVec S8x4 1 := cmpf .olt main_v64 main_v65
  let main_c_25 : IVec S_ 1 := constantI S_ 1 1#1
  let main_v67 : IVec S_ 1 := (fun x v => Host.reduce IntOp.andi x v reducesTo_S8x4_S_d0_1 h_S_) main_v66 main_c_25
  fn_part4 (F := F) main_arg2 main_arg4 main_arg5 main_arg18 main_arg19 main_arg20 main_arg21 main_arg22 main_arg23 main_arg24 main_arg25 main_arg26 main_arg27 main_arg28 main_arg29 main_arg30 main_v63 main_v67

def fn_part2 {F : FTy → Type} [FloatOps F] (main_arg2 : IVec S1638400 32) (main_arg4 : IVec S102400 32) (main_arg5 : IVec S1638400 32) (main_arg11 : FVec F S16 .f32) (main_arg12 : FVec F S4x8 .f32) (main_arg13 : FVec F S4x16 .f32) (main_arg14 : FVec F S4 .f32) (main_arg15 : FVec F S8x8 .f32) (main_arg16 : FVec F S8x16 .f32) (main_arg17 : FVec F S8x4 .f32) (main_arg18 : FVec F S8 .f32) (main_arg19 : FVec F S16x16 .f32) (main_arg20 : FVec F S16x8 .f32) (main_arg21 : FVec F S16x4 .f32) (main_arg22 : FVec F S16 .f32) (main_arg23 : FVec F S4x8 .f32) (main_arg24 : FVec F S4x16 .f32) (main_arg25 : FVec F S4x4 .f32) (main_arg26 : FVec F S4 .f32) (main_arg27 : FVec F S1x16 .f32) (main_arg28 : FVec F S1 .f32) (main_arg29 : FVec F S1x4 .f32) (main_arg30 : FVec F S1 .f32) (main_v33 : IVec S_ 1) : IVec S_ 1 :=
  let main_v34 : FVec F S16 .f32 := Host.absf main_arg11
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S4x8 .f32 := Host.absf main_arg12
  let main_cst_14 : FVec F S_ .f32 := constant S_ .f32 0x7F800000#32
  let main_v40 : FVec F S4x8 .f32 := broadcastInDim S4x8 ![] bcast_S_S4x8 main_cst_14
  let main_v41 : IVec S4x8 1 := cmpf .olt main_v39 main_v40
  let main_c_15 : IVec S_ 1 := constantI S_ 1 1#1
  let main_v42 : IVec S_ 1 := (fun x v => Host.reduce IntOp.andi x v reducesTo_S4x8_S_d0_1 h_S_) main_v41 main_c_15
  let main_v43 : IVec S_ 1 := andi main_v38 main_v42
  let main_v44 : FVec F S4x16 .f32 := Host.absf main_arg13
  let main_cst_16 : FVec F S_ .f32 := constant S_ .f32 0x7F800000#32
  let main_v45 : FVec F S4x16 .f32 := broadcastInDim S4x16 ![] bcast_S_S4x16 main_cst_16
  let main_v46 : IVec S4x16 1 := cmpf .olt main_v44 main_v45
  let main_c_17 : IVec S_ 1 := constantI S_ 1 1#1
  let main_v47 : IVec S_ 1 := (fun x v => Host.reduce IntOp.andi x v reducesTo_S4x16_S_d0_1 h_S_) main_v46 main_c_17
  let main_v48 : IVec S_ 1 := andi main_v43 main_v47
  let main_v49 : FVec F S4 .f32 := Host.absf main_arg14
  let main_cst_18 : FVec F S_ .f32 := constant S_ .f32 0x7F800000#32
  let main_v50 : FVec F S4 .f32 := broadcastInDim S4 ![] bcast_S_S4 main_cst_18
  fn_part3 (F := F) main_arg2 main_arg4 main_arg5 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg2 : IVec S1638400 32) (main_arg4 : IVec S102400 32) (main_arg5 : IVec S1638400 32) (main_arg8 : FVec F S8 .f32) (main_arg9 : FVec F S16x60 .f32) (main_arg10 : FVec F S16x8 .f32) (main_arg11 : FVec F S16 .f32) (main_arg12 : FVec F S4x8 .f32) (main_arg13 : FVec F S4x16 .f32) (main_arg14 : FVec F S4 .f32) (main_arg15 : FVec F S8x8 .f32) (main_arg16 : FVec F S8x16 .f32) (main_arg17 : FVec F S8x4 .f32) (main_arg18 : FVec F S8 .f32) (main_arg19 : FVec F S16x16 .f32) (main_arg20 : FVec F S16x8 .f32) (main_arg21 : FVec F S16x4 .f32) (main_arg22 : FVec F S16 .f32) (main_arg23 : FVec F S4x8 .f32) (main_arg24 : FVec F S4x16 .f32) (main_arg25 : FVec F S4x4 .f32) (main_arg26 : FVec F S4 .f32) (main_arg27 : FVec F S1x16 .f32) (main_arg28 : FVec F S1 .f32) (main_arg29 : FVec F S1x4 .f32) (main_arg30 : FVec F S1 .f32) (main_v13 : IVec S_ 1) (main_v16 : IVec S8x60 1) : IVec S_ 1 :=
  let main_c_5 : IVec S_ 1 := constantI S_ 1 1#1
  let main_v17 : IVec S_ 1 := (fun x v => Host.reduce IntOp.andi x v reducesTo_S8x60_S_d0_1 h_S_) main_v16 main_c_5
  let main_v18 : IVec S_ 1 := andi main_v13 main_v17
  let main_v19 : FVec F S8 .f32 := Host.absf main_arg8
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S16x60 .f32 := Host.absf main_arg9
  let main_cst_8 : FVec F S_ .f32 := constant S_ .f32 0x7F800000#32
  let main_v25 : FVec F S16x60 .f32 := broadcastInDim S16x60 ![] bcast_S_S16x60 main_cst_8
  let main_v26 : IVec S16x60 1 := cmpf .olt main_v24 main_v25
  let main_c_9 : IVec S_ 1 := constantI S_ 1 1#1
  let main_v27 : IVec S_ 1 := (fun x v => Host.reduce IntOp.andi x v reducesTo_S16x60_S_d0_1 h_S_) main_v26 main_c_9
  let main_v28 : IVec S_ 1 := andi main_v23 main_v27
  let main_v29 : FVec F S16x8 .f32 := Host.absf main_arg10
  let main_cst_10 : FVec F S_ .f32 := constant S_ .f32 0x7F800000#32
  let main_v30 : FVec F S16x8 .f32 := broadcastInDim S16x8 ![] bcast_S_S16x8 main_cst_10
  let main_v31 : IVec S16x8 1 := cmpf .olt main_v29 main_v30
  let main_c_11 : IVec S_ 1 := constantI S_ 1 1#1
  let main_v32 : IVec S_ 1 := (fun x v => Host.reduce IntOp.andi x v reducesTo_S16x8_S_d0_1 h_S_) main_v31 main_c_11
  let main_v33 : IVec S_ 1 := andi main_v28 main_v32
  fn_part2 (F := F) main_arg2 main_arg4 main_arg5 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S102400x60 .f32) (main_arg1 : FVec F S1638400x1 .f32) (main_arg2 : IVec S1638400 32) (main_arg3 : IVec S1638400 32) (main_arg4 : IVec S102400 32) (main_arg5 : IVec S1638400 32) (main_arg6 : FVec F S8x1 .f32) (main_arg7 : FVec F S8x60 .f32) (main_arg8 : FVec F S8 .f32) (main_arg9 : FVec F S16x60 .f32) (main_arg10 : FVec F S16x8 .f32) (main_arg11 : FVec F S16 .f32) (main_arg12 : FVec F S4x8 .f32) (main_arg13 : FVec F S4x16 .f32) (main_arg14 : FVec F S4 .f32) (main_arg15 : FVec F S8x8 .f32) (main_arg16 : FVec F S8x16 .f32) (main_arg17 : FVec F S8x4 .f32) (main_arg18 : FVec F S8 .f32) (main_arg19 : FVec F S16x16 .f32) (main_arg20 : FVec F S16x8 .f32) (main_arg21 : FVec F S16x4 .f32) (main_arg22 : FVec F S16 .f32) (main_arg23 : FVec F S4x8 .f32) (main_arg24 : FVec F S4x16 .f32) (main_arg25 : FVec F S4x4 .f32) (main_arg26 : FVec F S4 .f32) (main_arg27 : FVec F S1x16 .f32) (main_arg28 : FVec F S1 .f32) (main_arg29 : FVec F S1x4 .f32) (main_arg30 : FVec F S1 .f32) : IVec S_ 1 :=
  let main_v0 : FVec F S102400x60 .f32 := Host.absf main_arg0
  let main_cst : FVec F S_ .f32 := constant S_ .f32 0x7F800000#32
  let main_v1 : FVec F S102400x60 .f32 := broadcastInDim S102400x60 ![] bcast_S_S102400x60 main_cst
  let main_v2 : IVec S102400x60 1 := cmpf .olt main_v0 main_v1
  let main_c : IVec S_ 1 := constantI S_ 1 1#1
  let main_v3 : IVec S_ 1 := (fun x v => Host.reduce IntOp.andi x v reducesTo_S102400x60_S_d0_1 h_S_) main_v2 main_c
  let main_v4 : FVec F S1638400x1 .f32 := Host.absf main_arg1
  let main_cst_0 : FVec F S_ .f32 := constant S_ .f32 0x7F800000#32
  let main_v5 : FVec F S1638400x1 .f32 := broadcastInDim S1638400x1 ![] bcast_S_S1638400x1 main_cst_0
  let main_v6 : IVec S1638400x1 1 := cmpf .olt main_v4 main_v5
  let main_c_1 : IVec S_ 1 := constantI S_ 1 1#1
  let main_v7 : IVec S_ 1 := (fun x v => Host.reduce IntOp.andi x v reducesTo_S1638400x1_S_d0_1 h_S_) main_v6 main_c_1
  let main_v8 : IVec S_ 1 := andi main_v3 main_v7
  let main_v9 : FVec F S8x1 .f32 := Host.absf main_arg6
  let main_cst_2 : FVec F S_ .f32 := constant S_ .f32 0x7F800000#32
  let main_v10 : FVec F S8x1 .f32 := broadcastInDim S8x1 ![] bcast_S_S8x1 main_cst_2
  let main_v11 : IVec S8x1 1 := cmpf .olt main_v9 main_v10
  let main_c_3 : IVec S_ 1 := constantI S_ 1 1#1
  let main_v12 : IVec S_ 1 := (fun x v => Host.reduce IntOp.andi x v reducesTo_S8x1_S_d0_1 h_S_) main_v11 main_c_3
  let main_v13 : IVec S_ 1 := andi main_v8 main_v12
  let main_v14 : FVec F S8x60 .f32 := Host.absf main_arg7
  let main_cst_4 : FVec F S_ .f32 := constant S_ .f32 0x7F800000#32
  let main_v15 : FVec F S8x60 .f32 := broadcastInDim S8x60 ![] bcast_S_S8x60 main_cst_4
  let main_v16 : IVec S8x60 1 := cmpf .olt main_v14 main_v15
  fn_part1 (F := F) main_arg2 main_arg4 main_arg5 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S102400x60 : Shape := ⟨2, ![102400, 60]⟩
abbrev S1638400x1 : Shape := ⟨2, ![1638400, 1]⟩
abbrev S1638400 : Shape := ⟨1, ![1638400]⟩
abbrev S102400 : Shape := ⟨1, ![102400]⟩
abbrev S8x1 : Shape := ⟨2, ![8, 1]⟩
abbrev S8x60 : Shape := ⟨2, ![8, 60]⟩
abbrev S8 : Shape := ⟨1, ![8]⟩
abbrev S16x60 : Shape := ⟨2, ![16, 60]⟩
abbrev S16x8 : Shape := ⟨2, ![16, 8]⟩
abbrev S16 : Shape := ⟨1, ![16]⟩
abbrev S4x8 : Shape := ⟨2, ![4, 8]⟩
abbrev S4x16 : Shape := ⟨2, ![4, 16]⟩
abbrev S4 : Shape := ⟨1, ![4]⟩
abbrev S8x8 : Shape := ⟨2, ![8, 8]⟩
abbrev S8x16 : Shape := ⟨2, ![8, 16]⟩
abbrev S8x4 : Shape := ⟨2, ![8, 4]⟩
abbrev S16x16 : Shape := ⟨2, ![16, 16]⟩
abbrev S16x4 : Shape := ⟨2, ![16, 4]⟩
abbrev S4x4 : Shape := ⟨2, ![4, 4]⟩
abbrev S1x16 : Shape := ⟨2, ![1, 16]⟩
abbrev S1 : Shape := ⟨1, ![1]⟩
abbrev S1x4 : Shape := ⟨2, ![1, 4]⟩
abbrev S_ : Shape := ⟨0, ![]⟩
abbrev S1x1 : Shape := ⟨2, ![1, 1]⟩
abbrev S1638400x60 : Shape := ⟨2, ![1638400, 60]⟩
abbrev S1x8 : Shape := ⟨2, ![1, 8]⟩
abbrev S60x8 : Shape := ⟨2, ![60, 8]⟩
abbrev S1638400x8 : Shape := ⟨2, ![1638400, 8]⟩
abbrev S4096x1 : Shape := ⟨2, ![4096, 1]⟩
abbrev S4096x60 : Shape := ⟨2, ![4096, 60]⟩
abbrev S4096x8 : Shape := ⟨2, ![4096, 8]⟩
abbrev S102400x8 : Shape := ⟨2, ![102400, 8]⟩
abbrev S102400x1 : Shape := ⟨2, ![102400, 1]⟩
abbrev S60x16 : Shape := ⟨2, ![60, 16]⟩
abbrev S102400x16 : Shape := ⟨2, ![102400, 16]⟩
abbrev S4096x16 : Shape := ⟨2, ![4096, 16]⟩
abbrev S64x8 : Shape := ⟨2, ![64, 8]⟩
abbrev S64x1 : Shape := ⟨2, ![64, 1]⟩
abbrev S64x16 : Shape := ⟨2, ![64, 16]⟩
abbrev S64x4 : Shape := ⟨2, ![64, 4]⟩
abbrev S1638400x16 : Shape := ⟨2, ![1638400, 16]⟩
abbrev S1638400x4 : Shape := ⟨2, ![1638400, 4]⟩
abbrev S4096x4 : Shape := ⟨2, ![4096, 4]⟩
abbrev S102400x4 : Shape := ⟨2, ![102400, 4]⟩
abbrev S16x1 : Shape := ⟨2, ![16, 1]⟩
abbrev S4x1 : Shape := ⟨2, ![4, 1]⟩

abbrev nBuf : Space → Nat
  | .hbm => 272
  | .vmem => 46
  | .smem => 0
  | _ => 0

abbrev hbmTy0_0 (i : Nat) : BufTy := match i % 128 with
  | 0 => ⟨S102400x60, .f32⟩
  | 1 => ⟨S1638400x1, .f32⟩
  | 2 => ⟨S1638400, .i32⟩
  | 3 => ⟨S1638400, .i32⟩
  | 4 => ⟨S102400, .i32⟩
  | 5 => ⟨S1638400, .i32⟩
  | 6 => ⟨S8x1, .f32⟩
  | 7 => ⟨S8x60, .f32⟩
  | 8 => ⟨S8, .f32⟩
  | 9 => ⟨S16x60, .f32⟩
  | 10 => ⟨S16x8, .f32⟩
  | 11 => ⟨S16, .f32⟩
  | 12 => ⟨S4x8, .f32⟩
  | 13 => ⟨S4x16, .f32⟩
  | 14 => ⟨S4, .f32⟩
  | 15 => ⟨S8x8, .f32⟩
  | 16 => ⟨S8x16, .f32⟩
  | 17 => ⟨S8x4, .f32⟩
  | 18 => ⟨S8, .f32⟩
  | 19 => ⟨S16x16, .f32⟩
  | 20 => ⟨S16x8, .f32⟩
  | 21 => ⟨S16x4, .f32⟩
  | 22 => ⟨S16, .f32⟩
  | 23 => ⟨S4x8, .f32⟩
  | 24 => ⟨S4x16, .f32⟩
  | 25 => ⟨S4x4, .f32⟩
  | 26 => ⟨S4, .f32⟩
  | 27 => ⟨S1x16, .f32⟩
  | 28 => ⟨S1, .f32⟩
  | 29 => ⟨S1x4, .f32⟩
  | 30 => ⟨S1, .f32⟩
  | 31 => ⟨S_, .i32⟩
  | 32 => ⟨S1638400, .i32⟩
  | 33 => ⟨S1638400, .i1⟩
  | 34 => ⟨S_, .i32⟩
  | 35 => ⟨S1638400, .i32⟩
  | 36 => ⟨S1638400, .i32⟩
  | 37 => ⟨S1638400, .i32⟩
  | 38 => ⟨S1638400x1, .i32⟩
  | 39 => ⟨S1, .i32⟩
  | 40 => ⟨S_, .i32⟩
  | 41 => ⟨S1638400x1, .i32⟩
  | 42 => ⟨S1638400x1, .i1⟩
  | 43 => ⟨S1x1, .i32⟩
  | 44 => ⟨S1638400x1, .i32⟩
  | 45 => ⟨S1638400x1, .i1⟩
  | 46 => ⟨S1638400x1, .i1⟩
  | 47 => ⟨S_, .i1⟩
  | 48 => ⟨S1638400, .i1⟩
  | 49 => ⟨S1638400x60, .f32⟩
  | 50 => ⟨S1638400x60, .i1⟩
  | 51 => ⟨S_, .f32⟩
  | 52 => ⟨S1638400x60, .f32⟩
  | 53 => ⟨S1638400x60, .f32⟩
  | 54 => ⟨S1x8, .f32⟩
  | 55 => ⟨S60x8, .f32⟩
  | 56 => ⟨S1x8, .f32⟩
  | 57 => ⟨S1638400x8, .f32⟩
  | 58 => ⟨S_, .f32⟩
  | 59 => ⟨S102400x8, .f32⟩
  | 60 => ⟨S1638400x1, .i32⟩
  | 61 => ⟨S102400x8, .f32⟩
  | 62 => ⟨S_, .f32⟩
  | 63 => ⟨S1638400x1, .f32⟩
  | 64 => ⟨S_, .f32⟩
  | 65 => ⟨S102400x1, .f32⟩
  | 66 => ⟨S1638400x1, .i32⟩
  | 67 => ⟨S102400x1, .f32⟩
  | 68 => ⟨S_, .f32⟩
  | 69 => ⟨S102400x1, .f32⟩
  | 70 => ⟨S102400x1, .f32⟩
  | 71 => ⟨S102400x8, .f32⟩
  | 72 => ⟨S102400x8, .f32⟩
  | 73 => ⟨S60x16, .f32⟩
  | 74 => ⟨S8x16, .f32⟩
  | 75 => ⟨S1x16, .f32⟩
  | 76 => ⟨S102400x16, .f32⟩
  | 77 => ⟨S_, .f32⟩
  | 78 => ⟨S64x8, .f32⟩
  | 79 => ⟨S1638400x1, .i32⟩
  | 80 => ⟨S64x8, .f32⟩
  | 81 => ⟨S_, .f32⟩
  | 82 => ⟨S1638400x1, .f32⟩
  | 83 => ⟨S_, .f32⟩
  | 84 => ⟨S64x1, .f32⟩
  | 85 => ⟨S1638400x1, .i32⟩
  | 86 => ⟨S64x1, .f32⟩
  | 87 => ⟨S_, .f32⟩
  | 88 => ⟨S64x1, .f32⟩
  | 89 => ⟨S64x1, .f32⟩
  | 90 => ⟨S64x8, .f32⟩
  | 91 => ⟨S64x8, .f32⟩
  | 92 => ⟨S_, .f32⟩
  | 93 => ⟨S64x16, .f32⟩
  | 94 => ⟨S102400x1, .i32⟩
  | 95 => ⟨S64x16, .f32⟩
  | 96 => ⟨S_, .f32⟩
  | 97 => ⟨S102400x1, .f32⟩
  | 98 => ⟨S_, .f32⟩
  | 99 => ⟨S64x1, .f32⟩
  | 100 => ⟨S102400x1, .i32⟩
  | 101 => ⟨S64x1, .f32⟩
  | 102 => ⟨S_, .f32⟩
  | 103 => ⟨S64x1, .f32⟩
  | 104 => ⟨S64x1, .f32⟩
  | 105 => ⟨S64x16, .f32⟩
  | 106 => ⟨S64x16, .f32⟩
  | 107 => ⟨S8x4, .f32⟩
  | 108 => ⟨S64x4, .f32⟩
  | 109 => ⟨S16x4, .f32⟩
  | 110 => ⟨S64x4, .f32⟩
  | 111 => ⟨S64x4, .f32⟩
  | 112 => ⟨S1x4, .f32⟩
  | 113 => ⟨S64x4, .f32⟩
  | 114 => ⟨S64x4, .f32⟩
  | 115 => ⟨S_, .f32⟩
  | 116 => ⟨S64x4, .f32⟩
  | 117 => ⟨S64x4, .f32⟩
  | 118 => ⟨S_, .i32⟩
  | 119 => ⟨S1638400, .i32⟩
  | 120 => ⟨S1638400, .i1⟩
  | 121 => ⟨S_, .i32⟩
  | 122 => ⟨S1638400, .i32⟩
  | 123 => ⟨S1638400, .i32⟩
  | 124 => ⟨S1638400, .i32⟩
  | 125 => ⟨S1638400x1, .i32⟩
  | 126 => ⟨S1, .i32⟩
  | 127 => ⟨S_, .i32⟩
  | _ => ⟨S102400x60, .f32⟩

abbrev hbmTy0_1 (i : Nat) : BufTy := match i % 128 with
  | 0 => ⟨S1638400x1, .i32⟩
  | 1 => ⟨S1638400x1, .i1⟩
  | 2 => ⟨S1x1, .i32⟩
  | 3 => ⟨S1638400x1, .i32⟩
  | 4 => ⟨S1638400x1, .i1⟩
  | 5 => ⟨S1638400x1, .i1⟩
  | 6 => ⟨S_, .i1⟩
  | 7 => ⟨S1638400, .i1⟩
  | 8 => ⟨S1638400x16, .f32⟩
  | 9 => ⟨S1638400x16, .i1⟩
  | 10 => ⟨S_, .f32⟩
  | 11 => ⟨S1638400x16, .f32⟩
  | 12 => ⟨S1638400x16, .f32⟩
  | 13 => ⟨S_, .i32⟩
  | 14 => ⟨S1638400, .i32⟩
  | 15 => ⟨S1638400, .i1⟩
  | 16 => ⟨S_, .i32⟩
  | 17 => ⟨S1638400, .i32⟩
  | 18 => ⟨S1638400, .i32⟩
  | 19 => ⟨S1638400, .i32⟩
  | 20 => ⟨S1638400x1, .i32⟩
  | 21 => ⟨S1, .i32⟩
  | 22 => ⟨S_, .i32⟩
  | 23 => ⟨S1638400x1, .i32⟩
  | 24 => ⟨S1638400x1, .i1⟩
  | 25 => ⟨S1x1, .i32⟩
  | 26 => ⟨S1638400x1, .i32⟩
  | 27 => ⟨S1638400x1, .i1⟩
  | 28 => ⟨S1638400x1, .i1⟩
  | 29 => ⟨S_, .i1⟩
  | 30 => ⟨S1638400, .i1⟩
  | 31 => ⟨S1638400x4, .f32⟩
  | 32 => ⟨S1638400x4, .i1⟩
  | 33 => ⟨S_, .f32⟩
  | 34 => ⟨S1638400x4, .f32⟩
  | 35 => ⟨S1638400x4, .f32⟩
  | 36 => ⟨S8x8, .f32⟩
  | 37 => ⟨S16x8, .f32⟩
  | 38 => ⟨S4x8, .f32⟩
  | 39 => ⟨S1x8, .f32⟩
  | 40 => ⟨S1638400x8, .f32⟩
  | 41 => ⟨S_, .f32⟩
  | 42 => ⟨S102400x8, .f32⟩
  | 43 => ⟨S1638400x1, .i32⟩
  | 44 => ⟨S102400x8, .f32⟩
  | 45 => ⟨S_, .f32⟩
  | 46 => ⟨S1638400x1, .f32⟩
  | 47 => ⟨S_, .f32⟩
  | 48 => ⟨S102400x1, .f32⟩
  | 49 => ⟨S1638400x1, .i32⟩
  | 50 => ⟨S102400x1, .f32⟩
  | 51 => ⟨S_, .f32⟩
  | 52 => ⟨S102400x1, .f32⟩
  | 53 => ⟨S102400x1, .f32⟩
  | 54 => ⟨S102400x8, .f32⟩
  | 55 => ⟨S102400x8, .f32⟩
  | 56 => ⟨S_, .i32⟩
  | 57 => ⟨S102400, .i32⟩
  | 58 => ⟨S102400, .i1⟩
  | 59 => ⟨S_, .i32⟩
  | 60 => ⟨S102400, .i32⟩
  | 61 => ⟨S102400, .i32⟩
  | 62 => ⟨S102400, .i32⟩
  | 63 => ⟨S102400x1, .i32⟩
  | 64 => ⟨S1, .i32⟩
  | 65 => ⟨S_, .i32⟩
  | 66 => ⟨S102400x1, .i32⟩
  | 67 => ⟨S102400x1, .i1⟩
  | 68 => ⟨S1x1, .i32⟩
  | 69 => ⟨S102400x1, .i32⟩
  | 70 => ⟨S102400x1, .i1⟩
  | 71 => ⟨S102400x1, .i1⟩
  | 72 => ⟨S_, .i1⟩
  | 73 => ⟨S102400, .i1⟩
  | 74 => ⟨S102400x4, .f32⟩
  | 75 => ⟨S102400x4, .i1⟩
  | 76 => ⟨S_, .f32⟩
  | 77 => ⟨S102400x4, .f32⟩
  | 78 => ⟨S102400x4, .f32⟩
  | 79 => ⟨S16x16, .f32⟩
  | 80 => ⟨S8x16, .f32⟩
  | 81 => ⟨S4x16, .f32⟩
  | 82 => ⟨S16x1, .f32⟩
  | 83 => ⟨S1x16, .f32⟩
  | 84 => ⟨S1x1, .f32⟩
  | 85 => ⟨S102400x16, .f32⟩
  | 86 => ⟨S102400x1, .f32⟩
  | 87 => ⟨S_, .f32⟩
  | 88 => ⟨S64x8, .f32⟩
  | 89 => ⟨S1638400x1, .i32⟩
  | 90 => ⟨S64x8, .f32⟩
  | 91 => ⟨S_, .f32⟩
  | 92 => ⟨S1638400x1, .f32⟩
  | 93 => ⟨S_, .f32⟩
  | 94 => ⟨S64x1, .f32⟩
  | 95 => ⟨S1638400x1, .i32⟩
  | 96 => ⟨S64x1, .f32⟩
  | 97 => ⟨S_, .f32⟩
  | 98 => ⟨S64x1, .f32⟩
  | 99 => ⟨S64x1, .f32⟩
  | 100 => ⟨S64x8, .f32⟩
  | 101 => ⟨S64x8, .f32⟩
  | 102 => ⟨S_, .f32⟩
  | 103 => ⟨S64x16, .f32⟩
  | 104 => ⟨S102400x1, .i32⟩
  | 105 => ⟨S64x16, .f32⟩
  | 106 => ⟨S_, .f32⟩
  | 107 => ⟨S102400x1, .f32⟩
  | 108 => ⟨S_, .f32⟩
  | 109 => ⟨S64x1, .f32⟩
  | 110 => ⟨S102400x1, .i32⟩
  | 111 => ⟨S64x1, .f32⟩
  | 112 => ⟨S_, .f32⟩
  | 113 => ⟨S64x1, .f32⟩
  | 114 => ⟨S64x1, .f32⟩
  | 115 => ⟨S64x16, .f32⟩
  | 116 => ⟨S64x16, .f32⟩
  | 117 => ⟨S8x4, .f32⟩
  | 118 => ⟨S64x4, .f32⟩
  | 119 => ⟨S16x4, .f32⟩
  | 120 => ⟨S64x4, .f32⟩
  | 121 => ⟨S64x4, .f32⟩
  | 122 => ⟨S4x4, .f32⟩
  | 123 => ⟨S64x4, .f32⟩
  | 124 => ⟨S64x4, .f32⟩
  | 125 => ⟨S1x4, .f32⟩
  | 126 => ⟨S64x4, .f32⟩
  | 127 => ⟨S64x4, .f32⟩
  | _ => ⟨S102400x60, .f32⟩

abbrev hbmTy0_2 (i : Nat) : BufTy := match i % 128 with
  | 0 => ⟨S_, .f32⟩
  | 1 => ⟨S64x4, .f32⟩
  | 2 => ⟨S64x4, .f32⟩
  | 3 => ⟨S4x1, .f32⟩
  | 4 => ⟨S64x1, .f32⟩
  | 5 => ⟨S1x1, .f32⟩
  | 6 => ⟨S64x1, .f32⟩
  | 7 => ⟨S64x1, .f32⟩
  | 8 => ⟨S64x1, .f32⟩
  | 9 => ⟨S64x1, .f32⟩
  | 10 => ⟨S_, .f32⟩
  | 11 => ⟨S64x1, .f32⟩
  | 12 => ⟨S64x1, .f32⟩
  | 13 => ⟨S_, .f32⟩
  | 14 => ⟨S64x1, .f32⟩
  | 15 => ⟨S64x1, .f32⟩
  | _ => ⟨S102400x60, .f32⟩

abbrev hbmTy (i : Nat) : BufTy := match i / 128 with
  | 0 => hbmTy0_0 i
  | 1 => hbmTy0_1 i
  | 2 => hbmTy0_2 i
  | _ => ⟨S102400x60, .f32⟩

abbrev bufTy : (tb : Table) → Fin (tcTables nBuf tb) → BufTy
  | .hbm, ⟨i, _⟩ => hbmTy i
  | .local _ .vmem, ⟨0, _⟩ => ⟨S4096x1, .f32⟩
  | .local _ .vmem, ⟨1, _⟩ => ⟨S4096x1, .f32⟩
  | .local _ .vmem, ⟨2, _⟩ => ⟨S4096x60, .f32⟩
  | .local _ .vmem, ⟨3, _⟩ => ⟨S4096x60, .f32⟩
  | .local _ .vmem, ⟨4, _⟩ => ⟨S1x8, .f32⟩
  | .local _ .vmem, ⟨5, _⟩ => ⟨S60x8, .f32⟩
  | .local _ .vmem, ⟨6, _⟩ => ⟨S1x8, .f32⟩
  | .local _ .vmem, ⟨7, _⟩ => ⟨S4096x8, .f32⟩
  | .local _ .vmem, ⟨8, _⟩ => ⟨S4096x8, .f32⟩
  | .local _ .vmem, ⟨9, _⟩ => ⟨S4096x60, .f32⟩
  | .local _ .vmem, ⟨10, _⟩ => ⟨S4096x60, .f32⟩
  | .local _ .vmem, ⟨11, _⟩ => ⟨S4096x8, .f32⟩
  | .local _ .vmem, ⟨12, _⟩ => ⟨S4096x8, .f32⟩
  | .local _ .vmem, ⟨13, _⟩ => ⟨S60x16, .f32⟩
  | .local _ .vmem, ⟨14, _⟩ => ⟨S8x16, .f32⟩
  | .local _ .vmem, ⟨15, _⟩ => ⟨S1x16, .f32⟩
  | .local _ .vmem, ⟨16, _⟩ => ⟨S4096x16, .f32⟩
  | .local _ .vmem, ⟨17, _⟩ => ⟨S4096x16, .f32⟩
  | .local _ .vmem, ⟨18, _⟩ => ⟨S4096x8, .f32⟩
  | .local _ .vmem, ⟨19, _⟩ => ⟨S4096x8, .f32⟩
  | .local _ .vmem, ⟨20, _⟩ => ⟨S4096x16, .f32⟩
  | .local _ .vmem, ⟨21, _⟩ => ⟨S4096x16, .f32⟩
  | .local _ .vmem, ⟨22, _⟩ => ⟨S4096x4, .f32⟩
  | .local _ .vmem, ⟨23, _⟩ => ⟨S4096x4, .f32⟩
  | .local _ .vmem, ⟨24, _⟩ => ⟨S8x8, .f32⟩
  | .local _ .vmem, ⟨25, _⟩ => ⟨S16x8, .f32⟩
  | .local _ .vmem, ⟨26, _⟩ => ⟨S4x8, .f32⟩
  | .local _ .vmem, ⟨27, _⟩ => ⟨S1x8, .f32⟩
  | .local _ .vmem, ⟨28, _⟩ => ⟨S4096x8, .f32⟩
  | .local _ .vmem, ⟨29, _⟩ => ⟨S4096x8, .f32⟩
  | .local _ .vmem, ⟨30, _⟩ => ⟨S4096x16, .f32⟩
  | .local _ .vmem, ⟨31, _⟩ => ⟨S4096x16, .f32⟩
  | .local _ .vmem, ⟨32, _⟩ => ⟨S4096x8, .f32⟩
  | .local _ .vmem, ⟨33, _⟩ => ⟨S4096x8, .f32⟩
  | .local _ .vmem, ⟨34, _⟩ => ⟨S4096x4, .f32⟩
  | .local _ .vmem, ⟨35, _⟩ => ⟨S4096x4, .f32⟩
  | .local _ .vmem, ⟨36, _⟩ => ⟨S16x16, .f32⟩
  | .local _ .vmem, ⟨37, _⟩ => ⟨S8x16, .f32⟩
  | .local _ .vmem, ⟨38, _⟩ => ⟨S4x16, .f32⟩
  | .local _ .vmem, ⟨39, _⟩ => ⟨S1x16, .f32⟩
  | .local _ .vmem, ⟨40, _⟩ => ⟨S16x1, .f32⟩
  | .local _ .vmem, ⟨41, _⟩ => ⟨S1x1, .f32⟩
  | .local _ .vmem, ⟨42, _⟩ => ⟨S4096x16, .f32⟩
  | .local _ .vmem, ⟨43, _⟩ => ⟨S4096x16, .f32⟩
  | .local _ .vmem, ⟨44, _⟩ => ⟨S4096x1, .f32⟩
  | .local _ .vmem, ⟨45, _⟩ => ⟨S4096x1, .f32⟩
  | _, _ => ⟨S102400x60, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v0 : Ref sig .tc := ⟨.hbm, 53, rfl⟩
abbrev main_v1 : Ref sig .tc := ⟨.hbm, 54, rfl⟩
abbrev main_v2 : Ref sig .tc := ⟨.hbm, 55, rfl⟩
abbrev main_v3 : Ref sig .tc := ⟨.hbm, 56, rfl⟩
abbrev main_v4 : Ref sig .tc := ⟨.hbm, 57, rfl⟩
abbrev main_cst : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_cst_0 : Ref sig .tc := ⟨.hbm, 62, rfl⟩
abbrev main_v8 : Ref sig .tc := ⟨.hbm, 63, rfl⟩
abbrev main_cst_1 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_cst_2 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_cst_3 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_cst_4 : Ref sig .tc := ⟨.hbm, 81, rfl⟩
abbrev main_v23 : Ref sig .tc := ⟨.hbm, 82, rfl⟩
abbrev main_cst_5 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_cst_6 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_cst_7 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_cst_8 : Ref sig .tc := ⟨.hbm, 96, rfl⟩
abbrev main_v34 : Ref sig .tc := ⟨.hbm, 97, rfl⟩
abbrev main_cst_9 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_cst_10 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_call1_cst : Ref sig .tc := ⟨.hbm, 115, rfl⟩
abbrev main_call1_v0 : Ref sig .tc := ⟨.hbm, 116, rfl⟩
abbrev main_v50 : Ref sig .tc := ⟨.hbm, 117, rfl⟩
abbrev main_call2_c : Ref sig .tc := ⟨.hbm, 118, rfl⟩
abbrev main_call2_v0 : Ref sig .tc := ⟨.hbm, 119, rfl⟩
abbrev main_call2_v1 : Ref sig .tc := ⟨.hbm, 120, rfl⟩
abbrev main_call2_c_0 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_c_1 : Ref sig .tc := ⟨.hbm, 126, rfl⟩
abbrev main_call2_c_2 : Ref sig .tc := ⟨.hbm, 127, rfl⟩
abbrev main_call2_v6 : Ref sig .tc := ⟨.hbm, 128, rfl⟩
abbrev main_call2_v7 : Ref sig .tc := ⟨.hbm, 129, rfl⟩
abbrev main_call2_v8 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_call2_c_3 : Ref sig .tc := ⟨.hbm, 134, rfl⟩
abbrev main_call2_v12 : Ref sig .tc := ⟨.hbm, 135, rfl⟩
abbrev main_call2_v13 : Ref sig .tc := ⟨.hbm, 136, rfl⟩
abbrev main_call2_v14 : Ref sig .tc := ⟨.hbm, 137, rfl⟩
abbrev main_call2_cst : Ref sig .tc := ⟨.hbm, 138, rfl⟩
abbrev main_call2_v15 : Ref sig .tc := ⟨.hbm, 139, rfl⟩
abbrev main_v51 : Ref sig .tc := ⟨.hbm, 140, rfl⟩
abbrev main_call3_c : Ref sig .tc := ⟨.hbm, 141, rfl⟩
abbrev main_call3_v0 : Ref sig .tc := ⟨.hbm, 142, rfl⟩
abbrev main_call3_v1 : Ref sig .tc := ⟨.hbm, 143, rfl⟩
abbrev main_call3_c_0 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_call3_v5 : Ref sig .tc := ⟨.hbm, 148, rfl⟩
abbrev main_call3_c_1 : Ref sig .tc := ⟨.hbm, 149, rfl⟩
abbrev main_call3_c_2 : Ref sig .tc := ⟨.hbm, 150, rfl⟩
abbrev main_call3_v6 : Ref sig .tc := ⟨.hbm, 151, rfl⟩
abbrev main_call3_v7 : Ref sig .tc := ⟨.hbm, 152, rfl⟩
abbrev main_call3_v8 : Ref sig .tc := ⟨.hbm, 153, rfl⟩
abbrev main_call3_v9 : Ref sig .tc := ⟨.hbm, 154, rfl⟩
abbrev main_call3_v10 : Ref sig .tc := ⟨.hbm, 155, rfl⟩
abbrev main_call3_v11 : Ref sig .tc := ⟨.hbm, 156, rfl⟩
abbrev main_call3_c_3 : Ref sig .tc := ⟨.hbm, 157, rfl⟩
abbrev main_call3_v12 : Ref sig .tc := ⟨.hbm, 158, rfl⟩
abbrev main_call3_v13 : Ref sig .tc := ⟨.hbm, 159, rfl⟩
abbrev main_call3_v14 : Ref sig .tc := ⟨.hbm, 160, rfl⟩
abbrev main_call3_cst : Ref sig .tc := ⟨.hbm, 161, rfl⟩
abbrev main_call3_v15 : Ref sig .tc := ⟨.hbm, 162, rfl⟩
abbrev main_v52 : Ref sig .tc := ⟨.hbm, 163, rfl⟩
abbrev main_v53 : Ref sig .tc := ⟨.hbm, 164, rfl⟩
abbrev main_v54 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev main_cst_11 : Ref sig .tc := ⟨.hbm, 169, rfl⟩
abbrev main_v58 : Ref sig .tc := ⟨.hbm, 170, rfl⟩
abbrev main_v59 : Ref sig .tc := ⟨.hbm, 171, rfl⟩
abbrev main_v60 : Ref sig .tc := ⟨.hbm, 172, rfl⟩
abbrev main_cst_12 : Ref sig .tc := ⟨.hbm, 173, rfl⟩
abbrev main_v61 : Ref sig .tc := ⟨.hbm, 174, rfl⟩
abbrev main_cst_13 : Ref sig .tc := ⟨.hbm, 175, rfl⟩
abbrev main_v62 : Ref sig .tc := ⟨.hbm, 176, rfl⟩
abbrev main_v63 : Ref sig .tc := ⟨.hbm, 177, rfl⟩
abbrev main_v64 : Ref sig .tc := ⟨.hbm, 178, rfl⟩
abbrev main_cst_14 : Ref sig .tc := ⟨.hbm, 179, rfl⟩
abbrev main_v65 : Ref sig .tc := ⟨.hbm, 180, rfl⟩
abbrev main_v66 : Ref sig .tc := ⟨.hbm, 181, rfl⟩
abbrev main_v67 : Ref sig .tc := ⟨.hbm, 182, rfl⟩
abbrev main_v68 : Ref sig .tc := ⟨.hbm, 183, rfl⟩
abbrev main_call4_c : Ref sig .tc := ⟨.hbm, 184, rfl⟩
abbrev main_call4_v0 : Ref sig .tc := ⟨.hbm, 185, rfl⟩
abbrev main_call4_v1 : Ref sig .tc := ⟨.hbm, 186, rfl⟩
abbrev main_call4_c_0 : Ref sig .tc := ⟨.hbm, 187, rfl⟩
abbrev main_call4_v2 : Ref sig .tc := ⟨.hbm, 188, rfl⟩
abbrev main_call4_v3 : Ref sig .tc := ⟨.hbm, 189, rfl⟩
abbrev main_call4_v4 : Ref sig .tc := ⟨.hbm, 190, rfl⟩
abbrev main_call4_v5 : Ref sig .tc := ⟨.hbm, 191, rfl⟩
abbrev main_call4_c_1 : Ref sig .tc := ⟨.hbm, 192, rfl⟩
abbrev main_call4_c_2 : Ref sig .tc := ⟨.hbm, 193, rfl⟩
abbrev main_call4_v6 : Ref sig .tc := ⟨.hbm, 194, rfl⟩
abbrev main_call4_v7 : Ref sig .tc := ⟨.hbm, 195, rfl⟩
abbrev main_call4_v8 : Ref sig .tc := ⟨.hbm, 196, rfl⟩
abbrev main_call4_v9 : Ref sig .tc := ⟨.hbm, 197, rfl⟩
abbrev main_call4_v10 : Ref sig .tc := ⟨.hbm, 198, rfl⟩
abbrev main_call4_v11 : Ref sig .tc := ⟨.hbm, 199, rfl⟩
abbrev main_call4_c_3 : Ref sig .tc := ⟨.hbm, 200, rfl⟩
abbrev main_call4_v12 : Ref sig .tc := ⟨.hbm, 201, rfl⟩
abbrev main_call4_v13 : Ref sig .tc := ⟨.hbm, 202, rfl⟩
abbrev main_call4_v14 : Ref sig .tc := ⟨.hbm, 203, rfl⟩
abbrev main_call4_cst : Ref sig .tc := ⟨.hbm, 204, rfl⟩
abbrev main_call4_v15 : Ref sig .tc := ⟨.hbm, 205, rfl⟩
abbrev main_v69 : Ref sig .tc := ⟨.hbm, 206, rfl⟩
abbrev main_v70 : Ref sig .tc := ⟨.hbm, 207, rfl⟩
abbrev main_v71 : Ref sig .tc := ⟨.hbm, 208, rfl⟩
abbrev main_v72 : Ref sig .tc := ⟨.hbm, 209, rfl⟩
abbrev main_v73 : Ref sig .tc := ⟨.hbm, 210, rfl⟩
abbrev main_v74 : Ref sig .tc := ⟨.hbm, 211, rfl⟩
abbrev main_v75 : Ref sig .tc := ⟨.hbm, 212, rfl⟩
abbrev main_v76_0 : Ref sig .tc := ⟨.hbm, 213, rfl⟩
abbrev main_v76_1 : Ref sig .tc := ⟨.hbm, 214, rfl⟩
abbrev main_cst_15 : Ref sig .tc := ⟨.hbm, 215, rfl⟩
abbrev main_v77 : Ref sig .tc := ⟨.hbm, 216, rfl⟩
abbrev main_v78 : Ref sig .tc := ⟨.hbm, 217, rfl⟩
abbrev main_v79 : Ref sig .tc := ⟨.hbm, 218, rfl⟩
abbrev main_cst_16 : Ref sig .tc := ⟨.hbm, 219, rfl⟩
abbrev main_v80 : Ref sig .tc := ⟨.hbm, 220, rfl⟩
abbrev main_cst_17 : Ref sig .tc := ⟨.hbm, 221, rfl⟩
abbrev main_v81 : Ref sig .tc := ⟨.hbm, 222, rfl⟩
abbrev main_v82 : Ref sig .tc := ⟨.hbm, 223, rfl⟩
abbrev main_v83 : Ref sig .tc := ⟨.hbm, 224, rfl⟩
abbrev main_cst_18 : Ref sig .tc := ⟨.hbm, 225, rfl⟩
abbrev main_v84 : Ref sig .tc := ⟨.hbm, 226, rfl⟩
abbrev main_v85 : Ref sig .tc := ⟨.hbm, 227, rfl⟩
abbrev main_v86 : Ref sig .tc := ⟨.hbm, 228, rfl⟩
abbrev main_v87 : Ref sig .tc := ⟨.hbm, 229, rfl⟩
abbrev main_cst_19 : Ref sig .tc := ⟨.hbm, 230, rfl⟩
abbrev main_v88 : Ref sig .tc := ⟨.hbm, 231, rfl⟩
abbrev main_v89 : Ref sig .tc := ⟨.hbm, 232, rfl⟩
abbrev main_v90 : Ref sig .tc := ⟨.hbm, 233, rfl⟩
abbrev main_cst_20 : Ref sig .tc := ⟨.hbm, 234, rfl⟩
abbrev main_v91 : Ref sig .tc := ⟨.hbm, 235, rfl⟩
abbrev main_cst_21 : Ref sig .tc := ⟨.hbm, 236, rfl⟩
abbrev main_v92 : Ref sig .tc := ⟨.hbm, 237, rfl⟩
abbrev main_v93 : Ref sig .tc := ⟨.hbm, 238, rfl⟩
abbrev main_v94 : Ref sig .tc := ⟨.hbm, 239, rfl⟩
abbrev main_cst_22 : Ref sig .tc := ⟨.hbm, 240, rfl⟩
abbrev main_v95 : Ref sig .tc := ⟨.hbm, 241, rfl⟩
abbrev main_v96 : Ref sig .tc := ⟨.hbm, 242, rfl⟩
abbrev main_v97 : Ref sig .tc := ⟨.hbm, 243, rfl⟩
abbrev main_v98 : Ref sig .tc := ⟨.hbm, 244, rfl⟩
abbrev main_v99 : Ref sig .tc := ⟨.hbm, 245, rfl⟩
abbrev main_v100 : Ref sig .tc := ⟨.hbm, 246, rfl⟩
abbrev main_v101 : Ref sig .tc := ⟨.hbm, 247, rfl⟩
abbrev main_v102 : Ref sig .tc := ⟨.hbm, 248, rfl⟩
abbrev main_v103 : Ref sig .tc := ⟨.hbm, 249, rfl⟩
abbrev main_v104 : Ref sig .tc := ⟨.hbm, 250, rfl⟩
abbrev main_v105 : Ref sig .tc := ⟨.hbm, 251, rfl⟩
abbrev main_v106 : Ref sig .tc := ⟨.hbm, 252, rfl⟩
abbrev main_v107 : Ref sig .tc := ⟨.hbm, 253, rfl⟩
abbrev main_v108 : Ref sig .tc := ⟨.hbm, 254, rfl⟩
abbrev main_v109 : Ref sig .tc := ⟨.hbm, 255, rfl⟩
abbrev main_call5_cst : Ref sig .tc := ⟨.hbm, 256, rfl⟩
abbrev main_call5_v0 : Ref sig .tc := ⟨.hbm, 257, rfl⟩
abbrev main_v110 : Ref sig .tc := ⟨.hbm, 258, rfl⟩
abbrev main_v111 : Ref sig .tc := ⟨.hbm, 259, rfl⟩
abbrev main_v112 : Ref sig .tc := ⟨.hbm, 260, rfl⟩
abbrev main_v113 : Ref sig .tc := ⟨.hbm, 261, rfl⟩
abbrev main_v114 : Ref sig .tc := ⟨.hbm, 262, rfl⟩
abbrev main_v115 : Ref sig .tc := ⟨.hbm, 263, rfl⟩
abbrev main_v116 : Ref sig .tc := ⟨.hbm, 264, rfl⟩
abbrev main_v117 : Ref sig .tc := ⟨.hbm, 265, rfl⟩
abbrev main_cst_23 : Ref sig .tc := ⟨.hbm, 266, rfl⟩
abbrev main_v118 : Ref sig .tc := ⟨.hbm, 267, rfl⟩
abbrev main_v119 : Ref sig .tc := ⟨.hbm, 268, rfl⟩
abbrev main_cst_24 : Ref sig .tc := ⟨.hbm, 269, rfl⟩
abbrev main_v120 : Ref sig .tc := ⟨.hbm, 270, rfl⟩
abbrev main_v121 : Ref sig .tc := ⟨.hbm, 271, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg8_0 : Ref sig .tc := ⟨.vmem, 41, rfl⟩
abbrev cc3_stg9_0 : Ref sig .tc := ⟨.vmem, 42, rfl⟩
abbrev cc3_stg9_1 : Ref sig .tc := ⟨.vmem, 43, rfl⟩
abbrev cc3_stg10_0 : Ref sig .tc := ⟨.vmem, 44, rfl⟩
abbrev cc3_stg10_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem8_0 : DmaSem sig := 41
abbrev cc3_sem9_0 : DmaSem sig := 42
abbrev cc3_sem9_1 : DmaSem sig := 43
abbrev cc3_sem10_0 : DmaSem sig := 44
abbrev cc3_sem10_1 : DmaSem sig := 45

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x60 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S60x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x60 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S60x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S8x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x8 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4096x8 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x8 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x4 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S4x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x16 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S16x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S4096x16 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S4096x1 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  bcast_S_S1638400 : S_.BroadcastsInDim S1638400 (![] : Fin 0 → Fin S1638400.rank)
  bcast_S1638400_S1638400x1_0 : S1638400.BroadcastsInDim S1638400x1 (![0] : Fin 1 → Fin S1638400x1.rank)
  bcast_S_S1638400x1 : S_.BroadcastsInDim S1638400x1 (![] : Fin 0 → Fin S1638400x1.rank)
  bcast_S1_S1x1_1 : S1.BroadcastsInDim S1x1 (![1] : Fin 1 → Fin S1x1.rank)
  bcast_S1x1_S1638400x1_0_1 : S1x1.BroadcastsInDim S1638400x1 (![0, 1] : Fin 2 → Fin S1638400x1.rank)
  reducesTo_S1638400x1_S1638400_d1 : S1638400x1.ReducesTo [1] S1638400
  h_S_ : 0 < S_.numel
  bcast_S1638400_S1638400x60_0 : S1638400.BroadcastsInDim S1638400x60 (![0] : Fin 1 → Fin S1638400x60.rank)
  bcast_S_S1638400x60 : S_.BroadcastsInDim S1638400x60 (![] : Fin 0 → Fin S1638400x60.rank)
  transposes_S8x1_S1x8_1_0 : S8x1.Transposes [1, 0] S1x8
  transposes_S8x60_S60x8_1_0 : S8x60.Transposes [1, 0] S60x8
  shapeCasts_S8_S1x8 : S8.ShapeCasts S1x8
  inb_S4096x1_S4096x1_0_0 : ∀ a, (![0, 0] : Fin 2 → Nat) a + S4096x1.size a ≤ S4096x1.size a
  h_S4096x1 : 0 < S4096x1.numel
  bitsLt_bf16_f32 : FTy.bits .bf16 < FTy.bits .f32
  inb_S4096x60_S4096x60_0_0 : ∀ a, (![0, 0] : Fin 2 → Nat) a + S4096x60.size a ≤ S4096x60.size a
  h_S4096x60 : 0 < S4096x60.numel
  shapeCasts_S4096x60_S4096x60 : S4096x60.ShapeCasts S4096x60
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S60x8_S60x8_0_0 : ∀ a, (![0, 0] : Fin 2 → Nat) a + S60x8.size a ≤ S60x8.size a
  h_S60x8 : 0 < S60x8.numel
  shapeCasts_S60x8_S60x8 : S60x8.ShapeCasts S60x8
  broadcasts_S1x8_S4096x8 : S1x8.Broadcasts S4096x8
  inb_S4096x8_S4096x8_0_0 : ∀ a, (![0, 0] : Fin 2 → Nat) a + S4096x8.size a ≤ S4096x8.size a
  h_S4096x8 : 0 < S4096x8.numel
  bcast_S_S102400x8 : S_.BroadcastsInDim S102400x8 (![] : Fin 0 → Fin S102400x8.rank)
  bcast_S_S102400x1 : S_.BroadcastsInDim S102400x1 (![] : Fin 0 → Fin S102400x1.rank)
  bcast_S102400x1_S102400x8_0_1 : S102400x1.BroadcastsInDim S102400x8 (![0, 1] : Fin 2 → Fin S102400x8.rank)
  transposes_S16x60_S60x16_1_0 : S16x60.Transposes [1, 0] S60x16
  transposes_S16x8_S8x16_1_0 : S16x8.Transposes [1, 0] S8x16
  shapeCasts_S16_S1x16 : S16.ShapeCasts S1x16
  shapeCasts_S4096x8_S4096x8 : S4096x8.ShapeCasts S4096x8
  inb_S60x16_S60x16_0_0 : ∀ a, (![0, 0] : Fin 2 → Nat) a + S60x16.size a ≤ S60x16.size a
  h_S60x16 : 0 < S60x16.numel
  shapeCasts_S60x16_S60x16 : S60x16.ShapeCasts S60x16
  inb_S8x16_S8x16_0_0 : ∀ a, (![0, 0] : Fin 2 → Nat) a + S8x16.size a ≤ S8x16.size a
  h_S8x16 : 0 < S8x16.numel
  shapeCasts_S8x16_S8x16 : S8x16.ShapeCasts S8x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S4096x16_S4096x16_0_0 : ∀ a, (![0, 0] : Fin 2 → Nat) a + S4096x16.size a ≤ S4096x16.size a
  h_S4096x16 : 0 < S4096x16.numel
  bcast_S_S64x8 : S_.BroadcastsInDim S64x8 (![] : Fin 0 → Fin S64x8.rank)
  bcast_S_S64x1 : S_.BroadcastsInDim S64x1 (![] : Fin 0 → Fin S64x1.rank)
  bcast_S64x1_S64x8_0_1 : S64x1.BroadcastsInDim S64x8 (![0, 1] : Fin 2 → Fin S64x8.rank)
  bcast_S_S64x16 : S_.BroadcastsInDim S64x16 (![] : Fin 0 → Fin S64x16.rank)
  bcast_S102400_S102400x1_0 : S102400.BroadcastsInDim S102400x1 (![0] : Fin 1 → Fin S102400x1.rank)
  bcast_S64x1_S64x16_0_1 : S64x1.BroadcastsInDim S64x16 (![0, 1] : Fin 2 → Fin S64x16.rank)
  transposes_S4x8_S8x4_1_0 : S4x8.Transposes [1, 0] S8x4
  transposes_S4x16_S16x4_1_0 : S4x16.Transposes [1, 0] S16x4
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  bcast_S_S64x4 : S_.BroadcastsInDim S64x4 (![] : Fin 0 → Fin S64x4.rank)
  bcast_S1638400_S1638400x16_0 : S1638400.BroadcastsInDim S1638400x16 (![0] : Fin 1 → Fin S1638400x16.rank)
  bcast_S_S1638400x16 : S_.BroadcastsInDim S1638400x16 (![] : Fin 0 → Fin S1638400x16.rank)
  bcast_S1638400_S1638400x4_0 : S1638400.BroadcastsInDim S1638400x4 (![0] : Fin 1 → Fin S1638400x4.rank)
  bcast_S_S1638400x4 : S_.BroadcastsInDim S1638400x4 (![] : Fin 0 → Fin S1638400x4.rank)
  transposes_S8x8_S8x8_1_0 : S8x8.Transposes [1, 0] S8x8
  transposes_S8x16_S16x8_1_0 : S8x16.Transposes [1, 0] S16x8
  transposes_S8x4_S4x8_1_0 : S8x4.Transposes [1, 0] S4x8
  shapeCasts_S4096x16_S4096x16 : S4096x16.ShapeCasts S4096x16
  inb_S4096x4_S4096x4_0_0 : ∀ a, (![0, 0] : Fin 2 → Nat) a + S4096x4.size a ≤ S4096x4.size a
  h_S4096x4 : 0 < S4096x4.numel
  shapeCasts_S4096x4_S4096x4 : S4096x4.ShapeCasts S4096x4
  inb_S8x8_S8x8_0_0 : ∀ a, (![0, 0] : Fin 2 → Nat) a + S8x8.size a ≤ S8x8.size a
  h_S8x8 : 0 < S8x8.numel
  shapeCasts_S8x8_S8x8 : S8x8.ShapeCasts S8x8
  inb_S16x8_S16x8_0_0 : ∀ a, (![0, 0] : Fin 2 → Nat) a + S16x8.size a ≤ S16x8.size a
  h_S16x8 : 0 < S16x8.numel
  shapeCasts_S16x8_S16x8 : S16x8.ShapeCasts S16x8
  inb_S4x8_S4x8_0_0 : ∀ a, (![0, 0] : Fin 2 → Nat) a + S4x8.size a ≤ S4x8.size a
  h_S4x8 : 0 < S4x8.numel
  shapeCasts_S4x8_S4x8 : S4x8.ShapeCasts S4x8
  bcast_S_S102400 : S_.BroadcastsInDim S102400 (![] : Fin 0 → Fin S102400.rank)
  bcast_S1x1_S102400x1_0_1 : S1x1.BroadcastsInDim S102400x1 (![0, 1] : Fin 2 → Fin S102400x1.rank)
  reducesTo_S102400x1_S102400_d1 : S102400x1.ReducesTo [1] S102400
  bcast_S102400_S102400x4_0 : S102400.BroadcastsInDim S102400x4 (![0] : Fin 1 → Fin S102400x4.rank)
  bcast_S_S102400x4 : S_.BroadcastsInDim S102400x4 (![] : Fin 0 → Fin S102400x4.rank)
  transposes_S16x16_S16x16_1_0 : S16x16.Transposes [1, 0] S16x16
  transposes_S16x4_S4x16_1_0 : S16x4.Transposes [1, 0] S4x16
  transposes_S1x16_S16x1_1_0 : S1x16.Transposes [1, 0] S16x1
  shapeCasts_S1_S1x1 : S1.ShapeCasts S1x1
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S4x16_S4x16_0_0 : ∀ a, (![0, 0] : Fin 2 → Nat) a + S4x16.size a ≤ S4x16.size a
  h_S4x16 : 0 < S4x16.numel
  shapeCasts_S4x16_S4x16 : S4x16.ShapeCasts S4x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  transposes_S4x4_S4x4_1_0 : S4x4.Transposes [1, 0] S4x4
  transposes_S1x4_S4x1_1_0 : S1x4.Transposes [1, 0] S4x1
  bcast_S1x1_S64x1_0_1 : S1x1.BroadcastsInDim S64x1 (![0, 1] : Fin 2 → Fin S64x1.rank)
  gather_S102400x60_S1638400x1_S1638400x60_1_0_n_n_0_1_160_wf : GatherDims.WF S102400x60 S1638400x1 S1638400x60 [1] [0] [] [0] [] 1 ![1, 60]
  dot_S4096x1_S1x8_S4096x8_1_0_0_1_n_n_wf : DotDims.WF S4096x1 S1x8 S4096x8 [1] [0] [0] [1] [] []
  dot_S4096x60_S60x8_S4096x8_1_0_0_1_n_n_wf : DotDims.WF S4096x60 S60x8 S4096x8 [1] [0] [0] [1] [] []
  scatter_S102400x8_S1638400x1_S1638400x8_1_0_0_1_wf : ScatterDims.WF S102400x8 S1638400x1 S1638400x8 [1] [0] [0] 1
  scatter_S102400x1_S1638400x1_S1638400x1_1_0_0_1_wf : ScatterDims.WF S102400x1 S1638400x1 S1638400x1 [1] [0] [0] 1
  dot_S4096x60_S60x16_S4096x16_1_0_0_1_n_n_wf : DotDims.WF S4096x60 S60x16 S4096x16 [1] [0] [0] [1] [] []
  dot_S4096x8_S8x16_S4096x16_1_0_0_1_n_n_wf : DotDims.WF S4096x8 S8x16 S4096x16 [1] [0] [0] [1] [] []
  scatter_S64x8_S1638400x1_S1638400x8_1_0_0_1_wf : ScatterDims.WF S64x8 S1638400x1 S1638400x8 [1] [0] [0] 1
  scatter_S64x1_S1638400x1_S1638400x1_1_0_0_1_wf : ScatterDims.WF S64x1 S1638400x1 S1638400x1 [1] [0] [0] 1
  scatter_S64x16_S102400x1_S102400x16_1_0_0_1_wf : ScatterDims.WF S64x16 S102400x1 S102400x16 [1] [0] [0] 1
  scatter_S64x1_S102400x1_S102400x1_1_0_0_1_wf : ScatterDims.WF S64x1 S102400x1 S102400x1 [1] [0] [0] 1
  dot_S64x8_S8x4_S64x4_1_0_0_1_n_n_wf : DotDims.WF S64x8 S8x4 S64x4 [1] [0] [0] [1] [] []
  dot_S64x16_S16x4_S64x4_1_0_0_1_n_n_wf : DotDims.WF S64x16 S16x4 S64x4 [1] [0] [0] [1] [] []
  gather_S102400x16_S1638400x1_S1638400x16_1_0_n_n_0_1_116_wf : GatherDims.WF S102400x16 S1638400x1 S1638400x16 [1] [0] [] [0] [] 1 ![1, 16]
  gather_S64x4_S1638400x1_S1638400x4_1_0_n_n_0_1_14_wf : GatherDims.WF S64x4 S1638400x1 S1638400x4 [1] [0] [] [0] [] 1 ![1, 4]
  dot_S4096x8_S8x8_S4096x8_1_0_0_1_n_n_wf : DotDims.WF S4096x8 S8x8 S4096x8 [1] [0] [0] [1] [] []
  dot_S4096x16_S16x8_S4096x8_1_0_0_1_n_n_wf : DotDims.WF S4096x16 S16x8 S4096x8 [1] [0] [0] [1] [] []
  dot_S4096x4_S4x8_S4096x8_1_0_0_1_n_n_wf : DotDims.WF S4096x4 S4x8 S4096x8 [1] [0] [0] [1] [] []
  gather_S64x4_S102400x1_S102400x4_1_0_n_n_0_1_14_wf : GatherDims.WF S64x4 S102400x1 S102400x4 [1] [0] [] [0] [] 1 ![1, 4]
  dot_S4096x16_S16x16_S4096x16_1_0_0_1_n_n_wf : DotDims.WF S4096x16 S16x16 S4096x16 [1] [0] [0] [1] [] []
  dot_S4096x4_S4x16_S4096x16_1_0_0_1_n_n_wf : DotDims.WF S4096x4 S4x16 S4096x16 [1] [0] [0] [1] [] []
  dot_S4096x16_S16x1_S4096x1_1_0_0_1_n_n_wf : DotDims.WF S4096x16 S16x1 S4096x1 [1] [0] [0] [1] [] []
  dot_S64x4_S4x4_S64x4_1_0_0_1_n_n_wf : DotDims.WF S64x4 S4x4 S64x4 [1] [0] [0] [1] [] []
  dot_S64x4_S4x1_S64x1_1_0_0_1_n_n_wf : DotDims.WF S64x4 S4x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S1638400x1.size a
  hwx0_0 : ∀ i : grid0.Coords, EltTy.bits .f32 = 32 ∨ (Rect.block (s := S1638400x1) S4096x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x60.size a ≤ S1638400x60.size a
  hwx0_1 : ∀ i : grid0.Coords, EltTy.bits .f32 = 32 ∨ (Rect.block (s := S1638400x60) S4096x60.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S60x8.size a ≤ S60x8.size a
  hwx0_3 : ∀ i : grid0.Coords, EltTy.bits .f32 = 32 ∨ (Rect.block (s := S60x8) S60x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x8.size a ≤ S1638400x8.size a
  hwx0_5 : ∀ i : grid0.Coords, EltTy.bits .f32 = 32 ∨ (Rect.block (s := S1638400x8) S4096x8.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x60.size a ≤ S102400x60.size a
  hwx1_0 : ∀ i : grid1.Coords, EltTy.bits .f32 = 32 ∨ (Rect.block (s := S102400x60) S4096x60.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x8.size a ≤ S102400x8.size a
  hwx1_1 : ∀ i : grid1.Coords, EltTy.bits .f32 = 32 ∨ (Rect.block (s := S102400x8) S4096x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S60x16.size a ≤ S60x16.size a
  hwx1_2 : ∀ i : grid1.Coords, EltTy.bits .f32 = 32 ∨ (Rect.block (s := S60x16) S60x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x16.size a ≤ S8x16.size a
  hwx1_3 : ∀ i : grid1.Coords, EltTy.bits .f32 = 32 ∨ (Rect.block (s := S8x16) S8x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x16.size a ≤ S102400x16.size a
  hwx1_5 : ∀ i : grid1.Coords, EltTy.bits .f32 = 32 ∨ (Rect.block (s := S102400x16) S4096x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x8.size a ≤ S1638400x8.size a
  hwx2_0 : ∀ i : grid2.Coords, EltTy.bits .f32 = 32 ∨ (Rect.block (s := S1638400x8) S4096x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x16.size a ≤ S1638400x16.size a
  hwx2_1 : ∀ i : grid2.Coords, EltTy.bits .f32 = 32 ∨ (Rect.block (s := S1638400x16) S4096x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x4.size a ≤ S1638400x4.size a
  hwx2_2 : ∀ i : grid2.Coords, EltTy.bits .f32 = 32 ∨ (Rect.block (s := S1638400x4) S4096x4.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8x8.size a ≤ S8x8.size a
  hwx2_3 : ∀ i : grid2.Coords, EltTy.bits .f32 = 32 ∨ (Rect.block (s := S8x8) S8x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x8.size a ≤ S16x8.size a
  hwx2_4 : ∀ i : grid2.Coords, EltTy.bits .f32 = 32 ∨ (Rect.block (s := S16x8) S16x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S4x8.size a ≤ S4x8.size a
  hwx2_5 : ∀ i : grid2.Coords, EltTy.bits .f32 = 32 ∨ (Rect.block (s := S4x8) S4x8.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x8.size a ≤ S1x8.size a
  hwx2_6 : ∀ i : grid2.Coords, EltTy.bits .f32 = 32 ∨ (Rect.block (s := S1x8) S1x8.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4096x8.size a ≤ S1638400x8.size a
  hwx2_7 : ∀ i : grid2.Coords, EltTy.bits .f32 = 32 ∨ (Rect.block (s := S1638400x8) S4096x8.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x16.size a ≤ S102400x16.size a
  hwx3_0 : ∀ i : grid3.Coords, EltTy.bits .f32 = 32 ∨ (Rect.block (s := S102400x16) S4096x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x8.size a ≤ S102400x8.size a
  hwx3_1 : ∀ i : grid3.Coords, EltTy.bits .f32 = 32 ∨ (Rect.block (s := S102400x8) S4096x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x4.size a ≤ S102400x4.size a
  hwx3_2 : ∀ i : grid3.Coords, EltTy.bits .f32 = 32 ∨ (Rect.block (s := S102400x4) S4096x4.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x16.size a ≤ S16x16.size a
  hwx3_3 : ∀ i : grid3.Coords, EltTy.bits .f32 = 32 ∨ (Rect.block (s := S16x16) S16x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S8x16.size a ≤ S8x16.size a
  hwx3_4 : ∀ i : grid3.Coords, EltTy.bits .f32 = 32 ∨ (Rect.block (s := S8x16) S8x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S4x16.size a ≤ S4x16.size a
  hwx3_5 : ∀ i : grid3.Coords, EltTy.bits .f32 = 32 ∨ (Rect.block (s := S4x16) S4x16.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x16.size a ≤ S1x16.size a
  hwx3_6 : ∀ i : grid3.Coords, EltTy.bits .f32 = 32 ∨ (Rect.block (s := S1x16) S1x16.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S16x1.size a ≤ S16x1.size a
  hwx3_7 : ∀ i : grid3.Coords, EltTy.bits .f32 = 32 ∨ (Rect.block (s := S16x1) S16x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x1.size a ≤ S1x1.size a
  hwx3_8 : ∀ i : grid3.Coords, EltTy.bits .f32 = 32 ∨ (Rect.block (s := S1x1) S1x1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S4096x16.size a ≤ S102400x16.size a
  hwx3_9 : ∀ i : grid3.Coords, EltTy.bits .f32 = 32 ∨ (Rect.block (s := S102400x16) S4096x16.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S4096x1.size a ≤ S102400x1.size a
  hwx3_10 : ∀ i : grid3.Coords, EltTy.bits .f32 = 32 ∨ (Rect.block (s := S102400x1) S4096x1.size (cc3_transform_10 i) (hinb3_10 i)).WholeWords (EltTy.packing .f32)

variable [Facts₀]

def gather_S102400x60_S1638400x1_S1638400x60_1_0_n_n_0_1_160 : GatherDims S102400x60 S1638400x1 S1638400x60 where
  offsetDims := [1]
  collapsedSliceDims := [0]
  operandBatchingDims := []
  startIndicesBatchingDims := []
  startIndexMap := [0]
  indexVectorDim := 1
  sliceSizes := ![1, 60]
  wf := gather_S102400x60_S1638400x1_S1638400x60_1_0_n_n_0_1_160_wf
def dot_S4096x1_S1x8_S4096x8_1_0_0_1_n_n : DotDims S4096x1 S1x8 S4096x8 where
  lhsContracting := [1]
  rhsContracting := [0]
  lhsNonContracting := [0]
  rhsNonContracting := [1]
  lhsBatch := []
  rhsBatch := []
  wf := dot_S4096x1_S1x8_S4096x8_1_0_0_1_n_n_wf
def dot_S4096x60_S60x8_S4096x8_1_0_0_1_n_n : DotDims S4096x60 S60x8 S4096x8 where
  lhsContracting := [1]
  rhsContracting := [0]
  lhsNonContracting := [0]
  rhsNonContracting := [1]
  lhsBatch := []
  rhsBatch := []
  wf := dot_S4096x60_S60x8_S4096x8_1_0_0_1_n_n_wf
def scatter_S102400x8_S1638400x1_S1638400x8_1_0_0_1 : ScatterDims S102400x8 S1638400x1 S1638400x8 where
  updateWindowDims := [1]
  insertedWindowDims := [0]
  scatterDimsToOperandDims := [0]
  indexVectorDim := 1
  wf := scatter_S102400x8_S1638400x1_S1638400x8_1_0_0_1_wf
def scatter_S102400x1_S1638400x1_S1638400x1_1_0_0_1 : ScatterDims S102400x1 S1638400x1 S1638400x1 where
  updateWindowDims := [1]
  insertedWindowDims := [0]
  scatterDimsToOperandDims := [0]
  indexVectorDim := 1
  wf := scatter_S102400x1_S1638400x1_S1638400x1_1_0_0_1_wf
def dot_S4096x60_S60x16_S4096x16_1_0_0_1_n_n : DotDims S4096x60 S60x16 S4096x16 where
  lhsContracting := [1]
  rhsContracting := [0]
  lhsNonContracting := [0]
  rhsNonContracting := [1]
  lhsBatch := []
  rhsBatch := []
  wf := dot_S4096x60_S60x16_S4096x16_1_0_0_1_n_n_wf
def dot_S4096x8_S8x16_S4096x16_1_0_0_1_n_n : DotDims S4096x8 S8x16 S4096x16 where
  lhsContracting := [1]
  rhsContracting := [0]
  lhsNonContracting := [0]
  rhsNonContracting := [1]
  lhsBatch := []
  rhsBatch := []
  wf := dot_S4096x8_S8x16_S4096x16_1_0_0_1_n_n_wf
def scatter_S64x8_S1638400x1_S1638400x8_1_0_0_1 : ScatterDims S64x8 S1638400x1 S1638400x8 where
  updateWindowDims := [1]
  insertedWindowDims := [0]
  scatterDimsToOperandDims := [0]
  indexVectorDim := 1
  wf := scatter_S64x8_S1638400x1_S1638400x8_1_0_0_1_wf
def scatter_S64x1_S1638400x1_S1638400x1_1_0_0_1 : ScatterDims S64x1 S1638400x1 S1638400x1 where
  updateWindowDims := [1]
  insertedWindowDims := [0]
  scatterDimsToOperandDims := [0]
  indexVectorDim := 1
  wf := scatter_S64x1_S1638400x1_S1638400x1_1_0_0_1_wf
def scatter_S64x16_S102400x1_S102400x16_1_0_0_1 : ScatterDims S64x16 S102400x1 S102400x16 where
  updateWindowDims := [1]
  insertedWindowDims := [0]
  scatterDimsToOperandDims := [0]
  indexVectorDim := 1
  wf := scatter_S64x16_S102400x1_S102400x16_1_0_0_1_wf
def scatter_S64x1_S102400x1_S102400x1_1_0_0_1 : ScatterDims S64x1 S102400x1 S102400x1 where
  updateWindowDims := [1]
  insertedWindowDims := [0]
  scatterDimsToOperandDims := [0]
  indexVectorDim := 1
  wf := scatter_S64x1_S102400x1_S102400x1_1_0_0_1_wf
def dot_S64x8_S8x4_S64x4_1_0_0_1_n_n : DotDims S64x8 S8x4 S64x4 where
  lhsContracting := [1]
  rhsContracting := [0]
  lhsNonContracting := [0]
  rhsNonContracting := [1]
  lhsBatch := []
  rhsBatch := []
  wf := dot_S64x8_S8x4_S64x4_1_0_0_1_n_n_wf
def dot_S64x16_S16x4_S64x4_1_0_0_1_n_n : DotDims S64x16 S16x4 S64x4 where
  lhsContracting := [1]
  rhsContracting := [0]
  lhsNonContracting := [0]
  rhsNonContracting := [1]
  lhsBatch := []
  rhsBatch := []
  wf := dot_S64x16_S16x4_S64x4_1_0_0_1_n_n_wf
def gather_S102400x16_S1638400x1_S1638400x16_1_0_n_n_0_1_116 : GatherDims S102400x16 S1638400x1 S1638400x16 where
  offsetDims := [1]
  collapsedSliceDims := [0]
  operandBatchingDims := []
  startIndicesBatchingDims := []
  startIndexMap := [0]
  indexVectorDim := 1
  sliceSizes := ![1, 16]
  wf := gather_S102400x16_S1638400x1_S1638400x16_1_0_n_n_0_1_116_wf
def gather_S64x4_S1638400x1_S1638400x4_1_0_n_n_0_1_14 : GatherDims S64x4 S1638400x1 S1638400x4 where
  offsetDims := [1]
  collapsedSliceDims := [0]
  operandBatchingDims := []
  startIndicesBatchingDims := []
  startIndexMap := [0]
  indexVectorDim := 1
  sliceSizes := ![1, 4]
  wf := gather_S64x4_S1638400x1_S1638400x4_1_0_n_n_0_1_14_wf
def dot_S4096x8_S8x8_S4096x8_1_0_0_1_n_n : DotDims S4096x8 S8x8 S4096x8 where
  lhsContracting := [1]
  rhsContracting := [0]
  lhsNonContracting := [0]
  rhsNonContracting := [1]
  lhsBatch := []
  rhsBatch := []
  wf := dot_S4096x8_S8x8_S4096x8_1_0_0_1_n_n_wf
def dot_S4096x16_S16x8_S4096x8_1_0_0_1_n_n : DotDims S4096x16 S16x8 S4096x8 where
  lhsContracting := [1]
  rhsContracting := [0]
  lhsNonContracting := [0]
  rhsNonContracting := [1]
  lhsBatch := []
  rhsBatch := []
  wf := dot_S4096x16_S16x8_S4096x8_1_0_0_1_n_n_wf
def dot_S4096x4_S4x8_S4096x8_1_0_0_1_n_n : DotDims S4096x4 S4x8 S4096x8 where
  lhsContracting := [1]
  rhsContracting := [0]
  lhsNonContracting := [0]
  rhsNonContracting := [1]
  lhsBatch := []
  rhsBatch := []
  wf := dot_S4096x4_S4x8_S4096x8_1_0_0_1_n_n_wf
def gather_S64x4_S102400x1_S102400x4_1_0_n_n_0_1_14 : GatherDims S64x4 S102400x1 S102400x4 where
  offsetDims := [1]
  collapsedSliceDims := [0]
  operandBatchingDims := []
  startIndicesBatchingDims := []
  startIndexMap := [0]
  indexVectorDim := 1
  sliceSizes := ![1, 4]
  wf := gather_S64x4_S102400x1_S102400x4_1_0_n_n_0_1_14_wf
def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf
def dot_S4096x4_S4x16_S4096x16_1_0_0_1_n_n : DotDims S4096x4 S4x16 S4096x16 where
  lhsContracting := [1]
  rhsContracting := [0]
  lhsNonContracting := [0]
  rhsNonContracting := [1]
  lhsBatch := []
  rhsBatch := []
  wf := dot_S4096x4_S4x16_S4096x16_1_0_0_1_n_n_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf
def dot_S64x4_S4x4_S64x4_1_0_0_1_n_n : DotDims S64x4 S4x4 S64x4 where
  lhsContracting := [1]
  rhsContracting := [0]
  lhsNonContracting := [0]
  rhsNonContracting := [1]
  lhsBatch := []
  rhsBatch := []
  wf := dot_S64x4_S4x4_S64x4_1_0_0_1_n_n_wf
def dot_S64x4_S4x1_S64x1_1_0_0_1_n_n : DotDims S64x4 S4x1 S64x1 where
  lhsContracting := [1]
  rhsContracting := [0]
  lhsNonContracting := [0]
  rhsNonContracting := [1]
  lhsBatch := []
  rhsBatch := []
  wf := dot_S64x4_S4x1_S64x1_1_0_0_1_n_n_wf

abbrev win0_0 : Pipeline.Window sig grid0 :=
  Pipeline.Window.ofSpec (Memref.whole main_arg1) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x60.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S60x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4096x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S4096x60.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4096x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S60x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S8x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S4096x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v4) S4096x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S4096x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S4096x4.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v53) S8x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S16x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S4x8.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S1x8.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v57) S4096x8.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v19) S4096x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S4096x8.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v69) S4096x4.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v70) S16x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S8x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S4x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v74) S1x16.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v73) S16x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v75) S1x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v76_0) S4096x16.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v76_1) S4096x1.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S102400x60 : Shape := ⟨2, ![102400, 60]⟩
abbrev S1638400x1 : Shape := ⟨2, ![1638400, 1]⟩
abbrev S1638400 : Shape := ⟨1, ![1638400]⟩
abbrev S102400 : Shape := ⟨1, ![102400]⟩
abbrev S8x1 : Shape := ⟨2, ![8, 1]⟩
abbrev S8x60 : Shape := ⟨2, ![8, 60]⟩
abbrev S8 : Shape := ⟨1, ![8]⟩
abbrev S16x60 : Shape := ⟨2, ![16, 60]⟩
abbrev S16x8 : Shape := ⟨2, ![16, 8]⟩
abbrev S16 : Shape := ⟨1, ![16]⟩
abbrev S4x8 : Shape := ⟨2, ![4, 8]⟩
abbrev S4x16 : Shape := ⟨2, ![4, 16]⟩
abbrev S4 : Shape := ⟨1, ![4]⟩
abbrev S8x8 : Shape := ⟨2, ![8, 8]⟩
abbrev S8x16 : Shape := ⟨2, ![8, 16]⟩
abbrev S8x4 : Shape := ⟨2, ![8, 4]⟩
abbrev S16x16 : Shape := ⟨2, ![16, 16]⟩
abbrev S16x4 : Shape := ⟨2, ![16, 4]⟩
abbrev S4x4 : Shape := ⟨2, ![4, 4]⟩
abbrev S1x16 : Shape := ⟨2, ![1, 16]⟩
abbrev S1 : Shape := ⟨1, ![1]⟩
abbrev S1x4 : Shape := ⟨2, ![1, 4]⟩
abbrev S1x8 : Shape := ⟨2, ![1, 8]⟩
abbrev S1638400x8 : Shape := ⟨2, ![1638400, 8]⟩
abbrev S_ : Shape := ⟨0, ![]⟩
abbrev S1638400x60 : Shape := ⟨2, ![1638400, 60]⟩
abbrev S60x8 : Shape := ⟨2, ![60, 8]⟩
abbrev S60x16 : Shape := ⟨2, ![60, 16]⟩
abbrev S102400x16 : Shape := ⟨2, ![102400, 16]⟩
abbrev S102400x8 : Shape := ⟨2, ![102400, 8]⟩
abbrev S102400x1 : Shape := ⟨2, ![102400, 1]⟩
abbrev S64x8 : Shape := ⟨2, ![64, 8]⟩
abbrev S64x1 : Shape := ⟨2, ![64, 1]⟩
abbrev S64x4 : Shape := ⟨2, ![64, 4]⟩
abbrev S64x16 : Shape := ⟨2, ![64, 16]⟩
abbrev S1638400x16 : Shape := ⟨2, ![1638400, 16]⟩
abbrev S1638400x4 : Shape := ⟨2, ![1638400, 4]⟩
abbrev S102400x4 : Shape := ⟨2, ![102400, 4]⟩
abbrev S16x1 : Shape := ⟨2, ![16, 1]⟩
abbrev S1x1 : Shape := ⟨2, ![1, 1]⟩
abbrev S4x1 : Shape := ⟨2, ![4, 1]⟩

abbrev nBuf : Space → Nat
  | .hbm => 258
  | .vmem => 0
  | .smem => 0
  | _ => 0

abbrev hbmTy0_0 (i : Nat) : BufTy := match i % 128 with
  | 0 => ⟨S102400x60, .f32⟩
  | 1 => ⟨S1638400x1, .f32⟩
  | 2 => ⟨S1638400, .i32⟩
  | 3 => ⟨S1638400, .i32⟩
  | 4 => ⟨S102400, .i32⟩
  | 5 => ⟨S1638400, .i32⟩
  | 6 => ⟨S8x1, .f32⟩
  | 7 => ⟨S8x60, .f32⟩
  | 8 => ⟨S8, .f32⟩
  | 9 => ⟨S16x60, .f32⟩
  | 10 => ⟨S16x8, .f32⟩
  | 11 => ⟨S16, .f32⟩
  | 12 => ⟨S4x8, .f32⟩
  | 13 => ⟨S4x16, .f32⟩
  | 14 => ⟨S4, .f32⟩
  | 15 => ⟨S8x8, .f32⟩
  | 16 => ⟨S8x16, .f32⟩
  | 17 => ⟨S8x4, .f32⟩
  | 18 => ⟨S8, .f32⟩
  | 19 => ⟨S16x16, .f32⟩
  | 20 => ⟨S16x8, .f32⟩
  | 21 => ⟨S16x4, .f32⟩
  | 22 => ⟨S16, .f32⟩
  | 23 => ⟨S4x8, .f32⟩
  | 24 => ⟨S4x16, .f32⟩
  | 25 => ⟨S4x4, .f32⟩
  | 26 => ⟨S4, .f32⟩
  | 27 => ⟨S1x16, .f32⟩
  | 28 => ⟨S1, .f32⟩
  | 29 => ⟨S1x4, .f32⟩
  | 30 => ⟨S1, .f32⟩
  | 31 => ⟨S1x8, .f32⟩
  | 32 => ⟨S1638400x8, .f32⟩
  | 33 => ⟨S_, .i32⟩
  | 34 => ⟨S1638400, .i32⟩
  | 35 => ⟨S1638400, .i1⟩
  | 36 => ⟨S_, .i32⟩
  | 37 => ⟨S1638400, .i32⟩
  | 38 => ⟨S1638400, .i32⟩
  | 39 => ⟨S1638400, .i32⟩
  | 40 => ⟨S1638400x1, .i32⟩
  | 41 => ⟨S1638400x60, .f32⟩
  | 42 => ⟨S60x8, .f32⟩
  | 43 => ⟨S1638400x8, .f32⟩
  | 44 => ⟨S1638400x8, .f32⟩
  | 45 => ⟨S1x8, .f32⟩
  | 46 => ⟨S1638400x8, .f32⟩
  | 47 => ⟨S1638400x8, .f32⟩
  | 48 => ⟨S_, .f32⟩
  | 49 => ⟨S1638400x8, .f32⟩
  | 50 => ⟨S1638400x8, .f32⟩
  | 51 => ⟨S60x16, .f32⟩
  | 52 => ⟨S102400x16, .f32⟩
  | 53 => ⟨S_, .f32⟩
  | 54 => ⟨S102400x8, .f32⟩
  | 55 => ⟨S1638400x1, .i32⟩
  | 56 => ⟨S102400x8, .f32⟩
  | 57 => ⟨S_, .f32⟩
  | 58 => ⟨S1638400x1, .f32⟩
  | 59 => ⟨S_, .f32⟩
  | 60 => ⟨S102400x1, .f32⟩
  | 61 => ⟨S1638400x1, .i32⟩
  | 62 => ⟨S102400x1, .f32⟩
  | 63 => ⟨S_, .f32⟩
  | 64 => ⟨S102400x1, .f32⟩
  | 65 => ⟨S102400x1, .f32⟩
  | 66 => ⟨S102400x8, .f32⟩
  | 67 => ⟨S102400x8, .f32⟩
  | 68 => ⟨S8x16, .f32⟩
  | 69 => ⟨S102400x16, .f32⟩
  | 70 => ⟨S102400x16, .f32⟩
  | 71 => ⟨S1x16, .f32⟩
  | 72 => ⟨S102400x16, .f32⟩
  | 73 => ⟨S102400x16, .f32⟩
  | 74 => ⟨S_, .f32⟩
  | 75 => ⟨S102400x16, .f32⟩
  | 76 => ⟨S102400x16, .f32⟩
  | 77 => ⟨S_, .f32⟩
  | 78 => ⟨S64x8, .f32⟩
  | 79 => ⟨S1638400x1, .i32⟩
  | 80 => ⟨S64x8, .f32⟩
  | 81 => ⟨S_, .f32⟩
  | 82 => ⟨S1638400x1, .f32⟩
  | 83 => ⟨S_, .f32⟩
  | 84 => ⟨S64x1, .f32⟩
  | 85 => ⟨S1638400x1, .i32⟩
  | 86 => ⟨S64x1, .f32⟩
  | 87 => ⟨S_, .f32⟩
  | 88 => ⟨S64x1, .f32⟩
  | 89 => ⟨S64x1, .f32⟩
  | 90 => ⟨S64x8, .f32⟩
  | 91 => ⟨S64x8, .f32⟩
  | 92 => ⟨S8x4, .f32⟩
  | 93 => ⟨S64x4, .f32⟩
  | 94 => ⟨S_, .f32⟩
  | 95 => ⟨S64x16, .f32⟩
  | 96 => ⟨S102400x1, .i32⟩
  | 97 => ⟨S64x16, .f32⟩
  | 98 => ⟨S_, .f32⟩
  | 99 => ⟨S102400x1, .f32⟩
  | 100 => ⟨S_, .f32⟩
  | 101 => ⟨S64x1, .f32⟩
  | 102 => ⟨S102400x1, .i32⟩
  | 103 => ⟨S64x1, .f32⟩
  | 104 => ⟨S_, .f32⟩
  | 105 => ⟨S64x1, .f32⟩
  | 106 => ⟨S64x1, .f32⟩
  | 107 => ⟨S64x16, .f32⟩
  | 108 => ⟨S64x16, .f32⟩
  | 109 => ⟨S16x4, .f32⟩
  | 110 => ⟨S64x4, .f32⟩
  | 111 => ⟨S64x4, .f32⟩
  | 112 => ⟨S1x4, .f32⟩
  | 113 => ⟨S64x4, .f32⟩
  | 114 => ⟨S64x4, .f32⟩
  | 115 => ⟨S_, .f32⟩
  | 116 => ⟨S64x4, .f32⟩
  | 117 => ⟨S64x4, .f32⟩
  | 118 => ⟨S8x8, .f32⟩
  | 119 => ⟨S1638400x8, .f32⟩
  | 120 => ⟨S_, .i32⟩
  | 121 => ⟨S1638400, .i32⟩
  | 122 => ⟨S1638400, .i1⟩
  | 123 => ⟨S_, .i32⟩
  | 124 => ⟨S1638400, .i32⟩
  | 125 => ⟨S1638400, .i32⟩
  | 126 => ⟨S1638400, .i32⟩
  | 127 => ⟨S1638400x1, .i32⟩
  | _ => ⟨S102400x60, .f32⟩

abbrev hbmTy0_1 (i : Nat) : BufTy := match i % 128 with
  | 0 => ⟨S1638400x16, .f32⟩
  | 1 => ⟨S16x8, .f32⟩
  | 2 => ⟨S1638400x8, .f32⟩
  | 3 => ⟨S1638400x8, .f32⟩
  | 4 => ⟨S_, .i32⟩
  | 5 => ⟨S1638400, .i32⟩
  | 6 => ⟨S1638400, .i1⟩
  | 7 => ⟨S_, .i32⟩
  | 8 => ⟨S1638400, .i32⟩
  | 9 => ⟨S1638400, .i32⟩
  | 10 => ⟨S1638400, .i32⟩
  | 11 => ⟨S1638400x1, .i32⟩
  | 12 => ⟨S1638400x4, .f32⟩
  | 13 => ⟨S4x8, .f32⟩
  | 14 => ⟨S1638400x8, .f32⟩
  | 15 => ⟨S1638400x8, .f32⟩
  | 16 => ⟨S1x8, .f32⟩
  | 17 => ⟨S1638400x8, .f32⟩
  | 18 => ⟨S1638400x8, .f32⟩
  | 19 => ⟨S_, .f32⟩
  | 20 => ⟨S1638400x8, .f32⟩
  | 21 => ⟨S1638400x8, .f32⟩
  | 22 => ⟨S16x16, .f32⟩
  | 23 => ⟨S102400x16, .f32⟩
  | 24 => ⟨S_, .f32⟩
  | 25 => ⟨S102400x8, .f32⟩
  | 26 => ⟨S1638400x1, .i32⟩
  | 27 => ⟨S102400x8, .f32⟩
  | 28 => ⟨S_, .f32⟩
  | 29 => ⟨S1638400x1, .f32⟩
  | 30 => ⟨S_, .f32⟩
  | 31 => ⟨S102400x1, .f32⟩
  | 32 => ⟨S1638400x1, .i32⟩
  | 33 => ⟨S102400x1, .f32⟩
  | 34 => ⟨S_, .f32⟩
  | 35 => ⟨S102400x1, .f32⟩
  | 36 => ⟨S102400x1, .f32⟩
  | 37 => ⟨S102400x8, .f32⟩
  | 38 => ⟨S102400x8, .f32⟩
  | 39 => ⟨S8x16, .f32⟩
  | 40 => ⟨S102400x16, .f32⟩
  | 41 => ⟨S102400x16, .f32⟩
  | 42 => ⟨S_, .i32⟩
  | 43 => ⟨S102400, .i32⟩
  | 44 => ⟨S102400, .i1⟩
  | 45 => ⟨S_, .i32⟩
  | 46 => ⟨S102400, .i32⟩
  | 47 => ⟨S102400, .i32⟩
  | 48 => ⟨S102400, .i32⟩
  | 49 => ⟨S102400x1, .i32⟩
  | 50 => ⟨S102400x4, .f32⟩
  | 51 => ⟨S4x16, .f32⟩
  | 52 => ⟨S102400x16, .f32⟩
  | 53 => ⟨S102400x16, .f32⟩
  | 54 => ⟨S1x16, .f32⟩
  | 55 => ⟨S102400x16, .f32⟩
  | 56 => ⟨S102400x16, .f32⟩
  | 57 => ⟨S_, .f32⟩
  | 58 => ⟨S102400x16, .f32⟩
  | 59 => ⟨S102400x16, .f32⟩
  | 60 => ⟨S_, .f32⟩
  | 61 => ⟨S64x8, .f32⟩
  | 62 => ⟨S1638400x1, .i32⟩
  | 63 => ⟨S64x8, .f32⟩
  | 64 => ⟨S_, .f32⟩
  | 65 => ⟨S1638400x1, .f32⟩
  | 66 => ⟨S_, .f32⟩
  | 67 => ⟨S64x1, .f32⟩
  | 68 => ⟨S1638400x1, .i32⟩
  | 69 => ⟨S64x1, .f32⟩
  | 70 => ⟨S_, .f32⟩
  | 71 => ⟨S64x1, .f32⟩
  | 72 => ⟨S64x1, .f32⟩
  | 73 => ⟨S64x8, .f32⟩
  | 74 => ⟨S64x8, .f32⟩
  | 75 => ⟨S8x4, .f32⟩
  | 76 => ⟨S64x4, .f32⟩
  | 77 => ⟨S_, .f32⟩
  | 78 => ⟨S64x16, .f32⟩
  | 79 => ⟨S102400x1, .i32⟩
  | 80 => ⟨S64x16, .f32⟩
  | 81 => ⟨S_, .f32⟩
  | 82 => ⟨S102400x1, .f32⟩
  | 83 => ⟨S_, .f32⟩
  | 84 => ⟨S64x1, .f32⟩
  | 85 => ⟨S102400x1, .i32⟩
  | 86 => ⟨S64x1, .f32⟩
  | 87 => ⟨S_, .f32⟩
  | 88 => ⟨S64x1, .f32⟩
  | 89 => ⟨S64x1, .f32⟩
  | 90 => ⟨S64x16, .f32⟩
  | 91 => ⟨S64x16, .f32⟩
  | 92 => ⟨S16x4, .f32⟩
  | 93 => ⟨S64x4, .f32⟩
  | 94 => ⟨S64x4, .f32⟩
  | 95 => ⟨S4x4, .f32⟩
  | 96 => ⟨S64x4, .f32⟩
  | 97 => ⟨S64x4, .f32⟩
  | 98 => ⟨S1x4, .f32⟩
  | 99 => ⟨S64x4, .f32⟩
  | 100 => ⟨S64x4, .f32⟩
  | 101 => ⟨S_, .f32⟩
  | 102 => ⟨S64x4, .f32⟩
  | 103 => ⟨S64x4, .f32⟩
  | 104 => ⟨S16x1, .f32⟩
  | 105 => ⟨S102400x1, .f32⟩
  | 106 => ⟨S1x1, .f32⟩
  | 107 => ⟨S102400x1, .f32⟩
  | 108 => ⟨S102400x1, .f32⟩
  | 109 => ⟨S102400x1, .f32⟩
  | 110 => ⟨S102400x1, .f32⟩
  | 111 => ⟨S_, .f32⟩
  | 112 => ⟨S102400x1, .f32⟩
  | 113 => ⟨S102400x1, .f32⟩
  | 114 => ⟨S_, .f32⟩
  | 115 => ⟨S102400x1, .f32⟩
  | 116 => ⟨S102400x1, .f32⟩
  | 117 => ⟨S4x1, .f32⟩
  | 118 => ⟨S64x1, .f32⟩
  | 119 => ⟨S1x1, .f32⟩
  | 120 => ⟨S64x1, .f32⟩
  | 121 => ⟨S64x1, .f32⟩
  | 122 => ⟨S64x1, .f32⟩
  | 123 => ⟨S64x1, .f32⟩
  | 124 => ⟨S_, .f32⟩
  | 125 => ⟨S64x1, .f32⟩
  | 126 => ⟨S64x1, .f32⟩
  | 127 => ⟨S_, .f32⟩
  | _ => ⟨S102400x60, .f32⟩

abbrev hbmTy0_2 (i : Nat) : BufTy := match i % 128 with
  | 0 => ⟨S64x1, .f32⟩
  | 1 => ⟨S64x1, .f32⟩
  | _ => ⟨S102400x60, .f32⟩

abbrev hbmTy (i : Nat) : BufTy := match i / 128 with
  | 0 => hbmTy0_0 i
  | 1 => hbmTy0_1 i
  | 2 => hbmTy0_2 i
  | _ => ⟨S102400x60, .f32⟩

abbrev bufTy : (tb : Table) → Fin (tcTables nBuf tb) → BufTy
  | .hbm, ⟨i, _⟩ => hbmTy i
  | _, _ => ⟨S102400x60, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_c : Ref sig .tc := ⟨.hbm, 33, rfl⟩
abbrev main_v2 : Ref sig .tc := ⟨.hbm, 34, rfl⟩
abbrev main_v3 : Ref sig .tc := ⟨.hbm, 35, rfl⟩
abbrev main_c_0 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_call0_cst : Ref sig .tc := ⟨.hbm, 48, rfl⟩
abbrev main_call0_v0 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_cst_1 : Ref sig .tc := ⟨.hbm, 57, rfl⟩
abbrev main_v21 : Ref sig .tc := ⟨.hbm, 58, rfl⟩
abbrev main_cst_2 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_3 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_call1_cst : Ref sig .tc := ⟨.hbm, 74, rfl⟩
abbrev main_call1_v0 : Ref sig .tc := ⟨.hbm, 75, rfl⟩
abbrev main_v35 : Ref sig .tc := ⟨.hbm, 76, rfl⟩
abbrev main_cst_4 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_5 : Ref sig .tc := ⟨.hbm, 81, rfl⟩
abbrev main_v39 : Ref sig .tc := ⟨.hbm, 82, rfl⟩
abbrev main_cst_6 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_7 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_8 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_9 : Ref sig .tc := ⟨.hbm, 98, rfl⟩
abbrev main_v52 : Ref sig .tc := ⟨.hbm, 99, rfl⟩
abbrev main_cst_10 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_11 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_call2_cst : Ref sig .tc := ⟨.hbm, 115, rfl⟩
abbrev main_call2_v0 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_c_12 : Ref sig .tc := ⟨.hbm, 120, rfl⟩
abbrev main_v69 : Ref sig .tc := ⟨.hbm, 121, rfl⟩
abbrev main_v70 : Ref sig .tc := ⟨.hbm, 122, rfl⟩
abbrev main_c_13 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_c_14 : Ref sig .tc := ⟨.hbm, 132, rfl⟩
abbrev main_v79 : Ref sig .tc := ⟨.hbm, 133, rfl⟩
abbrev main_v80 : Ref sig .tc := ⟨.hbm, 134, rfl⟩
abbrev main_c_15 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_call3_cst : Ref sig .tc := ⟨.hbm, 147, rfl⟩
abbrev main_call3_v0 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_16 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_cst_17 : Ref sig .tc := ⟨.hbm, 156, rfl⟩
abbrev main_v98 : Ref sig .tc := ⟨.hbm, 157, rfl⟩
abbrev main_cst_18 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_cst_19 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_c_20 : Ref sig .tc := ⟨.hbm, 170, rfl⟩
abbrev main_v109 : Ref sig .tc := ⟨.hbm, 171, rfl⟩
abbrev main_v110 : Ref sig .tc := ⟨.hbm, 172, rfl⟩
abbrev main_c_21 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_call4_cst : Ref sig .tc := ⟨.hbm, 185, rfl⟩
abbrev main_call4_v0 : Ref sig .tc := ⟨.hbm, 186, rfl⟩
abbrev main_v122 : Ref sig .tc := ⟨.hbm, 187, rfl⟩
abbrev main_cst_22 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_cst_23 : Ref sig .tc := ⟨.hbm, 192, rfl⟩
abbrev main_v126 : Ref sig .tc := ⟨.hbm, 193, rfl⟩
abbrev main_cst_24 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_cst_25 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_cst_26 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_cst_27 : Ref sig .tc := ⟨.hbm, 209, rfl⟩
abbrev main_v139 : Ref sig .tc := ⟨.hbm, 210, rfl⟩
abbrev main_cst_28 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_cst_29 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_call5_cst : Ref sig .tc := ⟨.hbm, 229, rfl⟩
abbrev main_call5_v0 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_cst_30 : Ref sig .tc := ⟨.hbm, 239, rfl⟩
abbrev main_v164 : Ref sig .tc := ⟨.hbm, 240, rfl⟩
abbrev main_v165 : Ref sig .tc := ⟨.hbm, 241, rfl⟩
abbrev main_cst_31 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_cst_32 : Ref sig .tc := ⟨.hbm, 252, rfl⟩
abbrev main_v175 : Ref sig .tc := ⟨.hbm, 253, rfl⟩
abbrev main_v176 : Ref sig .tc := ⟨.hbm, 254, rfl⟩
abbrev main_cst_33 : Ref sig .tc := ⟨.hbm, 255, rfl⟩
abbrev main_v177 : Ref sig .tc := ⟨.hbm, 256, rfl⟩
abbrev main_v178 : Ref sig .tc := ⟨.hbm, 257, rfl⟩

abbrev nD : Nat := 1
abbrev τ : Topo := Topo.v7x

variable {F : FTy → Type} [FloatOps F]

class Facts₀ : Prop where
  transposes_S8x1_S1x8_1_0 : S8x1.Transposes [1, 0] S1x8
  bcast_S_S1638400 : S_.BroadcastsInDim S1638400 (![] : Fin 0 → Fin S1638400.rank)
  bcast_S1638400_S1638400x1_0 : S1638400.BroadcastsInDim S1638400x1 (![0] : Fin 1 → Fin S1638400x1.rank)
  transposes_S8x60_S60x8_1_0 : S8x60.Transposes [1, 0] S60x8
  bcast_S8_S1x8_1 : S8.BroadcastsInDim S1x8 (![1] : Fin 1 → Fin S1x8.rank)
  bcast_S1x8_S1638400x8_0_1 : S1x8.BroadcastsInDim S1638400x8 (![0, 1] : Fin 2 → Fin S1638400x8.rank)
  bcast_S_S1638400x8 : S_.BroadcastsInDim S1638400x8 (![] : Fin 0 → Fin S1638400x8.rank)
  transposes_S16x60_S60x16_1_0 : S16x60.Transposes [1, 0] S60x16
  bcast_S_S102400x8 : S_.BroadcastsInDim S102400x8 (![] : Fin 0 → Fin S102400x8.rank)
  bcast_S_S1638400x1 : S_.BroadcastsInDim S1638400x1 (![] : Fin 0 → Fin S1638400x1.rank)
  bcast_S_S102400x1 : S_.BroadcastsInDim S102400x1 (![] : Fin 0 → Fin S102400x1.rank)
  bcast_S102400x1_S102400x8_0_1 : S102400x1.BroadcastsInDim S102400x8 (![0, 1] : Fin 2 → Fin S102400x8.rank)
  transposes_S16x8_S8x16_1_0 : S16x8.Transposes [1, 0] S8x16
  bcast_S16_S1x16_1 : S16.BroadcastsInDim S1x16 (![1] : Fin 1 → Fin S1x16.rank)
  bcast_S1x16_S102400x16_0_1 : S1x16.BroadcastsInDim S102400x16 (![0, 1] : Fin 2 → Fin S102400x16.rank)
  bcast_S_S102400x16 : S_.BroadcastsInDim S102400x16 (![] : Fin 0 → Fin S102400x16.rank)
  bcast_S_S64x8 : S_.BroadcastsInDim S64x8 (![] : Fin 0 → Fin S64x8.rank)
  bcast_S_S64x1 : S_.BroadcastsInDim S64x1 (![] : Fin 0 → Fin S64x1.rank)
  bcast_S64x1_S64x8_0_1 : S64x1.BroadcastsInDim S64x8 (![0, 1] : Fin 2 → Fin S64x8.rank)
  transposes_S4x8_S8x4_1_0 : S4x8.Transposes [1, 0] S8x4
  bcast_S_S64x16 : S_.BroadcastsInDim S64x16 (![] : Fin 0 → Fin S64x16.rank)
  bcast_S102400_S102400x1_0 : S102400.BroadcastsInDim S102400x1 (![0] : Fin 1 → Fin S102400x1.rank)
  bcast_S64x1_S64x16_0_1 : S64x1.BroadcastsInDim S64x16 (![0, 1] : Fin 2 → Fin S64x16.rank)
  transposes_S4x16_S16x4_1_0 : S4x16.Transposes [1, 0] S16x4
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  bcast_S_S64x4 : S_.BroadcastsInDim S64x4 (![] : Fin 0 → Fin S64x4.rank)
  transposes_S8x8_S8x8_1_0 : S8x8.Transposes [1, 0] S8x8
  transposes_S8x16_S16x8_1_0 : S8x16.Transposes [1, 0] S16x8
  transposes_S8x4_S4x8_1_0 : S8x4.Transposes [1, 0] S4x8
  transposes_S16x16_S16x16_1_0 : S16x16.Transposes [1, 0] S16x16
  bcast_S_S102400 : S_.BroadcastsInDim S102400 (![] : Fin 0 → Fin S102400.rank)
  transposes_S16x4_S4x16_1_0 : S16x4.Transposes [1, 0] S4x16
  transposes_S4x4_S4x4_1_0 : S4x4.Transposes [1, 0] S4x4
  transposes_S1x16_S16x1_1_0 : S1x16.Transposes [1, 0] S16x1
  bcast_S1_S1x1_1 : S1.BroadcastsInDim S1x1 (![1] : Fin 1 → Fin S1x1.rank)
  bcast_S1x1_S102400x1_0_1 : S1x1.BroadcastsInDim S102400x1 (![0, 1] : Fin 2 → Fin S102400x1.rank)
  transposes_S1x4_S4x1_1_0 : S1x4.Transposes [1, 0] S4x1
  bcast_S1x1_S64x1_0_1 : S1x1.BroadcastsInDim S64x1 (![0, 1] : Fin 2 → Fin S64x1.rank)
  dot_S1638400x1_S1x8_S1638400x8_1_0_0_1_n_n_wf : DotDims.WF S1638400x1 S1x8 S1638400x8 [1] [0] [0] [1] [] []
  gather_S102400x60_S1638400x1_S1638400x60_1_0_n_n_0_1_160_wf : GatherDims.WF S102400x60 S1638400x1 S1638400x60 [1] [0] [] [0] [] 1 ![1, 60]
  dot_S1638400x60_S60x8_S1638400x8_1_0_0_1_n_n_wf : DotDims.WF S1638400x60 S60x8 S1638400x8 [1] [0] [0] [1] [] []
  dot_S102400x60_S60x16_S102400x16_1_0_0_1_n_n_wf : DotDims.WF S102400x60 S60x16 S102400x16 [1] [0] [0] [1] [] []
  scatter_S102400x8_S1638400x1_S1638400x8_1_0_0_1_wf : ScatterDims.WF S102400x8 S1638400x1 S1638400x8 [1] [0] [0] 1
  scatter_S102400x1_S1638400x1_S1638400x1_1_0_0_1_wf : ScatterDims.WF S102400x1 S1638400x1 S1638400x1 [1] [0] [0] 1
  dot_S102400x8_S8x16_S102400x16_1_0_0_1_n_n_wf : DotDims.WF S102400x8 S8x16 S102400x16 [1] [0] [0] [1] [] []
  scatter_S64x8_S1638400x1_S1638400x8_1_0_0_1_wf : ScatterDims.WF S64x8 S1638400x1 S1638400x8 [1] [0] [0] 1
  scatter_S64x1_S1638400x1_S1638400x1_1_0_0_1_wf : ScatterDims.WF S64x1 S1638400x1 S1638400x1 [1] [0] [0] 1
  dot_S64x8_S8x4_S64x4_1_0_0_1_n_n_wf : DotDims.WF S64x8 S8x4 S64x4 [1] [0] [0] [1] [] []
  scatter_S64x16_S102400x1_S102400x16_1_0_0_1_wf : ScatterDims.WF S64x16 S102400x1 S102400x16 [1] [0] [0] 1
  scatter_S64x1_S102400x1_S102400x1_1_0_0_1_wf : ScatterDims.WF S64x1 S102400x1 S102400x1 [1] [0] [0] 1
  dot_S64x16_S16x4_S64x4_1_0_0_1_n_n_wf : DotDims.WF S64x16 S16x4 S64x4 [1] [0] [0] [1] [] []
  dot_S1638400x8_S8x8_S1638400x8_1_0_0_1_n_n_wf : DotDims.WF S1638400x8 S8x8 S1638400x8 [1] [0] [0] [1] [] []
  gather_S102400x16_S1638400x1_S1638400x16_1_0_n_n_0_1_116_wf : GatherDims.WF S102400x16 S1638400x1 S1638400x16 [1] [0] [] [0] [] 1 ![1, 16]
  dot_S1638400x16_S16x8_S1638400x8_1_0_0_1_n_n_wf : DotDims.WF S1638400x16 S16x8 S1638400x8 [1] [0] [0] [1] [] []
  gather_S64x4_S1638400x1_S1638400x4_1_0_n_n_0_1_14_wf : GatherDims.WF S64x4 S1638400x1 S1638400x4 [1] [0] [] [0] [] 1 ![1, 4]
  dot_S1638400x4_S4x8_S1638400x8_1_0_0_1_n_n_wf : DotDims.WF S1638400x4 S4x8 S1638400x8 [1] [0] [0] [1] [] []
  dot_S102400x16_S16x16_S102400x16_1_0_0_1_n_n_wf : DotDims.WF S102400x16 S16x16 S102400x16 [1] [0] [0] [1] [] []
  gather_S64x4_S102400x1_S102400x4_1_0_n_n_0_1_14_wf : GatherDims.WF S64x4 S102400x1 S102400x4 [1] [0] [] [0] [] 1 ![1, 4]
  dot_S102400x4_S4x16_S102400x16_1_0_0_1_n_n_wf : DotDims.WF S102400x4 S4x16 S102400x16 [1] [0] [0] [1] [] []
  dot_S64x4_S4x4_S64x4_1_0_0_1_n_n_wf : DotDims.WF S64x4 S4x4 S64x4 [1] [0] [0] [1] [] []
  dot_S102400x16_S16x1_S102400x1_1_0_0_1_n_n_wf : DotDims.WF S102400x16 S16x1 S102400x1 [1] [0] [0] [1] [] []
  dot_S64x4_S4x1_S64x1_1_0_0_1_n_n_wf : DotDims.WF S64x4 S4x1 S64x1 [1] [0] [0] [1] [] []

variable [Facts₀]

def dot_S1638400x1_S1x8_S1638400x8_1_0_0_1_n_n : DotDims S1638400x1 S1x8 S1638400x8 where
  lhsContracting := [1]
  rhsContracting := [0]
  lhsNonContracting := [0]
  rhsNonContracting := [1]
  lhsBatch := []
  rhsBatch := []
  wf := dot_S1638400x1_S1x8_S1638400x8_1_0_0_1_n_n_wf
def gather_S102400x60_S1638400x1_S1638400x60_1_0_n_n_0_1_160 : GatherDims S102400x60 S1638400x1 S1638400x60 where
  offsetDims := [1]
  collapsedSliceDims := [0]
  operandBatchingDims := []
  startIndicesBatchingDims := []
  startIndexMap := [0]
  indexVectorDim := 1
  sliceSizes := ![1, 60]
  wf := gather_S102400x60_S1638400x1_S1638400x60_1_0_n_n_0_1_160_wf
def dot_S1638400x60_S60x8_S1638400x8_1_0_0_1_n_n : DotDims S1638400x60 S60x8 S1638400x8 where
  lhsContracting := [1]
  rhsContracting := [0]
  lhsNonContracting := [0]
  rhsNonContracting := [1]
  lhsBatch := []
  rhsBatch := []
  wf := dot_S1638400x60_S60x8_S1638400x8_1_0_0_1_n_n_wf
def dot_S102400x60_S60x16_S102400x16_1_0_0_1_n_n : DotDims S102400x60 S60x16 S102400x16 where
  lhsContracting := [1]
  rhsContracting := [0]
  lhsNonContracting := [0]
  rhsNonContracting := [1]
  lhsBatch := []
  rhsBatch := []
  wf := dot_S102400x60_S60x16_S102400x16_1_0_0_1_n_n_wf
def scatter_S102400x8_S1638400x1_S1638400x8_1_0_0_1 : ScatterDims S102400x8 S1638400x1 S1638400x8 where
  updateWindowDims := [1]
  insertedWindowDims := [0]
  scatterDimsToOperandDims := [0]
  indexVectorDim := 1
  wf := scatter_S102400x8_S1638400x1_S1638400x8_1_0_0_1_wf
def scatter_S102400x1_S1638400x1_S1638400x1_1_0_0_1 : ScatterDims S102400x1 S1638400x1 S1638400x1 where
  updateWindowDims := [1]
  insertedWindowDims := [0]
  scatterDimsToOperandDims := [0]
  indexVectorDim := 1
  wf := scatter_S102400x1_S1638400x1_S1638400x1_1_0_0_1_wf
def dot_S102400x8_S8x16_S102400x16_1_0_0_1_n_n : DotDims S102400x8 S8x16 S102400x16 where
  lhsContracting := [1]
  rhsContracting := [0]
  lhsNonContracting := [0]
  rhsNonContracting := [1]
  lhsBatch := []
  rhsBatch := []
  wf := dot_S102400x8_S8x16_S102400x16_1_0_0_1_n_n_wf
def scatter_S64x8_S1638400x1_S1638400x8_1_0_0_1 : ScatterDims S64x8 S1638400x1 S1638400x8 where
  updateWindowDims := [1]
  insertedWindowDims := [0]
  scatterDimsToOperandDims := [0]
  indexVectorDim := 1
  wf := scatter_S64x8_S1638400x1_S1638400x8_1_0_0_1_wf
def scatter_S64x1_S1638400x1_S1638400x1_1_0_0_1 : ScatterDims S64x1 S1638400x1 S1638400x1 where
  updateWindowDims := [1]
  insertedWindowDims := [0]
  scatterDimsToOperandDims := [0]
  indexVectorDim := 1
  wf := scatter_S64x1_S1638400x1_S1638400x1_1_0_0_1_wf
def dot_S64x8_S8x4_S64x4_1_0_0_1_n_n : DotDims S64x8 S8x4 S64x4 where
  lhsContracting := [1]
  rhsContracting := [0]
  lhsNonContracting := [0]
  rhsNonContracting := [1]
  lhsBatch := []
  rhsBatch := []
  wf := dot_S64x8_S8x4_S64x4_1_0_0_1_n_n_wf
def scatter_S64x16_S102400x1_S102400x16_1_0_0_1 : ScatterDims S64x16 S102400x1 S102400x16 where
  updateWindowDims := [1]
  insertedWindowDims := [0]
  scatterDimsToOperandDims := [0]
  indexVectorDim := 1
  wf := scatter_S64x16_S102400x1_S102400x16_1_0_0_1_wf
def scatter_S64x1_S102400x1_S102400x1_1_0_0_1 : ScatterDims S64x1 S102400x1 S102400x1 where
  updateWindowDims := [1]
  insertedWindowDims := [0]
  scatterDimsToOperandDims := [0]
  indexVectorDim := 1
  wf := scatter_S64x1_S102400x1_S102400x1_1_0_0_1_wf
def dot_S64x16_S16x4_S64x4_1_0_0_1_n_n : DotDims S64x16 S16x4 S64x4 where
  lhsContracting := [1]
  rhsContracting := [0]
  lhsNonContracting := [0]
  rhsNonContracting := [1]
  lhsBatch := []
  rhsBatch := []
  wf := dot_S64x16_S16x4_S64x4_1_0_0_1_n_n_wf
def dot_S1638400x8_S8x8_S1638400x8_1_0_0_1_n_n : DotDims S1638400x8 S8x8 S1638400x8 where
  lhsContracting := [1]
  rhsContracting := [0]
  lhsNonContracting := [0]
  rhsNonContracting := [1]
  lhsBatch := []
  rhsBatch := []
  wf := dot_S1638400x8_S8x8_S1638400x8_1_0_0_1_n_n_wf
def gather_S102400x16_S1638400x1_S1638400x16_1_0_n_n_0_1_116 : GatherDims S102400x16 S1638400x1 S1638400x16 where
  offsetDims := [1]
  collapsedSliceDims := [0]
  operandBatchingDims := []
  startIndicesBatchingDims := []
  startIndexMap := [0]
  indexVectorDim := 1
  sliceSizes := ![1, 16]
  wf := gather_S102400x16_S1638400x1_S1638400x16_1_0_n_n_0_1_116_wf
def dot_S1638400x16_S16x8_S1638400x8_1_0_0_1_n_n : DotDims S1638400x16 S16x8 S1638400x8 where
  lhsContracting := [1]
  rhsContracting := [0]
  lhsNonContracting := [0]
  rhsNonContracting := [1]
  lhsBatch := []
  rhsBatch := []
  wf := dot_S1638400x16_S16x8_S1638400x8_1_0_0_1_n_n_wf
def gather_S64x4_S1638400x1_S1638400x4_1_0_n_n_0_1_14 : GatherDims S64x4 S1638400x1 S1638400x4 where
  offsetDims := [1]
  collapsedSliceDims := [0]
  operandBatchingDims := []
  startIndicesBatchingDims := []
  startIndexMap := [0]
  indexVectorDim := 1
  sliceSizes := ![1, 4]
  wf := gather_S64x4_S1638400x1_S1638400x4_1_0_n_n_0_1_14_wf
def dot_S1638400x4_S4x8_S1638400x8_1_0_0_1_n_n : DotDims S1638400x4 S4x8 S1638400x8 where
  lhsContracting := [1]
  rhsContracting := [0]
  lhsNonContracting := [0]
  rhsNonContracting := [1]
  lhsBatch := []
  rhsBatch := []
  wf := dot_S1638400x4_S4x8_S1638400x8_1_0_0_1_n_n_wf
def dot_S102400x16_S16x16_S102400x16_1_0_0_1_n_n : DotDims S102400x16 S16x16 S102400x16 where
  lhsContracting := [1]
  rhsContracting := [0]
  lhsNonContracting := [0]
  rhsNonContracting := [1]
  lhsBatch := []
  rhsBatch := []
  wf := dot_S102400x16_S16x16_S102400x16_1_0_0_1_n_n_wf
def gather_S64x4_S102400x1_S102400x4_1_0_n_n_0_1_14 : GatherDims S64x4 S102400x1 S102400x4 where
  offsetDims := [1]
  collapsedSliceDims := [0]
  operandBatchingDims := []
  startIndicesBatchingDims := []
  startIndexMap := [0]
  indexVectorDim := 1
  sliceSizes := ![1, 4]
  wf := gather_S64x4_S102400x1_S102400x4_1_0_n_n_0_1_14_wf
def dot_S102400x4_S4x16_S102400x16_1_0_0_1_n_n : DotDims S102400x4 S4x16 S102400x16 where
  lhsContracting := [1]
  rhsContracting := [0]
  lhsNonContracting := [0]
  rhsNonContracting := [1]
  lhsBatch := []
  rhsBatch := []
  wf := dot_S102400x4_S4x16_S102400x16_1_0_0_1_n_n_wf
def dot_S64x4_S4x4_S64x4_1_0_0_1_n_n : DotDims S64x4 S4x4 S64x4 where
  lhsContracting := [1]
  rhsContracting := [0]
  lhsNonContracting := [0]
  rhsNonContracting := [1]
  lhsBatch := []
  rhsBatch := []
  wf := dot_S64x4_S4x4_S64x4_1_0_0_1_n_n_wf
def dot_S102400x16_S16x1_S102400x1_1_0_0_1_n_n : DotDims S102400x16 S16x1 S102400x1 where
  lhsContracting := [1]
  rhsContracting := [0]
  lhsNonContracting := [0]
  rhsNonContracting := [1]
  lhsBatch := []
  rhsBatch := []
  wf := dot_S102400x16_S16x1_S102400x1_1_0_0_1_n_n_wf
def dot_S64x4_S4x1_S64x1_1_0_0_1_n_n : DotDims S64x4 S4x1 S64x1 where
  lhsContracting := [1]
  rhsContracting := [0]
  lhsNonContracting := [0]
  rhsNonContracting := [1]
  lhsBatch := []
  rhsBatch := []
  wf := dot_S64x4_S4x1_S64x1_1_0_0_1_n_n_wf

class Facts : Prop extends Facts₀ where

variable [Facts]
-- ==== Proof.InBounds.lean ====
/-
  What the precondition says about the three index inputs.

  The precondition is one conjunction, evaluated to a single bit: every float input finite, and each of the three index
  arrays that address a table inside that table's index range, negative indices counted from the end: the sender of every
  edge in [-102400, 102400), the graph of every edge and of every node in [-64, 64).  Only those last three are read here.
-/
import proofs.«401216_j29635274342505_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.InBounds

open Cert.Pre_finite_inputs Cert.Pre_finite_inputs.Facts Idealize.ShloMosaic Idealize.ShloMosaic.ValueIdx

/-- The shape of a single bit has one index. -/
private instance subsingleton_scalar_idx : Subsingleton S_.Idx := ⟨fun a b => funext fun d => d.elim0⟩

/-- A word that passes the signed tests `lo ≤ ·` and `· < hi` lies between the two numbers. -/
private theorem between_of_tests (w lo hi : BitVec 32) (L H : Int) (hL : lo.toInt = L) (hH : hi.toInt = H)
    (h1 : IntOp.cmpi .sge w lo = 1#1) (h2 : IntOp.cmpi .slt w hi = 1#1) : L ≤ w.toInt ∧ w.toInt < H :=
  ⟨hL ▸ IntOp.cmpi_sge.1 h1, hH ▸ IntOp.cmpi_slt.1 h2⟩

/-- One conjunct of the precondition: the conjunction over all entries of `lo ≤ s ∧ s < hi`, equal to 1, bounds every entry. -/
private theorem range_of_all {r : Shape} {axes : List (Fin r.rank)} (s : IVec r 32) (lo hi : BitVec 32) (L H : Int)
    (hL : lo.toInt = L) (hH : hi.toInt = H) (hb : S_.BroadcastsInDim r (![] : Fin 0 → Fin r.rank))
    (hr : r.ReducesTo axes S_) (hu : 0 < S_.numel)
    (h : Host.reduce IntOp.andi
        (andi (cmpi .sge s (broadcastInDim r ![] hb (constantI S_ 32 lo)))
          (cmpi .slt s (broadcastInDim r ![] hb (constantI S_ 32 hi))))
        (constantI S_ 1 1#1) hr hu ix0 = 1#1)
    (e : r.Idx) : L ≤ (s e).toInt ∧ (s e).toInt < H := by
  have he := Host.reduce_andi_all _ _ hr hu ix0 h e
  obtain ⟨h1, h2⟩ := IntOp.andi_eq_one.1 he
  exact between_of_tests (s e) lo hi L H hL hH h1 h2

/-- The literal words of the four bounds as signed numbers. -/
private theorem toInt_neg_102400 : (4294864896#32 : BitVec 32).toInt = -102400 := by decide
private theorem toInt_102400 : (102400#32 : BitVec 32).toInt = 102400 := by decide
private theorem toInt_neg_64 : (4294967232#32 : BitVec 32).toInt = -64 := by decide
private theorem toInt_64 : (64#32 : BitVec 32).toInt = 64 := by decide

/-- Where the precondition holds, every sender index and every graph index is in its table's range. -/
theorem of_pre (a0 : FVec Ideal S102400x60 .f32) (a1 : FVec Ideal S1638400x1 .f32) (a2 : IVec S1638400 32) (a3 : IVec S1638400 32) (a4 : IVec S102400 32) (a5 : IVec S1638400 32) (a6 : FVec Ideal S8x1 .f32) (a7 : FVec Ideal S8x60 .f32) (a8 : FVec Ideal S8 .f32) (a9 : FVec Ideal S16x60 .f32) (a10 : FVec Ideal S16x8 .f32) (a11 : FVec Ideal S16 .f32) (a12 : FVec Ideal S4x8 .f32) (a13 : FVec Ideal S4x16 .f32) (a14 : FVec Ideal S4 .f32) (a15 : FVec Ideal S8x8 .f32) (a16 : FVec Ideal S8x16 .f32) (a17 : FVec Ideal S8x4 .f32) (a18 : FVec Ideal S8 .f32) (a19 : FVec Ideal S16x16 .f32) (a20 : FVec Ideal S16x8 .f32) (a21 : FVec Ideal S16x4 .f32) (a22 : FVec Ideal S16 .f32) (a23 : FVec Ideal S4x8 .f32) (a24 : FVec Ideal S4x16 .f32) (a25 : FVec Ideal S4x4 .f32) (a26 : FVec Ideal S4 .f32) (a27 : FVec Ideal S1x16 .f32) (a28 : FVec Ideal S1 .f32) (a29 : FVec Ideal S1x4 .f32) (a30 : FVec Ideal S1 .f32)
    (h : Cert.Pre_finite_inputs.fn (F := Ideal) a0 a1 a2 a3 a4 a5 a6 a7 a8 a9 a10 a11 a12 a13 a14 a15 a16 a17 a18 a19 a20 a21 a22 a23 a24 a25 a26 a27 a28 a29 a30 = (fun _ => 1#1)) :
    (∀ e : S1638400.Idx, (-102400 : Int) ≤ (a2 e).toInt ∧ (a2 e).toInt < 102400)
    ∧ (∀ e : S1638400.Idx, (-64 : Int) ≤ (a5 e).toInt ∧ (a5 e).toInt < 64)
    ∧ (∀ n : S102400.Idx, (-64 : Int) ≤ (a4 n).toInt ∧ (a4 n).toInt < 64) := by
  -- the precondition is one bit; its last three operations `and` the three index-range conjuncts onto the rest
  have h0 := congrFun h ix0
  dsimp only [fn, fn_part1, fn_part2, fn_part3, fn_part4, fn_part5, fn_part6, fn_part7, fn_part8, fn_part9] at h0
  obtain ⟨h0, hnode⟩ := IntOp.andi_eq_one.1 h0
  obtain ⟨h0, hgraph⟩ := IntOp.andi_eq_one.1 h0
  obtain ⟨-, hsend⟩ := IntOp.andi_eq_one.1 h0
  exact ⟨range_of_all a2 _ _ _ _ toInt_neg_102400 toInt_102400 _ _ _ hsend,
    range_of_all a5 _ _ _ _ toInt_neg_64 toInt_64 _ _ _ hgraph,
    range_of_all a4 _ _ _ _ toInt_neg_64 toInt_64 _ _ _ hnode⟩

end Cert.InBounds

end
-- ==== Proof.Stages.lean ====
/-
  Names for the arrays the two programs are compared at.

  Both programs are functions of the same 31 argument arrays, at any reading of the floats.  `A0 … A30` are those arrays as the kernel program's launch
  memory holds them, and each later name is one intermediate value of the REFERENCE program, as a function of them: the
  edge features after the first and the second update, the node features after the first and the second update, the
  per-graph vector after the first update, the rows gathered from those, the segment means, and the two results.  The
  kernel program is compared against these one boundary at a time.
-/
import proofs.«401216_j29635274342505_1_alg».proof.Proof.Gen.KernelIdeal
import proofs.«401216_j29635274342505_1_alg».proof.Proof.Gen.ReferenceIdeal.Read

noncomputable section

namespace Cert.Stages

open Idealize.ShloMosaic Idealize.ShloMosaic.TcCoe Idealize.SL.Sem
open Cert.ReferenceIdeal.Read

variable {F : FTy → Type} [FloatOps F]
variable (m : (ℓ : Loc Cert.KernelIdeal.nD Cert.KernelIdeal.τ Cert.KernelIdeal.sig) → Buf (Elt F) ℓ) (c : Dev Cert.KernelIdeal.nD)

/-- node_features [102400, 60] -/
abbrev A0 : FVec F Cert.KernelIdeal.S102400x60 .f32 := m ((c.tc : Thread Cert.KernelIdeal.nD Cert.KernelIdeal.τ).loc Cert.KernelIdeal.main_arg0)
/-- edge_features [1638400, 1] -/
abbrev A1 : FVec F Cert.KernelIdeal.S1638400x1 .f32 := m ((c.tc : Thread Cert.KernelIdeal.nD Cert.KernelIdeal.τ).loc Cert.KernelIdeal.main_arg1)
/-- senders [1638400] -/
abbrev A2 : IVec Cert.KernelIdeal.S1638400 32 := m ((c.tc : Thread Cert.KernelIdeal.nD Cert.KernelIdeal.τ).loc Cert.KernelIdeal.main_arg2)
/-- receivers [1638400] -/
abbrev A3 : IVec Cert.KernelIdeal.S1638400 32 := m ((c.tc : Thread Cert.KernelIdeal.nD Cert.KernelIdeal.τ).loc Cert.KernelIdeal.main_arg3)
/-- node_graph [102400] -/
abbrev A4 : IVec Cert.KernelIdeal.S102400 32 := m ((c.tc : Thread Cert.KernelIdeal.nD Cert.KernelIdeal.τ).loc Cert.KernelIdeal.main_arg4)
/-- edge_graph [1638400] -/
abbrev A5 : IVec Cert.KernelIdeal.S1638400 32 := m ((c.tc : Thread Cert.KernelIdeal.nD Cert.KernelIdeal.τ).loc Cert.KernelIdeal.main_arg5)
abbrev A6 : FVec F Cert.KernelIdeal.S8x1 .f32 := m ((c.tc : Thread Cert.KernelIdeal.nD Cert.KernelIdeal.τ).loc Cert.KernelIdeal.main_arg6)
abbrev A7 : FVec F Cert.KernelIdeal.S8x60 .f32 := m ((c.tc : Thread Cert.KernelIdeal.nD Cert.KernelIdeal.τ).loc Cert.KernelIdeal.main_arg7)
abbrev A8 : FVec F Cert.KernelIdeal.S8 .f32 := m ((c.tc : Thread Cert.KernelIdeal.nD Cert.KernelIdeal.τ).loc Cert.KernelIdeal.main_arg8)
abbrev A9 : FVec F Cert.KernelIdeal.S16x60 .f32 := m ((c.tc : Thread Cert.KernelIdeal.nD Cert.KernelIdeal.τ).loc Cert.KernelIdeal.main_arg9)
abbrev A10 : FVec F Cert.KernelIdeal.S16x8 .f32 := m ((c.tc : Thread Cert.KernelIdeal.nD Cert.KernelIdeal.τ).loc Cert.KernelIdeal.main_arg10)
abbrev A11 : FVec F Cert.KernelIdeal.S16 .f32 := m ((c.tc : Thread Cert.KernelIdeal.nD Cert.KernelIdeal.τ).loc Cert.KernelIdeal.main_arg11)
abbrev A12 : FVec F Cert.KernelIdeal.S4x8 .f32 := m ((c.tc : Thread Cert.KernelIdeal.nD Cert.KernelIdeal.τ).loc Cert.KernelIdeal.main_arg12)
abbrev A13 : FVec F Cert.KernelIdeal.S4x16 .f32 := m ((c.tc : Thread Cert.KernelIdeal.nD Cert.KernelIdeal.τ).loc Cert.KernelIdeal.main_arg13)
abbrev A14 : FVec F Cert.KernelIdeal.S4 .f32 := m ((c.tc : Thread Cert.KernelIdeal.nD Cert.KernelIdeal.τ).loc Cert.KernelIdeal.main_arg14)
abbrev A15 : FVec F Cert.KernelIdeal.S8x8 .f32 := m ((c.tc : Thread Cert.KernelIdeal.nD Cert.KernelIdeal.τ).loc Cert.KernelIdeal.main_arg15)
abbrev A16 : FVec F Cert.KernelIdeal.S8x16 .f32 := m ((c.tc : Thread Cert.KernelIdeal.nD Cert.KernelIdeal.τ).loc Cert.KernelIdeal.main_arg16)
abbrev A17 : FVec F Cert.KernelIdeal.S8x4 .f32 := m ((c.tc : Thread Cert.KernelIdeal.nD Cert.KernelIdeal.τ).loc Cert.KernelIdeal.main_arg17)
abbrev A18 : FVec F Cert.KernelIdeal.S8 .f32 := m ((c.tc : Thread Cert.KernelIdeal.nD Cert.KernelIdeal.τ).loc Cert.KernelIdeal.main_arg18)
abbrev A19 : FVec F Cert.KernelIdeal.S16x16 .f32 := m ((c.tc : Thread Cert.KernelIdeal.nD Cert.KernelIdeal.τ).loc Cert.KernelIdeal.main_arg19)
abbrev A20 : FVec F Cert.KernelIdeal.S16x8 .f32 := m ((c.tc : Thread Cert.KernelIdeal.nD Cert.KernelIdeal.τ).loc Cert.KernelIdeal.main_arg20)
abbrev A21 : FVec F Cert.KernelIdeal.S16x4 .f32 := m ((c.tc : Thread Cert.KernelIdeal.nD Cert.KernelIdeal.τ).loc Cert.KernelIdeal.main_arg21)
abbrev A22 : FVec F Cert.KernelIdeal.S16 .f32 := m ((c.tc : Thread Cert.KernelIdeal.nD Cert.KernelIdeal.τ).loc Cert.KernelIdeal.main_arg22)
abbrev A23 : FVec F Cert.KernelIdeal.S4x8 .f32 := m ((c.tc : Thread Cert.KernelIdeal.nD Cert.KernelIdeal.τ).loc Cert.KernelIdeal.main_arg23)
abbrev A24 : FVec F Cert.KernelIdeal.S4x16 .f32 := m ((c.tc : Thread Cert.KernelIdeal.nD Cert.KernelIdeal.τ).loc Cert.KernelIdeal.main_arg24)
abbrev A25 : FVec F Cert.KernelIdeal.S4x4 .f32 := m ((c.tc : Thread Cert.KernelIdeal.nD Cert.KernelIdeal.τ).loc Cert.KernelIdeal.main_arg25)
abbrev A26 : FVec F Cert.KernelIdeal.S4 .f32 := m ((c.tc : Thread Cert.KernelIdeal.nD Cert.KernelIdeal.τ).loc Cert.KernelIdeal.main_arg26)
abbrev A27 : FVec F Cert.KernelIdeal.S1x16 .f32 := m ((c.tc : Thread Cert.KernelIdeal.nD Cert.KernelIdeal.τ).loc Cert.KernelIdeal.main_arg27)
abbrev A28 : FVec F Cert.KernelIdeal.S1 .f32 := m ((c.tc : Thread Cert.KernelIdeal.nD Cert.KernelIdeal.τ).loc Cert.KernelIdeal.main_arg28)
abbrev A29 : FVec F Cert.KernelIdeal.S1x4 .f32 := m ((c.tc : Thread Cert.KernelIdeal.nD Cert.KernelIdeal.τ).loc Cert.KernelIdeal.main_arg29)
abbrev A30 : FVec F Cert.KernelIdeal.S1 .f32 := m ((c.tc : Thread Cert.KernelIdeal.nD Cert.KernelIdeal.τ).loc Cert.KernelIdeal.main_arg30)

/-- Each edge's sender's input features. -/
abbrev senderInputs := val_main_v8 (F := F) (A0 m c) (A2 m c)
/-- The edge features after the first update. -/
abbrev edges1 := val_main_v15 (F := F) (A0 m c) (A1 m c) (A2 m c) (A6 m c) (A7 m c) (A8 m c)
/-- Their mean over each node's incoming edges. -/
abbrev edgeMean1 := val_main_v28 (F := F) (A0 m c) (A1 m c) (A2 m c) (A3 m c) (A6 m c) (A7 m c) (A8 m c)
/-- The node features after the first update. -/
abbrev nodes1 := val_main_v35 (F := F) (A0 m c) (A1 m c) (A2 m c) (A3 m c) (A6 m c) (A7 m c) (A8 m c) (A9 m c) (A10 m c) (A11 m c)
/-- The per-graph vector after the first update. -/
abbrev graph1 := val_main_v66 (F := F) (A0 m c) (A1 m c) (A2 m c) (A3 m c) (A4 m c) (A5 m c) (A6 m c) (A7 m c) (A8 m c) (A9 m c) (A10 m c) (A11 m c) (A12 m c) (A13 m c) (A14 m c)
/-- Each edge's sender's features after the first update. -/
abbrev senderNodes1 := val_main_v75 (F := F) (A0 m c) (A1 m c) (A2 m c) (A3 m c) (A6 m c) (A7 m c) (A8 m c) (A9 m c) (A10 m c) (A11 m c)
/-- Each edge's graph's vector. -/
abbrev edgeGraph1 := val_main_v85 (F := F) (A0 m c) (A1 m c) (A2 m c) (A3 m c) (A4 m c) (A5 m c) (A6 m c) (A7 m c) (A8 m c) (A9 m c) (A10 m c) (A11 m c) (A12 m c) (A13 m c) (A14 m c)
/-- The edge features after the second update. -/
abbrev edges2 := val_main_v92 (F := F) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c)
/-- Their mean over each node's incoming edges. -/
abbrev edgeMean2 := val_main_v105 (F := F) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c)
/-- Each node's graph's vector. -/
abbrev nodeGraph1 := val_main_v115 (F := F) (A0 m c) (A1 m c) (A2 m c) (A3 m c) (A4 m c) (A5 m c) (A6 m c) (A7 m c) (A8 m c) (A9 m c) (A10 m c) (A11 m c) (A12 m c) (A13 m c) (A14 m c)
/-- The node features after the second update. -/
abbrev nodes2 := val_main_v122 (F := F) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c)
/-- The first result: the node read-out. -/
abbrev nodesOut := val_main_v167 (F := F) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A27 m c) (A28 m c)
/-- The second result: the per-graph read-out. -/
abbrev graphsOut := val_main_v178 (F := F) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) (A26 m c) (A29 m c) (A30 m c)

end Cert.Stages

end
-- ==== Proof.Walk.lean ====
/-
  Reading a buffer back through the run.

  Between two kernel regions the host operations form a list, and what a buffer holds after the list is either the value
  of the one operation that writes it, applied to what its operands held, or what it held before.  A kernel region
  changes only its own windows' arrays: any other buffer passes its exit unchanged.  So any buffer's contents at any
  boundary of the run unfold, step by step, to an expression in the contents of buffers at earlier boundaries, ending at a
  region's output array or at the launch memory.  `read_back` does that unfolding; the buffers that pass a region's exit
  on the way are named to it (`x3 r`, `x5 r`, `x11 r`, `x15 r`: buffer r passes the exit of region 0, 1, 2, 3).
-/
import proofs.«401216_j29635274342505_1_alg».proof.Proof.Gen.KernelIdeal.Frame
import Idealize.ShloMosaic.Lib.StableHlo.Run
import Idealize.ShloMosaic.Lib.Pipeline.Value
import Idealize.ShloMosaic.Lib.ValueIdx

namespace Cert.Chain

open Idealize.ShloMosaic.StableHlo Cert.KernelIdeal.Gen

/-- Unfold a buffer's contents at a boundary to the operations that wrote it, over earlier boundaries. -/
syntax "read_back" ("[" Lean.Parser.Tactic.simpLemma,* "]")? : tactic
macro_rules
  | `(tactic| read_back) =>
    `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))
  | `(tactic| read_back [$ls,*]) =>
    `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ls,*]))

/-- Buffer `r` is none of region 0's arrays, so it passes that region's exit unchanged. -/
macro "x3 " r:ident : term => `(W3_of_ne _ _ _ $r (by decide))
macro "x5 " r:ident : term => `(W5_of_ne _ _ _ $r (by decide))
macro "x11 " r:ident : term => `(W11_of_ne _ _ _ $r (by decide))
macro "x15 " r:ident : term => `(W15_of_ne _ _ _ $r (by decide))

/-- Contents carried to a buffer's own type and back are unchanged. -/
theorem ofBuf_toBuf {sig : Idealize.ShloMosaic.RefSig} {Val : Idealize.ShloMosaic.EltTy → Type} {T : Idealize.ShloMosaic.BufTy}
    (x : TRef sig T) (v : T.Contents Val) : x.ofBuf (x.toBuf v) = v := by
  obtain ⟨r, rfl, _, _⟩ := x
  rfl

/-- Contents carried to a buffer's own type are the same contents. -/
theorem toBuf_heq {sig : Idealize.ShloMosaic.RefSig} {Val : Idealize.ShloMosaic.EltTy → Type} {T : Idealize.ShloMosaic.BufTy}
    (x : TRef sig T) (v : T.Contents Val) : HEq (x.toBuf v) v := by
  obtain ⟨r, rfl, _, _⟩ := x
  exact HEq.rfl

/-- A vector of n entries reshaped to one row of n entries holds entry j at (0, j). -/
theorem reshape_row_apply {α : Type} {n : Nat} (v : (⟨1, ![n]⟩ : Idealize.ShloMosaic.Shape).Idx → α)
    (h : (⟨1, ![n]⟩ : Idealize.ShloMosaic.Shape).ShapeCasts ⟨2, ![1, n]⟩) (j : Fin n) :
    Idealize.ShloMosaic.shapeCast ⟨2, ![1, n]⟩ v h (Idealize.ShloMosaic.ValueIdx.ix2 0 j) = v (Idealize.ShloMosaic.ValueIdx.ix1 j) :=
  (Idealize.ShloMosaic.shapeCast_addUnit_apply ![n] v h (Idealize.ShloMosaic.ValueIdx.ix2 0 j)).trans
    (congrArg v (funext fun a => match a with | ⟨0, _⟩ => rfl))

end Cert.Chain
-- ==== Proof.TakeRows.lean ====
/-
  Reading rows of a table by an index array: the filled form and the plain form.

  The kernel's program reads rows through a guarded gather: a negative index i is first wrapped to i + n (n the number
  of rows), the wrapped index is tested against [0, n - 1], the row is gathered, and a row whose index failed the test
  is replaced by a row of NaN words.  The reference reads the same rows by the same wrapped index with no test.  Where
  every index lies in [-n, n) the wrapped index lies in [0, n - 1], the test passes at every row, and the two are one array.
-/
import proofs.«401216_j29635274342505_1_alg».proof.Proof.Gen.KernelIdeal
import Idealize.ShloMosaic.PureOps.Ideal
import Idealize.ShloMosaic.Lib.ValueIdx
import Idealize.ShloMosaic.Lib.ReduceAll
import Idealize.ShloMosaic.Lib.StableHlo.Predicate

noncomputable section

namespace Cert.KernelIdeal.TakeRows

open Cert.KernelIdeal Cert.KernelIdeal.Facts₀ Cert.KernelIdeal.Facts Idealize.ShloMosaic Idealize.ShloMosaic.ValueIdx

/-- An edge-indexed index array wrapped into a table of `n` rows: i + n where i < 0, i otherwise, as a column. -/
def wrapE (n : BitVec 32) (s : IVec S1638400 32) : IVec S1638400x1 32 :=
  broadcastInDim S1638400x1 ![0] bcast_S1638400_S1638400x1_0
    (select (cmpi .slt s (broadcastInDim S1638400 ![] bcast_S_S1638400 (constantI S_ 32 0#32)))
      (addi s (broadcastInDim S1638400 ![] bcast_S_S1638400 (constantI S_ 32 n))) s)

/-- The same for a node-indexed index array. -/
def wrapN (n : BitVec 32) (s : IVec S102400 32) : IVec S102400x1 32 :=
  broadcastInDim S102400x1 ![0] bcast_S102400_S102400x1_0
    (select (cmpi .slt s (broadcastInDim S102400 ![] bcast_S_S102400 (constantI S_ 32 0#32)))
      (addi s (broadcastInDim S102400 ![] bcast_S_S102400 (constantI S_ 32 n))) s)

/-- Per edge: is the wrapped index inside [0, hi]? -/
def inRangeE (hi : BitVec 32) (idx : IVec S1638400x1 32) : IVec S1638400 1 :=
  Host.reduce IntOp.andi
    (andi (cmpi .sge idx (broadcastInDim S1638400x1 ![] bcast_S_S1638400x1 (constantI S_ 32 0#32)))
      (cmpi .sle idx (broadcastInDim S1638400x1 ![0, 1] bcast_S1x1_S1638400x1_0_1
        (broadcastInDim S1x1 ![1] bcast_S1_S1x1_1 (constantI S1 32 hi)))))
    (constantI S_ 1 1#1) reducesTo_S1638400x1_S1638400_d1 h_S_

/-- Per node: is the wrapped index inside [0, hi]? -/
def inRangeN (hi : BitVec 32) (idx : IVec S102400x1 32) : IVec S102400 1 :=
  Host.reduce IntOp.andi
    (andi (cmpi .sge idx (broadcastInDim S102400x1 ![] bcast_S_S102400x1 (constantI S_ 32 0#32)))
      (cmpi .sle idx (broadcastInDim S102400x1 ![0, 1] bcast_S1x1_S102400x1_0_1
        (broadcastInDim S1x1 ![1] bcast_S1_S1x1_1 (constantI S1 32 hi)))))
    (constantI S_ 1 1#1) reducesTo_S102400x1_S102400_d1 h_S_

/-- The sender's 60 input features of every edge, a NaN row where the sender index is out of range. -/
def senderInputs (x : FVec Ideal S102400x60 .f32) (s : IVec S1638400 32) : FVec Ideal S1638400x60 .f32 :=
  select (broadcastInDim S1638400x60 ![0] bcast_S1638400_S1638400x60_0 (inRangeE 102399#32 (wrapE 102400#32 s)))
    (Host.gather gather_S102400x60_S1638400x1_S1638400x60_1_0_n_n_0_1_160 x (wrapE 102400#32 s))
    (broadcastInDim S1638400x60 ![] bcast_S_S1638400x60 (constant (F := Ideal) S_ .f32 0x7FC00000#32))

/-- The sender's 16 encoded features of every edge, filled likewise. -/
def senderFeatures (x : FVec Ideal S102400x16 .f32) (s : IVec S1638400 32) : FVec Ideal S1638400x16 .f32 :=
  select (broadcastInDim S1638400x16 ![0] bcast_S1638400_S1638400x16_0 (inRangeE 102399#32 (wrapE 102400#32 s)))
    (Host.gather gather_S102400x16_S1638400x1_S1638400x16_1_0_n_n_0_1_116 x (wrapE 102400#32 s))
    (broadcastInDim S1638400x16 ![] bcast_S_S1638400x16 (constant (F := Ideal) S_ .f32 0x7FC00000#32))

/-- The graph vector of every edge's graph, filled likewise. -/
def edgeGraphRows (x : FVec Ideal S64x4 .f32) (s : IVec S1638400 32) : FVec Ideal S1638400x4 .f32 :=
  select (broadcastInDim S1638400x4 ![0] bcast_S1638400_S1638400x4_0 (inRangeE 63#32 (wrapE 64#32 s)))
    (Host.gather gather_S64x4_S1638400x1_S1638400x4_1_0_n_n_0_1_14 x (wrapE 64#32 s))
    (broadcastInDim S1638400x4 ![] bcast_S_S1638400x4 (constant (F := Ideal) S_ .f32 0x7FC00000#32))

/-- The graph vector of every node's graph, filled likewise. -/
def nodeGraphRows (x : FVec Ideal S64x4 .f32) (s : IVec S102400 32) : FVec Ideal S102400x4 .f32 :=
  select (broadcastInDim S102400x4 ![0] bcast_S102400_S102400x4_0 (inRangeN 63#32 (wrapN 64#32 s)))
    (Host.gather gather_S64x4_S102400x1_S102400x4_1_0_n_n_0_1_14 x (wrapN 64#32 s))
    (broadcastInDim S102400x4 ![] bcast_S_S102400x4 (constant (F := Ideal) S_ .f32 0x7FC00000#32))

/-! ### One index word

  For a word w with -n ≤ w < n (as signed numbers, n below 2^30 so that w + n does not wrap), the wrapped word
  w' = (w + n where w < 0, w otherwise) satisfies 0 ≤ w' ≤ n - 1: both signed tests of the range check give the bit 1. -/

/-- The bit of a decision that holds is 1. -/
private theorem ofBool_decide_of_true (p : Prop) [Decidable p] (hp : p) : BitVec.ofBool (decide p) = 1#1 := by
  rw [decide_eq_true hp]; rfl

/-- The wrapped word lies in [0, n - 1]: it passes `0 ≤ ·` and `· ≤ hi`, hi the word of n - 1. -/
private theorem wrapped_word_in_range (w n hi : BitVec 32) (hn : n.toInt < 2 ^ 30) (hhi : hi.toInt = n.toInt - 1)
    (h : -n.toInt ≤ w.toInt ∧ w.toInt < n.toInt) :
    IntOp.cmpi .sge (Scalar.select (IntOp.cmpi .slt w 0#32) (IntOp.addi w n) w) 0#32 = 1#1
    ∧ IntOp.cmpi .sle (Scalar.select (IntOp.cmpi .slt w 0#32) (IntOp.addi w n) w) hi = 1#1 := by
  obtain ⟨hlo, hup⟩ := h
  have h0 : (0#32 : BitVec 32).toInt = 0 := by decide
  by_cases hneg : w.toInt < 0
  · -- w < 0: the wrapped word is w + n, and -n ≤ w < 0 puts the sum in [0, n - 1] with no wrap-around
    have hc : IntOp.cmpi .slt w 0#32 = 1#1 := ofBool_decide_of_true _ (by rw [h0]; exact hneg)
    have hsum : (w + n).toInt = w.toInt + n.toInt := by
      rw [BitVec.toInt_add]
      exact Int.bmod_eq_of_le_mul_two (by omega) (by omega)
    rw [hc, select_one]
    exact ⟨ofBool_decide_of_true _ (by rw [h0]; show 0 ≤ (w + n).toInt; omega),
      ofBool_decide_of_true _ (by show (w + n).toInt ≤ hi.toInt; omega)⟩
  · -- 0 ≤ w: the wrapped word is w itself, and 0 ≤ w < n
    have hc : IntOp.cmpi .slt w 0#32 = 0#1 := by
      show BitVec.ofBool (decide (w.toInt < (0#32 : BitVec 32).toInt)) = 0#1
      rw [h0, decide_eq_false hneg]; rfl
    rw [hc, select_zero]
    exact ⟨ofBool_decide_of_true _ (by rw [h0]; omega), ofBool_decide_of_true _ (by omega)⟩

/-! ### The conjunction over a row, and a select under a mask of ones -/

/-- A left fold by `and`, from 1, over bits that are all 1 is 1. -/
private theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_of_all_one f hf l

/-- A reduction by `and`, from 1, of an array of bits that are all 1 is 1 at every result index. -/
private theorem reduce_andi_of_all_one {s t u : Shape} {axes : List (Fin s.rank)} (x : s.Idx → BitVec 1)
    (h : s.ReducesTo axes t) (hu : 0 < u.numel) (hx : ∀ i, x i = 1#1) (j : t.Idx) :
    Host.reduce IntOp.andi x (constantI u 1 1#1) h hu j = 1#1 := by
  rw [Host.reduce_eq_foldl]
  exact foldl_andi_of_all_one x hx _

/-- A select whose mask is a per-row bit spread along the row, 1 at every row, is its first branch. -/
private theorem select_of_rows_one {r t : Shape} {α : Type} (dims : Fin r.rank → Fin t.rank) (h : r.BroadcastsInDim t dims)
    (m : IVec r 1) (hm : ∀ e, m e = 1#1) (a b : t.Idx → α) :
    select (broadcastInDim t dims h m) a b = a := by
  funext i
  show Scalar.select (m _) (a i) (b i) = a i
  rw [hm, select_one]

/-! ### Edge-indexed and node-indexed index arrays -/

/-- An entry of the wrapped column is the wrapped word of one entry of the index array. -/
private theorem wrapE_apply (n : BitVec 32) (s : IVec S1638400 32) (j : S1638400x1.Idx) :
    ∃ e : S1638400.Idx, wrapE n s j = Scalar.select (IntOp.cmpi .slt (s e) 0#32) (IntOp.addi (s e) n) (s e) :=
  ⟨_, rfl⟩

/-- With every index in [-n, n) the range test of the wrapped column passes at every edge. -/
private theorem inRangeE_wrapE (n hi : BitVec 32) (hn : n.toInt < 2 ^ 30) (hhi : hi.toInt = n.toInt - 1) (s : IVec S1638400 32)
    (hs : ∀ e : S1638400.Idx, -n.toInt ≤ (s e).toInt ∧ (s e).toInt < n.toInt) (e : S1638400.Idx) :
    inRangeE hi (wrapE n s) e = 1#1 := by
  unfold inRangeE
  refine reduce_andi_of_all_one _ _ _ (fun j => ?_) e
  obtain ⟨e', he'⟩ := wrapE_apply n s j
  show IntOp.andi (IntOp.cmpi .sge (wrapE n s j) 0#32) (IntOp.cmpi .sle (wrapE n s j) hi) = 1#1
  rw [he']
  exact IntOp.andi_eq_one.2 (wrapped_word_in_range (s e') n hi hn hhi (hs e'))

private theorem wrapN_apply (n : BitVec 32) (s : IVec S102400 32) (j : S102400x1.Idx) :
    ∃ e : S102400.Idx, wrapN n s j = Scalar.select (IntOp.cmpi .slt (s e) 0#32) (IntOp.addi (s e) n) (s e) :=
  ⟨_, rfl⟩

/-- The same at every node. -/
private theorem inRangeN_wrapN (n hi : BitVec 32) (hn : n.toInt < 2 ^ 30) (hhi : hi.toInt = n.toInt - 1) (s : IVec S102400 32)
    (hs : ∀ e : S102400.Idx, -n.toInt ≤ (s e).toInt ∧ (s e).toInt < n.toInt) (e : S102400.Idx) :
    inRangeN hi (wrapN n s) e = 1#1 := by
  unfold inRangeN
  refine reduce_andi_of_all_one _ _ _ (fun j => ?_) e
  obtain ⟨e', he'⟩ := wrapN_apply n s j
  show IntOp.andi (IntOp.cmpi .sge (wrapN n s j) 0#32) (IntOp.cmpi .sle (wrapN n s j) hi) = 1#1
  rw [he']
  exact IntOp.andi_eq_one.2 (wrapped_word_in_range (s e') n hi hn hhi (hs e'))

/-- The two table heights as signed numbers. -/
private theorem toInt_102400 : (102400#32 : BitVec 32).toInt = 102400 := by decide
private theorem toInt_64 : (64#32 : BitVec 32).toInt = 64 := by decide

/-- With every sender index in [-102400, 102400) no row is filled: the plain gather by the wrapped index. -/
theorem senderInputs_eq (x : FVec Ideal S102400x60 .f32) (s : IVec S1638400 32)
    (hs : ∀ e : S1638400.Idx, (-102400 : Int) ≤ (s e).toInt ∧ (s e).toInt < 102400) :
    senderInputs x s = Host.gather gather_S102400x60_S1638400x1_S1638400x60_1_0_n_n_0_1_160 x (wrapE 102400#32 s) :=
  select_of_rows_one _ _ _
    (inRangeE_wrapE 102400#32 102399#32 (by decide) (by decide) s (fun e => by rw [toInt_102400]; exact hs e)) _ _

theorem senderFeatures_eq (x : FVec Ideal S102400x16 .f32) (s : IVec S1638400 32)
    (hs : ∀ e : S1638400.Idx, (-102400 : Int) ≤ (s e).toInt ∧ (s e).toInt < 102400) :
    senderFeatures x s = Host.gather gather_S102400x16_S1638400x1_S1638400x16_1_0_n_n_0_1_116 x (wrapE 102400#32 s) :=
  select_of_rows_one _ _ _
    (inRangeE_wrapE 102400#32 102399#32 (by decide) (by decide) s (fun e => by rw [toInt_102400]; exact hs e)) _ _

/-- With every edge's graph index in [-64, 64) no row is filled. -/
theorem edgeGraphRows_eq (x : FVec Ideal S64x4 .f32) (s : IVec S1638400 32)
    (hs : ∀ e : S1638400.Idx, (-64 : Int) ≤ (s e).toInt ∧ (s e).toInt < 64) :
    edgeGraphRows x s = Host.gather gather_S64x4_S1638400x1_S1638400x4_1_0_n_n_0_1_14 x (wrapE 64#32 s) :=
  select_of_rows_one _ _ _
    (inRangeE_wrapE 64#32 63#32 (by decide) (by decide) s (fun e => by rw [toInt_64]; exact hs e)) _ _

/-- With every node's graph index in [-64, 64) no row is filled. -/
theorem nodeGraphRows_eq (x : FVec Ideal S64x4 .f32) (s : IVec S102400 32)
    (hs : ∀ n : S102400.Idx, (-64 : Int) ≤ (s n).toInt ∧ (s n).toInt < 64) :
    nodeGraphRows x s = Host.gather gather_S64x4_S102400x1_S102400x4_1_0_n_n_0_1_14 x (wrapN 64#32 s) :=
  select_of_rows_one _ _ _
    (inRangeN_wrapN 64#32 63#32 (by decide) (by decide) s (fun e => by rw [toInt_64]; exact hs e)) _ _

end Cert.KernelIdeal.TakeRows

end
-- ==== Proof.GuardedGather.lean ====
/-
  The guarded gathers at any reading of the floats.

  The four guarded gathers of Proof/TakeRows.lean are written there over the extended reals, where their agreement with the
  plain gathers is proved.  What the host operations compute is the same expression whatever the floats are read as; it
  is stated here once for an arbitrary reading, so that it can be matched against the run's operations without opening
  any arithmetic, and identified with TakeRows' form at the extended reals by unfolding.
-/
import proofs.«401216_j29635274342505_1_alg».proof.Proof.TakeRows

noncomputable section

namespace Cert.KernelIdeal.TakeRows

open Cert.KernelIdeal Cert.KernelIdeal.Facts₀ Cert.KernelIdeal.Facts Idealize.ShloMosaic

variable {F : FTy → Type} [FloatOps F]

def senderInputsAt (x : FVec F S102400x60 .f32) (s : IVec S1638400 32) : FVec F S1638400x60 .f32 :=
  select (broadcastInDim S1638400x60 ![0] bcast_S1638400_S1638400x60_0 (inRangeE 102399#32 (wrapE 102400#32 s)))
    (Host.gather gather_S102400x60_S1638400x1_S1638400x60_1_0_n_n_0_1_160 x (wrapE 102400#32 s))
    (broadcastInDim S1638400x60 ![] bcast_S_S1638400x60 (constant (F := F) S_ .f32 0x7FC00000#32))

def senderFeaturesAt (x : FVec F S102400x16 .f32) (s : IVec S1638400 32) : FVec F S1638400x16 .f32 :=
  select (broadcastInDim S1638400x16 ![0] bcast_S1638400_S1638400x16_0 (inRangeE 102399#32 (wrapE 102400#32 s)))
    (Host.gather gather_S102400x16_S1638400x1_S1638400x16_1_0_n_n_0_1_116 x (wrapE 102400#32 s))
    (broadcastInDim S1638400x16 ![] bcast_S_S1638400x16 (constant (F := F) S_ .f32 0x7FC00000#32))

def edgeGraphRowsAt (x : FVec F S64x4 .f32) (s : IVec S1638400 32) : FVec F S1638400x4 .f32 :=
  select (broadcastInDim S1638400x4 ![0] bcast_S1638400_S1638400x4_0 (inRangeE 63#32 (wrapE 64#32 s)))
    (Host.gather gather_S64x4_S1638400x1_S1638400x4_1_0_n_n_0_1_14 x (wrapE 64#32 s))
    (broadcastInDim S1638400x4 ![] bcast_S_S1638400x4 (constant (F := F) S_ .f32 0x7FC00000#32))

def nodeGraphRowsAt (x : FVec F S64x4 .f32) (s : IVec S102400 32) : FVec F S102400x4 .f32 :=
  select (broadcastInDim S102400x4 ![0] bcast_S102400_S102400x4_0 (inRangeN 63#32 (wrapN 64#32 s)))
    (Host.gather gather_S64x4_S102400x1_S102400x4_1_0_n_n_0_1_14 x (wrapN 64#32 s))
    (broadcastInDim S102400x4 ![] bcast_S_S102400x4 (constant (F := F) S_ .f32 0x7FC00000#32))

theorem senderInputsAt_ideal (x : FVec Ideal S102400x60 .f32) (s : IVec S1638400 32) :
    senderInputsAt (F := Ideal) x s = senderInputs x s := rfl
theorem senderFeaturesAt_ideal (x : FVec Ideal S102400x16 .f32) (s : IVec S1638400 32) :
    senderFeaturesAt (F := Ideal) x s = senderFeatures x s := rfl
theorem edgeGraphRowsAt_ideal (x : FVec Ideal S64x4 .f32) (s : IVec S1638400 32) :
    edgeGraphRowsAt (F := Ideal) x s = edgeGraphRows x s := rfl
theorem nodeGraphRowsAt_ideal (x : FVec Ideal S64x4 .f32) (s : IVec S102400 32) :
    nodeGraphRowsAt (F := Ideal) x s = nodeGraphRows x s := rfl

end Cert.KernelIdeal.TakeRows

end
-- ==== Proof.DenseRow.lean ====
/-
  One entry of a dense layer of the graph network, over the extended reals.

  Every update of the network (edges, nodes, and the node read-out) is, entry by entry, a sum of products of
  one ROW of each input with one COLUMN of the matching weight, plus a bias, through ReLU or the logistic
  function.  An input that is the concatenation of two or three feature blocks contributes one sum per block,
  added left to right, and the bias is added last: ((s₁ + s₂) + s₃) + b.  Both programs group the sums this
  way, so no rearrangement of the extended reals' sums is ever needed to compare them.
-/
import Idealize.ShloMosaic.PureOps.Ideal

noncomputable section

open scoped BigOperators
open Idealize.ShloMosaic

namespace Cert.DenseRow

/-- `max ((x₁·w₁ + x₂·w₂) + b) 0`: one output entry of a ReLU layer fed by two feature blocks. -/
def relu2 {d1 d2 : ℕ} (x1 w1 : Fin d1 → EReal) (x2 w2 : Fin d2 → EReal) (b : EReal) : EReal :=
  max (((∑ k, x1 k * w1 k) + ∑ k, x2 k * w2 k) + b) 0

/-- `max (((x₁·w₁ + x₂·w₂) + x₃·w₃) + b) 0`: the same with three feature blocks. -/
def relu3 {d1 d2 d3 : ℕ} (x1 w1 : Fin d1 → EReal) (x2 w2 : Fin d2 → EReal) (x3 w3 : Fin d3 → EReal) (b : EReal) : EReal :=
  max ((((∑ k, x1 k * w1 k) + ∑ k, x2 k * w2 k) + ∑ k, x3 k * w3 k) + b) 0

/-- `logistic (x·w + b)`: one entry of a sigmoid read-out, `logistic x = 1 / (1 + e⁻ˣ)`. -/
def sigmoid1 {d : ℕ} (x w : Fin d → EReal) (b : EReal) : EReal :=
  Ideal.logistic ((∑ k, x k * w k) + b)

end Cert.DenseRow

end
-- ==== Proof.EdgeEncoder.lean ====
/-
  The first edge update, as one function of the arrays the region finds.
  The edges are cut into 400 blocks of 4096 rows; a block's rows depend only on the same rows of the two inputs and on the
  whole (small) weights and bias, so the 400 written blocks are the restrictions of ONE array-wide function.
-/
import proofs.«401216_j29635274342505_1_alg».proof.Proof.Gen.KernelIdeal.Frame
import proofs.«401216_j29635274342505_1_alg».proof.Proof.DenseRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeEncoder

open Cert.KernelIdeal Cert.KernelIdeal.Gen Cert.DenseRow
open Idealize.ShloMosaic Idealize.ShloMosaic.TcCoe Idealize.SL.Sem Idealize.ShloMosaic.ValueIdx
open Idealize.ShloMosaic.Pipeline (Dat Cfg Window)

-- the buffer contents when the region is entered: a parameter, so that the lemma serves whatever ran before
variable (V : (c : Dev nD) → (b : Ref sig .tc) → Buf (Elt Ideal) ((c : Thread nD τ).loc b))

/-! ## One entry of a block's two products

A product of a [4096, K] block with a [K, 8] weight, no batch axis: at output entry (r, j) and contraction
coordinate k the left operand is read at (r, k) and the right at (k, j). -/

-- edge features [4096, 1] times their weight [1, 8]
private theorem feat_lhs_0 (i : S4096x8.Idx) (q : dot_S4096x1_S1x8_S4096x8_1_0_0_1_n_n.contr.Idx) :
    (dot_S4096x1_S1x8_S4096x8_1_0_0_1_n_n.lhsIdx i q 0).val = (i 0).val := by
  unfold DotDims.lhsIdx
  rw [dif_neg (show ¬(0 : Fin S4096x1.rank) ∈ dot_S4096x1_S1x8_S4096x8_1_0_0_1_n_n.lhsBatch by decide), dif_pos (show (0 : Fin S4096x1.rank) ∈ dot_S4096x1_S1x8_S4096x8_1_0_0_1_n_n.lhsNonContracting by decide)]
  rfl
private theorem feat_lhs_1 (i : S4096x8.Idx) (q : dot_S4096x1_S1x8_S4096x8_1_0_0_1_n_n.contr.Idx) :
    (dot_S4096x1_S1x8_S4096x8_1_0_0_1_n_n.lhsIdx i q 1).val = (q ⟨0, by decide⟩).val :=
  dot_S4096x1_S1x8_S4096x8_1_0_0_1_n_n.lhsIdx_val_of_single rfl i q
private theorem feat_rhs_0 (i : S4096x8.Idx) (q : dot_S4096x1_S1x8_S4096x8_1_0_0_1_n_n.contr.Idx) :
    (dot_S4096x1_S1x8_S4096x8_1_0_0_1_n_n.rhsIdx i q 0).val = (q ⟨0, by decide⟩).val :=
  dot_S4096x1_S1x8_S4096x8_1_0_0_1_n_n.rhsIdx_val_of_single rfl i q
private theorem feat_rhs_1 (i : S4096x8.Idx) (q : dot_S4096x1_S1x8_S4096x8_1_0_0_1_n_n.contr.Idx) :
    (dot_S4096x1_S1x8_S4096x8_1_0_0_1_n_n.rhsIdx i q 1).val = (i 1).val := by
  unfold DotDims.rhsIdx
  rw [dif_neg (show ¬(1 : Fin S1x8.rank) ∈ dot_S4096x1_S1x8_S4096x8_1_0_0_1_n_n.rhsBatch by decide), dif_pos (show (1 : Fin S1x8.rank) ∈ dot_S4096x1_S1x8_S4096x8_1_0_0_1_n_n.rhsNonContracting by decide)]
  rfl

-- sender features [4096, 60] times their weight [60, 8]
private theorem sender_lhs_0 (i : S4096x8.Idx) (q : dot_S4096x60_S60x8_S4096x8_1_0_0_1_n_n.contr.Idx) :
    (dot_S4096x60_S60x8_S4096x8_1_0_0_1_n_n.lhsIdx i q 0).val = (i 0).val := by
  unfold DotDims.lhsIdx
  rw [dif_neg (show ¬(0 : Fin S4096x60.rank) ∈ dot_S4096x60_S60x8_S4096x8_1_0_0_1_n_n.lhsBatch by decide), dif_pos (show (0 : Fin S4096x60.rank) ∈ dot_S4096x60_S60x8_S4096x8_1_0_0_1_n_n.lhsNonContracting by decide)]
  rfl
private theorem sender_lhs_1 (i : S4096x8.Idx) (q : dot_S4096x60_S60x8_S4096x8_1_0_0_1_n_n.contr.Idx) :
    (dot_S4096x60_S60x8_S4096x8_1_0_0_1_n_n.lhsIdx i q 1).val = (q ⟨0, by decide⟩).val :=
  dot_S4096x60_S60x8_S4096x8_1_0_0_1_n_n.lhsIdx_val_of_single rfl i q
private theorem sender_rhs_0 (i : S4096x8.Idx) (q : dot_S4096x60_S60x8_S4096x8_1_0_0_1_n_n.contr.Idx) :
    (dot_S4096x60_S60x8_S4096x8_1_0_0_1_n_n.rhsIdx i q 0).val = (q ⟨0, by decide⟩).val :=
  dot_S4096x60_S60x8_S4096x8_1_0_0_1_n_n.rhsIdx_val_of_single rfl i q
private theorem sender_rhs_1 (i : S4096x8.Idx) (q : dot_S4096x60_S60x8_S4096x8_1_0_0_1_n_n.contr.Idx) :
    (dot_S4096x60_S60x8_S4096x8_1_0_0_1_n_n.rhsIdx i q 1).val = (i 1).val := by
  unfold DotDims.rhsIdx
  rw [dif_neg (show ¬(1 : Fin S60x8.rank) ∈ dot_S4096x60_S60x8_S4096x8_1_0_0_1_n_n.rhsBatch by decide), dif_pos (show (1 : Fin S60x8.rank) ∈ dot_S4096x60_S60x8_S4096x8_1_0_0_1_n_n.rhsNonContracting by decide)]
  rfl

/-- Entry (r, j) of a block of edge features times its weight, added to zero: the sum over the one feature. -/
private theorem featProduct_apply (x : FVec Ideal S4096x1 .bf16) (w : FVec Ideal S1x8 .bf16) (r : Fin 4096) (j : Fin 8) :
    matmul (F := Ideal) dot_S4096x1_S1x8_S4096x8_1_0_0_1_n_n none x w (constant (F := Ideal) S4096x8 .f32 0x00000000#32) (ix2 r j)
      = ∑ k : Fin 1, x (ix2 r k) * w (ix2 k j) := by
  show FloatOps.matmul dot_S4096x1_S1x8_S4096x8_1_0_0_1_n_n none x w (constant (F := Ideal) S4096x8 .f32 0x00000000#32) (ix2 r j) = _
  rw [Ideal.matmul_constant_zero_apply, ← Equiv.sum_comp (ValueIdx.contrEquiv1 dot_S4096x1_S1x8_S4096x8_1_0_0_1_n_n 1 rfl rfl).symm]
  refine Finset.sum_congr rfl fun k _ => ?_
  have hk := ValueIdx.contrEquiv1_symm_val dot_S4096x1_S1x8_S4096x8_1_0_0_1_n_n 1 rfl rfl k
  have el : dot_S4096x1_S1x8_S4096x8_1_0_0_1_n_n.lhsIdx (ix2 r j) ((ValueIdx.contrEquiv1 dot_S4096x1_S1x8_S4096x8_1_0_0_1_n_n 1 rfl rfl).symm k) = ix2 r k := funext fun a => Fin.ext (by
    match a with
    | ⟨0, _⟩ => exact feat_lhs_0 _ _
    | ⟨1, _⟩ => exact (feat_lhs_1 _ _).trans hk)
  have er : dot_S4096x1_S1x8_S4096x8_1_0_0_1_n_n.rhsIdx (ix2 r j) ((ValueIdx.contrEquiv1 dot_S4096x1_S1x8_S4096x8_1_0_0_1_n_n 1 rfl rfl).symm k) = ix2 k j := funext fun a => Fin.ext (by
    match a with
    | ⟨0, _⟩ => exact (feat_rhs_0 _ _).trans hk
    | ⟨1, _⟩ => exact feat_rhs_1 _ _)
  rw [el, er]

/-- Entry (r, j) of a block of sender features times its weight, added to zero: the sum over the 60 features. -/
private theorem senderProduct_apply (x : FVec Ideal S4096x60 .bf16) (w : FVec Ideal S60x8 .bf16) (r : Fin 4096) (j : Fin 8) :
    matmul (F := Ideal) dot_S4096x60_S60x8_S4096x8_1_0_0_1_n_n none x w (constant (F := Ideal) S4096x8 .f32 0x00000000#32) (ix2 r j)
      = ∑ k : Fin 60, x (ix2 r k) * w (ix2 k j) := by
  show FloatOps.matmul dot_S4096x60_S60x8_S4096x8_1_0_0_1_n_n none x w (constant (F := Ideal) S4096x8 .f32 0x00000000#32) (ix2 r j) = _
  rw [Ideal.matmul_constant_zero_apply, ← Equiv.sum_comp (ValueIdx.contrEquiv1 dot_S4096x60_S60x8_S4096x8_1_0_0_1_n_n 60 rfl rfl).symm]
  refine Finset.sum_congr rfl fun k _ => ?_
  have hk := ValueIdx.contrEquiv1_symm_val dot_S4096x60_S60x8_S4096x8_1_0_0_1_n_n 60 rfl rfl k
  have el : dot_S4096x60_S60x8_S4096x8_1_0_0_1_n_n.lhsIdx (ix2 r j) ((ValueIdx.contrEquiv1 dot_S4096x60_S60x8_S4096x8_1_0_0_1_n_n 60 rfl rfl).symm k) = ix2 r k := funext fun a => Fin.ext (by
    match a with
    | ⟨0, _⟩ => exact sender_lhs_0 _ _
    | ⟨1, _⟩ => exact (sender_lhs_1 _ _).trans hk)
  have er : dot_S4096x60_S60x8_S4096x8_1_0_0_1_n_n.rhsIdx (ix2 r j) ((ValueIdx.contrEquiv1 dot_S4096x60_S60x8_S4096x8_1_0_0_1_n_n 60 rfl rfl).symm k) = ix2 k j := funext fun a => Fin.ext (by
    match a with
    | ⟨0, _⟩ => exact (sender_rhs_0 _ _).trans hk
    | ⟨1, _⟩ => exact sender_rhs_1 _ _)
  rw [el, er]

/-- The bias row repeated down the block's 4096 rows reads, at (r, j), the bias at column j. -/
private theorem biasRows_apply (b : FVec Ideal S1x8 .f32) (r : Fin 4096) (j : Fin 8) :
    broadcastTo S4096x8 b broadcasts_S1x8_S4096x8 (ix2 r j) = b (ix2 0 j) := by
  refine broadcastTo_apply b broadcasts_S1x8_S4096x8 (ix2 r j) (ix2 0 j) fun a => ?_
  match a with
  | ⟨0, _⟩ => rfl
  | ⟨1, _⟩ => rfl

/-- WHAT THE BODY STORES, AT ONE ENTRY: row r, column j of the stored block is
    max ((x₀[r]·w₀[·,j] + x₁[r]·w₁[·,j]) + b[j]) 0 of the five loaded blocks. A change of float format and a cast to
    the same shape are the identity on extended reals; each product runs into a zero accumulator; the sums are added
    left to right and the bias last, as the dense row is. -/
private theorem payload_entry (x0 : Vec Ideal S4096x1 .f32) (x1 : Vec Ideal S4096x60 .f32) (w0 : Vec Ideal S1x8 .f32)
    (w1 : Vec Ideal S60x8 .f32) (b : Vec Ideal S1x8 .f32) (r : Fin 4096) (j : Fin 8) :
    k0_pay1 (F := Ideal) x0 x1 w0 w1 b (ix2 r j)
      = relu2 (fun k : Fin 1 => x0 (ix2 r k)) (fun k : Fin 1 => w0 (ix2 k j))
          (fun k : Fin 60 => x1 (ix2 r k)) (fun k : Fin 60 => w1 (ix2 k j)) (b (ix2 0 j)) := by
  unfold k0_pay1 relu2
  rw [maximumf_apply, addf_apply, addf_apply, broadcast_apply, featProduct_apply, senderProduct_apply, biasRows_apply]
  simp only [shapeCast_self, truncf_apply]
  exact congrArg (max _) Ideal.ofBits_zero_f32

/-! ## The blocks, read off the arrays -/

/-- The array-wide function: entry (e, j) from row e of the two inputs, column j of the two weights and of the bias. -/
private abbrev edgeUpdate (c : Dev nD) : S1638400x8.Idx → EReal := fun i =>
  relu2 (fun k : Fin 1 => V c main_arg1 (ix2 (i 0) k)) (fun k : Fin 1 => V c main_v1 (ix2 k (i 1)))
    (fun k : Fin 60 => V c main_v0 (ix2 (i 0) k)) (fun k : Fin 60 => V c main_v2 (ix2 k (i 1)))
    (V c main_v3 (ix2 0 (i 1)))

private theorem zeroOffsets : (![0, 0] : Fin 2 → Nat) = fun _ => 0 := funext fun a => by fin_cases a <;> rfl

/-- Where each window's block sits at grid point t, decided once over the 400 points: the two inputs cut by rows and
    the output are at row block t (and the one column block); each weight and the bias are whole, at block (0, 0). -/
private theorem blockIndex_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Two dense rows are equal when their rows, columns and bias are. -/
private theorem relu2_congr {d1 d2 : ℕ} {x1 x1' w1 w1' : Fin d1 → EReal} {x2 x2' w2 w2' : Fin d2 → EReal} {b b' : EReal}
    (h1 : ∀ k, x1 k = x1' k) (h2 : ∀ k, w1 k = w1' k) (h3 : ∀ k, x2 k = x2' k) (h4 : ∀ k, w2 k = w2' k) (h5 : b = b') :
    relu2 x1 w1 x2 w2 b = relu2 x1' w1' x2' w2' b' := by
  obtain rfl := funext h1
  obtain rfl := funext h2
  obtain rfl := funext h3
  obtain rfl := funext h4
  rw [h5]

/-- Row p of the edge-feature block at point t is row 4096·t + p of the edge-feature array. -/
private theorem featBlock_apply (c : Dev nD) (t : Fin cfg0.N) (p : Fin 4096) (k : Fin 1) (i : S1638400x8.Idx)
    (h0 : (i 0).val = t.val * 4096 + p.val) :
    (iblk0 V c 0 t : Vec Ideal S4096x1 .f32) (ix2 p k) = V c main_arg1 (ix2 (i 0) k) := by
  obtain ⟨f0, f1, -⟩ := blockIndex_facts t
  show V c main_arg1 (((cfg0.win 0).blk t).view.emb (ix2 p k)) = V c main_arg1 (ix2 (i 0) k)
  refine congrArg (V c main_arg1) (funext fun a => Fin.ext ?_)
  match a with
  | ⟨0, _⟩ => show win0_0.index t (0 : Fin 2) * 4096 + 1 * p.val = (i 0).val; omega
  | ⟨1, _⟩ => show win0_0.index t (1 : Fin 2) * 1 + 1 * k.val = k.val; omega

/-- Row p of the sender-feature block at point t is row 4096·t + p of the sender-feature array. -/
private theorem senderBlock_apply (c : Dev nD) (t : Fin cfg0.N) (p : Fin 4096) (k : Fin 60) (i : S1638400x8.Idx)
    (h0 : (i 0).val = t.val * 4096 + p.val) :
    (iblk0 V c 1 t : Vec Ideal S4096x60 .f32) (ix2 p k) = V c main_v0 (ix2 (i 0) k) := by
  obtain ⟨-, -, f0, f1, -⟩ := blockIndex_facts t
  show V c main_v0 (((cfg0.win 1).blk t).view.emb (ix2 p k)) = V c main_v0 (ix2 (i 0) k)
  refine congrArg (V c main_v0) (funext fun a => Fin.ext ?_)
  match a with
  | ⟨0, _⟩ => show win0_1.index t (0 : Fin 2) * 4096 + 1 * p.val = (i 0).val; omega
  | ⟨1, _⟩ => show win0_1.index t (1 : Fin 2) * 60 + 1 * k.val = k.val; omega

/-- The edge-feature weight's block is the whole weight, at every point. -/
private theorem featWeight_apply (c : Dev nD) (t : Fin cfg0.N) (k : Fin 1) (q : Fin 8) (i : S1638400x8.Idx)
    (h1 : (i 1).val = q.val) :
    (iblk0 V c 2 t : Vec Ideal S1x8 .f32) (ix2 k q) = V c main_v1 (ix2 k (i 1)) := by
  obtain ⟨-, -, -, -, f0, f1, -⟩ := blockIndex_facts t
  show V c main_v1 (((cfg0.win 2).blk t).view.emb (ix2 k q)) = V c main_v1 (ix2 k (i 1))
  refine congrArg (V c main_v1) (funext fun a => Fin.ext ?_)
  match a with
  | ⟨0, _⟩ => show win0_2.index t (0 : Fin 2) * 1 + 1 * k.val = k.val; omega
  | ⟨1, _⟩ => show win0_2.index t (1 : Fin 2) * 8 + 1 * q.val = (i 1).val; omega

/-- The sender-feature weight's block is the whole weight, at every point. -/
private theorem senderWeight_apply (c : Dev nD) (t : Fin cfg0.N) (k : Fin 60) (q : Fin 8) (i : S1638400x8.Idx)
    (h1 : (i 1).val = q.val) :
    (iblk0 V c 3 t : Vec Ideal S60x8 .f32) (ix2 k q) = V c main_v2 (ix2 k (i 1)) := by
  obtain ⟨-, -, -, -, -, -, f0, f1, -⟩ := blockIndex_facts t
  show V c main_v2 (((cfg0.win 3).blk t).view.emb (ix2 k q)) = V c main_v2 (ix2 k (i 1))
  refine congrArg (V c main_v2) (funext fun a => Fin.ext ?_)
  match a with
  | ⟨0, _⟩ => show win0_3.index t (0 : Fin 2) * 60 + 1 * k.val = k.val; omega
  | ⟨1, _⟩ => show win0_3.index t (1 : Fin 2) * 8 + 1 * q.val = (i 1).val; omega

/-- The bias's block is the whole bias, at every point. -/
private theorem bias_apply (c : Dev nD) (t : Fin cfg0.N) (q : Fin 8) (i : S1638400x8.Idx)
    (h1 : (i 1).val = q.val) :
    (iblk0 V c 4 t : Vec Ideal S1x8 .f32) (ix2 0 q) = V c main_v3 (ix2 0 (i 1)) := by
  obtain ⟨-, -, -, -, -, -, -, -, f0, f1, -⟩ := blockIndex_facts t
  show V c main_v3 (((cfg0.win 4).blk t).view.emb (ix2 0 q)) = V c main_v3 (ix2 0 (i 1))
  refine congrArg (V c main_v3) (funext fun a => Fin.ext ?_)
  match a with
  | ⟨0, _⟩ => show win0_4.index t (0 : Fin 2) * 1 + 1 * 0 = 0; omega
  | ⟨1, _⟩ => show win0_4.index t (1 : Fin 2) * 8 + 1 * q.val = (i 1).val; omega

/-- WHAT POINT t WRITES BACK is block t of the array-wide function. -/
private theorem flushed_eq (c : Dev nD) (t : Fin cfg0.N) :
    (dat0 (F := Ideal) V c).flushed 5 t = ((cfg0.win 5).blk t).view.read (Elt Ideal) (edgeUpdate V c) := by
  show (cfg0.win 5).cut (grid0.coords t) ((dat0 (F := Ideal) V c).after 5 t) = _
  rw [after0_5]
  unfold out0_5
  rw [View.canon_unit_zero zeroOffsets]
  simp only [View.ld_unit_zero (S := S4096x1) zeroOffsets, View.ld_unit_zero (S := S4096x60) zeroOffsets,
    View.ld_unit_zero (S := S1x8) zeroOffsets, View.ld_unit_zero (S := S60x8) zeroOffsets]
  obtain ⟨-, -, -, -, -, -, -, -, -, -, f0, f1⟩ := blockIndex_facts t
  funext y
  obtain ⟨p, q, rfl⟩ : ∃ (p : Fin 4096) (q : Fin 8), y = ix2 p q := ⟨y 0, y 1, eq_ix2 y⟩
  show k0_pay1 (F := Ideal) (iblk0 V c 0 t) (iblk0 V c 1 t) (iblk0 V c 2 t) (iblk0 V c 3 t) (iblk0 V c 4 t) (ix2 p q)
      = edgeUpdate V c (((cfg0.win 5).blk t).view.emb (ix2 p q))
  have h0 : ((((cfg0.win 5).blk t).view.emb (ix2 p q)) 0).val = t.val * 4096 + p.val := by
    show win0_5.index t (0 : Fin 2) * 4096 + 1 * p.val = _; omega
  have h1 : ((((cfg0.win 5).blk t).view.emb (ix2 p q)) 1).val = q.val := by
    show win0_5.index t (1 : Fin 2) * 8 + 1 * q.val = _; omega
  refine (payload_entry (iblk0 V c 0 t) (iblk0 V c 1 t) (iblk0 V c 2 t) (iblk0 V c 3 t) (iblk0 V c 4 t) p q).trans ?_
  exact relu2_congr
    (fun k => featBlock_apply V c t p k (((cfg0.win 5).blk t).view.emb (ix2 p q)) h0)
    (fun k => featWeight_apply V c t k q (((cfg0.win 5).blk t).view.emb (ix2 p q)) h1)
    (fun k => senderBlock_apply V c t p k (((cfg0.win 5).blk t).view.emb (ix2 p q)) h0)
    (fun k => senderWeight_apply V c t k q (((cfg0.win 5).blk t).view.emb (ix2 p q)) h1)
    (bias_apply V c t q (((cfg0.win 5).blk t).view.emb (ix2 p q)) h1)

/-- An edge-array index is in point t's block iff each coordinate is in the block's range on its axis. -/
private theorem mem_block (t : Fin cfg0.N) (i : S1638400x8.Idx) :
    i ∈ ((cfg0.win 5).blk t).view.set ↔ ∀ a : Fin 2, win0_5.index t a * S4096x8.size a ≤ (i a).val ∧ (i a).val < win0_5.index t a * S4096x8.size a + S4096x8.size a := by
  show i ∈ ((View.whole main_v4).slice (win0_5.rect t)).set ↔ _
  rw [View.set_slice_whole, Rect.mem_set_unit]
  exact Iff.rfl

/-- THE BLOCKS COVER THE ARRAY: edge e lies in the block of point e / 4096, which writes back. -/
private theorem covered (i : S1638400x8.Idx) :
    ∃ t : Fin cfg0.N, (cfg0.win 5).flush t = true ∧ i ∈ ((cfg0.win 5).blk t).view.set := by
  have hi0 : (i 0).val < 1638400 := (i 0).isLt
  have hi1 : (i 1).val < 8 := (i 1).isLt
  have hN : cfg0.N = 400 := N_0
  have ht : (i 0).val / 4096 < cfg0.N := by rw [hN]; omega
  obtain ⟨-, -, -, -, -, -, -, -, -, -, f0, f1⟩ := blockIndex_facts ⟨(i 0).val / 4096, ht⟩
  have f0' : win0_5.index ⟨(i 0).val / 4096, ht⟩ (0 : Fin 2) = (i 0).val / 4096 := f0
  refine ⟨⟨(i 0).val / 4096, ht⟩, flush0_5 _, ?_⟩
  rw [mem_block]
  intro a
  match a with
  | ⟨0, _⟩ => show win0_5.index ⟨(i 0).val / 4096, ht⟩ (0 : Fin 2) * 4096 ≤ (i 0).val ∧ (i 0).val < win0_5.index ⟨(i 0).val / 4096, ht⟩ (0 : Fin 2) * 4096 + 4096; omega
  | ⟨1, _⟩ => show win0_5.index ⟨(i 0).val / 4096, ht⟩ (1 : Fin 2) * 8 ≤ (i 1).val ∧ (i 1).val < win0_5.index ⟨(i 0).val / 4096, ht⟩ (1 : Fin 2) * 8 + 8; omega

/-- After the first pass over the edges, entry (e, j) of the edge array is
    max ((ef[e]·Wee[·,j] + sender_feats[e]·Wes[·,j]) + be[j]) 0, whichever block of 4096 edges e lies in. -/
theorem array_eq (c : Dev nD) :
    (dat0 (F := Ideal) V c).arrAt 5 cfg0.N = fun i : S1638400x8.Idx =>
      relu2 (fun k : Fin 1 => V c main_arg1 (ix2 (i 0) k)) (fun k : Fin 1 => V c main_v1 (ix2 k (i 1)))
        (fun k : Fin 60 => V c main_v0 (ix2 (i 0) k)) (fun k : Fin 60 => V c main_v2 (ix2 k (i 1)))
        (V c main_v3 (ix2 0 (i 1))) := by
  exact (dat0 (F := Ideal) V c).arrAt_eq_of_cover 5 (edgeUpdate V c) (fun t _ => flushed_eq V c t) covered

end Cert.KernelIdeal.EdgeEncoder

end
-- ==== Proof.RefLayers.lean ====
/-
  The reference's dense layers, read at one entry.

  The reference spells a layer as whole-array operations: a `dot_general` per feature block, the partial products added
  left to right, the bias broadcast to a row and then down the rows and added last, and a `maximum` against a splat of
  zero; the read-out as 1 / (1 + exp (-(x·w + b))).  At the extended reals a `dot_general` with one contracted axis is
  the plain sum of products, a broadcast reads its operand at the kept coordinates, and the spelt-out quotient IS the
  logistic function.  So each layer, at entry (r, j), is the per-entry form of Proof/DenseRow.lean of row r of each input,
  column j of each weight and entry j of the bias.  The operands are variables: whatever arrays a layer is fed.
-/
import proofs.«401216_j29635274342505_1_alg».proof.Proof.Gen.ReferenceIdeal
import proofs.«401216_j29635274342505_1_alg».proof.Proof.DenseRow
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefLayers

open Cert.ReferenceIdeal Cert.ReferenceIdeal.Facts₀ Cert.ReferenceIdeal.Facts Cert.DenseRow
open Idealize.ShloMosaic Idealize.ShloMosaic.ValueIdx

/-! ## A product with one contracted axis, at an entry

For [M, K] · [K, N] the left operand is read at (r, k) and the right at (k, j): the output's row and column stay, the one
contracted coordinate k runs over both. The contraction's index set is identified with its coordinate's range, which
turns the sum over it into ∑ k : Fin K. -/

/-! ### [1638400, 1] · [1, 8] -/

/-- The left operand's row is the output's row. -/
theorem lhs_row_1638400x1x8 (i : S1638400x8.Idx) (q : dot_S1638400x1_S1x8_S1638400x8_1_0_0_1_n_n.contr.Idx) :
    (dot_S1638400x1_S1x8_S1638400x8_1_0_0_1_n_n.lhsIdx i q 0).val = (i 0).val := by
  unfold DotDims.lhsIdx
  rw [dif_neg (show ¬(0 : Fin S1638400x1.rank) ∈ dot_S1638400x1_S1x8_S1638400x8_1_0_0_1_n_n.lhsBatch by decide), dif_pos (show (0 : Fin S1638400x1.rank) ∈ dot_S1638400x1_S1x8_S1638400x8_1_0_0_1_n_n.lhsNonContracting by decide)]
  rfl
/-- The left operand's column is the contracted coordinate. -/
theorem lhs_inner_1638400x1x8 (i : S1638400x8.Idx) (q : dot_S1638400x1_S1x8_S1638400x8_1_0_0_1_n_n.contr.Idx) :
    (dot_S1638400x1_S1x8_S1638400x8_1_0_0_1_n_n.lhsIdx i q 1).val = (q ⟨0, by decide⟩).val :=
  dot_S1638400x1_S1x8_S1638400x8_1_0_0_1_n_n.lhsIdx_val_of_single rfl i q
/-- The right operand's row is the contracted coordinate. -/
theorem rhs_inner_1638400x1x8 (i : S1638400x8.Idx) (q : dot_S1638400x1_S1x8_S1638400x8_1_0_0_1_n_n.contr.Idx) :
    (dot_S1638400x1_S1x8_S1638400x8_1_0_0_1_n_n.rhsIdx i q 0).val = (q ⟨0, by decide⟩).val :=
  dot_S1638400x1_S1x8_S1638400x8_1_0_0_1_n_n.rhsIdx_val_of_single rfl i q
/-- The right operand's column is the output's column. -/
theorem rhs_col_1638400x1x8 (i : S1638400x8.Idx) (q : dot_S1638400x1_S1x8_S1638400x8_1_0_0_1_n_n.contr.Idx) :
    (dot_S1638400x1_S1x8_S1638400x8_1_0_0_1_n_n.rhsIdx i q 1).val = (i 1).val := by
  unfold DotDims.rhsIdx
  rw [dif_neg (show ¬(1 : Fin S1x8.rank) ∈ dot_S1638400x1_S1x8_S1638400x8_1_0_0_1_n_n.rhsBatch by decide), dif_pos (show (1 : Fin S1x8.rank) ∈ dot_S1638400x1_S1x8_S1638400x8_1_0_0_1_n_n.rhsNonContracting by decide)]
  rfl
/-- Entry (r, j) of the product is ∑ₖ x[r, k] · w[k, j], k over the 1 contracted coordinates. -/
theorem dot_entry_1638400x1x8 (X : FVec Ideal S1638400x1 .f32) (W : FVec Ideal S1x8 .f32) (i : S1638400x8.Idx) :
    Host.dotGeneral dot_S1638400x1_S1x8_S1638400x8_1_0_0_1_n_n none X W i = ∑ k : Fin 1, X (ix2 (i 0) k) * W (ix2 k (i 1)) := by
  simp only [Host.dotGeneral]
  rw [Ideal.dotGeneral_apply, ← Equiv.sum_comp (ValueIdx.contrEquiv1 dot_S1638400x1_S1x8_S1638400x8_1_0_0_1_n_n 1 rfl rfl).symm]
  refine Finset.sum_congr rfl fun k _ => ?_
  have hk := ValueIdx.contrEquiv1_symm_val dot_S1638400x1_S1x8_S1638400x8_1_0_0_1_n_n 1 rfl rfl k
  have el : dot_S1638400x1_S1x8_S1638400x8_1_0_0_1_n_n.lhsIdx i ((ValueIdx.contrEquiv1 dot_S1638400x1_S1x8_S1638400x8_1_0_0_1_n_n 1 rfl rfl).symm k) = ix2 (i 0) k := funext fun a => Fin.ext (by
    match a with
    | ⟨0, _⟩ => exact lhs_row_1638400x1x8 _ _
    | ⟨1, _⟩ => exact (lhs_inner_1638400x1x8 _ _).trans hk)
  have er : dot_S1638400x1_S1x8_S1638400x8_1_0_0_1_n_n.rhsIdx i ((ValueIdx.contrEquiv1 dot_S1638400x1_S1x8_S1638400x8_1_0_0_1_n_n 1 rfl rfl).symm k) = ix2 k (i 1) := funext fun a => Fin.ext (by
    match a with
    | ⟨0, _⟩ => exact (rhs_inner_1638400x1x8 _ _).trans hk
    | ⟨1, _⟩ => exact rhs_col_1638400x1x8 _ _)
  exact congrArg₂ (fun a b => X a * W b) el er

/-! ### [1638400, 60] · [60, 8] -/

/-- The left operand's row is the output's row. -/
theorem lhs_row_1638400x60x8 (i : S1638400x8.Idx) (q : dot_S1638400x60_S60x8_S1638400x8_1_0_0_1_n_n.contr.Idx) :
    (dot_S1638400x60_S60x8_S1638400x8_1_0_0_1_n_n.lhsIdx i q 0).val = (i 0).val := by
  unfold DotDims.lhsIdx
  rw [dif_neg (show ¬(0 : Fin S1638400x60.rank) ∈ dot_S1638400x60_S60x8_S1638400x8_1_0_0_1_n_n.lhsBatch by decide), dif_pos (show (0 : Fin S1638400x60.rank) ∈ dot_S1638400x60_S60x8_S1638400x8_1_0_0_1_n_n.lhsNonContracting by decide)]
  rfl
/-- The left operand's column is the contracted coordinate. -/
theorem lhs_inner_1638400x60x8 (i : S1638400x8.Idx) (q : dot_S1638400x60_S60x8_S1638400x8_1_0_0_1_n_n.contr.Idx) :
    (dot_S1638400x60_S60x8_S1638400x8_1_0_0_1_n_n.lhsIdx i q 1).val = (q ⟨0, by decide⟩).val :=
  dot_S1638400x60_S60x8_S1638400x8_1_0_0_1_n_n.lhsIdx_val_of_single rfl i q
/-- The right operand's row is the contracted coordinate. -/
theorem rhs_inner_1638400x60x8 (i : S1638400x8.Idx) (q : dot_S1638400x60_S60x8_S1638400x8_1_0_0_1_n_n.contr.Idx) :
    (dot_S1638400x60_S60x8_S1638400x8_1_0_0_1_n_n.rhsIdx i q 0).val = (q ⟨0, by decide⟩).val :=
  dot_S1638400x60_S60x8_S1638400x8_1_0_0_1_n_n.rhsIdx_val_of_single rfl i q
/-- The right operand's column is the output's column. -/
theorem rhs_col_1638400x60x8 (i : S1638400x8.Idx) (q : dot_S1638400x60_S60x8_S1638400x8_1_0_0_1_n_n.contr.Idx) :
    (dot_S1638400x60_S60x8_S1638400x8_1_0_0_1_n_n.rhsIdx i q 1).val = (i 1).val := by
  unfold DotDims.rhsIdx
  rw [dif_neg (show ¬(1 : Fin S60x8.rank) ∈ dot_S1638400x60_S60x8_S1638400x8_1_0_0_1_n_n.rhsBatch by decide), dif_pos (show (1 : Fin S60x8.rank) ∈ dot_S1638400x60_S60x8_S1638400x8_1_0_0_1_n_n.rhsNonContracting by decide)]
  rfl
/-- Entry (r, j) of the product is ∑ₖ x[r, k] · w[k, j], k over the 60 contracted coordinates. -/
theorem dot_entry_1638400x60x8 (X : FVec Ideal S1638400x60 .f32) (W : FVec Ideal S60x8 .f32) (i : S1638400x8.Idx) :
    Host.dotGeneral dot_S1638400x60_S60x8_S1638400x8_1_0_0_1_n_n none X W i = ∑ k : Fin 60, X (ix2 (i 0) k) * W (ix2 k (i 1)) := by
  simp only [Host.dotGeneral]
  rw [Ideal.dotGeneral_apply, ← Equiv.sum_comp (ValueIdx.contrEquiv1 dot_S1638400x60_S60x8_S1638400x8_1_0_0_1_n_n 60 rfl rfl).symm]
  refine Finset.sum_congr rfl fun k _ => ?_
  have hk := ValueIdx.contrEquiv1_symm_val dot_S1638400x60_S60x8_S1638400x8_1_0_0_1_n_n 60 rfl rfl k
  have el : dot_S1638400x60_S60x8_S1638400x8_1_0_0_1_n_n.lhsIdx i ((ValueIdx.contrEquiv1 dot_S1638400x60_S60x8_S1638400x8_1_0_0_1_n_n 60 rfl rfl).symm k) = ix2 (i 0) k := funext fun a => Fin.ext (by
    match a with
    | ⟨0, _⟩ => exact lhs_row_1638400x60x8 _ _
    | ⟨1, _⟩ => exact (lhs_inner_1638400x60x8 _ _).trans hk)
  have er : dot_S1638400x60_S60x8_S1638400x8_1_0_0_1_n_n.rhsIdx i ((ValueIdx.contrEquiv1 dot_S1638400x60_S60x8_S1638400x8_1_0_0_1_n_n 60 rfl rfl).symm k) = ix2 k (i 1) := funext fun a => Fin.ext (by
    match a with
    | ⟨0, _⟩ => exact (rhs_inner_1638400x60x8 _ _).trans hk
    | ⟨1, _⟩ => exact rhs_col_1638400x60x8 _ _)
  exact congrArg₂ (fun a b => X a * W b) el er

/-! ### [102400, 60] · [60, 16] -/

/-- The left operand's row is the output's row. -/
theorem lhs_row_102400x60x16 (i : S102400x16.Idx) (q : dot_S102400x60_S60x16_S102400x16_1_0_0_1_n_n.contr.Idx) :
    (dot_S102400x60_S60x16_S102400x16_1_0_0_1_n_n.lhsIdx i q 0).val = (i 0).val := by
  unfold DotDims.lhsIdx
  rw [dif_neg (show ¬(0 : Fin S102400x60.rank) ∈ dot_S102400x60_S60x16_S102400x16_1_0_0_1_n_n.lhsBatch by decide), dif_pos (show (0 : Fin S102400x60.rank) ∈ dot_S102400x60_S60x16_S102400x16_1_0_0_1_n_n.lhsNonContracting by decide)]
  rfl
/-- The left operand's column is the contracted coordinate. -/
theorem lhs_inner_102400x60x16 (i : S102400x16.Idx) (q : dot_S102400x60_S60x16_S102400x16_1_0_0_1_n_n.contr.Idx) :
    (dot_S102400x60_S60x16_S102400x16_1_0_0_1_n_n.lhsIdx i q 1).val = (q ⟨0, by decide⟩).val :=
  dot_S102400x60_S60x16_S102400x16_1_0_0_1_n_n.lhsIdx_val_of_single rfl i q
/-- The right operand's row is the contracted coordinate. -/
theorem rhs_inner_102400x60x16 (i : S102400x16.Idx) (q : dot_S102400x60_S60x16_S102400x16_1_0_0_1_n_n.contr.Idx) :
    (dot_S102400x60_S60x16_S102400x16_1_0_0_1_n_n.rhsIdx i q 0).val = (q ⟨0, by decide⟩).val :=
  dot_S102400x60_S60x16_S102400x16_1_0_0_1_n_n.rhsIdx_val_of_single rfl i q
/-- The right operand's column is the output's column. -/
theorem rhs_col_102400x60x16 (i : S102400x16.Idx) (q : dot_S102400x60_S60x16_S102400x16_1_0_0_1_n_n.contr.Idx) :
    (dot_S102400x60_S60x16_S102400x16_1_0_0_1_n_n.rhsIdx i q 1).val = (i 1).val := by
  unfold DotDims.rhsIdx
  rw [dif_neg (show ¬(1 : Fin S60x16.rank) ∈ dot_S102400x60_S60x16_S102400x16_1_0_0_1_n_n.rhsBatch by decide), dif_pos (show (1 : Fin S60x16.rank) ∈ dot_S102400x60_S60x16_S102400x16_1_0_0_1_n_n.rhsNonContracting by decide)]
  rfl
/-- Entry (r, j) of the product is ∑ₖ x[r, k] · w[k, j], k over the 60 contracted coordinates. -/
theorem dot_entry_102400x60x16 (X : FVec Ideal S102400x60 .f32) (W : FVec Ideal S60x16 .f32) (i : S102400x16.Idx) :
    Host.dotGeneral dot_S102400x60_S60x16_S102400x16_1_0_0_1_n_n none X W i = ∑ k : Fin 60, X (ix2 (i 0) k) * W (ix2 k (i 1)) := by
  simp only [Host.dotGeneral]
  rw [Ideal.dotGeneral_apply, ← Equiv.sum_comp (ValueIdx.contrEquiv1 dot_S102400x60_S60x16_S102400x16_1_0_0_1_n_n 60 rfl rfl).symm]
  refine Finset.sum_congr rfl fun k _ => ?_
  have hk := ValueIdx.contrEquiv1_symm_val dot_S102400x60_S60x16_S102400x16_1_0_0_1_n_n 60 rfl rfl k
  have el : dot_S102400x60_S60x16_S102400x16_1_0_0_1_n_n.lhsIdx i ((ValueIdx.contrEquiv1 dot_S102400x60_S60x16_S102400x16_1_0_0_1_n_n 60 rfl rfl).symm k) = ix2 (i 0) k := funext fun a => Fin.ext (by
    match a with
    | ⟨0, _⟩ => exact lhs_row_102400x60x16 _ _
    | ⟨1, _⟩ => exact (lhs_inner_102400x60x16 _ _).trans hk)
  have er : dot_S102400x60_S60x16_S102400x16_1_0_0_1_n_n.rhsIdx i ((ValueIdx.contrEquiv1 dot_S102400x60_S60x16_S102400x16_1_0_0_1_n_n 60 rfl rfl).symm k) = ix2 k (i 1) := funext fun a => Fin.ext (by
    match a with
    | ⟨0, _⟩ => exact (rhs_inner_102400x60x16 _ _).trans hk
    | ⟨1, _⟩ => exact rhs_col_102400x60x16 _ _)
  exact congrArg₂ (fun a b => X a * W b) el er

/-! ### [102400, 8] · [8, 16] -/

/-- The left operand's row is the output's row. -/
theorem lhs_row_102400x8x16 (i : S102400x16.Idx) (q : dot_S102400x8_S8x16_S102400x16_1_0_0_1_n_n.contr.Idx) :
    (dot_S102400x8_S8x16_S102400x16_1_0_0_1_n_n.lhsIdx i q 0).val = (i 0).val := by
  unfold DotDims.lhsIdx
  rw [dif_neg (show ¬(0 : Fin S102400x8.rank) ∈ dot_S102400x8_S8x16_S102400x16_1_0_0_1_n_n.lhsBatch by decide), dif_pos (show (0 : Fin S102400x8.rank) ∈ dot_S102400x8_S8x16_S102400x16_1_0_0_1_n_n.lhsNonContracting by decide)]
  rfl
/-- The left operand's column is the contracted coordinate. -/
theorem lhs_inner_102400x8x16 (i : S102400x16.Idx) (q : dot_S102400x8_S8x16_S102400x16_1_0_0_1_n_n.contr.Idx) :
    (dot_S102400x8_S8x16_S102400x16_1_0_0_1_n_n.lhsIdx i q 1).val = (q ⟨0, by decide⟩).val :=
  dot_S102400x8_S8x16_S102400x16_1_0_0_1_n_n.lhsIdx_val_of_single rfl i q
/-- The right operand's row is the contracted coordinate. -/
theorem rhs_inner_102400x8x16 (i : S102400x16.Idx) (q : dot_S102400x8_S8x16_S102400x16_1_0_0_1_n_n.contr.Idx) :
    (dot_S102400x8_S8x16_S102400x16_1_0_0_1_n_n.rhsIdx i q 0).val = (q ⟨0, by decide⟩).val :=
  dot_S102400x8_S8x16_S102400x16_1_0_0_1_n_n.rhsIdx_val_of_single rfl i q
/-- The right operand's column is the output's column. -/
theorem rhs_col_102400x8x16 (i : S102400x16.Idx) (q : dot_S102400x8_S8x16_S102400x16_1_0_0_1_n_n.contr.Idx) :
    (dot_S102400x8_S8x16_S102400x16_1_0_0_1_n_n.rhsIdx i q 1).val = (i 1).val := by
  unfold DotDims.rhsIdx
  rw [dif_neg (show ¬(1 : Fin S8x16.rank) ∈ dot_S102400x8_S8x16_S102400x16_1_0_0_1_n_n.rhsBatch by decide), dif_pos (show (1 : Fin S8x16.rank) ∈ dot_S102400x8_S8x16_S102400x16_1_0_0_1_n_n.rhsNonContracting by decide)]
  rfl
/-- Entry (r, j) of the product is ∑ₖ x[r, k] · w[k, j], k over the 8 contracted coordinates. -/
theorem dot_entry_102400x8x16 (X : FVec Ideal S102400x8 .f32) (W : FVec Ideal S8x16 .f32) (i : S102400x16.Idx) :
    Host.dotGeneral dot_S102400x8_S8x16_S102400x16_1_0_0_1_n_n none X W i = ∑ k : Fin 8, X (ix2 (i 0) k) * W (ix2 k (i 1)) := by
  simp only [Host.dotGeneral]
  rw [Ideal.dotGeneral_apply, ← Equiv.sum_comp (ValueIdx.contrEquiv1 dot_S102400x8_S8x16_S102400x16_1_0_0_1_n_n 8 rfl rfl).symm]
  refine Finset.sum_congr rfl fun k _ => ?_
  have hk := ValueIdx.contrEquiv1_symm_val dot_S102400x8_S8x16_S102400x16_1_0_0_1_n_n 8 rfl rfl k
  have el : dot_S102400x8_S8x16_S102400x16_1_0_0_1_n_n.lhsIdx i ((ValueIdx.contrEquiv1 dot_S102400x8_S8x16_S102400x16_1_0_0_1_n_n 8 rfl rfl).symm k) = ix2 (i 0) k := funext fun a => Fin.ext (by
    match a with
    | ⟨0, _⟩ => exact lhs_row_102400x8x16 _ _
    | ⟨1, _⟩ => exact (lhs_inner_102400x8x16 _ _).trans hk)
  have er : dot_S102400x8_S8x16_S102400x16_1_0_0_1_n_n.rhsIdx i ((ValueIdx.contrEquiv1 dot_S102400x8_S8x16_S102400x16_1_0_0_1_n_n 8 rfl rfl).symm k) = ix2 k (i 1) := funext fun a => Fin.ext (by
    match a with
    | ⟨0, _⟩ => exact (rhs_inner_102400x8x16 _ _).trans hk
    | ⟨1, _⟩ => exact rhs_col_102400x8x16 _ _)
  exact congrArg₂ (fun a b => X a * W b) el er

/-! ### [1638400, 8] · [8, 8] -/

/-- The left operand's row is the output's row. -/
theorem lhs_row_1638400x8x8 (i : S1638400x8.Idx) (q : dot_S1638400x8_S8x8_S1638400x8_1_0_0_1_n_n.contr.Idx) :
    (dot_S1638400x8_S8x8_S1638400x8_1_0_0_1_n_n.lhsIdx i q 0).val = (i 0).val := by
  unfold DotDims.lhsIdx
  rw [dif_neg (show ¬(0 : Fin S1638400x8.rank) ∈ dot_S1638400x8_S8x8_S1638400x8_1_0_0_1_n_n.lhsBatch by decide), dif_pos (show (0 : Fin S1638400x8.rank) ∈ dot_S1638400x8_S8x8_S1638400x8_1_0_0_1_n_n.lhsNonContracting by decide)]
  rfl
/-- The left operand's column is the contracted coordinate. -/
theorem lhs_inner_1638400x8x8 (i : S1638400x8.Idx) (q : dot_S1638400x8_S8x8_S1638400x8_1_0_0_1_n_n.contr.Idx) :
    (dot_S1638400x8_S8x8_S1638400x8_1_0_0_1_n_n.lhsIdx i q 1).val = (q ⟨0, by decide⟩).val :=
  dot_S1638400x8_S8x8_S1638400x8_1_0_0_1_n_n.lhsIdx_val_of_single rfl i q
/-- The right operand's row is the contracted coordinate. -/
theorem rhs_inner_1638400x8x8 (i : S1638400x8.Idx) (q : dot_S1638400x8_S8x8_S1638400x8_1_0_0_1_n_n.contr.Idx) :
    (dot_S1638400x8_S8x8_S1638400x8_1_0_0_1_n_n.rhsIdx i q 0).val = (q ⟨0, by decide⟩).val :=
  dot_S1638400x8_S8x8_S1638400x8_1_0_0_1_n_n.rhsIdx_val_of_single rfl i q
/-- The right operand's column is the output's column. -/
theorem rhs_col_1638400x8x8 (i : S1638400x8.Idx) (q : dot_S1638400x8_S8x8_S1638400x8_1_0_0_1_n_n.contr.Idx) :
    (dot_S1638400x8_S8x8_S1638400x8_1_0_0_1_n_n.rhsIdx i q 1).val = (i 1).val := by
  unfold DotDims.rhsIdx
  rw [dif_neg (show ¬(1 : Fin S8x8.rank) ∈ dot_S1638400x8_S8x8_S1638400x8_1_0_0_1_n_n.rhsBatch by decide), dif_pos (show (1 : Fin S8x8.rank) ∈ dot_S1638400x8_S8x8_S1638400x8_1_0_0_1_n_n.rhsNonContracting by decide)]
  rfl
/-- Entry (r, j) of the product is ∑ₖ x[r, k] · w[k, j], k over the 8 contracted coordinates. -/
theorem dot_entry_1638400x8x8 (X : FVec Ideal S1638400x8 .f32) (W : FVec Ideal S8x8 .f32) (i : S1638400x8.Idx) :
    Host.dotGeneral dot_S1638400x8_S8x8_S1638400x8_1_0_0_1_n_n none X W i = ∑ k : Fin 8, X (ix2 (i 0) k) * W (ix2 k (i 1)) := by
  simp only [Host.dotGeneral]
  rw [Ideal.dotGeneral_apply, ← Equiv.sum_comp (ValueIdx.contrEquiv1 dot_S1638400x8_S8x8_S1638400x8_1_0_0_1_n_n 8 rfl rfl).symm]
  refine Finset.sum_congr rfl fun k _ => ?_
  have hk := ValueIdx.contrEquiv1_symm_val dot_S1638400x8_S8x8_S1638400x8_1_0_0_1_n_n 8 rfl rfl k
  have el : dot_S1638400x8_S8x8_S1638400x8_1_0_0_1_n_n.lhsIdx i ((ValueIdx.contrEquiv1 dot_S1638400x8_S8x8_S1638400x8_1_0_0_1_n_n 8 rfl rfl).symm k) = ix2 (i 0) k := funext fun a => Fin.ext (by
    match a with
    | ⟨0, _⟩ => exact lhs_row_1638400x8x8 _ _
    | ⟨1, _⟩ => exact (lhs_inner_1638400x8x8 _ _).trans hk)
  have er : dot_S1638400x8_S8x8_S1638400x8_1_0_0_1_n_n.rhsIdx i ((ValueIdx.contrEquiv1 dot_S1638400x8_S8x8_S1638400x8_1_0_0_1_n_n 8 rfl rfl).symm k) = ix2 k (i 1) := funext fun a => Fin.ext (by
    match a with
    | ⟨0, _⟩ => exact (rhs_inner_1638400x8x8 _ _).trans hk
    | ⟨1, _⟩ => exact rhs_col_1638400x8x8 _ _)
  exact congrArg₂ (fun a b => X a * W b) el er

/-! ### [1638400, 16] · [16, 8] -/

/-- The left operand's row is the output's row. -/
theorem lhs_row_1638400x16x8 (i : S1638400x8.Idx) (q : dot_S1638400x16_S16x8_S1638400x8_1_0_0_1_n_n.contr.Idx) :
    (dot_S1638400x16_S16x8_S1638400x8_1_0_0_1_n_n.lhsIdx i q 0).val = (i 0).val := by
  unfold DotDims.lhsIdx
  rw [dif_neg (show ¬(0 : Fin S1638400x16.rank) ∈ dot_S1638400x16_S16x8_S1638400x8_1_0_0_1_n_n.lhsBatch by decide), dif_pos (show (0 : Fin S1638400x16.rank) ∈ dot_S1638400x16_S16x8_S1638400x8_1_0_0_1_n_n.lhsNonContracting by decide)]
  rfl
/-- The left operand's column is the contracted coordinate. -/
theorem lhs_inner_1638400x16x8 (i : S1638400x8.Idx) (q : dot_S1638400x16_S16x8_S1638400x8_1_0_0_1_n_n.contr.Idx) :
    (dot_S1638400x16_S16x8_S1638400x8_1_0_0_1_n_n.lhsIdx i q 1).val = (q ⟨0, by decide⟩).val :=
  dot_S1638400x16_S16x8_S1638400x8_1_0_0_1_n_n.lhsIdx_val_of_single rfl i q
/-- The right operand's row is the contracted coordinate. -/
theorem rhs_inner_1638400x16x8 (i : S1638400x8.Idx) (q : dot_S1638400x16_S16x8_S1638400x8_1_0_0_1_n_n.contr.Idx) :
    (dot_S1638400x16_S16x8_S1638400x8_1_0_0_1_n_n.rhsIdx i q 0).val = (q ⟨0, by decide⟩).val :=
  dot_S1638400x16_S16x8_S1638400x8_1_0_0_1_n_n.rhsIdx_val_of_single rfl i q
/-- The right operand's column is the output's column. -/
theorem rhs_col_1638400x16x8 (i : S1638400x8.Idx) (q : dot_S1638400x16_S16x8_S1638400x8_1_0_0_1_n_n.contr.Idx) :
    (dot_S1638400x16_S16x8_S1638400x8_1_0_0_1_n_n.rhsIdx i q 1).val = (i 1).val := by
  unfold DotDims.rhsIdx
  rw [dif_neg (show ¬(1 : Fin S16x8.rank) ∈ dot_S1638400x16_S16x8_S1638400x8_1_0_0_1_n_n.rhsBatch by decide), dif_pos (show (1 : Fin S16x8.rank) ∈ dot_S1638400x16_S16x8_S1638400x8_1_0_0_1_n_n.rhsNonContracting by decide)]
  rfl
/-- Entry (r, j) of the product is ∑ₖ x[r, k] · w[k, j], k over the 16 contracted coordinates. -/
theorem dot_entry_1638400x16x8 (X : FVec Ideal S1638400x16 .f32) (W : FVec Ideal S16x8 .f32) (i : S1638400x8.Idx) :
    Host.dotGeneral dot_S1638400x16_S16x8_S1638400x8_1_0_0_1_n_n none X W i = ∑ k : Fin 16, X (ix2 (i 0) k) * W (ix2 k (i 1)) := by
  simp only [Host.dotGeneral]
  rw [Ideal.dotGeneral_apply, ← Equiv.sum_comp (ValueIdx.contrEquiv1 dot_S1638400x16_S16x8_S1638400x8_1_0_0_1_n_n 16 rfl rfl).symm]
  refine Finset.sum_congr rfl fun k _ => ?_
  have hk := ValueIdx.contrEquiv1_symm_val dot_S1638400x16_S16x8_S1638400x8_1_0_0_1_n_n 16 rfl rfl k
  have el : dot_S1638400x16_S16x8_S1638400x8_1_0_0_1_n_n.lhsIdx i ((ValueIdx.contrEquiv1 dot_S1638400x16_S16x8_S1638400x8_1_0_0_1_n_n 16 rfl rfl).symm k) = ix2 (i 0) k := funext fun a => Fin.ext (by
    match a with
    | ⟨0, _⟩ => exact lhs_row_1638400x16x8 _ _
    | ⟨1, _⟩ => exact (lhs_inner_1638400x16x8 _ _).trans hk)
  have er : dot_S1638400x16_S16x8_S1638400x8_1_0_0_1_n_n.rhsIdx i ((ValueIdx.contrEquiv1 dot_S1638400x16_S16x8_S1638400x8_1_0_0_1_n_n 16 rfl rfl).symm k) = ix2 k (i 1) := funext fun a => Fin.ext (by
    match a with
    | ⟨0, _⟩ => exact (rhs_inner_1638400x16x8 _ _).trans hk
    | ⟨1, _⟩ => exact rhs_col_1638400x16x8 _ _)
  exact congrArg₂ (fun a b => X a * W b) el er

/-! ### [1638400, 4] · [4, 8] -/

/-- The left operand's row is the output's row. -/
theorem lhs_row_1638400x4x8 (i : S1638400x8.Idx) (q : dot_S1638400x4_S4x8_S1638400x8_1_0_0_1_n_n.contr.Idx) :
    (dot_S1638400x4_S4x8_S1638400x8_1_0_0_1_n_n.lhsIdx i q 0).val = (i 0).val := by
  unfold DotDims.lhsIdx
  rw [dif_neg (show ¬(0 : Fin S1638400x4.rank) ∈ dot_S1638400x4_S4x8_S1638400x8_1_0_0_1_n_n.lhsBatch by decide), dif_pos (show (0 : Fin S1638400x4.rank) ∈ dot_S1638400x4_S4x8_S1638400x8_1_0_0_1_n_n.lhsNonContracting by decide)]
  rfl
/-- The left operand's column is the contracted coordinate. -/
theorem lhs_inner_1638400x4x8 (i : S1638400x8.Idx) (q : dot_S1638400x4_S4x8_S1638400x8_1_0_0_1_n_n.contr.Idx) :
    (dot_S1638400x4_S4x8_S1638400x8_1_0_0_1_n_n.lhsIdx i q 1).val = (q ⟨0, by decide⟩).val :=
  dot_S1638400x4_S4x8_S1638400x8_1_0_0_1_n_n.lhsIdx_val_of_single rfl i q
/-- The right operand's row is the contracted coordinate. -/
theorem rhs_inner_1638400x4x8 (i : S1638400x8.Idx) (q : dot_S1638400x4_S4x8_S1638400x8_1_0_0_1_n_n.contr.Idx) :
    (dot_S1638400x4_S4x8_S1638400x8_1_0_0_1_n_n.rhsIdx i q 0).val = (q ⟨0, by decide⟩).val :=
  dot_S1638400x4_S4x8_S1638400x8_1_0_0_1_n_n.rhsIdx_val_of_single rfl i q
/-- The right operand's column is the output's column. -/
theorem rhs_col_1638400x4x8 (i : S1638400x8.Idx) (q : dot_S1638400x4_S4x8_S1638400x8_1_0_0_1_n_n.contr.Idx) :
    (dot_S1638400x4_S4x8_S1638400x8_1_0_0_1_n_n.rhsIdx i q 1).val = (i 1).val := by
  unfold DotDims.rhsIdx
  rw [dif_neg (show ¬(1 : Fin S4x8.rank) ∈ dot_S1638400x4_S4x8_S1638400x8_1_0_0_1_n_n.rhsBatch by decide), dif_pos (show (1 : Fin S4x8.rank) ∈ dot_S1638400x4_S4x8_S1638400x8_1_0_0_1_n_n.rhsNonContracting by decide)]
  rfl
/-- Entry (r, j) of the product is ∑ₖ x[r, k] · w[k, j], k over the 4 contracted coordinates. -/
theorem dot_entry_1638400x4x8 (X : FVec Ideal S1638400x4 .f32) (W : FVec Ideal S4x8 .f32) (i : S1638400x8.Idx) :
    Host.dotGeneral dot_S1638400x4_S4x8_S1638400x8_1_0_0_1_n_n none X W i = ∑ k : Fin 4, X (ix2 (i 0) k) * W (ix2 k (i 1)) := by
  simp only [Host.dotGeneral]
  rw [Ideal.dotGeneral_apply, ← Equiv.sum_comp (ValueIdx.contrEquiv1 dot_S1638400x4_S4x8_S1638400x8_1_0_0_1_n_n 4 rfl rfl).symm]
  refine Finset.sum_congr rfl fun k _ => ?_
  have hk := ValueIdx.contrEquiv1_symm_val dot_S1638400x4_S4x8_S1638400x8_1_0_0_1_n_n 4 rfl rfl k
  have el : dot_S1638400x4_S4x8_S1638400x8_1_0_0_1_n_n.lhsIdx i ((ValueIdx.contrEquiv1 dot_S1638400x4_S4x8_S1638400x8_1_0_0_1_n_n 4 rfl rfl).symm k) = ix2 (i 0) k := funext fun a => Fin.ext (by
    match a with
    | ⟨0, _⟩ => exact lhs_row_1638400x4x8 _ _
    | ⟨1, _⟩ => exact (lhs_inner_1638400x4x8 _ _).trans hk)
  have er : dot_S1638400x4_S4x8_S1638400x8_1_0_0_1_n_n.rhsIdx i ((ValueIdx.contrEquiv1 dot_S1638400x4_S4x8_S1638400x8_1_0_0_1_n_n 4 rfl rfl).symm k) = ix2 k (i 1) := funext fun a => Fin.ext (by
    match a with
    | ⟨0, _⟩ => exact (rhs_inner_1638400x4x8 _ _).trans hk
    | ⟨1, _⟩ => exact rhs_col_1638400x4x8 _ _)
  exact congrArg₂ (fun a b => X a * W b) el er

/-! ### [102400, 16] · [16, 16] -/

/-- The left operand's row is the output's row. -/
theorem lhs_row_102400x16x16 (i : S102400x16.Idx) (q : dot_S102400x16_S16x16_S102400x16_1_0_0_1_n_n.contr.Idx) :
    (dot_S102400x16_S16x16_S102400x16_1_0_0_1_n_n.lhsIdx i q 0).val = (i 0).val := by
  unfold DotDims.lhsIdx
  rw [dif_neg (show ¬(0 : Fin S102400x16.rank) ∈ dot_S102400x16_S16x16_S102400x16_1_0_0_1_n_n.lhsBatch by decide), dif_pos (show (0 : Fin S102400x16.rank) ∈ dot_S102400x16_S16x16_S102400x16_1_0_0_1_n_n.lhsNonContracting by decide)]
  rfl
/-- The left operand's column is the contracted coordinate. -/
theorem lhs_inner_102400x16x16 (i : S102400x16.Idx) (q : dot_S102400x16_S16x16_S102400x16_1_0_0_1_n_n.contr.Idx) :
    (dot_S102400x16_S16x16_S102400x16_1_0_0_1_n_n.lhsIdx i q 1).val = (q ⟨0, by decide⟩).val :=
  dot_S102400x16_S16x16_S102400x16_1_0_0_1_n_n.lhsIdx_val_of_single rfl i q
/-- The right operand's row is the contracted coordinate. -/
theorem rhs_inner_102400x16x16 (i : S102400x16.Idx) (q : dot_S102400x16_S16x16_S102400x16_1_0_0_1_n_n.contr.Idx) :
    (dot_S102400x16_S16x16_S102400x16_1_0_0_1_n_n.rhsIdx i q 0).val = (q ⟨0, by decide⟩).val :=
  dot_S102400x16_S16x16_S102400x16_1_0_0_1_n_n.rhsIdx_val_of_single rfl i q
/-- The right operand's column is the output's column. -/
theorem rhs_col_102400x16x16 (i : S102400x16.Idx) (q : dot_S102400x16_S16x16_S102400x16_1_0_0_1_n_n.contr.Idx) :
    (dot_S102400x16_S16x16_S102400x16_1_0_0_1_n_n.rhsIdx i q 1).val = (i 1).val := by
  unfold DotDims.rhsIdx
  rw [dif_neg (show ¬(1 : Fin S16x16.rank) ∈ dot_S102400x16_S16x16_S102400x16_1_0_0_1_n_n.rhsBatch by decide), dif_pos (show (1 : Fin S16x16.rank) ∈ dot_S102400x16_S16x16_S102400x16_1_0_0_1_n_n.rhsNonContracting by decide)]
  rfl
/-- Entry (r, j) of the product is ∑ₖ x[r, k] · w[k, j], k over the 16 contracted coordinates. -/
theorem dot_entry_102400x16x16 (X : FVec Ideal S102400x16 .f32) (W : FVec Ideal S16x16 .f32) (i : S102400x16.Idx) :
    Host.dotGeneral dot_S102400x16_S16x16_S102400x16_1_0_0_1_n_n none X W i = ∑ k : Fin 16, X (ix2 (i 0) k) * W (ix2 k (i 1)) := by
  simp only [Host.dotGeneral]
  rw [Ideal.dotGeneral_apply, ← Equiv.sum_comp (ValueIdx.contrEquiv1 dot_S102400x16_S16x16_S102400x16_1_0_0_1_n_n 16 rfl rfl).symm]
  refine Finset.sum_congr rfl fun k _ => ?_
  have hk := ValueIdx.contrEquiv1_symm_val dot_S102400x16_S16x16_S102400x16_1_0_0_1_n_n 16 rfl rfl k
  have el : dot_S102400x16_S16x16_S102400x16_1_0_0_1_n_n.lhsIdx i ((ValueIdx.contrEquiv1 dot_S102400x16_S16x16_S102400x16_1_0_0_1_n_n 16 rfl rfl).symm k) = ix2 (i 0) k := funext fun a => Fin.ext (by
    match a with
    | ⟨0, _⟩ => exact lhs_row_102400x16x16 _ _
    | ⟨1, _⟩ => exact (lhs_inner_102400x16x16 _ _).trans hk)
  have er : dot_S102400x16_S16x16_S102400x16_1_0_0_1_n_n.rhsIdx i ((ValueIdx.contrEquiv1 dot_S102400x16_S16x16_S102400x16_1_0_0_1_n_n 16 rfl rfl).symm k) = ix2 k (i 1) := funext fun a => Fin.ext (by
    match a with
    | ⟨0, _⟩ => exact (rhs_inner_102400x16x16 _ _).trans hk
    | ⟨1, _⟩ => exact rhs_col_102400x16x16 _ _)
  exact congrArg₂ (fun a b => X a * W b) el er

/-! ### [102400, 4] · [4, 16] -/

/-- The left operand's row is the output's row. -/
theorem lhs_row_102400x4x16 (i : S102400x16.Idx) (q : dot_S102400x4_S4x16_S102400x16_1_0_0_1_n_n.contr.Idx) :
    (dot_S102400x4_S4x16_S102400x16_1_0_0_1_n_n.lhsIdx i q 0).val = (i 0).val := by
  unfold DotDims.lhsIdx
  rw [dif_neg (show ¬(0 : Fin S102400x4.rank) ∈ dot_S102400x4_S4x16_S102400x16_1_0_0_1_n_n.lhsBatch by decide), dif_pos (show (0 : Fin S102400x4.rank) ∈ dot_S102400x4_S4x16_S102400x16_1_0_0_1_n_n.lhsNonContracting by decide)]
  rfl
/-- The left operand's column is the contracted coordinate. -/
theorem lhs_inner_102400x4x16 (i : S102400x16.Idx) (q : dot_S102400x4_S4x16_S102400x16_1_0_0_1_n_n.contr.Idx) :
    (dot_S102400x4_S4x16_S102400x16_1_0_0_1_n_n.lhsIdx i q 1).val = (q ⟨0, by decide⟩).val :=
  dot_S102400x4_S4x16_S102400x16_1_0_0_1_n_n.lhsIdx_val_of_single rfl i q
/-- The right operand's row is the contracted coordinate. -/
theorem rhs_inner_102400x4x16 (i : S102400x16.Idx) (q : dot_S102400x4_S4x16_S102400x16_1_0_0_1_n_n.contr.Idx) :
    (dot_S102400x4_S4x16_S102400x16_1_0_0_1_n_n.rhsIdx i q 0).val = (q ⟨0, by decide⟩).val :=
  dot_S102400x4_S4x16_S102400x16_1_0_0_1_n_n.rhsIdx_val_of_single rfl i q
/-- The right operand's column is the output's column. -/
theorem rhs_col_102400x4x16 (i : S102400x16.Idx) (q : dot_S102400x4_S4x16_S102400x16_1_0_0_1_n_n.contr.Idx) :
    (dot_S102400x4_S4x16_S102400x16_1_0_0_1_n_n.rhsIdx i q 1).val = (i 1).val := by
  unfold DotDims.rhsIdx
  rw [dif_neg (show ¬(1 : Fin S4x16.rank) ∈ dot_S102400x4_S4x16_S102400x16_1_0_0_1_n_n.rhsBatch by decide), dif_pos (show (1 : Fin S4x16.rank) ∈ dot_S102400x4_S4x16_S102400x16_1_0_0_1_n_n.rhsNonContracting by decide)]
  rfl
/-- Entry (r, j) of the product is ∑ₖ x[r, k] · w[k, j], k over the 4 contracted coordinates. -/
theorem dot_entry_102400x4x16 (X : FVec Ideal S102400x4 .f32) (W : FVec Ideal S4x16 .f32) (i : S102400x16.Idx) :
    Host.dotGeneral dot_S102400x4_S4x16_S102400x16_1_0_0_1_n_n none X W i = ∑ k : Fin 4, X (ix2 (i 0) k) * W (ix2 k (i 1)) := by
  simp only [Host.dotGeneral]
  rw [Ideal.dotGeneral_apply, ← Equiv.sum_comp (ValueIdx.contrEquiv1 dot_S102400x4_S4x16_S102400x16_1_0_0_1_n_n 4 rfl rfl).symm]
  refine Finset.sum_congr rfl fun k _ => ?_
  have hk := ValueIdx.contrEquiv1_symm_val dot_S102400x4_S4x16_S102400x16_1_0_0_1_n_n 4 rfl rfl k
  have el : dot_S102400x4_S4x16_S102400x16_1_0_0_1_n_n.lhsIdx i ((ValueIdx.contrEquiv1 dot_S102400x4_S4x16_S102400x16_1_0_0_1_n_n 4 rfl rfl).symm k) = ix2 (i 0) k := funext fun a => Fin.ext (by
    match a with
    | ⟨0, _⟩ => exact lhs_row_102400x4x16 _ _
    | ⟨1, _⟩ => exact (lhs_inner_102400x4x16 _ _).trans hk)
  have er : dot_S102400x4_S4x16_S102400x16_1_0_0_1_n_n.rhsIdx i ((ValueIdx.contrEquiv1 dot_S102400x4_S4x16_S102400x16_1_0_0_1_n_n 4 rfl rfl).symm k) = ix2 k (i 1) := funext fun a => Fin.ext (by
    match a with
    | ⟨0, _⟩ => exact (rhs_inner_102400x4x16 _ _).trans hk
    | ⟨1, _⟩ => exact rhs_col_102400x4x16 _ _)
  exact congrArg₂ (fun a b => X a * W b) el er

/-! ### [102400, 16] · [16, 1] -/

/-- The left operand's row is the output's row. -/
theorem lhs_row_102400x16x1 (i : S102400x1.Idx) (q : dot_S102400x16_S16x1_S102400x1_1_0_0_1_n_n.contr.Idx) :
    (dot_S102400x16_S16x1_S102400x1_1_0_0_1_n_n.lhsIdx i q 0).val = (i 0).val := by
  unfold DotDims.lhsIdx
  rw [dif_neg (show ¬(0 : Fin S102400x16.rank) ∈ dot_S102400x16_S16x1_S102400x1_1_0_0_1_n_n.lhsBatch by decide), dif_pos (show (0 : Fin S102400x16.rank) ∈ dot_S102400x16_S16x1_S102400x1_1_0_0_1_n_n.lhsNonContracting by decide)]
  rfl
/-- The left operand's column is the contracted coordinate. -/
theorem lhs_inner_102400x16x1 (i : S102400x1.Idx) (q : dot_S102400x16_S16x1_S102400x1_1_0_0_1_n_n.contr.Idx) :
    (dot_S102400x16_S16x1_S102400x1_1_0_0_1_n_n.lhsIdx i q 1).val = (q ⟨0, by decide⟩).val :=
  dot_S102400x16_S16x1_S102400x1_1_0_0_1_n_n.lhsIdx_val_of_single rfl i q
/-- The right operand's row is the contracted coordinate. -/
theorem rhs_inner_102400x16x1 (i : S102400x1.Idx) (q : dot_S102400x16_S16x1_S102400x1_1_0_0_1_n_n.contr.Idx) :
    (dot_S102400x16_S16x1_S102400x1_1_0_0_1_n_n.rhsIdx i q 0).val = (q ⟨0, by decide⟩).val :=
  dot_S102400x16_S16x1_S102400x1_1_0_0_1_n_n.rhsIdx_val_of_single rfl i q
/-- The right operand's column is the output's column. -/
theorem rhs_col_102400x16x1 (i : S102400x1.Idx) (q : dot_S102400x16_S16x1_S102400x1_1_0_0_1_n_n.contr.Idx) :
    (dot_S102400x16_S16x1_S102400x1_1_0_0_1_n_n.rhsIdx i q 1).val = (i 1).val := by
  unfold DotDims.rhsIdx
  rw [dif_neg (show ¬(1 : Fin S16x1.rank) ∈ dot_S102400x16_S16x1_S102400x1_1_0_0_1_n_n.rhsBatch by decide), dif_pos (show (1 : Fin S16x1.rank) ∈ dot_S102400x16_S16x1_S102400x1_1_0_0_1_n_n.rhsNonContracting by decide)]
  rfl
/-- Entry (r, j) of the product is ∑ₖ x[r, k] · w[k, j], k over the 16 contracted coordinates. -/
theorem dot_entry_102400x16x1 (X : FVec Ideal S102400x16 .f32) (W : FVec Ideal S16x1 .f32) (i : S102400x1.Idx) :
    Host.dotGeneral dot_S102400x16_S16x1_S102400x1_1_0_0_1_n_n none X W i = ∑ k : Fin 16, X (ix2 (i 0) k) * W (ix2 k (i 1)) := by
  simp only [Host.dotGeneral]
  rw [Ideal.dotGeneral_apply, ← Equiv.sum_comp (ValueIdx.contrEquiv1 dot_S102400x16_S16x1_S102400x1_1_0_0_1_n_n 16 rfl rfl).symm]
  refine Finset.sum_congr rfl fun k _ => ?_
  have hk := ValueIdx.contrEquiv1_symm_val dot_S102400x16_S16x1_S102400x1_1_0_0_1_n_n 16 rfl rfl k
  have el : dot_S102400x16_S16x1_S102400x1_1_0_0_1_n_n.lhsIdx i ((ValueIdx.contrEquiv1 dot_S102400x16_S16x1_S102400x1_1_0_0_1_n_n 16 rfl rfl).symm k) = ix2 (i 0) k := funext fun a => Fin.ext (by
    match a with
    | ⟨0, _⟩ => exact lhs_row_102400x16x1 _ _
    | ⟨1, _⟩ => exact (lhs_inner_102400x16x1 _ _).trans hk)
  have er : dot_S102400x16_S16x1_S102400x1_1_0_0_1_n_n.rhsIdx i ((ValueIdx.contrEquiv1 dot_S102400x16_S16x1_S102400x1_1_0_0_1_n_n 16 rfl rfl).symm k) = ix2 k (i 1) := funext fun a => Fin.ext (by
    match a with
    | ⟨0, _⟩ => exact (rhs_inner_102400x16x1 _ _).trans hk
    | ⟨1, _⟩ => exact rhs_col_102400x16x1 _ _)
  exact congrArg₂ (fun a b => X a * W b) el er

/-! ## Splats and the bias, at an entry -/

/-- A splat of the zero word reads 0 everywhere. -/
theorem zero_splat_apply (t : Shape) (h : S_.BroadcastsInDim t (![] : Fin S_.rank → Fin t.rank)) (i : t.Idx) :
    broadcastInDim t ![] h (constant (F := Ideal) S_ .f32 0x00000000#32) i = 0 := by
  rw [broadcastInDim_apply _ h _ i ix0 (fun a => a.elim0), constant_apply, Ideal.ofBits_zero_f32]

/-- A splat of the word of 1.0 reads 1 everywhere. -/
theorem one_splat_apply (t : Shape) (h : S_.BroadcastsInDim t (![] : Fin S_.rank → Fin t.rank)) (i : t.Idx) :
    broadcastInDim t ![] h (constant (F := Ideal) S_ .f32 0x3F800000#32) i = 1 := by
  rw [broadcastInDim_apply _ h _ i ix0 (fun a => a.elim0), constant_apply, Ideal.ofBits_one_f32]

/-- A bias of 8 entries, made a row and repeated down the edges, reads its entry at the column. -/
theorem bias_1638400x8_apply (b : FVec Ideal S8 .f32) (i : S1638400x8.Idx) :
    broadcastInDim S1638400x8 ![0, 1] bcast_S1x8_S1638400x8_0_1 (broadcastInDim S1x8 ![1] bcast_S8_S1x8_1 b) i = b (ix1 (i 1)) := by
  rw [broadcastInDim_apply _ bcast_S1x8_S1638400x8_0_1 _ i (ix2 ⟨0, Nat.one_pos⟩ (i 1)) (fun a => match a with
    | ⟨0, _⟩ => by simp
    | ⟨1, _⟩ => by simp)]
  exact broadcastInDim_apply _ bcast_S8_S1x8_1 b _ (ix1 (i 1)) (fun a => match a with
    | ⟨0, _⟩ => by simp)

/-- A bias of 16 entries, made a row and repeated down the nodes, reads its entry at the column. -/
theorem bias_102400x16_apply (b : FVec Ideal S16 .f32) (i : S102400x16.Idx) :
    broadcastInDim S102400x16 ![0, 1] bcast_S1x16_S102400x16_0_1 (broadcastInDim S1x16 ![1] bcast_S16_S1x16_1 b) i = b (ix1 (i 1)) := by
  rw [broadcastInDim_apply _ bcast_S1x16_S102400x16_0_1 _ i (ix2 ⟨0, Nat.one_pos⟩ (i 1)) (fun a => match a with
    | ⟨0, _⟩ => by simp
    | ⟨1, _⟩ => by simp)]
  exact broadcastInDim_apply _ bcast_S16_S1x16_1 b _ (ix1 (i 1)) (fun a => match a with
    | ⟨0, _⟩ => by simp)

/-- A bias of one entry, repeated down the nodes, reads that entry: the column index has one value. -/
theorem bias_102400x1_apply (b : FVec Ideal S1 .f32) (i : S102400x1.Idx) :
    broadcastInDim S102400x1 ![0, 1] bcast_S1x1_S102400x1_0_1 (broadcastInDim S1x1 ![1] bcast_S1_S1x1_1 b) i = b (ix1 (i 1)) := by
  have hc : (i 1).val = 0 := by have := (i 1).isLt; show (i 1).val = 0; change (i 1).val < 1 at this; omega
  rw [broadcastInDim_apply _ bcast_S1x1_S102400x1_0_1 _ i (ix2 ⟨0, Nat.one_pos⟩ (i 1)) (fun a => match a with
    | ⟨0, _⟩ => by simp
    | ⟨1, _⟩ => by simp [hc])]
  exact broadcastInDim_apply _ bcast_S1_S1x1_1 b _ (ix1 (i 1)) (fun a => match a with
    | ⟨0, _⟩ => by simp [hc])

/-! ## The host's quotient, exponential and negation, at an entry -/

section HostAtIdeal
variable {s : Shape} {φ : FTy}

/-- The host's quotient at an entry is the extended reals' division of the entries … -/
theorem hostDivf_apply (a b : FVec Ideal s φ) (i : s.Idx) : Host.divf a b i = Ideal.div (a i) (b i) := rfl
/-- … its exponential the exponential … -/
theorem hostExp_apply (a : FVec Ideal s φ) (i : s.Idx) : Host.exp a i = Ideal.exp (a i) := rfl
/-- … and its negation the negation. -/
theorem hostNegf_apply (a : FVec Ideal s φ) (i : s.Idx) : Host.negf a i = -(a i) := rfl

end HostAtIdeal

/-! ## The five layers -/

/-- The first edge update at edge e, entry j: max ((ef[e]·W₁[·,j] + sender[e]·W₂[·,j]) + b[j]) 0. -/
theorem edge_encoder_entry (X1 : FVec Ideal S1638400x1 .f32) (W1 : FVec Ideal S1x8 .f32) (X2 : FVec Ideal S1638400x60 .f32)
    (W2 : FVec Ideal S60x8 .f32) (b : FVec Ideal S8 .f32) (i : S1638400x8.Idx) :
    maximumf
      (addf
        (addf (Host.dotGeneral dot_S1638400x1_S1x8_S1638400x8_1_0_0_1_n_n none X1 W1)
          (Host.dotGeneral dot_S1638400x60_S60x8_S1638400x8_1_0_0_1_n_n none X2 W2))
        (broadcastInDim S1638400x8 ![0, 1] bcast_S1x8_S1638400x8_0_1 (broadcastInDim S1x8 ![1] bcast_S8_S1x8_1 b)))
      (broadcastInDim S1638400x8 ![] bcast_S_S1638400x8 (constant (F := Ideal) S_ .f32 0x00000000#32)) i
    = relu2 (fun k : Fin 1 => X1 (ix2 (i 0) k)) (fun k : Fin 1 => W1 (ix2 k (i 1)))
        (fun k : Fin 60 => X2 (ix2 (i 0) k)) (fun k : Fin 60 => W2 (ix2 k (i 1))) (b (ix1 (i 1))) := by
  rw [maximumf_apply, addf_apply, addf_apply, dot_entry_1638400x1x8, dot_entry_1638400x60x8, bias_1638400x8_apply,
    zero_splat_apply]
  rfl

/-- The first node update at node n, entry j: max ((nf[n]·W₁[·,j] + mean_e[n]·W₂[·,j]) + b[j]) 0. -/
theorem node_encoder_entry (X1 : FVec Ideal S102400x60 .f32) (W1 : FVec Ideal S60x16 .f32) (X2 : FVec Ideal S102400x8 .f32)
    (W2 : FVec Ideal S8x16 .f32) (b : FVec Ideal S16 .f32) (i : S102400x16.Idx) :
    maximumf
      (addf
        (addf (Host.dotGeneral dot_S102400x60_S60x16_S102400x16_1_0_0_1_n_n none X1 W1)
          (Host.dotGeneral dot_S102400x8_S8x16_S102400x16_1_0_0_1_n_n none X2 W2))
        (broadcastInDim S102400x16 ![0, 1] bcast_S1x16_S102400x16_0_1 (broadcastInDim S1x16 ![1] bcast_S16_S1x16_1 b)))
      (broadcastInDim S102400x16 ![] bcast_S_S102400x16 (constant (F := Ideal) S_ .f32 0x00000000#32)) i
    = relu2 (fun k : Fin 60 => X1 (ix2 (i 0) k)) (fun k : Fin 60 => W1 (ix2 k (i 1)))
        (fun k : Fin 8 => X2 (ix2 (i 0) k)) (fun k : Fin 8 => W2 (ix2 k (i 1))) (b (ix1 (i 1))) := by
  rw [maximumf_apply, addf_apply, addf_apply, dot_entry_102400x60x16, dot_entry_102400x8x16, bias_102400x16_apply,
    zero_splat_apply]
  rfl

/-- The second edge update at edge e, entry j: max (((e₁[e]·W₁[·,j] + n_sender[e]·W₂[·,j]) + g_edge[e]·W₃[·,j]) + b[j]) 0. -/
theorem edge_hidden_entry (X1 : FVec Ideal S1638400x8 .f32) (W1 : FVec Ideal S8x8 .f32) (X2 : FVec Ideal S1638400x16 .f32)
    (W2 : FVec Ideal S16x8 .f32) (X3 : FVec Ideal S1638400x4 .f32) (W3 : FVec Ideal S4x8 .f32) (b : FVec Ideal S8 .f32)
    (i : S1638400x8.Idx) :
    maximumf
      (addf
        (addf
          (addf (Host.dotGeneral dot_S1638400x8_S8x8_S1638400x8_1_0_0_1_n_n none X1 W1)
            (Host.dotGeneral dot_S1638400x16_S16x8_S1638400x8_1_0_0_1_n_n none X2 W2))
          (Host.dotGeneral dot_S1638400x4_S4x8_S1638400x8_1_0_0_1_n_n none X3 W3))
        (broadcastInDim S1638400x8 ![0, 1] bcast_S1x8_S1638400x8_0_1 (broadcastInDim S1x8 ![1] bcast_S8_S1x8_1 b)))
      (broadcastInDim S1638400x8 ![] bcast_S_S1638400x8 (constant (F := Ideal) S_ .f32 0x00000000#32)) i
    = relu3 (fun k : Fin 8 => X1 (ix2 (i 0) k)) (fun k : Fin 8 => W1 (ix2 k (i 1)))
        (fun k : Fin 16 => X2 (ix2 (i 0) k)) (fun k : Fin 16 => W2 (ix2 k (i 1)))
        (fun k : Fin 4 => X3 (ix2 (i 0) k)) (fun k : Fin 4 => W3 (ix2 k (i 1))) (b (ix1 (i 1))) := by
  rw [maximumf_apply, addf_apply, addf_apply, addf_apply, dot_entry_1638400x8x8, dot_entry_1638400x16x8,
    dot_entry_1638400x4x8, bias_1638400x8_apply, zero_splat_apply]
  rfl

/-- The second node update at node n, entry j: max (((n₁[n]·W₁[·,j] + mean_e[n]·W₂[·,j]) + g_node[n]·W₃[·,j]) + b[j]) 0. -/
theorem node_hidden_entry (X1 : FVec Ideal S102400x16 .f32) (W1 : FVec Ideal S16x16 .f32) (X2 : FVec Ideal S102400x8 .f32)
    (W2 : FVec Ideal S8x16 .f32) (X3 : FVec Ideal S102400x4 .f32) (W3 : FVec Ideal S4x16 .f32) (b : FVec Ideal S16 .f32)
    (i : S102400x16.Idx) :
    maximumf
      (addf
        (addf
          (addf (Host.dotGeneral dot_S102400x16_S16x16_S102400x16_1_0_0_1_n_n none X1 W1)
            (Host.dotGeneral dot_S102400x8_S8x16_S102400x16_1_0_0_1_n_n none X2 W2))
          (Host.dotGeneral dot_S102400x4_S4x16_S102400x16_1_0_0_1_n_n none X3 W3))
        (broadcastInDim S102400x16 ![0, 1] bcast_S1x16_S102400x16_0_1 (broadcastInDim S1x16 ![1] bcast_S16_S1x16_1 b)))
      (broadcastInDim S102400x16 ![] bcast_S_S102400x16 (constant (F := Ideal) S_ .f32 0x00000000#32)) i
    = relu3 (fun k : Fin 16 => X1 (ix2 (i 0) k)) (fun k : Fin 16 => W1 (ix2 k (i 1)))
        (fun k : Fin 8 => X2 (ix2 (i 0) k)) (fun k : Fin 8 => W2 (ix2 k (i 1)))
        (fun k : Fin 4 => X3 (ix2 (i 0) k)) (fun k : Fin 4 => W3 (ix2 k (i 1))) (b (ix1 (i 1))) := by
  rw [maximumf_apply, addf_apply, addf_apply, addf_apply, dot_entry_102400x16x16, dot_entry_102400x8x16,
    dot_entry_102400x4x16, bias_102400x16_apply, zero_splat_apply]
  rfl

/-- The node read-out at node n: 1 / (1 + exp (-(n₂[n]·w + b))) is logistic (n₂[n]·w + b). -/
theorem readout_entry (X : FVec Ideal S102400x16 .f32) (W : FVec Ideal S16x1 .f32) (b : FVec Ideal S1 .f32) (i : S102400x1.Idx) :
    Host.divf (broadcastInDim S102400x1 ![] bcast_S_S102400x1 (constant (F := Ideal) S_ .f32 0x3F800000#32))
      (addf (broadcastInDim S102400x1 ![] bcast_S_S102400x1 (constant (F := Ideal) S_ .f32 0x3F800000#32))
        (Host.exp (Host.negf
          (addf (Host.dotGeneral dot_S102400x16_S16x1_S102400x1_1_0_0_1_n_n none X W)
            (broadcastInDim S102400x1 ![0, 1] bcast_S1x1_S102400x1_0_1 (broadcastInDim S1x1 ![1] bcast_S1_S1x1_1 b)))))) i
    = sigmoid1 (fun k : Fin 16 => X (ix2 (i 0) k)) (fun k : Fin 16 => W (ix2 k (i 1))) (b (ix1 (i 1))) := by
  rw [hostDivf_apply, one_splat_apply, addf_apply, one_splat_apply, hostExp_apply, hostNegf_apply, addf_apply,
    dot_entry_102400x16x1, bias_102400x1_apply]
  rfl

end Cert.ReferenceIdeal.RefLayers

end
-- ==== Proof.EdgesFirst.lean ====
/-
  The first edge update: what the kernel program leaves in the edge array is the reference's first edge stage.

  When the first kernel region is entered its five input arrays hold: the edge features as launched; each edge's
  sender's input features (the guarded gather, which is the plain gather once every sender index is in range); the two
  weights transposed; the bias as a one-row array.  The region writes, entry by entry, the ReLU layer of those
  (Proof/EdgeEncoder.lean); the reference's stage is the same layer of the same arrays (Proof/RefLayers.lean).
-/
import proofs.«401216_j29635274342505_1_alg».proof.Proof.Gen.KernelIdeal.Frame
import proofs.«401216_j29635274342505_1_alg».proof.Proof.Stages
import proofs.«401216_j29635274342505_1_alg».proof.Proof.Walk
import proofs.«401216_j29635274342505_1_alg».proof.Proof.GuardedGather
import proofs.«401216_j29635274342505_1_alg».proof.Proof.EdgeEncoder
import proofs.«401216_j29635274342505_1_alg».proof.Proof.RefLayers
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Chain

open Cert.KernelIdeal Cert.KernelIdeal.Gen Cert.Stages Cert.ReferenceIdeal.Read Cert.DenseRow
open Idealize.ShloMosaic Idealize.ShloMosaic.TcCoe Idealize.SL.Sem Idealize.ShloMosaic.StableHlo Idealize.ShloMosaic.ValueIdx

section Readings  -- what the host operations compute, at any reading of the floats

variable {F : FTy → Type} [FloatOps F]
variable (m : (ℓ : Loc nD τ sig) → Buf (Elt F) ℓ) (ρ : Dev nD → PrngReg)

/-! ## The arrays the first region finds -/

theorem entry0_edgeFeatures (c : Dev nD) : V2 m ρ c main_arg1 = A1 m c := by
  show W2 m ρ c (Proc.devRef .tc main_arg1) = _
  read_back <;> rfl

set_option maxHeartbeats 4000000 in
/-- The senders' rows as the host computes them: the guarded gather. -/
theorem entry0_senderRows_filled (c : Dev nD) :
    V2 m ρ c main_v0 = TakeRows.senderInputsAt (A0 m c) (A2 m c) := by
  show W2 m ρ c (Proc.devRef .tc main_v0) = _
  read_back
  simp only [ofBuf_toBuf]
  have hs : (TRef.of main_arg2 : TRef sig ⟨S1638400, .i32⟩).ofBuf (W0 m ρ c (Proc.devRef .tc main_arg2)) = A2 m c := rfl
  have hx : (TRef.of main_arg0 : TRef sig ⟨S102400x60, .f32⟩).ofBuf (W0 m ρ c (Proc.devRef .tc main_arg0)) = A0 m c := rfl
  rw [hs, hx]
  refine eq_of_heq ((toBuf_heq _ _).trans (heq_of_eq ?_))
  rfl

/-- The plain gather by the wrapped index is how the reference reads the senders' rows. -/
theorem gather_senderInputs (c : Dev nD) :
    Host.gather gather_S102400x60_S1638400x1_S1638400x60_1_0_n_n_0_1_160 (A0 m c) (TakeRows.wrapE 102400#32 (A2 m c))
      = senderInputs m c := rfl

theorem entry0_weightEdge (c : Dev nD) : V2 m ρ c main_v1 = val_main_v0 (F := F) (A6 m c) := by
  show W2 m ρ c (Proc.devRef .tc main_v1) = _
  read_back <;> rfl

theorem entry0_weightSender (c : Dev nD) : V2 m ρ c main_v2 = val_main_v9 (F := F) (A7 m c) := by
  show W2 m ρ c (Proc.devRef .tc main_v2) = _
  read_back <;> rfl

/-- The bias, reshaped to one row, read at entry j. -/
theorem entry0_bias (c : Dev nD) (j : Fin 8) : V2 m ρ c main_v3 (ix2 0 j) = A8 m c (ix1 j) := by
  show W2 m ρ c (Proc.devRef .tc main_v3) (ix2 0 j) = _
  read_back
  exact reshape_row_apply _ _ j

end Readings

section Layer  -- over the extended reals

variable (m : (ℓ : Loc nD τ sig) → Buf (Elt Ideal) ℓ) (ρ : Dev nD → PrngReg)

/-- With the sender indices in range the guarded gather of the senders' rows is the reference's gather. -/
theorem entry0_senderRows (c : Dev nD) (hs : ∀ e : S1638400.Idx, (-102400 : Int) ≤ (A2 m c e).toInt ∧ (A2 m c e).toInt < 102400) :
    V2 m ρ c main_v0 = senderInputs m c := by
  rw [entry0_senderRows_filled, TakeRows.senderInputsAt_ideal, TakeRows.senderInputs_eq _ _ hs]
  exact gather_senderInputs m c

/-! ## The first edge update -/

theorem edges_first (c : Dev nD) (hs : ∀ e : S1638400.Idx, (-102400 : Int) ≤ (A2 m c e).toInt ∧ (A2 m c e).toInt < 102400) :
    W3 m ρ c (Proc.devRef .tc main_v4) = edges1 m c := by
  refine (W3_arr m ρ c 5).trans ?_
  rw [EdgeEncoder.array_eq]
  funext i
  rw [entry0_edgeFeatures, entry0_weightEdge, entry0_senderRows m ρ c hs, entry0_weightSender]
  refine (congrArg _ (entry0_bias m ρ c (i 1))).trans ?_
  exact (Cert.ReferenceIdeal.RefLayers.edge_encoder_entry (A1 m c) (val_main_v0 (F := Ideal) (A6 m c)) (senderInputs m c)
    (val_main_v9 (F := Ideal) (A7 m c)) (A8 m c) i).symm

end Layer

end Cert.Chain

end
-- ==== Proof.NodeEncoder.lean ====
/-
  The first node update, as one function of the arrays the region finds.
  The nodes are cut into 25 blocks of 4096 rows; a block's rows depend only on the same rows of the two inputs and on the
  whole weights and bias, so the 25 written blocks are the restrictions of ONE array-wide function.
-/
import proofs.«401216_j29635274342505_1_alg».proof.Proof.Gen.KernelIdeal.Frame
import proofs.«401216_j29635274342505_1_alg».proof.Proof.DenseRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeEncoder

open Cert.KernelIdeal Cert.KernelIdeal.Gen Cert.DenseRow
open Idealize.ShloMosaic Idealize.ShloMosaic.TcCoe Idealize.SL.Sem Idealize.ShloMosaic.ValueIdx
open Idealize.ShloMosaic.Pipeline (Dat Cfg Window)

-- the buffer contents when the region is entered: a parameter, so that the lemma serves whatever ran before
variable (V : (c : Dev nD) → (b : Ref sig .tc) → Buf (Elt Ideal) ((c : Thread nD τ).loc b))

/-! ## One entry of a block's two products

A product of a [4096, K] block with a [K, 16] weight, no batch axis: at output entry (r, j) and contraction
coordinate k the left operand is read at (r, k) and the right at (k, j). -/

-- node features [4096, 60] times their weight [60, 16]
private theorem feat_lhs_0 (i : S4096x16.Idx) (q : dot_S4096x60_S60x16_S4096x16_1_0_0_1_n_n.contr.Idx) :
    (dot_S4096x60_S60x16_S4096x16_1_0_0_1_n_n.lhsIdx i q 0).val = (i 0).val := by
  unfold DotDims.lhsIdx
  rw [dif_neg (show ¬(0 : Fin S4096x60.rank) ∈ dot_S4096x60_S60x16_S4096x16_1_0_0_1_n_n.lhsBatch by decide), dif_pos (show (0 : Fin S4096x60.rank) ∈ dot_S4096x60_S60x16_S4096x16_1_0_0_1_n_n.lhsNonContracting by decide)]
  rfl
private theorem feat_lhs_1 (i : S4096x16.Idx) (q : dot_S4096x60_S60x16_S4096x16_1_0_0_1_n_n.contr.Idx) :
    (dot_S4096x60_S60x16_S4096x16_1_0_0_1_n_n.lhsIdx i q 1).val = (q ⟨0, by decide⟩).val :=
  dot_S4096x60_S60x16_S4096x16_1_0_0_1_n_n.lhsIdx_val_of_single rfl i q
private theorem feat_rhs_0 (i : S4096x16.Idx) (q : dot_S4096x60_S60x16_S4096x16_1_0_0_1_n_n.contr.Idx) :
    (dot_S4096x60_S60x16_S4096x16_1_0_0_1_n_n.rhsIdx i q 0).val = (q ⟨0, by decide⟩).val :=
  dot_S4096x60_S60x16_S4096x16_1_0_0_1_n_n.rhsIdx_val_of_single rfl i q
private theorem feat_rhs_1 (i : S4096x16.Idx) (q : dot_S4096x60_S60x16_S4096x16_1_0_0_1_n_n.contr.Idx) :
    (dot_S4096x60_S60x16_S4096x16_1_0_0_1_n_n.rhsIdx i q 1).val = (i 1).val := by
  unfold DotDims.rhsIdx
  rw [dif_neg (show ¬(1 : Fin S60x16.rank) ∈ dot_S4096x60_S60x16_S4096x16_1_0_0_1_n_n.rhsBatch by decide), dif_pos (show (1 : Fin S60x16.rank) ∈ dot_S4096x60_S60x16_S4096x16_1_0_0_1_n_n.rhsNonContracting by decide)]
  rfl

-- mean incoming edge features [4096, 8] times their weight [8, 16]
private theorem mean_lhs_0 (i : S4096x16.Idx) (q : dot_S4096x8_S8x16_S4096x16_1_0_0_1_n_n.contr.Idx) :
    (dot_S4096x8_S8x16_S4096x16_1_0_0_1_n_n.lhsIdx i q 0).val = (i 0).val := by
  unfold DotDims.lhsIdx
  rw [dif_neg (show ¬(0 : Fin S4096x8.rank) ∈ dot_S4096x8_S8x16_S4096x16_1_0_0_1_n_n.lhsBatch by decide), dif_pos (show (0 : Fin S4096x8.rank) ∈ dot_S4096x8_S8x16_S4096x16_1_0_0_1_n_n.lhsNonContracting by decide)]
  rfl
private theorem mean_lhs_1 (i : S4096x16.Idx) (q : dot_S4096x8_S8x16_S4096x16_1_0_0_1_n_n.contr.Idx) :
    (dot_S4096x8_S8x16_S4096x16_1_0_0_1_n_n.lhsIdx i q 1).val = (q ⟨0, by decide⟩).val :=
  dot_S4096x8_S8x16_S4096x16_1_0_0_1_n_n.lhsIdx_val_of_single rfl i q
private theorem mean_rhs_0 (i : S4096x16.Idx) (q : dot_S4096x8_S8x16_S4096x16_1_0_0_1_n_n.contr.Idx) :
    (dot_S4096x8_S8x16_S4096x16_1_0_0_1_n_n.rhsIdx i q 0).val = (q ⟨0, by decide⟩).val :=
  dot_S4096x8_S8x16_S4096x16_1_0_0_1_n_n.rhsIdx_val_of_single rfl i q
private theorem mean_rhs_1 (i : S4096x16.Idx) (q : dot_S4096x8_S8x16_S4096x16_1_0_0_1_n_n.contr.Idx) :
    (dot_S4096x8_S8x16_S4096x16_1_0_0_1_n_n.rhsIdx i q 1).val = (i 1).val := by
  unfold DotDims.rhsIdx
  rw [dif_neg (show ¬(1 : Fin S8x16.rank) ∈ dot_S4096x8_S8x16_S4096x16_1_0_0_1_n_n.rhsBatch by decide), dif_pos (show (1 : Fin S8x16.rank) ∈ dot_S4096x8_S8x16_S4096x16_1_0_0_1_n_n.rhsNonContracting by decide)]
  rfl

/-- Entry (r, j) of a block of node features times its weight, added to zero: the sum over the 60 features. -/
private theorem featProduct_apply (x : FVec Ideal S4096x60 .bf16) (w : FVec Ideal S60x16 .bf16) (r : Fin 4096) (j : Fin 16) :
    matmul (F := Ideal) dot_S4096x60_S60x16_S4096x16_1_0_0_1_n_n none x w (constant (F := Ideal) S4096x16 .f32 0x00000000#32) (ix2 r j)
      = ∑ k : Fin 60, x (ix2 r k) * w (ix2 k j) := by
  show FloatOps.matmul dot_S4096x60_S60x16_S4096x16_1_0_0_1_n_n none x w (constant (F := Ideal) S4096x16 .f32 0x00000000#32) (ix2 r j) = _
  rw [Ideal.matmul_constant_zero_apply, ← Equiv.sum_comp (ValueIdx.contrEquiv1 dot_S4096x60_S60x16_S4096x16_1_0_0_1_n_n 60 rfl rfl).symm]
  refine Finset.sum_congr rfl fun k _ => ?_
  have hk := ValueIdx.contrEquiv1_symm_val dot_S4096x60_S60x16_S4096x16_1_0_0_1_n_n 60 rfl rfl k
  have el : dot_S4096x60_S60x16_S4096x16_1_0_0_1_n_n.lhsIdx (ix2 r j) ((ValueIdx.contrEquiv1 dot_S4096x60_S60x16_S4096x16_1_0_0_1_n_n 60 rfl rfl).symm k) = ix2 r k := funext fun a => Fin.ext (by
    match a with
    | ⟨0, _⟩ => exact feat_lhs_0 _ _
    | ⟨1, _⟩ => exact (feat_lhs_1 _ _).trans hk)
  have er : dot_S4096x60_S60x16_S4096x16_1_0_0_1_n_n.rhsIdx (ix2 r j) ((ValueIdx.contrEquiv1 dot_S4096x60_S60x16_S4096x16_1_0_0_1_n_n 60 rfl rfl).symm k) = ix2 k j := funext fun a => Fin.ext (by
    match a with
    | ⟨0, _⟩ => exact (feat_rhs_0 _ _).trans hk
    | ⟨1, _⟩ => exact feat_rhs_1 _ _)
  rw [el, er]

/-- Entry (r, j) of a block of mean incoming edge features times its weight, added to zero: the sum over the 8 features. -/
private theorem meanProduct_apply (x : FVec Ideal S4096x8 .bf16) (w : FVec Ideal S8x16 .bf16) (r : Fin 4096) (j : Fin 16) :
    matmul (F := Ideal) dot_S4096x8_S8x16_S4096x16_1_0_0_1_n_n none x w (constant (F := Ideal) S4096x16 .f32 0x00000000#32) (ix2 r j)
      = ∑ k : Fin 8, x (ix2 r k) * w (ix2 k j) := by
  show FloatOps.matmul dot_S4096x8_S8x16_S4096x16_1_0_0_1_n_n none x w (constant (F := Ideal) S4096x16 .f32 0x00000000#32) (ix2 r j) = _
  rw [Ideal.matmul_constant_zero_apply, ← Equiv.sum_comp (ValueIdx.contrEquiv1 dot_S4096x8_S8x16_S4096x16_1_0_0_1_n_n 8 rfl rfl).symm]
  refine Finset.sum_congr rfl fun k _ => ?_
  have hk := ValueIdx.contrEquiv1_symm_val dot_S4096x8_S8x16_S4096x16_1_0_0_1_n_n 8 rfl rfl k
  have el : dot_S4096x8_S8x16_S4096x16_1_0_0_1_n_n.lhsIdx (ix2 r j) ((ValueIdx.contrEquiv1 dot_S4096x8_S8x16_S4096x16_1_0_0_1_n_n 8 rfl rfl).symm k) = ix2 r k := funext fun a => Fin.ext (by
    match a with
    | ⟨0, _⟩ => exact mean_lhs_0 _ _
    | ⟨1, _⟩ => exact (mean_lhs_1 _ _).trans hk)
  have er : dot_S4096x8_S8x16_S4096x16_1_0_0_1_n_n.rhsIdx (ix2 r j) ((ValueIdx.contrEquiv1 dot_S4096x8_S8x16_S4096x16_1_0_0_1_n_n 8 rfl rfl).symm k) = ix2 k j := funext fun a => Fin.ext (by
    match a with
    | ⟨0, _⟩ => exact (mean_rhs_0 _ _).trans hk
    | ⟨1, _⟩ => exact mean_rhs_1 _ _)
  rw [el, er]

/-- The bias row repeated down the block's 4096 rows reads, at (r, j), the bias at column j. -/
private theorem biasRows_apply (b : FVec Ideal S1x16 .f32) (r : Fin 4096) (j : Fin 16) :
    broadcastTo S4096x16 b broadcasts_S1x16_S4096x16 (ix2 r j) = b (ix2 0 j) := by
  refine broadcastTo_apply b broadcasts_S1x16_S4096x16 (ix2 r j) (ix2 0 j) fun a => ?_
  match a with
  | ⟨0, _⟩ => rfl
  | ⟨1, _⟩ => rfl

/-- WHAT THE BODY STORES, AT ONE ENTRY: row r, column j of the stored block is
    max ((x₀[r]·w₀[·,j] + x₁[r]·w₁[·,j]) + b[j]) 0 of the five loaded blocks. A change of float format and a cast to
    the same shape are the identity on extended reals; each product runs into a zero accumulator; the sums are added
    left to right and the bias last, as the dense row is. -/
private theorem payload_entry (x0 : Vec Ideal S4096x60 .f32) (x1 : Vec Ideal S4096x8 .f32) (w0 : Vec Ideal S60x16 .f32)
    (w1 : Vec Ideal S8x16 .f32) (b : Vec Ideal S1x16 .f32) (r : Fin 4096) (j : Fin 16) :
    k1_pay1 (F := Ideal) x0 x1 w0 w1 b (ix2 r j)
      = relu2 (fun k : Fin 60 => x0 (ix2 r k)) (fun k : Fin 60 => w0 (ix2 k j))
          (fun k : Fin 8 => x1 (ix2 r k)) (fun k : Fin 8 => w1 (ix2 k j)) (b (ix2 0 j)) := by
  unfold k1_pay1 relu2
  rw [maximumf_apply, addf_apply, addf_apply, broadcast_apply, featProduct_apply, meanProduct_apply, biasRows_apply]
  simp only [shapeCast_self, truncf_apply]
  exact congrArg (max _) Ideal.ofBits_zero_f32

/-! ## The blocks, read off the arrays -/

/-- The array-wide function: entry (n, j) from row n of the two inputs, column j of the two weights and of the bias. -/
private abbrev nodeUpdate (c : Dev nD) : S102400x16.Idx → EReal := fun i =>
  relu2 (fun k : Fin 60 => V c main_arg0 (ix2 (i 0) k)) (fun k : Fin 60 => V c main_v16 (ix2 k (i 1)))
    (fun k : Fin 8 => V c main_v15 (ix2 (i 0) k)) (fun k : Fin 8 => V c main_v17 (ix2 k (i 1)))
    (V c main_v18 (ix2 0 (i 1)))

private theorem zeroOffsets : (![0, 0] : Fin 2 → Nat) = fun _ => 0 := funext fun a => by fin_cases a <;> rfl

/-- Where each window's block sits at grid point t, decided once over the 25 points: the two inputs cut by rows and
    the output are at row block t (and the one column block); each weight and the bias are whole, at block (0, 0). -/
private theorem blockIndex_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Two dense rows are equal when their rows, columns and bias are. -/
private theorem relu2_congr {d1 d2 : ℕ} {x1 x1' w1 w1' : Fin d1 → EReal} {x2 x2' w2 w2' : Fin d2 → EReal} {b b' : EReal}
    (h1 : ∀ k, x1 k = x1' k) (h2 : ∀ k, w1 k = w1' k) (h3 : ∀ k, x2 k = x2' k) (h4 : ∀ k, w2 k = w2' k) (h5 : b = b') :
    relu2 x1 w1 x2 w2 b = relu2 x1' w1' x2' w2' b' := by
  obtain rfl := funext h1
  obtain rfl := funext h2
  obtain rfl := funext h3
  obtain rfl := funext h4
  rw [h5]

/-- Row p of the node-feature block at point t is row 4096·t + p of the node-feature array. -/
private theorem featBlock_apply (c : Dev nD) (t : Fin cfg1.N) (p : Fin 4096) (k : Fin 60) (i : S102400x16.Idx)
    (h0 : (i 0).val = t.val * 4096 + p.val) :
    (iblk1 V c 0 t : Vec Ideal S4096x60 .f32) (ix2 p k) = V c main_arg0 (ix2 (i 0) k) := by
  obtain ⟨f0, f1, -⟩ := blockIndex_facts t
  show V c main_arg0 (((cfg1.win 0).blk t).view.emb (ix2 p k)) = V c main_arg0 (ix2 (i 0) k)
  refine congrArg (V c main_arg0) (funext fun a => Fin.ext ?_)
  match a with
  | ⟨0, _⟩ => show win1_0.index t (0 : Fin 2) * 4096 + 1 * p.val = (i 0).val; omega
  | ⟨1, _⟩ => show win1_0.index t (1 : Fin 2) * 60 + 1 * k.val = k.val; omega

/-- Row p of the mean-edge-feature block at point t is row 4096·t + p of the mean-edge-feature array. -/
private theorem meanBlock_apply (c : Dev nD) (t : Fin cfg1.N) (p : Fin 4096) (k : Fin 8) (i : S102400x16.Idx)
    (h0 : (i 0).val = t.val * 4096 + p.val) :
    (iblk1 V c 1 t : Vec Ideal S4096x8 .f32) (ix2 p k) = V c main_v15 (ix2 (i 0) k) := by
  obtain ⟨-, -, f0, f1, -⟩ := blockIndex_facts t
  show V c main_v15 (((cfg1.win 1).blk t).view.emb (ix2 p k)) = V c main_v15 (ix2 (i 0) k)
  refine congrArg (V c main_v15) (funext fun a => Fin.ext ?_)
  match a with
  | ⟨0, _⟩ => show win1_1.index t (0 : Fin 2) * 4096 + 1 * p.val = (i 0).val; omega
  | ⟨1, _⟩ => show win1_1.index t (1 : Fin 2) * 8 + 1 * k.val = k.val; omega

/-- The node-feature weight's block is the whole weight, at every point. -/
private theorem featWeight_apply (c : Dev nD) (t : Fin cfg1.N) (k : Fin 60) (q : Fin 16) (i : S102400x16.Idx)
    (h1 : (i 1).val = q.val) :
    (iblk1 V c 2 t : Vec Ideal S60x16 .f32) (ix2 k q) = V c main_v16 (ix2 k (i 1)) := by
  obtain ⟨-, -, -, -, f0, f1, -⟩ := blockIndex_facts t
  show V c main_v16 (((cfg1.win 2).blk t).view.emb (ix2 k q)) = V c main_v16 (ix2 k (i 1))
  refine congrArg (V c main_v16) (funext fun a => Fin.ext ?_)
  match a with
  | ⟨0, _⟩ => show win1_2.index t (0 : Fin 2) * 60 + 1 * k.val = k.val; omega
  | ⟨1, _⟩ => show win1_2.index t (1 : Fin 2) * 16 + 1 * q.val = (i 1).val; omega

/-- The mean-edge-feature weight's block is the whole weight, at every point. -/
private theorem meanWeight_apply (c : Dev nD) (t : Fin cfg1.N) (k : Fin 8) (q : Fin 16) (i : S102400x16.Idx)
    (h1 : (i 1).val = q.val) :
    (iblk1 V c 3 t : Vec Ideal S8x16 .f32) (ix2 k q) = V c main_v17 (ix2 k (i 1)) := by
  obtain ⟨-, -, -, -, -, -, f0, f1, -⟩ := blockIndex_facts t
  show V c main_v17 (((cfg1.win 3).blk t).view.emb (ix2 k q)) = V c main_v17 (ix2 k (i 1))
  refine congrArg (V c main_v17) (funext fun a => Fin.ext ?_)
  match a with
  | ⟨0, _⟩ => show win1_3.index t (0 : Fin 2) * 8 + 1 * k.val = k.val; omega
  | ⟨1, _⟩ => show win1_3.index t (1 : Fin 2) * 16 + 1 * q.val = (i 1).val; omega

/-- The bias's block is the whole bias, at every point. -/
private theorem bias_apply (c : Dev nD) (t : Fin cfg1.N) (q : Fin 16) (i : S102400x16.Idx)
    (h1 : (i 1).val = q.val) :
    (iblk1 V c 4 t : Vec Ideal S1x16 .f32) (ix2 0 q) = V c main_v18 (ix2 0 (i 1)) := by
  obtain ⟨-, -, -, -, -, -, -, -, f0, f1, -⟩ := blockIndex_facts t
  show V c main_v18 (((cfg1.win 4).blk t).view.emb (ix2 0 q)) = V c main_v18 (ix2 0 (i 1))
  refine congrArg (V c main_v18) (funext fun a => Fin.ext ?_)
  match a with
  | ⟨0, _⟩ => show win1_4.index t (0 : Fin 2) * 1 + 1 * 0 = 0; omega
  | ⟨1, _⟩ => show win1_4.index t (1 : Fin 2) * 16 + 1 * q.val = (i 1).val; omega

/-- WHAT POINT t WRITES BACK is block t of the array-wide function. -/
private theorem flushed_eq (c : Dev nD) (t : Fin cfg1.N) :
    (dat1 (F := Ideal) V c).flushed 5 t = ((cfg1.win 5).blk t).view.read (Elt Ideal) (nodeUpdate V c) := by
  show (cfg1.win 5).cut (grid1.coords t) ((dat1 (F := Ideal) V c).after 5 t) = _
  rw [after1_5]
  unfold out1_5
  rw [View.canon_unit_zero zeroOffsets]
  simp only [View.ld_unit_zero (S := S4096x60) zeroOffsets, View.ld_unit_zero (S := S4096x8) zeroOffsets,
    View.ld_unit_zero (S := S60x16) zeroOffsets, View.ld_unit_zero (S := S8x16) zeroOffsets,
    View.ld_unit_zero (S := S1x16) zeroOffsets]
  obtain ⟨-, -, -, -, -, -, -, -, -, -, f0, f1⟩ := blockIndex_facts t
  funext y
  obtain ⟨p, q, rfl⟩ : ∃ (p : Fin 4096) (q : Fin 16), y = ix2 p q := ⟨y 0, y 1, eq_ix2 y⟩
  show k1_pay1 (F := Ideal) (iblk1 V c 0 t) (iblk1 V c 1 t) (iblk1 V c 2 t) (iblk1 V c 3 t) (iblk1 V c 4 t) (ix2 p q)
      = nodeUpdate V c (((cfg1.win 5).blk t).view.emb (ix2 p q))
  have h0 : ((((cfg1.win 5).blk t).view.emb (ix2 p q)) 0).val = t.val * 4096 + p.val := by
    show win1_5.index t (0 : Fin 2) * 4096 + 1 * p.val = _; omega
  have h1 : ((((cfg1.win 5).blk t).view.emb (ix2 p q)) 1).val = q.val := by
    show win1_5.index t (1 : Fin 2) * 16 + 1 * q.val = _; omega
  refine (payload_entry (iblk1 V c 0 t) (iblk1 V c 1 t) (iblk1 V c 2 t) (iblk1 V c 3 t) (iblk1 V c 4 t) p q).trans ?_
  exact relu2_congr
    (fun k => featBlock_apply V c t p k (((cfg1.win 5).blk t).view.emb (ix2 p q)) h0)
    (fun k => featWeight_apply V c t k q (((cfg1.win 5).blk t).view.emb (ix2 p q)) h1)
    (fun k => meanBlock_apply V c t p k (((cfg1.win 5).blk t).view.emb (ix2 p q)) h0)
    (fun k => meanWeight_apply V c t k q (((cfg1.win 5).blk t).view.emb (ix2 p q)) h1)
    (bias_apply V c t q (((cfg1.win 5).blk t).view.emb (ix2 p q)) h1)

/-- A node-array index is in point t's block iff each coordinate is in the block's range on its axis. -/
private theorem mem_block (t : Fin cfg1.N) (i : S102400x16.Idx) :
    i ∈ ((cfg1.win 5).blk t).view.set ↔ ∀ a : Fin 2, win1_5.index t a * S4096x16.size a ≤ (i a).val ∧ (i a).val < win1_5.index t a * S4096x16.size a + S4096x16.size a := by
  show i ∈ ((View.whole main_v19).slice (win1_5.rect t)).set ↔ _
  rw [View.set_slice_whole, Rect.mem_set_unit]
  exact Iff.rfl

/-- THE BLOCKS COVER THE ARRAY: node n lies in the block of point n / 4096, which writes back. -/
private theorem covered (i : S102400x16.Idx) :
    ∃ t : Fin cfg1.N, (cfg1.win 5).flush t = true ∧ i ∈ ((cfg1.win 5).blk t).view.set := by
  have hi0 : (i 0).val < 102400 := (i 0).isLt
  have hi1 : (i 1).val < 16 := (i 1).isLt
  have hN : cfg1.N = 25 := N_1
  have ht : (i 0).val / 4096 < cfg1.N := by rw [hN]; omega
  obtain ⟨-, -, -, -, -, -, -, -, -, -, f0, f1⟩ := blockIndex_facts ⟨(i 0).val / 4096, ht⟩
  have f0' : win1_5.index ⟨(i 0).val / 4096, ht⟩ (0 : Fin 2) = (i 0).val / 4096 := f0
  refine ⟨⟨(i 0).val / 4096, ht⟩, flush1_5 _, ?_⟩
  rw [mem_block]
  intro a
  match a with
  | ⟨0, _⟩ => show win1_5.index ⟨(i 0).val / 4096, ht⟩ (0 : Fin 2) * 4096 ≤ (i 0).val ∧ (i 0).val < win1_5.index ⟨(i 0).val / 4096, ht⟩ (0 : Fin 2) * 4096 + 4096; omega
  | ⟨1, _⟩ => show win1_5.index ⟨(i 0).val / 4096, ht⟩ (1 : Fin 2) * 16 ≤ (i 1).val ∧ (i 1).val < win1_5.index ⟨(i 0).val / 4096, ht⟩ (1 : Fin 2) * 16 + 16; omega

/-- After the first pass over the nodes, entry (n, j) of the node array is
    max ((nf[n]·Wnn[·,j] + mean_e[n]·Wni[·,j]) + bn[j]) 0. -/
theorem array_eq (c : Dev nD) :
    (dat1 (F := Ideal) V c).arrAt 5 cfg1.N = fun i : S102400x16.Idx =>
      relu2 (fun k : Fin 60 => V c main_arg0 (ix2 (i 0) k)) (fun k : Fin 60 => V c main_v16 (ix2 k (i 1)))
        (fun k : Fin 8 => V c main_v15 (ix2 (i 0) k)) (fun k : Fin 8 => V c main_v17 (ix2 k (i 1)))
        (V c main_v18 (ix2 0 (i 1))) := by
  exact (dat1 (F := Ideal) V c).arrAt_eq_of_cover 5 (nodeUpdate V c) (fun t _ => flushed_eq V c t) covered

end Cert.KernelIdeal.NodeEncoder

end
-- ==== Proof.NodesFirst.lean ====
/-
  The first node update: what the kernel program leaves in the node array is the reference's first node stage.

  Between the first two regions the host takes, for every node, the mean of its incoming edges' features (a
  scatter-add of the features, a scatter-add of ones, the count raised to at least one, the quotient): the same
  operations in both programs, applied to the first edge update.  The second region's other inputs are the node features
  as launched, two weights transposed and the bias as a row.
-/
import proofs.«401216_j29635274342505_1_alg».proof.Proof.Gen.KernelIdeal.Frame
import proofs.«401216_j29635274342505_1_alg».proof.Proof.Stages
import proofs.«401216_j29635274342505_1_alg».proof.Proof.Walk
import proofs.«401216_j29635274342505_1_alg».proof.Proof.NodeEncoder
import proofs.«401216_j29635274342505_1_alg».proof.Proof.RefLayers
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Chain

open Cert.KernelIdeal Cert.KernelIdeal.Gen Cert.Stages Cert.ReferenceIdeal.Read Cert.DenseRow
open Idealize.ShloMosaic Idealize.ShloMosaic.TcCoe Idealize.SL.Sem Idealize.ShloMosaic.StableHlo Idealize.ShloMosaic.ValueIdx

section Readings  -- what the host operations compute, at any reading of the floats

variable {F : FTy → Type} [FloatOps F]
variable (m : (ℓ : Loc nD τ sig) → Buf (Elt F) ℓ) (ρ : Dev nD → PrngReg)

/-! ## The arrays the second region finds -/

theorem entry1_nodeFeatures (c : Dev nD) : V4 m ρ c main_arg0 = A0 m c := by
  show W4 m ρ c (Proc.devRef .tc main_arg0) = _
  read_back [x3 main_arg0] <;> rfl

set_option maxHeartbeats 4000000 in
theorem entry1_edgeMean (c : Dev nD) (he1 : W3 m ρ c (Proc.devRef .tc main_v4) = edges1 m c) :
    V4 m ρ c main_v15 = edgeMean1 m c := by
  show W4 m ρ c (Proc.devRef .tc main_v15) = _
  read_back [x3 main_arg3]
  rw [he1]
  rfl

theorem entry1_weightNode (c : Dev nD) : V4 m ρ c main_v16 = val_main_v16 (F := F) (A9 m c) := by
  show W4 m ρ c (Proc.devRef .tc main_v16) = _
  read_back [x3 main_arg9] <;> rfl

theorem entry1_weightMean (c : Dev nD) : V4 m ρ c main_v17 = val_main_v29 (F := F) (A10 m c) := by
  show W4 m ρ c (Proc.devRef .tc main_v17) = _
  read_back [x3 main_arg10] <;> rfl

theorem entry1_bias (c : Dev nD) (j : Fin 16) : V4 m ρ c main_v18 (ix2 0 j) = A11 m c (ix1 j) := by
  show W4 m ρ c (Proc.devRef .tc main_v18) (ix2 0 j) = _
  read_back [x3 main_arg11]
  exact reshape_row_apply _ _ j

end Readings

section Layer  -- over the extended reals

variable (m : (ℓ : Loc nD τ sig) → Buf (Elt Ideal) ℓ) (ρ : Dev nD → PrngReg)

/-! ## The first node update -/

theorem nodes_first (c : Dev nD) (he1 : W3 m ρ c (Proc.devRef .tc main_v4) = edges1 m c) :
    W5 m ρ c (Proc.devRef .tc main_v19) = nodes1 m c := by
  refine (W5_arr m ρ c 5).trans ?_
  rw [NodeEncoder.array_eq]
  funext i
  rw [entry1_nodeFeatures, entry1_weightNode, entry1_edgeMean m ρ c he1, entry1_weightMean]
  refine (congrArg _ (entry1_bias m ρ c (i 1))).trans ?_
  exact (Cert.ReferenceIdeal.RefLayers.node_encoder_entry (A0 m c) (val_main_v16 (F := Ideal) (A9 m c)) (edgeMean1 m c)
    (val_main_v29 (F := Ideal) (A10 m c)) (A11 m c) i).symm

end Layer

end Cert.Chain

end
-- ==== Proof.EdgeHidden.lean ====
/-
  The second edge update, as one function of the arrays the region finds.
  Three inputs per edge (its own features, its sender's, its graph's), 400 blocks of 4096 rows, the blocks the
  restrictions of ONE array-wide function.
-/
import proofs.«401216_j29635274342505_1_alg».proof.Proof.Gen.KernelIdeal.Frame
import proofs.«401216_j29635274342505_1_alg».proof.Proof.DenseRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeHidden

open Cert.KernelIdeal Cert.KernelIdeal.Gen Cert.DenseRow
open Idealize.ShloMosaic Idealize.ShloMosaic.TcCoe Idealize.SL.Sem Idealize.ShloMosaic.ValueIdx
open Idealize.ShloMosaic.Pipeline (Dat Cfg Window)

-- the buffer contents when the region is entered: a parameter, so that the lemma serves whatever ran before
variable (V : (c : Dev nD) → (b : Ref sig .tc) → Buf (Elt Ideal) ((c : Thread nD τ).loc b))

/-! The product of a block of rows [4096, 8] with a weight [8, 8]: which entries of the two factors one term of entry (r, j) reads. -/

theorem lhs_edgeRows_0 (i : S4096x8.Idx) (q : dot_S4096x8_S8x8_S4096x8_1_0_0_1_n_n.contr.Idx) :
    (dot_S4096x8_S8x8_S4096x8_1_0_0_1_n_n.lhsIdx i q 0).val = (i 0).val := by
  unfold DotDims.lhsIdx
  rw [dif_neg (show ¬(0 : Fin S4096x8.rank) ∈ dot_S4096x8_S8x8_S4096x8_1_0_0_1_n_n.lhsBatch by decide), dif_pos (show (0 : Fin S4096x8.rank) ∈ dot_S4096x8_S8x8_S4096x8_1_0_0_1_n_n.lhsNonContracting by decide)]
  rfl
theorem lhs_edgeRows_1 (i : S4096x8.Idx) (q : dot_S4096x8_S8x8_S4096x8_1_0_0_1_n_n.contr.Idx) :
    (dot_S4096x8_S8x8_S4096x8_1_0_0_1_n_n.lhsIdx i q 1).val = (q ⟨0, by decide⟩).val :=
  dot_S4096x8_S8x8_S4096x8_1_0_0_1_n_n.lhsIdx_val_of_single rfl i q
theorem rhs_edgeRows_0 (i : S4096x8.Idx) (q : dot_S4096x8_S8x8_S4096x8_1_0_0_1_n_n.contr.Idx) :
    (dot_S4096x8_S8x8_S4096x8_1_0_0_1_n_n.rhsIdx i q 0).val = (q ⟨0, by decide⟩).val :=
  dot_S4096x8_S8x8_S4096x8_1_0_0_1_n_n.rhsIdx_val_of_single rfl i q
theorem rhs_edgeRows_1 (i : S4096x8.Idx) (q : dot_S4096x8_S8x8_S4096x8_1_0_0_1_n_n.contr.Idx) :
    (dot_S4096x8_S8x8_S4096x8_1_0_0_1_n_n.rhsIdx i q 1).val = (i 1).val := by
  unfold DotDims.rhsIdx
  rw [dif_neg (show ¬(1 : Fin S8x8.rank) ∈ dot_S4096x8_S8x8_S4096x8_1_0_0_1_n_n.rhsBatch by decide), dif_pos (show (1 : Fin S8x8.rank) ∈ dot_S4096x8_S8x8_S4096x8_1_0_0_1_n_n.rhsNonContracting by decide)]
  rfl

/-- Entry (r, j) of rows · weight, accumulated from zero, is ∑ₖ x[r,k]·w[k,j]. -/
theorem edgeRows_apply (x : FVec Ideal S4096x8 .bf16) (w : FVec Ideal S8x8 .bf16) (r : Fin 4096) (j : Fin 8) :
    matmul dot_S4096x8_S8x8_S4096x8_1_0_0_1_n_n none x w (constant (F := Ideal) S4096x8 .f32 0x00000000#32) (ix2 r j)
      = ∑ k : Fin 8, x (ix2 r k) * w (ix2 k j) := by
  simp only [matmul]
  rw [Ideal.matmul_constant_zero_apply, ← Equiv.sum_comp (ValueIdx.contrEquiv1 dot_S4096x8_S8x8_S4096x8_1_0_0_1_n_n 8 rfl rfl).symm]
  refine Finset.sum_congr rfl fun k _ => ?_
  have hk := ValueIdx.contrEquiv1_symm_val dot_S4096x8_S8x8_S4096x8_1_0_0_1_n_n 8 rfl rfl k
  have el : dot_S4096x8_S8x8_S4096x8_1_0_0_1_n_n.lhsIdx (ix2 r j) ((ValueIdx.contrEquiv1 dot_S4096x8_S8x8_S4096x8_1_0_0_1_n_n 8 rfl rfl).symm k) = ix2 r k := funext fun a => Fin.ext (by
    match a with
    | ⟨0, _⟩ => exact lhs_edgeRows_0 _ _
    | ⟨1, _⟩ => exact (lhs_edgeRows_1 _ _).trans hk)
  have er : dot_S4096x8_S8x8_S4096x8_1_0_0_1_n_n.rhsIdx (ix2 r j) ((ValueIdx.contrEquiv1 dot_S4096x8_S8x8_S4096x8_1_0_0_1_n_n 8 rfl rfl).symm k) = ix2 k j := funext fun a => Fin.ext (by
    match a with
    | ⟨0, _⟩ => exact (rhs_edgeRows_0 _ _).trans hk
    | ⟨1, _⟩ => exact rhs_edgeRows_1 _ _)
  rw [el, er]

/-! The product of a block of rows [4096, 16] with a weight [16, 8]: which entries of the two factors one term of entry (r, j) reads. -/

theorem lhs_senderRows_0 (i : S4096x8.Idx) (q : dot_S4096x16_S16x8_S4096x8_1_0_0_1_n_n.contr.Idx) :
    (dot_S4096x16_S16x8_S4096x8_1_0_0_1_n_n.lhsIdx i q 0).val = (i 0).val := by
  unfold DotDims.lhsIdx
  rw [dif_neg (show ¬(0 : Fin S4096x16.rank) ∈ dot_S4096x16_S16x8_S4096x8_1_0_0_1_n_n.lhsBatch by decide), dif_pos (show (0 : Fin S4096x16.rank) ∈ dot_S4096x16_S16x8_S4096x8_1_0_0_1_n_n.lhsNonContracting by decide)]
  rfl
theorem lhs_senderRows_1 (i : S4096x8.Idx) (q : dot_S4096x16_S16x8_S4096x8_1_0_0_1_n_n.contr.Idx) :
    (dot_S4096x16_S16x8_S4096x8_1_0_0_1_n_n.lhsIdx i q 1).val = (q ⟨0, by decide⟩).val :=
  dot_S4096x16_S16x8_S4096x8_1_0_0_1_n_n.lhsIdx_val_of_single rfl i q
theorem rhs_senderRows_0 (i : S4096x8.Idx) (q : dot_S4096x16_S16x8_S4096x8_1_0_0_1_n_n.contr.Idx) :
    (dot_S4096x16_S16x8_S4096x8_1_0_0_1_n_n.rhsIdx i q 0).val = (q ⟨0, by decide⟩).val :=
  dot_S4096x16_S16x8_S4096x8_1_0_0_1_n_n.rhsIdx_val_of_single rfl i q
theorem rhs_senderRows_1 (i : S4096x8.Idx) (q : dot_S4096x16_S16x8_S4096x8_1_0_0_1_n_n.contr.Idx) :
    (dot_S4096x16_S16x8_S4096x8_1_0_0_1_n_n.rhsIdx i q 1).val = (i 1).val := by
  unfold DotDims.rhsIdx
  rw [dif_neg (show ¬(1 : Fin S16x8.rank) ∈ dot_S4096x16_S16x8_S4096x8_1_0_0_1_n_n.rhsBatch by decide), dif_pos (show (1 : Fin S16x8.rank) ∈ dot_S4096x16_S16x8_S4096x8_1_0_0_1_n_n.rhsNonContracting by decide)]
  rfl

/-- Entry (r, j) of rows · weight, accumulated from zero, is ∑ₖ x[r,k]·w[k,j]. -/
theorem senderRows_apply (x : FVec Ideal S4096x16 .bf16) (w : FVec Ideal S16x8 .bf16) (r : Fin 4096) (j : Fin 8) :
    matmul dot_S4096x16_S16x8_S4096x8_1_0_0_1_n_n none x w (constant (F := Ideal) S4096x8 .f32 0x00000000#32) (ix2 r j)
      = ∑ k : Fin 16, x (ix2 r k) * w (ix2 k j) := by
  simp only [matmul]
  rw [Ideal.matmul_constant_zero_apply, ← Equiv.sum_comp (ValueIdx.contrEquiv1 dot_S4096x16_S16x8_S4096x8_1_0_0_1_n_n 16 rfl rfl).symm]
  refine Finset.sum_congr rfl fun k _ => ?_
  have hk := ValueIdx.contrEquiv1_symm_val dot_S4096x16_S16x8_S4096x8_1_0_0_1_n_n 16 rfl rfl k
  have el : dot_S4096x16_S16x8_S4096x8_1_0_0_1_n_n.lhsIdx (ix2 r j) ((ValueIdx.contrEquiv1 dot_S4096x16_S16x8_S4096x8_1_0_0_1_n_n 16 rfl rfl).symm k) = ix2 r k := funext fun a => Fin.ext (by
    match a with
    | ⟨0, _⟩ => exact lhs_senderRows_0 _ _
    | ⟨1, _⟩ => exact (lhs_senderRows_1 _ _).trans hk)
  have er : dot_S4096x16_S16x8_S4096x8_1_0_0_1_n_n.rhsIdx (ix2 r j) ((ValueIdx.contrEquiv1 dot_S4096x16_S16x8_S4096x8_1_0_0_1_n_n 16 rfl rfl).symm k) = ix2 k j := funext fun a => Fin.ext (by
    match a with
    | ⟨0, _⟩ => exact (rhs_senderRows_0 _ _).trans hk
    | ⟨1, _⟩ => exact rhs_senderRows_1 _ _)
  rw [el, er]

/-! The product of a block of rows [4096, 4] with a weight [4, 8]: which entries of the two factors one term of entry (r, j) reads. -/

theorem lhs_graphRows_0 (i : S4096x8.Idx) (q : dot_S4096x4_S4x8_S4096x8_1_0_0_1_n_n.contr.Idx) :
    (dot_S4096x4_S4x8_S4096x8_1_0_0_1_n_n.lhsIdx i q 0).val = (i 0).val := by
  unfold DotDims.lhsIdx
  rw [dif_neg (show ¬(0 : Fin S4096x4.rank) ∈ dot_S4096x4_S4x8_S4096x8_1_0_0_1_n_n.lhsBatch by decide), dif_pos (show (0 : Fin S4096x4.rank) ∈ dot_S4096x4_S4x8_S4096x8_1_0_0_1_n_n.lhsNonContracting by decide)]
  rfl
theorem lhs_graphRows_1 (i : S4096x8.Idx) (q : dot_S4096x4_S4x8_S4096x8_1_0_0_1_n_n.contr.Idx) :
    (dot_S4096x4_S4x8_S4096x8_1_0_0_1_n_n.lhsIdx i q 1).val = (q ⟨0, by decide⟩).val :=
  dot_S4096x4_S4x8_S4096x8_1_0_0_1_n_n.lhsIdx_val_of_single rfl i q
theorem rhs_graphRows_0 (i : S4096x8.Idx) (q : dot_S4096x4_S4x8_S4096x8_1_0_0_1_n_n.contr.Idx) :
    (dot_S4096x4_S4x8_S4096x8_1_0_0_1_n_n.rhsIdx i q 0).val = (q ⟨0, by decide⟩).val :=
  dot_S4096x4_S4x8_S4096x8_1_0_0_1_n_n.rhsIdx_val_of_single rfl i q
theorem rhs_graphRows_1 (i : S4096x8.Idx) (q : dot_S4096x4_S4x8_S4096x8_1_0_0_1_n_n.contr.Idx) :
    (dot_S4096x4_S4x8_S4096x8_1_0_0_1_n_n.rhsIdx i q 1).val = (i 1).val := by
  unfold DotDims.rhsIdx
  rw [dif_neg (show ¬(1 : Fin S4x8.rank) ∈ dot_S4096x4_S4x8_S4096x8_1_0_0_1_n_n.rhsBatch by decide), dif_pos (show (1 : Fin S4x8.rank) ∈ dot_S4096x4_S4x8_S4096x8_1_0_0_1_n_n.rhsNonContracting by decide)]
  rfl

/-- Entry (r, j) of rows · weight, accumulated from zero, is ∑ₖ x[r,k]·w[k,j]. -/
theorem graphRows_apply (x : FVec Ideal S4096x4 .bf16) (w : FVec Ideal S4x8 .bf16) (r : Fin 4096) (j : Fin 8) :
    matmul dot_S4096x4_S4x8_S4096x8_1_0_0_1_n_n none x w (constant (F := Ideal) S4096x8 .f32 0x00000000#32) (ix2 r j)
      = ∑ k : Fin 4, x (ix2 r k) * w (ix2 k j) := by
  simp only [matmul]
  rw [Ideal.matmul_constant_zero_apply, ← Equiv.sum_comp (ValueIdx.contrEquiv1 dot_S4096x4_S4x8_S4096x8_1_0_0_1_n_n 4 rfl rfl).symm]
  refine Finset.sum_congr rfl fun k _ => ?_
  have hk := ValueIdx.contrEquiv1_symm_val dot_S4096x4_S4x8_S4096x8_1_0_0_1_n_n 4 rfl rfl k
  have el : dot_S4096x4_S4x8_S4096x8_1_0_0_1_n_n.lhsIdx (ix2 r j) ((ValueIdx.contrEquiv1 dot_S4096x4_S4x8_S4096x8_1_0_0_1_n_n 4 rfl rfl).symm k) = ix2 r k := funext fun a => Fin.ext (by
    match a with
    | ⟨0, _⟩ => exact lhs_graphRows_0 _ _
    | ⟨1, _⟩ => exact (lhs_graphRows_1 _ _).trans hk)
  have er : dot_S4096x4_S4x8_S4096x8_1_0_0_1_n_n.rhsIdx (ix2 r j) ((ValueIdx.contrEquiv1 dot_S4096x4_S4x8_S4096x8_1_0_0_1_n_n 4 rfl rfl).symm k) = ix2 k j := funext fun a => Fin.ext (by
    match a with
    | ⟨0, _⟩ => exact (rhs_graphRows_0 _ _).trans hk
    | ⟨1, _⟩ => exact rhs_graphRows_1 _ _)
  rw [el, er]

/-- The bias row [1, 8] spread over the 4096 rows of a block: entry (r, j) is b[0, j]. -/
theorem bias_apply (b : FVec Ideal S1x8 .f32) (r : Fin 4096) (j : Fin 8) :
    broadcastTo S4096x8 b broadcasts_S1x8_S4096x8 (ix2 r j) = b (ix2 0 j) :=
  broadcastTo_apply b broadcasts_S1x8_S4096x8 (ix2 r j) (ix2 0 j) (fun a => by
    match a with
    | ⟨0, _⟩ => rfl
    | ⟨1, _⟩ => rfl)

/-- Two entries of the layer agree when their rows, columns and bias do. -/
theorem relu3_congr {d1 d2 d3 : ℕ} {x1 x1' w1 w1' : Fin d1 → EReal} {x2 x2' w2 w2' : Fin d2 → EReal}
    {x3 x3' w3 w3' : Fin d3 → EReal} {b b' : EReal} (hx1 : x1 = x1') (hw1 : w1 = w1') (hx2 : x2 = x2') (hw2 : w2 = w2')
    (hx3 : x3 = x3') (hw3 : w3 = w3') (hb : b = b') :
    relu3 x1 w1 x2 w2 x3 w3 b = relu3 x1' w1' x2' w2' x3' w3' b' := by
  subst hx1 hw1 hx2 hw2 hx3 hw3 hb; rfl

/-- Entry (r, j) of the block the body stores, from the blocks it loaded: row r of each of the three inputs against
    column j of its weight, the three sums added left to right, then the bias, then the maximum with zero. -/
theorem block_entry (x0 : Vec Ideal S4096x8 .f32) (x1 : Vec Ideal S4096x16 .f32) (x2 : Vec Ideal S4096x4 .f32)
    (w0 : Vec Ideal S8x8 .f32) (w1 : Vec Ideal S16x8 .f32) (w2 : Vec Ideal S4x8 .f32) (b : Vec Ideal S1x8 .f32)
    (r : Fin 4096) (j : Fin 8) :
    k2_pay1 (F := Ideal) x0 x1 x2 w0 w1 w2 b (ix2 r j)
      = relu3 (fun k : Fin 8 => x0 (ix2 r k)) (fun k : Fin 8 => w0 (ix2 k j))
          (fun k : Fin 16 => x1 (ix2 r k)) (fun k : Fin 16 => w1 (ix2 k j))
          (fun k : Fin 4 => x2 (ix2 r k)) (fun k : Fin 4 => w2 (ix2 k j)) (b (ix2 0 j)) := by
  unfold k2_pay1 relu3
  simp only [maximumf_apply, addf_apply, broadcast_apply, shapeCast_self]
  rw [edgeRows_apply, senderRows_apply, graphRows_apply, bias_apply]
  show max _ (Ideal.ofBits .f32 0x00000000#32) = _
  rw [Ideal.ofBits_zero_f32]
  rfl

/-- A whole-block access starts at offset zero on both axes. -/
theorem zero_offsets : (![0, 0] : Fin 2 → Nat) = fun _ => 0 := funext fun a => by fin_cases a <;> rfl

/-- Where each window's block sits at grid point t: the three row-blocked inputs and the output take rows
    4096·t … 4096·t + 4095 (block t along the rows, block 0 along the columns); the three weights and the bias are
    their whole arrays (block (0, 0)) at every point. -/
theorem block_indices : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

/-- Row p of the edge-feature block at point t is row 4096·t + p of the edge-feature array. -/
theorem edge_block_apply (c : Dev nD) (t : Fin cfg2.N) (p : Fin 4096) (k : Fin 8) (i : S1638400x8.Idx)
    (h0 : (i 0).val = t.val * 4096 + p.val) (h1 : (i 1).val = k.val) :
    (iblk2 V c 0 t : Vec Ideal S4096x8 .f32) (ix2 p k) = V c main_v4 i := by
  obtain ⟨e0, e1⟩ := (block_indices t).1
  unfold iblk2
  rw [View.read_apply]
  show V c main_v4 _ = V c main_v4 i
  refine congrArg (V c main_v4) (funext fun a => Fin.ext ?_)
  match a with
  | ⟨0, _⟩ => show win2_0.index t (0 : Fin 2) * 4096 + 1 * p.val = (i 0).val; rw [e0, h0]; omega
  | ⟨1, _⟩ => show win2_0.index t (1 : Fin 2) * 8 + 1 * k.val = (i 1).val; rw [e1, h1]; omega

/-- Row p of the sender-feature block at point t is row 4096·t + p of the gathered sender features. -/
theorem sender_block_apply (c : Dev nD) (t : Fin cfg2.N) (p : Fin 4096) (k : Fin 16) (i : S1638400x16.Idx)
    (h0 : (i 0).val = t.val * 4096 + p.val) (h1 : (i 1).val = k.val) :
    (iblk2 V c 1 t : Vec Ideal S4096x16 .f32) (ix2 p k) = V c main_v51 i := by
  obtain ⟨e0, e1⟩ := (block_indices t).2.1
  unfold iblk2
  rw [View.read_apply]
  show V c main_v51 _ = V c main_v51 i
  refine congrArg (V c main_v51) (funext fun a => Fin.ext ?_)
  match a with
  | ⟨0, _⟩ => show win2_1.index t (0 : Fin 2) * 4096 + 1 * p.val = (i 0).val; rw [e0, h0]; omega
  | ⟨1, _⟩ => show win2_1.index t (1 : Fin 2) * 16 + 1 * k.val = (i 1).val; rw [e1, h1]; omega

/-- Row p of the graph-feature block at point t is row 4096·t + p of the gathered graph features. -/
theorem graph_block_apply (c : Dev nD) (t : Fin cfg2.N) (p : Fin 4096) (k : Fin 4) (i : S1638400x4.Idx)
    (h0 : (i 0).val = t.val * 4096 + p.val) (h1 : (i 1).val = k.val) :
    (iblk2 V c 2 t : Vec Ideal S4096x4 .f32) (ix2 p k) = V c main_v52 i := by
  obtain ⟨e0, e1⟩ := (block_indices t).2.2.1
  unfold iblk2
  rw [View.read_apply]
  show V c main_v52 _ = V c main_v52 i
  refine congrArg (V c main_v52) (funext fun a => Fin.ext ?_)
  match a with
  | ⟨0, _⟩ => show win2_2.index t (0 : Fin 2) * 4096 + 1 * p.val = (i 0).val; rw [e0, h0]; omega
  | ⟨1, _⟩ => show win2_2.index t (1 : Fin 2) * 4 + 1 * k.val = (i 1).val; rw [e1, h1]; omega

/-- The edge weight's block is the whole [8, 8] weight at every point. -/
theorem edge_weight_apply (c : Dev nD) (t : Fin cfg2.N) (p : Fin 8) (k : Fin 8) (i : S8x8.Idx)
    (h0 : (i 0).val = p.val) (h1 : (i 1).val = k.val) :
    (iblk2 V c 3 t : Vec Ideal S8x8 .f32) (ix2 p k) = V c main_v53 i := by
  obtain ⟨e0, e1⟩ := (block_indices t).2.2.2.1
  unfold iblk2
  rw [View.read_apply]
  show V c main_v53 _ = V c main_v53 i
  refine congrArg (V c main_v53) (funext fun a => Fin.ext ?_)
  match a with
  | ⟨0, _⟩ => show win2_3.index t (0 : Fin 2) * 8 + 1 * p.val = (i 0).val; rw [e0, h0]; omega
  | ⟨1, _⟩ => show win2_3.index t (1 : Fin 2) * 8 + 1 * k.val = (i 1).val; rw [e1, h1]; omega

/-- The sender weight's block is the whole [16, 8] weight at every point. -/
theorem sender_weight_apply (c : Dev nD) (t : Fin cfg2.N) (p : Fin 16) (k : Fin 8) (i : S16x8.Idx)
    (h0 : (i 0).val = p.val) (h1 : (i 1).val = k.val) :
    (iblk2 V c 4 t : Vec Ideal S16x8 .f32) (ix2 p k) = V c main_v54 i := by
  obtain ⟨e0, e1⟩ := (block_indices t).2.2.2.2.1
  unfold iblk2
  rw [View.read_apply]
  show V c main_v54 _ = V c main_v54 i
  refine congrArg (V c main_v54) (funext fun a => Fin.ext ?_)
  match a with
  | ⟨0, _⟩ => show win2_4.index t (0 : Fin 2) * 16 + 1 * p.val = (i 0).val; rw [e0, h0]; omega
  | ⟨1, _⟩ => show win2_4.index t (1 : Fin 2) * 8 + 1 * k.val = (i 1).val; rw [e1, h1]; omega

/-- The graph weight's block is the whole [4, 8] weight at every point. -/
theorem graph_weight_apply (c : Dev nD) (t : Fin cfg2.N) (p : Fin 4) (k : Fin 8) (i : S4x8.Idx)
    (h0 : (i 0).val = p.val) (h1 : (i 1).val = k.val) :
    (iblk2 V c 5 t : Vec Ideal S4x8 .f32) (ix2 p k) = V c main_v55 i := by
  obtain ⟨e0, e1⟩ := (block_indices t).2.2.2.2.2.1
  unfold iblk2
  rw [View.read_apply]
  show V c main_v55 _ = V c main_v55 i
  refine congrArg (V c main_v55) (funext fun a => Fin.ext ?_)
  match a with
  | ⟨0, _⟩ => show win2_5.index t (0 : Fin 2) * 4 + 1 * p.val = (i 0).val; rw [e0, h0]; omega
  | ⟨1, _⟩ => show win2_5.index t (1 : Fin 2) * 8 + 1 * k.val = (i 1).val; rw [e1, h1]; omega

/-- The bias's block is the whole [1, 8] row at every point. -/
theorem bias_block_apply (c : Dev nD) (t : Fin cfg2.N) (p : Fin 1) (k : Fin 8) (i : S1x8.Idx)
    (h0 : (i 0).val = p.val) (h1 : (i 1).val = k.val) :
    (iblk2 V c 6 t : Vec Ideal S1x8 .f32) (ix2 p k) = V c main_v56 i := by
  obtain ⟨e0, e1⟩ := (block_indices t).2.2.2.2.2.2.1
  unfold iblk2
  rw [View.read_apply]
  show V c main_v56 _ = V c main_v56 i
  refine congrArg (V c main_v56) (funext fun a => Fin.ext ?_)
  match a with
  | ⟨0, _⟩ => show win2_6.index t (0 : Fin 2) * 1 + 1 * p.val = (i 0).val; rw [e0, h0]; omega
  | ⟨1, _⟩ => show win2_6.index t (1 : Fin 2) * 8 + 1 * k.val = (i 1).val; rw [e1, h1]; omega

/-- The second edge update as ONE function of the arrays the region finds: entry (e, j) pairs row e of the edge
    features, of the gathered sender features and of the gathered graph features with column j of the three weights,
    adds the three sums left to right, then the bias entry j, and takes the maximum with zero. -/
abbrev secondEdgeUpdate (c : Dev nD) : S1638400x8.Idx → EReal := fun i =>
  relu3 (fun k : Fin 8 => V c main_v4 (ix2 (i 0) k)) (fun k : Fin 8 => V c main_v53 (ix2 k (i 1)))
    (fun k : Fin 16 => V c main_v51 (ix2 (i 0) k)) (fun k : Fin 16 => V c main_v54 (ix2 k (i 1)))
    (fun k : Fin 4 => V c main_v52 (ix2 (i 0) k)) (fun k : Fin 4 => V c main_v55 (ix2 k (i 1)))
    (V c main_v56 (ix2 0 (i 1)))

/-- Entry (p, q) of the block computed at point t is the array-wide function at row 4096·t + p, column q: each input
    block is read where the output block's rows lie, each weight and the bias whole. -/
theorem block_entry_eq (c : Dev nD) (t : Fin cfg2.N) (p : Fin 4096) (q : Fin 8) (i : S1638400x8.Idx)
    (h0 : (i 0).val = t.val * 4096 + p.val) (h1 : (i 1).val = q.val) :
    k2_pay1 (F := Ideal) (iblk2 V c 0 t) (iblk2 V c 1 t) (iblk2 V c 2 t) (iblk2 V c 3 t) (iblk2 V c 4 t) (iblk2 V c 5 t) (iblk2 V c 6 t) (ix2 p q) = secondEdgeUpdate V c i :=
  (block_entry (iblk2 V c 0 t) (iblk2 V c 1 t) (iblk2 V c 2 t) (iblk2 V c 3 t) (iblk2 V c 4 t) (iblk2 V c 5 t) (iblk2 V c 6 t) p q).trans
    (relu3_congr
      (funext fun k => edge_block_apply V c t p k (ix2 (i 0) k) h0 rfl)
      (funext fun k => edge_weight_apply V c t k q (ix2 k (i 1)) rfl h1)
      (funext fun k => sender_block_apply V c t p k (ix2 (i 0) k) h0 rfl)
      (funext fun k => sender_weight_apply V c t k q (ix2 k (i 1)) rfl h1)
      (funext fun k => graph_block_apply V c t p k (ix2 (i 0) k) h0 rfl)
      (funext fun k => graph_weight_apply V c t k q (ix2 k (i 1)) rfl h1)
      (bias_block_apply V c t 0 q (ix2 0 (i 1)) rfl h1))

/-- What point t writes back is block t of the array-wide function. -/
theorem written_block_eq (c : Dev nD) (t : Fin cfg2.N) :
    (dat2 (F := Ideal) V c).flushed 7 t = ((cfg2.win 7).blk t).view.read (Elt Ideal) (secondEdgeUpdate V c) := by
  obtain ⟨-, -, -, -, -, -, -, e0, e1⟩ := block_indices t
  show (cfg2.win 7).cut (grid2.coords t) ((dat2 V c).after 7 t) = _
  rw [after2_7]
  unfold out2_7
  rw [View.canon_unit_zero zero_offsets]
  simp only [View.ld_unit_zero (S := S4096x8) zero_offsets, View.ld_unit_zero (S := S4096x16) zero_offsets,
    View.ld_unit_zero (S := S4096x4) zero_offsets, View.ld_unit_zero (S := S8x8) zero_offsets,
    View.ld_unit_zero (S := S16x8) zero_offsets, View.ld_unit_zero (S := S4x8) zero_offsets,
    View.ld_unit_zero (S := S1x8) zero_offsets]
  refine funext fun (y : S4096x8.Idx) => ?_
  obtain ⟨p, q, rfl⟩ : ∃ (p : Fin 4096) (q : Fin 8), y = ix2 p q := ⟨y 0, y 1, eq_ix2 y⟩
  show k2_pay1 (F := Ideal) (iblk2 V c 0 t) (iblk2 V c 1 t) (iblk2 V c 2 t) (iblk2 V c 3 t) (iblk2 V c 4 t) (iblk2 V c 5 t) (iblk2 V c 6 t) (ix2 p q) = secondEdgeUpdate V c (((cfg2.win 7).blk t).view.emb (ix2 p q))
  refine block_entry_eq V c t p q _ ?_ ?_
  · show win2_7.index t (0 : Fin 2) * 4096 + 1 * p.val = t.val * 4096 + p.val
    rw [e0]; omega
  · show win2_7.index t (1 : Fin 2) * 8 + 1 * q.val = q.val
    rw [e1]; omega

/-- An index of the edge array is in point t's block iff each coordinate is in the block's range on its axis. -/
theorem mem_block (t : Fin cfg2.N) (i : S1638400x8.Idx) :
    i ∈ ((cfg2.win 7).blk t).view.set ↔ ∀ a : Fin 2, win2_7.index t a * S4096x8.size a ≤ (i a).val ∧ (i a).val < win2_7.index t a * S4096x8.size a + S4096x8.size a := by
  show i ∈ ((View.whole main_v57).slice (win2_7.rect t)).set ↔ _
  rw [View.set_slice_whole, Rect.mem_set_unit]
  exact Iff.rfl

/-- The 400 blocks of 4096 rows tile the 1638400 rows: row e lies in the block of point e / 4096, which writes back. -/
theorem covered (i : S1638400x8.Idx) :
    ∃ t : Fin cfg2.N, (cfg2.win 7).flush t = true ∧ i ∈ ((cfg2.win 7).blk t).view.set := by
  have hi0 : (i 0).val < 1638400 := (i 0).isLt
  have hi1 : (i 1).val < 8 := (i 1).isLt
  have ht : (i 0).val / 4096 < cfg2.N := by rw [show cfg2.N = 400 from N_2]; omega
  obtain ⟨-, -, -, -, -, -, -, e0, e1⟩ := block_indices ⟨(i 0).val / 4096, ht⟩
  refine ⟨⟨(i 0).val / 4096, ht⟩, flush2_7 _, ?_⟩
  rw [mem_block]
  intro a
  match a with
  | ⟨0, _⟩ =>
    show win2_7.index ⟨(i 0).val / 4096, ht⟩ (0 : Fin 2) * 4096 ≤ (i 0).val ∧ (i 0).val < win2_7.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win2_7.index ⟨(i 0).val / 4096, ht⟩ (1 : Fin 2) * 8 ≤ (i 1).val ∧ (i 1).val < win2_7.index ⟨(i 0).val / 4096, ht⟩ (1 : Fin 2) * 8 + 8
    rw [e1]; omega

/-- After the second pass over the edges, entry (e, j) of the edge array is
    max (((e₁[e]·Wee[·,j] + n_sender[e]·Wes[·,j]) + g_edge[e]·Weg[·,j]) + be[j]) 0. -/
theorem array_eq (c : Dev nD) :
    (dat2 (F := Ideal) V c).arrAt 7 cfg2.N = fun i : S1638400x8.Idx =>
      relu3 (fun k : Fin 8 => V c main_v4 (ix2 (i 0) k)) (fun k : Fin 8 => V c main_v53 (ix2 k (i 1)))
        (fun k : Fin 16 => V c main_v51 (ix2 (i 0) k)) (fun k : Fin 16 => V c main_v54 (ix2 k (i 1)))
        (fun k : Fin 4 => V c main_v52 (ix2 (i 0) k)) (fun k : Fin 4 => V c main_v55 (ix2 k (i 1)))
        (V c main_v56 (ix2 0 (i 1))) :=
  (dat2 (F := Ideal) V c).arrAt_eq_of_cover 7 (secondEdgeUpdate V c) (fun t _ => written_block_eq V c t) covered

end Cert.KernelIdeal.EdgeHidden

end
-- ==== Proof.EdgesSecond.lean ====
/-
  The second edge update: what the kernel program leaves in the edge array is the reference's second edge stage.

  Between the second and the third region the host updates the per-graph vector (the means of the first edge and node
  updates over each graph, two small products, a bias, a ReLU: the same operations in both programs) and gathers, for
  every edge, its sender's updated features and its graph's vector: guarded gathers, which are the reference's plain
  gathers once the sender and graph indices are in range.
-/
import proofs.«401216_j29635274342505_1_alg».proof.Proof.Gen.KernelIdeal.Frame
import proofs.«401216_j29635274342505_1_alg».proof.Proof.Stages
import proofs.«401216_j29635274342505_1_alg».proof.Proof.Walk
import proofs.«401216_j29635274342505_1_alg».proof.Proof.GuardedGather
import proofs.«401216_j29635274342505_1_alg».proof.Proof.EdgeHidden
import proofs.«401216_j29635274342505_1_alg».proof.Proof.RefLayers
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Chain

open Cert.KernelIdeal Cert.KernelIdeal.Gen Cert.Stages Cert.ReferenceIdeal.Read Cert.DenseRow
open Idealize.ShloMosaic Idealize.ShloMosaic.TcCoe Idealize.SL.Sem Idealize.ShloMosaic.StableHlo Idealize.ShloMosaic.ValueIdx

section Readings  -- what the host operations compute, at any reading of the floats

variable {F : FTy → Type} [FloatOps F]
variable (m : (ℓ : Loc nD τ sig) → Buf (Elt F) ℓ) (ρ : Dev nD → PrngReg)

/-! ## The arrays the third region finds -/

theorem entry2_edges (c : Dev nD) (he1 : W3 m ρ c (Proc.devRef .tc main_v4) = edges1 m c) : V10 m ρ c main_v4 = edges1 m c := by
  show W10 m ρ c (Proc.devRef .tc main_v4) = _
  read_back [x5 main_v4]
  exact he1

set_option maxHeartbeats 8000000 in
/-- The senders' updated rows as the host computes them: the guarded gather of the first node update. -/
theorem entry2_senderRows_filled (c : Dev nD) (hn1 : W5 m ρ c (Proc.devRef .tc main_v19) = nodes1 m c) :
    V10 m ρ c main_v51 = TakeRows.senderFeaturesAt (nodes1 m c) (A2 m c) := by
  show W10 m ρ c (Proc.devRef .tc main_v51) = _
  read_back [x5 main_arg2, x3 main_arg2]
  simp only [ofBuf_toBuf]
  have hs : (TRef.of main_arg2 : TRef sig ⟨S1638400, .i32⟩).ofBuf (W0 m ρ c (Proc.devRef .tc main_arg2)) = A2 m c := rfl
  have hx : (TRef.of main_v19 : TRef sig ⟨S102400x16, .f32⟩).ofBuf (W5 m ρ c (Proc.devRef .tc main_v19)) = nodes1 m c := by
    rw [hn1]; rfl
  rw [hs, hx]
  refine eq_of_heq ((toBuf_heq _ _).trans (heq_of_eq ?_))
  rfl

theorem gather_senderNodes (c : Dev nD) :
    Host.gather gather_S102400x16_S1638400x1_S1638400x16_1_0_n_n_0_1_116 (nodes1 m c) (TakeRows.wrapE 102400#32 (A2 m c))
      = senderNodes1 m c := rfl

set_option maxHeartbeats 32000000 in
/-- Each edge's graph's vector as the host computes it: the guarded gather of the updated per-graph vector. -/
theorem entry2_graphRows_filled (c : Dev nD) (he1 : W3 m ρ c (Proc.devRef .tc main_v4) = edges1 m c) (hn1 : W5 m ρ c (Proc.devRef .tc main_v19) = nodes1 m c) :
    V10 m ρ c main_v52 = TakeRows.edgeGraphRowsAt (graph1 m c) (A5 m c) := by
  show W10 m ρ c (Proc.devRef .tc main_v52) = _
  read_back [x5 main_v4, x5 main_arg4, x3 main_arg4, x5 main_arg5, x3 main_arg5, x5 main_arg12, x3 main_arg12, x5 main_arg13, x3 main_arg13, x5 main_arg14, x3 main_arg14]
  simp only [ofBuf_toBuf]
  have hs : (TRef.of main_arg5 : TRef sig ⟨S1638400, .i32⟩).ofBuf (W0 m ρ c (Proc.devRef .tc main_arg5)) = A5 m c := rfl
  rw [hs, he1, hn1]
  refine eq_of_heq ((toBuf_heq _ _).trans (heq_of_eq ?_))
  rfl

theorem gather_edgeGraph (c : Dev nD) :
    Host.gather gather_S64x4_S1638400x1_S1638400x4_1_0_n_n_0_1_14 (graph1 m c) (TakeRows.wrapE 64#32 (A5 m c))
      = edgeGraph1 m c := rfl

theorem entry2_weightEdge (c : Dev nD) : V10 m ρ c main_v53 = val_main_v67 (F := F) (A15 m c) := by
  show W10 m ρ c (Proc.devRef .tc main_v53) = _
  read_back [x5 main_arg15, x3 main_arg15] <;> rfl

theorem entry2_weightSender (c : Dev nD) : V10 m ρ c main_v54 = val_main_v76 (F := F) (A16 m c) := by
  show W10 m ρ c (Proc.devRef .tc main_v54) = _
  read_back [x5 main_arg16, x3 main_arg16] <;> rfl

theorem entry2_weightGraph (c : Dev nD) : V10 m ρ c main_v55 = val_main_v86 (F := F) (A17 m c) := by
  show W10 m ρ c (Proc.devRef .tc main_v55) = _
  read_back [x5 main_arg17, x3 main_arg17] <;> rfl

theorem entry2_bias (c : Dev nD) (j : Fin 8) : V10 m ρ c main_v56 (ix2 0 j) = A18 m c (ix1 j) := by
  show W10 m ρ c (Proc.devRef .tc main_v56) (ix2 0 j) = _
  read_back [x5 main_arg18, x3 main_arg18]
  exact reshape_row_apply _ _ j

end Readings

section Layer  -- over the extended reals

variable (m : (ℓ : Loc nD τ sig) → Buf (Elt Ideal) ℓ) (ρ : Dev nD → PrngReg)

theorem entry2_senderRows (c : Dev nD) (hs : ∀ e : S1638400.Idx, (-102400 : Int) ≤ (A2 m c e).toInt ∧ (A2 m c e).toInt < 102400) (hn1 : W5 m ρ c (Proc.devRef .tc main_v19) = nodes1 m c) :
    V10 m ρ c main_v51 = senderNodes1 m c := by
  rw [entry2_senderRows_filled m ρ c hn1, TakeRows.senderFeaturesAt_ideal, TakeRows.senderFeatures_eq _ _ hs]
  exact gather_senderNodes m c

theorem entry2_graphRows (c : Dev nD) (heg : ∀ e : S1638400.Idx, (-64 : Int) ≤ (A5 m c e).toInt ∧ (A5 m c e).toInt < 64) (he1 : W3 m ρ c (Proc.devRef .tc main_v4) = edges1 m c) (hn1 : W5 m ρ c (Proc.devRef .tc main_v19) = nodes1 m c) :
    V10 m ρ c main_v52 = edgeGraph1 m c := by
  rw [entry2_graphRows_filled m ρ c he1 hn1, TakeRows.edgeGraphRowsAt_ideal, TakeRows.edgeGraphRows_eq _ _ heg]
  exact gather_edgeGraph m c

/-! ## The second edge update -/

theorem edges_second (c : Dev nD) (hs : ∀ e : S1638400.Idx, (-102400 : Int) ≤ (A2 m c e).toInt ∧ (A2 m c e).toInt < 102400) (heg : ∀ e : S1638400.Idx, (-64 : Int) ≤ (A5 m c e).toInt ∧ (A5 m c e).toInt < 64) (he1 : W3 m ρ c (Proc.devRef .tc main_v4) = edges1 m c) (hn1 : W5 m ρ c (Proc.devRef .tc main_v19) = nodes1 m c) :
    W11 m ρ c (Proc.devRef .tc main_v57) = edges2 m c := by
  refine (W11_arr m ρ c 7).trans ?_
  rw [EdgeHidden.array_eq]
  funext i
  rw [entry2_edges m ρ c he1, entry2_weightEdge, entry2_senderRows m ρ c hs hn1, entry2_weightSender,
    entry2_graphRows m ρ c heg he1 hn1, entry2_weightGraph]
  refine (congrArg _ (entry2_bias m ρ c (i 1))).trans ?_
  exact (Cert.ReferenceIdeal.RefLayers.edge_hidden_entry (edges1 m c) (val_main_v67 (F := Ideal) (A15 m c)) (senderNodes1 m c)
    (val_main_v76 (F := Ideal) (A16 m c)) (edgeGraph1 m c) (val_main_v86 (F := Ideal) (A17 m c)) (A18 m c) i).symm

end Layer

end Cert.Chain

end
-- ==== Proof.NodeHidden.lean ====
/-
  The second node update and the node read-out, as functions of the arrays the region finds.
  One kernel writes both: the updated node features, and the logistic of their product with the read-out weight.
  25 blocks of 4096 rows, each output's blocks the restrictions of ONE array-wide function.
-/
import proofs.«401216_j29635274342505_1_alg».proof.Proof.Gen.KernelIdeal.Frame
import proofs.«401216_j29635274342505_1_alg».proof.Proof.DenseRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeHidden

open Cert.KernelIdeal Cert.KernelIdeal.Gen Cert.DenseRow
open Idealize.ShloMosaic Idealize.ShloMosaic.TcCoe Idealize.SL.Sem Idealize.ShloMosaic.ValueIdx
open Idealize.ShloMosaic.Pipeline (Dat Cfg Window)

/-! ## One entry of what a point computes -/

/-! The contraction of a 4096×16 block with a 16×16 weight: which entries of the two operands meet at output entry (r, j). -/
private theorem lhs_self_0 (i : S4096x16.Idx) (q : dot_S4096x16_S16x16_S4096x16_1_0_0_1_n_n.contr.Idx) :
    (dot_S4096x16_S16x16_S4096x16_1_0_0_1_n_n.lhsIdx i q 0).val = (i 0).val := by
  unfold DotDims.lhsIdx
  rw [dif_neg (show ¬(0 : Fin S4096x16.rank) ∈ dot_S4096x16_S16x16_S4096x16_1_0_0_1_n_n.lhsBatch by decide), dif_pos (show (0 : Fin S4096x16.rank) ∈ dot_S4096x16_S16x16_S4096x16_1_0_0_1_n_n.lhsNonContracting by decide)]
  rfl
private theorem lhs_self_1 (i : S4096x16.Idx) (q : dot_S4096x16_S16x16_S4096x16_1_0_0_1_n_n.contr.Idx) :
    (dot_S4096x16_S16x16_S4096x16_1_0_0_1_n_n.lhsIdx i q 1).val = (q ⟨0, by decide⟩).val :=
  dot_S4096x16_S16x16_S4096x16_1_0_0_1_n_n.lhsIdx_val_of_single rfl i q
private theorem rhs_self_0 (i : S4096x16.Idx) (q : dot_S4096x16_S16x16_S4096x16_1_0_0_1_n_n.contr.Idx) :
    (dot_S4096x16_S16x16_S4096x16_1_0_0_1_n_n.rhsIdx i q 0).val = (q ⟨0, by decide⟩).val :=
  dot_S4096x16_S16x16_S4096x16_1_0_0_1_n_n.rhsIdx_val_of_single rfl i q
private theorem rhs_self_1 (i : S4096x16.Idx) (q : dot_S4096x16_S16x16_S4096x16_1_0_0_1_n_n.contr.Idx) :
    (dot_S4096x16_S16x16_S4096x16_1_0_0_1_n_n.rhsIdx i q 1).val = (i 1).val := by
  unfold DotDims.rhsIdx
  rw [dif_neg (show ¬(1 : Fin S16x16.rank) ∈ dot_S4096x16_S16x16_S4096x16_1_0_0_1_n_n.rhsBatch by decide), dif_pos (show (1 : Fin S16x16.rank) ∈ dot_S4096x16_S16x16_S4096x16_1_0_0_1_n_n.rhsNonContracting by decide)]
  rfl

/-- Into a zero accumulator the product of a 4096×16 block with a 16×16 weight is, at (r, j), ∑ₖ x[r,k]·w[k,j]. -/
private theorem matmul_self_apply {φ₁ φ₂ : FTy} (x : FVec Ideal S4096x16 φ₁) (w : FVec Ideal S16x16 φ₂) (r : Fin 4096) (j : Fin 16) :
    matmul (F := Ideal) dot_S4096x16_S16x16_S4096x16_1_0_0_1_n_n none x w (constant (F := Ideal) S4096x16 .f32 0x00000000#32) (ix2 r j)
      = ∑ k : Fin 16, x (ix2 r k) * w (ix2 k j) := by
  simp only [matmul]
  rw [Ideal.matmul_constant_zero_apply, ← Equiv.sum_comp (ValueIdx.contrEquiv1 dot_S4096x16_S16x16_S4096x16_1_0_0_1_n_n 16 rfl rfl).symm]
  refine Finset.sum_congr rfl fun k _ => ?_
  have hk := ValueIdx.contrEquiv1_symm_val dot_S4096x16_S16x16_S4096x16_1_0_0_1_n_n 16 rfl rfl k
  have el : dot_S4096x16_S16x16_S4096x16_1_0_0_1_n_n.lhsIdx (ix2 r j) ((ValueIdx.contrEquiv1 dot_S4096x16_S16x16_S4096x16_1_0_0_1_n_n 16 rfl rfl).symm k) = ix2 r k := funext fun a => Fin.ext (by
    match a with
    | ⟨0, _⟩ => exact lhs_self_0 _ _
    | ⟨1, _⟩ => exact (lhs_self_1 _ _).trans hk)
  have er : dot_S4096x16_S16x16_S4096x16_1_0_0_1_n_n.rhsIdx (ix2 r j) ((ValueIdx.contrEquiv1 dot_S4096x16_S16x16_S4096x16_1_0_0_1_n_n 16 rfl rfl).symm k) = ix2 k j := funext fun a => Fin.ext (by
    match a with
    | ⟨0, _⟩ => exact (rhs_self_0 _ _).trans hk
    | ⟨1, _⟩ => exact rhs_self_1 _ _)
  rw [el, er]

/-! The contraction of a 4096×8 block with an 8×16 weight: which entries of the two operands meet at output entry (r, j). -/
private theorem lhs_mean_0 (i : S4096x16.Idx) (q : dot_S4096x8_S8x16_S4096x16_1_0_0_1_n_n.contr.Idx) :
    (dot_S4096x8_S8x16_S4096x16_1_0_0_1_n_n.lhsIdx i q 0).val = (i 0).val := by
  unfold DotDims.lhsIdx
  rw [dif_neg (show ¬(0 : Fin S4096x8.rank) ∈ dot_S4096x8_S8x16_S4096x16_1_0_0_1_n_n.lhsBatch by decide), dif_pos (show (0 : Fin S4096x8.rank) ∈ dot_S4096x8_S8x16_S4096x16_1_0_0_1_n_n.lhsNonContracting by decide)]
  rfl
private theorem lhs_mean_1 (i : S4096x16.Idx) (q : dot_S4096x8_S8x16_S4096x16_1_0_0_1_n_n.contr.Idx) :
    (dot_S4096x8_S8x16_S4096x16_1_0_0_1_n_n.lhsIdx i q 1).val = (q ⟨0, by decide⟩).val :=
  dot_S4096x8_S8x16_S4096x16_1_0_0_1_n_n.lhsIdx_val_of_single rfl i q
private theorem rhs_mean_0 (i : S4096x16.Idx) (q : dot_S4096x8_S8x16_S4096x16_1_0_0_1_n_n.contr.Idx) :
    (dot_S4096x8_S8x16_S4096x16_1_0_0_1_n_n.rhsIdx i q 0).val = (q ⟨0, by decide⟩).val :=
  dot_S4096x8_S8x16_S4096x16_1_0_0_1_n_n.rhsIdx_val_of_single rfl i q
private theorem rhs_mean_1 (i : S4096x16.Idx) (q : dot_S4096x8_S8x16_S4096x16_1_0_0_1_n_n.contr.Idx) :
    (dot_S4096x8_S8x16_S4096x16_1_0_0_1_n_n.rhsIdx i q 1).val = (i 1).val := by
  unfold DotDims.rhsIdx
  rw [dif_neg (show ¬(1 : Fin S8x16.rank) ∈ dot_S4096x8_S8x16_S4096x16_1_0_0_1_n_n.rhsBatch by decide), dif_pos (show (1 : Fin S8x16.rank) ∈ dot_S4096x8_S8x16_S4096x16_1_0_0_1_n_n.rhsNonContracting by decide)]
  rfl

/-- Into a zero accumulator the product of a 4096×8 block with an 8×16 weight is, at (r, j), ∑ₖ x[r,k]·w[k,j]. -/
private theorem matmul_mean_apply {φ₁ φ₂ : FTy} (x : FVec Ideal S4096x8 φ₁) (w : FVec Ideal S8x16 φ₂) (r : Fin 4096) (j : Fin 16) :
    matmul (F := Ideal) dot_S4096x8_S8x16_S4096x16_1_0_0_1_n_n none x w (constant (F := Ideal) S4096x16 .f32 0x00000000#32) (ix2 r j)
      = ∑ k : Fin 8, x (ix2 r k) * w (ix2 k j) := by
  simp only [matmul]
  rw [Ideal.matmul_constant_zero_apply, ← Equiv.sum_comp (ValueIdx.contrEquiv1 dot_S4096x8_S8x16_S4096x16_1_0_0_1_n_n 8 rfl rfl).symm]
  refine Finset.sum_congr rfl fun k _ => ?_
  have hk := ValueIdx.contrEquiv1_symm_val dot_S4096x8_S8x16_S4096x16_1_0_0_1_n_n 8 rfl rfl k
  have el : dot_S4096x8_S8x16_S4096x16_1_0_0_1_n_n.lhsIdx (ix2 r j) ((ValueIdx.contrEquiv1 dot_S4096x8_S8x16_S4096x16_1_0_0_1_n_n 8 rfl rfl).symm k) = ix2 r k := funext fun a => Fin.ext (by
    match a with
    | ⟨0, _⟩ => exact lhs_mean_0 _ _
    | ⟨1, _⟩ => exact (lhs_mean_1 _ _).trans hk)
  have er : dot_S4096x8_S8x16_S4096x16_1_0_0_1_n_n.rhsIdx (ix2 r j) ((ValueIdx.contrEquiv1 dot_S4096x8_S8x16_S4096x16_1_0_0_1_n_n 8 rfl rfl).symm k) = ix2 k j := funext fun a => Fin.ext (by
    match a with
    | ⟨0, _⟩ => exact (rhs_mean_0 _ _).trans hk
    | ⟨1, _⟩ => exact rhs_mean_1 _ _)
  rw [el, er]

/-! The contraction of a 4096×4 block with a 4×16 weight: which entries of the two operands meet at output entry (r, j). -/
private theorem lhs_graph_0 (i : S4096x16.Idx) (q : dot_S4096x4_S4x16_S4096x16_1_0_0_1_n_n.contr.Idx) :
    (dot_S4096x4_S4x16_S4096x16_1_0_0_1_n_n.lhsIdx i q 0).val = (i 0).val := by
  unfold DotDims.lhsIdx
  rw [dif_neg (show ¬(0 : Fin S4096x4.rank) ∈ dot_S4096x4_S4x16_S4096x16_1_0_0_1_n_n.lhsBatch by decide), dif_pos (show (0 : Fin S4096x4.rank) ∈ dot_S4096x4_S4x16_S4096x16_1_0_0_1_n_n.lhsNonContracting by decide)]
  rfl
private theorem lhs_graph_1 (i : S4096x16.Idx) (q : dot_S4096x4_S4x16_S4096x16_1_0_0_1_n_n.contr.Idx) :
    (dot_S4096x4_S4x16_S4096x16_1_0_0_1_n_n.lhsIdx i q 1).val = (q ⟨0, by decide⟩).val :=
  dot_S4096x4_S4x16_S4096x16_1_0_0_1_n_n.lhsIdx_val_of_single rfl i q
private theorem rhs_graph_0 (i : S4096x16.Idx) (q : dot_S4096x4_S4x16_S4096x16_1_0_0_1_n_n.contr.Idx) :
    (dot_S4096x4_S4x16_S4096x16_1_0_0_1_n_n.rhsIdx i q 0).val = (q ⟨0, by decide⟩).val :=
  dot_S4096x4_S4x16_S4096x16_1_0_0_1_n_n.rhsIdx_val_of_single rfl i q
private theorem rhs_graph_1 (i : S4096x16.Idx) (q : dot_S4096x4_S4x16_S4096x16_1_0_0_1_n_n.contr.Idx) :
    (dot_S4096x4_S4x16_S4096x16_1_0_0_1_n_n.rhsIdx i q 1).val = (i 1).val := by
  unfold DotDims.rhsIdx
  rw [dif_neg (show ¬(1 : Fin S4x16.rank) ∈ dot_S4096x4_S4x16_S4096x16_1_0_0_1_n_n.rhsBatch by decide), dif_pos (show (1 : Fin S4x16.rank) ∈ dot_S4096x4_S4x16_S4096x16_1_0_0_1_n_n.rhsNonContracting by decide)]
  rfl

/-- Into a zero accumulator the product of a 4096×4 block with a 4×16 weight is, at (r, j), ∑ₖ x[r,k]·w[k,j]. -/
private theorem matmul_graph_apply {φ₁ φ₂ : FTy} (x : FVec Ideal S4096x4 φ₁) (w : FVec Ideal S4x16 φ₂) (r : Fin 4096) (j : Fin 16) :
    matmul (F := Ideal) dot_S4096x4_S4x16_S4096x16_1_0_0_1_n_n none x w (constant (F := Ideal) S4096x16 .f32 0x00000000#32) (ix2 r j)
      = ∑ k : Fin 4, x (ix2 r k) * w (ix2 k j) := by
  simp only [matmul]
  rw [Ideal.matmul_constant_zero_apply, ← Equiv.sum_comp (ValueIdx.contrEquiv1 dot_S4096x4_S4x16_S4096x16_1_0_0_1_n_n 4 rfl rfl).symm]
  refine Finset.sum_congr rfl fun k _ => ?_
  have hk := ValueIdx.contrEquiv1_symm_val dot_S4096x4_S4x16_S4096x16_1_0_0_1_n_n 4 rfl rfl k
  have el : dot_S4096x4_S4x16_S4096x16_1_0_0_1_n_n.lhsIdx (ix2 r j) ((ValueIdx.contrEquiv1 dot_S4096x4_S4x16_S4096x16_1_0_0_1_n_n 4 rfl rfl).symm k) = ix2 r k := funext fun a => Fin.ext (by
    match a with
    | ⟨0, _⟩ => exact lhs_graph_0 _ _
    | ⟨1, _⟩ => exact (lhs_graph_1 _ _).trans hk)
  have er : dot_S4096x4_S4x16_S4096x16_1_0_0_1_n_n.rhsIdx (ix2 r j) ((ValueIdx.contrEquiv1 dot_S4096x4_S4x16_S4096x16_1_0_0_1_n_n 4 rfl rfl).symm k) = ix2 k j := funext fun a => Fin.ext (by
    match a with
    | ⟨0, _⟩ => exact (rhs_graph_0 _ _).trans hk
    | ⟨1, _⟩ => exact rhs_graph_1 _ _)
  rw [el, er]

/-! The contraction of a 4096×16 block with a 16×1 weight: which entries of the two operands meet at output entry (r, j). -/
private theorem lhs_readout_0 (i : S4096x1.Idx) (q : dot_S4096x16_S16x1_S4096x1_1_0_0_1_n_n.contr.Idx) :
    (dot_S4096x16_S16x1_S4096x1_1_0_0_1_n_n.lhsIdx i q 0).val = (i 0).val := by
  unfold DotDims.lhsIdx
  rw [dif_neg (show ¬(0 : Fin S4096x16.rank) ∈ dot_S4096x16_S16x1_S4096x1_1_0_0_1_n_n.lhsBatch by decide), dif_pos (show (0 : Fin S4096x16.rank) ∈ dot_S4096x16_S16x1_S4096x1_1_0_0_1_n_n.lhsNonContracting by decide)]
  rfl
private theorem lhs_readout_1 (i : S4096x1.Idx) (q : dot_S4096x16_S16x1_S4096x1_1_0_0_1_n_n.contr.Idx) :
    (dot_S4096x16_S16x1_S4096x1_1_0_0_1_n_n.lhsIdx i q 1).val = (q ⟨0, by decide⟩).val :=
  dot_S4096x16_S16x1_S4096x1_1_0_0_1_n_n.lhsIdx_val_of_single rfl i q
private theorem rhs_readout_0 (i : S4096x1.Idx) (q : dot_S4096x16_S16x1_S4096x1_1_0_0_1_n_n.contr.Idx) :
    (dot_S4096x16_S16x1_S4096x1_1_0_0_1_n_n.rhsIdx i q 0).val = (q ⟨0, by decide⟩).val :=
  dot_S4096x16_S16x1_S4096x1_1_0_0_1_n_n.rhsIdx_val_of_single rfl i q
private theorem rhs_readout_1 (i : S4096x1.Idx) (q : dot_S4096x16_S16x1_S4096x1_1_0_0_1_n_n.contr.Idx) :
    (dot_S4096x16_S16x1_S4096x1_1_0_0_1_n_n.rhsIdx i q 1).val = (i 1).val := by
  unfold DotDims.rhsIdx
  rw [dif_neg (show ¬(1 : Fin S16x1.rank) ∈ dot_S4096x16_S16x1_S4096x1_1_0_0_1_n_n.rhsBatch by decide), dif_pos (show (1 : Fin S16x1.rank) ∈ dot_S4096x16_S16x1_S4096x1_1_0_0_1_n_n.rhsNonContracting by decide)]
  rfl

/-- Into a zero accumulator the product of a 4096×16 block with a 16×1 weight is, at (r, j), ∑ₖ x[r,k]·w[k,j]. -/
private theorem matmul_readout_apply {φ₁ φ₂ : FTy} (x : FVec Ideal S4096x16 φ₁) (w : FVec Ideal S16x1 φ₂) (r : Fin 4096) (j : Fin 1) :
    matmul (F := Ideal) dot_S4096x16_S16x1_S4096x1_1_0_0_1_n_n none x w (constant (F := Ideal) S4096x1 .f32 0x00000000#32) (ix2 r j)
      = ∑ k : Fin 16, x (ix2 r k) * w (ix2 k j) := by
  simp only [matmul]
  rw [Ideal.matmul_constant_zero_apply, ← Equiv.sum_comp (ValueIdx.contrEquiv1 dot_S4096x16_S16x1_S4096x1_1_0_0_1_n_n 16 rfl rfl).symm]
  refine Finset.sum_congr rfl fun k _ => ?_
  have hk := ValueIdx.contrEquiv1_symm_val dot_S4096x16_S16x1_S4096x1_1_0_0_1_n_n 16 rfl rfl k
  have el : dot_S4096x16_S16x1_S4096x1_1_0_0_1_n_n.lhsIdx (ix2 r j) ((ValueIdx.contrEquiv1 dot_S4096x16_S16x1_S4096x1_1_0_0_1_n_n 16 rfl rfl).symm k) = ix2 r k := funext fun a => Fin.ext (by
    match a with
    | ⟨0, _⟩ => exact lhs_readout_0 _ _
    | ⟨1, _⟩ => exact (lhs_readout_1 _ _).trans hk)
  have er : dot_S4096x16_S16x1_S4096x1_1_0_0_1_n_n.rhsIdx (ix2 r j) ((ValueIdx.contrEquiv1 dot_S4096x16_S16x1_S4096x1_1_0_0_1_n_n 16 rfl rfl).symm k) = ix2 k j := funext fun a => Fin.ext (by
    match a with
    | ⟨0, _⟩ => exact (rhs_readout_0 _ _).trans hk
    | ⟨1, _⟩ => exact rhs_readout_1 _ _)
  rw [el, er]

/-- A bias row broadcast down the 4096 rows reads, at (r, j), the bias at (0, j). -/
private theorem bias16_apply (b : Vec Ideal S1x16 .f32) (r : Fin 4096) (j : Fin 16) :
    broadcastTo S4096x16 b broadcasts_S1x16_S4096x16 (ix2 r j) = b (ix2 0 j) :=
  broadcastTo_apply b broadcasts_S1x16_S4096x16 (ix2 r j) (ix2 0 j) (fun a => match a with
    | ⟨0, _⟩ => rfl
    | ⟨1, _⟩ => rfl)

/-- The one read-out bias broadcast down the 4096 rows reads the bias at (0, 0). -/
private theorem bias1_apply (b : Vec Ideal S1x1 .f32) (r : Fin 4096) (j : Fin 1) :
    broadcastTo S4096x1 b broadcasts_S1x1_S4096x1 (ix2 r j) = b (ix2 0 j) :=
  broadcastTo_apply b broadcasts_S1x1_S4096x1 (ix2 r j) (ix2 0 j) (fun a => match a with
    | ⟨0, _⟩ => rfl
    | ⟨1, _⟩ => by
        show (j : ℕ) = if (1 : ℕ) = 1 then 0 else (j : ℕ)
        rw [if_pos rfl]; have := j.isLt; omega)

/-- The logistic function of a block, entry by entry. -/
private theorem logistic_apply {s : Shape} {φ : FTy} (a : FVec Ideal s φ) (i : s.Idx) :
    logistic a i = Ideal.logistic (a i) := rfl

/-- One entry of the updated feature block: the three row-by-column sums added left to right, the bias, ReLU. -/
private theorem features_entry (x0 : Vec Ideal S4096x16 .f32) (x1 : Vec Ideal S4096x8 .f32) (x2 : Vec Ideal S4096x4 .f32)
    (w0 : Vec Ideal S16x16 .f32) (w1 : Vec Ideal S8x16 .f32) (w2 : Vec Ideal S4x16 .f32) (b : Vec Ideal S1x16 .f32)
    (r : Fin 4096) (j : Fin 16) :
    k3_pay2 (F := Ideal) x0 x1 x2 w0 w1 w2 b (ix2 r j)
      = relu3 (fun k : Fin 16 => x0 (ix2 r k)) (fun k : Fin 16 => w0 (ix2 k j))
          (fun k : Fin 8 => x1 (ix2 r k)) (fun k : Fin 8 => w1 (ix2 k j))
          (fun k : Fin 4 => x2 (ix2 r k)) (fun k : Fin 4 => w2 (ix2 k j)) (b (ix2 0 j)) := by
  unfold k3_pay2 relu3
  simp only [shapeCast_self]
  rw [maximumf_apply, addf_apply, addf_apply, addf_apply, matmul_self_apply, matmul_mean_apply, matmul_graph_apply,
    bias16_apply, broadcast_apply]
  simp only [truncf_apply, Ideal.ofBits_def, Ideal.ofBits_zero_f32]

/-- One entry of the read-out block: the row of updated features against the read-out weight, the bias, the logistic function. -/
private theorem readout_entry (x0 : Vec Ideal S4096x16 .f32) (x1 : Vec Ideal S4096x8 .f32) (x2 : Vec Ideal S4096x4 .f32)
    (w0 : Vec Ideal S16x16 .f32) (w1 : Vec Ideal S8x16 .f32) (w2 : Vec Ideal S4x16 .f32) (b : Vec Ideal S1x16 .f32)
    (wr : Vec Ideal S16x1 .f32) (br : Vec Ideal S1x1 .f32) (r : Fin 4096) (j : Fin 1) :
    k3_pay1 (F := Ideal) (k3_pay3 (F := Ideal) x0 x1 x2 w0 w1 w2 b wr) br (ix2 r j)
      = sigmoid1 (fun k : Fin 16 => k3_pay2 (F := Ideal) x0 x1 x2 w0 w1 w2 b (ix2 r k))
          (fun k : Fin 16 => wr (ix2 k j)) (br (ix2 0 j)) := by
  unfold k3_pay1 k3_pay3 sigmoid1
  simp only [shapeCast_self]
  rw [logistic_apply, addf_apply, matmul_readout_apply, bias1_apply]
  simp only [truncf_apply]

-- the buffer contents when the region is entered: a parameter, so that the lemma serves whatever ran before
variable (V : (c : Dev nD) → (b : Ref sig .tc) → Buf (Elt Ideal) ((c : Thread nD τ).loc b))

/-! ## Where a point's blocks lie in the arrays -/

private theorem zero_offsets : (![0, 0] : Fin 2 → Nat) = fun _ => 0 := funext fun a => by fin_cases a <;> rfl

/-- Where the 25 points put their blocks: point t takes rows 4096·t … 4096·t + 4095 of each of the three node-indexed
    inputs and of both outputs (block index (t, 0)); the three weights, the bias, the read-out weight and the read-out bias are
    one block each (block index (0, 0)). A finite check, point by point. -/
private theorem block_indices : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = t.val ∧ win3_9.index t (1 : Fin 2) = 0)
    ∧ (win3_10.index t (0 : Fin 2) = t.val ∧ win3_10.index t (1 : Fin 2) = 0) :=
  (by decide +kernel : ∀ t : Fin grid3.N, _)

/-! Each input block read where point t's rows say: entry (r, k) of a node-indexed block is entry (4096·t + r, k) of its
    array; a weight's or a bias's block is the array itself. -/

private theorem self_rows (c : Dev nD) (t : Fin cfg3.N) (r : Fin 4096) (k : Fin 16) (n : Fin 102400)
    (hn : n.val = t.val * 4096 + r.val) :
    (iblk3 (F := Ideal) V c 0 t : Vec Ideal S4096x16 .f32) (ix2 r k) = V c main_v19 (ix2 n k) := by
  obtain ⟨⟨e0, e1⟩, -⟩ := block_indices t
  show V c main_v19 (((cfg3.win 0).blk t).view.emb (ix2 r k)) = V c main_v19 (ix2 n k)
  refine congrArg (V c main_v19) (funext fun a => Fin.ext ?_)
  match a with
  | ⟨0, _⟩ => show win3_0.index t (0 : Fin 2) * 4096 + 1 * r.val = n.val; rw [e0, hn]; omega
  | ⟨1, _⟩ => show win3_0.index t (1 : Fin 2) * 16 + 1 * k.val = k.val; rw [e1]; omega

private theorem mean_rows (c : Dev nD) (t : Fin cfg3.N) (r : Fin 4096) (k : Fin 8) (n : Fin 102400)
    (hn : n.val = t.val * 4096 + r.val) :
    (iblk3 (F := Ideal) V c 1 t : Vec Ideal S4096x8 .f32) (ix2 r k) = V c main_v68 (ix2 n k) := by
  obtain ⟨-, ⟨e0, e1⟩, -⟩ := block_indices t
  show V c main_v68 (((cfg3.win 1).blk t).view.emb (ix2 r k)) = V c main_v68 (ix2 n k)
  refine congrArg (V c main_v68) (funext fun a => Fin.ext ?_)
  match a with
  | ⟨0, _⟩ => show win3_1.index t (0 : Fin 2) * 4096 + 1 * r.val = n.val; rw [e0, hn]; omega
  | ⟨1, _⟩ => show win3_1.index t (1 : Fin 2) * 8 + 1 * k.val = k.val; rw [e1]; omega

private theorem graph_rows (c : Dev nD) (t : Fin cfg3.N) (r : Fin 4096) (k : Fin 4) (n : Fin 102400)
    (hn : n.val = t.val * 4096 + r.val) :
    (iblk3 (F := Ideal) V c 2 t : Vec Ideal S4096x4 .f32) (ix2 r k) = V c main_v69 (ix2 n k) := by
  obtain ⟨-, -, ⟨e0, e1⟩, -⟩ := block_indices t
  show V c main_v69 (((cfg3.win 2).blk t).view.emb (ix2 r k)) = V c main_v69 (ix2 n k)
  refine congrArg (V c main_v69) (funext fun a => Fin.ext ?_)
  match a with
  | ⟨0, _⟩ => show win3_2.index t (0 : Fin 2) * 4096 + 1 * r.val = n.val; rw [e0, hn]; omega
  | ⟨1, _⟩ => show win3_2.index t (1 : Fin 2) * 4 + 1 * k.val = k.val; rw [e1]; omega

private theorem self_weight (c : Dev nD) (t : Fin cfg3.N) (k : Fin 16) (j : Fin 16) :
    (iblk3 (F := Ideal) V c 3 t : Vec Ideal S16x16 .f32) (ix2 k j) = V c main_v70 (ix2 k j) := by
  obtain ⟨-, -, -, ⟨e0, e1⟩, -⟩ := block_indices t
  show V c main_v70 (((cfg3.win 3).blk t).view.emb (ix2 k j)) = V c main_v70 (ix2 k j)
  refine congrArg (V c main_v70) (funext fun a => Fin.ext ?_)
  match a with
  | ⟨0, _⟩ => show win3_3.index t (0 : Fin 2) * 16 + 1 * k.val = k.val; rw [e0]; omega
  | ⟨1, _⟩ => show win3_3.index t (1 : Fin 2) * 16 + 1 * j.val = j.val; rw [e1]; omega

private theorem mean_weight (c : Dev nD) (t : Fin cfg3.N) (k : Fin 8) (j : Fin 16) :
    (iblk3 (F := Ideal) V c 4 t : Vec Ideal S8x16 .f32) (ix2 k j) = V c main_v71 (ix2 k j) := by
  obtain ⟨-, -, -, -, ⟨e0, e1⟩, -⟩ := block_indices t
  show V c main_v71 (((cfg3.win 4).blk t).view.emb (ix2 k j)) = V c main_v71 (ix2 k j)
  refine congrArg (V c main_v71) (funext fun a => Fin.ext ?_)
  match a with
  | ⟨0, _⟩ => show win3_4.index t (0 : Fin 2) * 8 + 1 * k.val = k.val; rw [e0]; omega
  | ⟨1, _⟩ => show win3_4.index t (1 : Fin 2) * 16 + 1 * j.val = j.val; rw [e1]; omega

private theorem graph_weight (c : Dev nD) (t : Fin cfg3.N) (k : Fin 4) (j : Fin 16) :
    (iblk3 (F := Ideal) V c 5 t : Vec Ideal S4x16 .f32) (ix2 k j) = V c main_v72 (ix2 k j) := by
  obtain ⟨-, -, -, -, -, ⟨e0, e1⟩, -⟩ := block_indices t
  show V c main_v72 (((cfg3.win 5).blk t).view.emb (ix2 k j)) = V c main_v72 (ix2 k j)
  refine congrArg (V c main_v72) (funext fun a => Fin.ext ?_)
  match a with
  | ⟨0, _⟩ => show win3_5.index t (0 : Fin 2) * 4 + 1 * k.val = k.val; rw [e0]; omega
  | ⟨1, _⟩ => show win3_5.index t (1 : Fin 2) * 16 + 1 * j.val = j.val; rw [e1]; omega

private theorem bias_row (c : Dev nD) (t : Fin cfg3.N) (k : Fin 1) (j : Fin 16) :
    (iblk3 (F := Ideal) V c 6 t : Vec Ideal S1x16 .f32) (ix2 k j) = V c main_v74 (ix2 k j) := by
  obtain ⟨-, -, -, -, -, -, ⟨e0, e1⟩, -⟩ := block_indices t
  show V c main_v74 (((cfg3.win 6).blk t).view.emb (ix2 k j)) = V c main_v74 (ix2 k j)
  refine congrArg (V c main_v74) (funext fun a => Fin.ext ?_)
  match a with
  | ⟨0, _⟩ => show win3_6.index t (0 : Fin 2) * 1 + 1 * k.val = k.val; rw [e0]; omega
  | ⟨1, _⟩ => show win3_6.index t (1 : Fin 2) * 16 + 1 * j.val = j.val; rw [e1]; omega

private theorem readout_weight (c : Dev nD) (t : Fin cfg3.N) (k : Fin 16) (j : Fin 1) :
    (iblk3 (F := Ideal) V c 7 t : Vec Ideal S16x1 .f32) (ix2 k j) = V c main_v73 (ix2 k j) := by
  obtain ⟨-, -, -, -, -, -, -, ⟨e0, e1⟩, -⟩ := block_indices t
  show V c main_v73 (((cfg3.win 7).blk t).view.emb (ix2 k j)) = V c main_v73 (ix2 k j)
  refine congrArg (V c main_v73) (funext fun a => Fin.ext ?_)
  match a with
  | ⟨0, _⟩ => show win3_7.index t (0 : Fin 2) * 16 + 1 * k.val = k.val; rw [e0]; omega
  | ⟨1, _⟩ => show win3_7.index t (1 : Fin 2) * 1 + 1 * j.val = j.val; rw [e1]; omega

private theorem readout_bias (c : Dev nD) (t : Fin cfg3.N) (k : Fin 1) (j : Fin 1) :
    (iblk3 (F := Ideal) V c 8 t : Vec Ideal S1x1 .f32) (ix2 k j) = V c main_v75 (ix2 k j) := by
  obtain ⟨-, -, -, -, -, -, -, -, ⟨e0, e1⟩, -⟩ := block_indices t
  show V c main_v75 (((cfg3.win 8).blk t).view.emb (ix2 k j)) = V c main_v75 (ix2 k j)
  refine congrArg (V c main_v75) (funext fun a => Fin.ext ?_)
  match a with
  | ⟨0, _⟩ => show win3_8.index t (0 : Fin 2) * 1 + 1 * k.val = k.val; rw [e0]; omega
  | ⟨1, _⟩ => show win3_8.index t (1 : Fin 2) * 1 + 1 * j.val = j.val; rw [e1]; omega

/-- The updated features of node n, entry j: max (((n₁[n]·Wnn[·,j] + mean_e[n]·Wni[·,j]) + g_node[n]·Wng[·,j]) + bn[j]) 0. -/
def feature (c : Dev nD) (n : Fin 102400) (j : Fin 16) : EReal :=
  relu3 (fun k : Fin 16 => V c main_v19 (ix2 n k)) (fun k : Fin 16 => V c main_v70 (ix2 k j))
    (fun k : Fin 8 => V c main_v68 (ix2 n k)) (fun k : Fin 8 => V c main_v71 (ix2 k j))
    (fun k : Fin 4 => V c main_v69 (ix2 n k)) (fun k : Fin 4 => V c main_v72 (ix2 k j))
    (V c main_v74 (ix2 0 j))

/-! ## The updated features: the blocks are the restrictions of one array-wide function -/

/-- Entry (r, j) of what point t computes is the updated feature j of node 4096·t + r. -/
private theorem features_block_entry (c : Dev nD) (t : Fin cfg3.N) (r : Fin 4096) (j : Fin 16) (n : Fin 102400)
    (hn : n.val = t.val * 4096 + r.val) :
    k3_pay2 (F := Ideal) (iblk3 V c 0 t) (iblk3 V c 1 t) (iblk3 V c 2 t) (iblk3 V c 3 t) (iblk3 V c 4 t) (iblk3 V c 5 t) (iblk3 V c 6 t) (ix2 r j) = feature V c n j := by
  refine (features_entry (iblk3 V c 0 t) (iblk3 V c 1 t) (iblk3 V c 2 t) (iblk3 V c 3 t) (iblk3 V c 4 t) (iblk3 V c 5 t) (iblk3 V c 6 t) r j).trans ?_
  unfold feature
  simp only [self_rows V c t r _ n hn, mean_rows V c t r _ n hn, graph_rows V c t r _ n hn, self_weight V c t,
    mean_weight V c t, graph_weight V c t, bias_row V c t]

/-- What point t writes back to the node array is rows 4096·t … 4096·t + 4095 of the updated features. -/
private theorem features_flushed (c : Dev nD) (t : Fin cfg3.N) :
    (dat3 (F := Ideal) V c).flushed 9 t
      = ((cfg3.win 9).blk t).view.read (Elt Ideal) (fun i : S102400x16.Idx => feature V c (i 0) (i 1)) := by
  show (cfg3.win 9).cut (grid3.coords t) ((dat3 V c).after 9 t) = _
  rw [after3_9]
  unfold out3_9
  rw [View.canon_unit_zero zero_offsets]
  simp only [View.ld_unit_zero (S := S4096x16) zero_offsets,
    View.ld_unit_zero (S := S4096x8) zero_offsets,
    View.ld_unit_zero (S := S4096x4) zero_offsets,
    View.ld_unit_zero (S := S16x16) zero_offsets,
    View.ld_unit_zero (S := S8x16) zero_offsets,
    View.ld_unit_zero (S := S4x16) zero_offsets,
    View.ld_unit_zero (S := S1x16) zero_offsets]
  refine funext fun (y : S4096x16.Idx) => ?_
  obtain ⟨p, q, rfl⟩ : ∃ (p : Fin 4096) (q : Fin 16), y = ix2 p q := ⟨y 0, y 1, eq_ix2 y⟩
  obtain ⟨-, -, -, -, -, -, -, -, -, ⟨e0, e1⟩, -⟩ := block_indices t
  have ht : t.val < 25 := lt_of_lt_of_eq t.isLt N_3
  have hemb : ((cfg3.win 9).blk t).view.emb (ix2 p q) = ix2 (⟨t.val * 4096 + p.val, by omega⟩ : Fin 102400) q :=
    funext fun a => Fin.ext (by
      match a with
      | ⟨0, _⟩ => show win3_9.index t (0 : Fin 2) * 4096 + 1 * p.val = t.val * 4096 + p.val; rw [e0]; omega
      | ⟨1, _⟩ => show win3_9.index t (1 : Fin 2) * 16 + 1 * q.val = q.val; rw [e1]; omega)
  show k3_pay2 (F := Ideal) (iblk3 V c 0 t) (iblk3 V c 1 t) (iblk3 V c 2 t) (iblk3 V c 3 t) (iblk3 V c 4 t) (iblk3 V c 5 t) (iblk3 V c 6 t) (ix2 p q)
    = (fun i : S102400x16.Idx => feature V c (i 0) (i 1)) (((cfg3.win 9).blk t).view.emb (ix2 p q))
  rw [hemb]
  exact features_block_entry V c t p q _ rfl

/-- A row of the node array lies in point t's block iff it is one of rows 4096·t … 4096·t + 4095. -/
private theorem mem_features_block (t : Fin cfg3.N) (i : S102400x16.Idx) :
    i ∈ ((cfg3.win 9).blk t).view.set ↔ ∀ a : Fin 2, win3_9.index t a * S4096x16.size a ≤ (i a).val
      ∧ (i a).val < win3_9.index t a * S4096x16.size a + S4096x16.size a := by
  show i ∈ ((View.whole main_v76_0).slice (win3_9.rect t)).set ↔ _
  rw [View.set_slice_whole, Rect.mem_set_unit]
  exact Iff.rfl

/-- Every row n is in a block: that of point n / 4096. -/
private theorem features_cover (i : S102400x16.Idx) :
    ∃ t : Fin cfg3.N, (cfg3.win 9).flush t = true ∧ i ∈ ((cfg3.win 9).blk t).view.set := by
  have hi0 : (i 0).val < 102400 := idx2_lt0 i
  have hi1 : (i 1).val < 16 := idx2_lt1 i
  have ht : (i 0).val / 4096 < cfg3.N := by rw [show cfg3.N = 25 from N_3]; omega
  obtain ⟨-, -, -, -, -, -, -, -, -, ⟨e0, e1⟩, -⟩ := block_indices ⟨(i 0).val / 4096, ht⟩
  refine ⟨⟨(i 0).val / 4096, ht⟩, flush3_9 _, ?_⟩
  rw [mem_features_block]
  intro a
  match a with
  | ⟨0, _⟩ =>
    show win3_9.index ⟨(i 0).val / 4096, ht⟩ (0 : Fin 2) * 4096 ≤ (i 0).val
      ∧ (i 0).val < win3_9.index ⟨(i 0).val / 4096, ht⟩ (0 : Fin 2) * 4096 + 4096
    rw [e0]
    show (i 0).val / 4096 * 4096 ≤ (i 0).val ∧ (i 0).val < (i 0).val / 4096 * 4096 + 4096
    omega
  | ⟨1, _⟩ =>
    show win3_9.index ⟨(i 0).val / 4096, ht⟩ (1 : Fin 2) * 16 ≤ (i 1).val
      ∧ (i 1).val < win3_9.index ⟨(i 0).val / 4096, ht⟩ (1 : Fin 2) * 16 + 16
    rw [e1]
    omega

/-- After the second pass over the nodes the node array holds the updated features. -/
theorem array_eq (c : Dev nD) :
    (dat3 (F := Ideal) V c).arrAt 9 cfg3.N = fun i : S102400x16.Idx => feature V c (i 0) (i 1) :=
  (dat3 (F := Ideal) V c).arrAt_eq_of_cover 9 (fun i : S102400x16.Idx => feature V c (i 0) (i 1))
    (fun t _ => features_flushed V c t) features_cover

/-! ## The read-out: again the blocks are the restrictions of one array-wide function -/

/-- Entry (r, j) of the read-out block point t computes is the read-out of node 4096·t + r. -/
private theorem readout_block_entry (c : Dev nD) (t : Fin cfg3.N) (r : Fin 4096) (j : Fin 1) (n : Fin 102400)
    (hn : n.val = t.val * 4096 + r.val) :
    k3_pay1 (F := Ideal) (k3_pay3 (F := Ideal) (iblk3 V c 0 t) (iblk3 V c 1 t) (iblk3 V c 2 t) (iblk3 V c 3 t) (iblk3 V c 4 t) (iblk3 V c 5 t) (iblk3 V c 6 t) (iblk3 V c 7 t)) (iblk3 V c 8 t) (ix2 r j)
      = sigmoid1 (fun k : Fin 16 => feature V c n k) (fun k : Fin 16 => V c main_v73 (ix2 k j)) (V c main_v75 (ix2 0 j)) := by
  refine (readout_entry (iblk3 V c 0 t) (iblk3 V c 1 t) (iblk3 V c 2 t) (iblk3 V c 3 t) (iblk3 V c 4 t) (iblk3 V c 5 t) (iblk3 V c 6 t) (iblk3 V c 7 t) (iblk3 V c 8 t) r j).trans ?_
  simp only [features_block_entry V c t r _ n hn, readout_weight V c t, readout_bias V c t]

/-- What point t writes back to the read-out array is rows 4096·t … 4096·t + 4095 of the read-out. -/
private theorem readout_flushed (c : Dev nD) (t : Fin cfg3.N) :
    (dat3 (F := Ideal) V c).flushed 10 t
      = ((cfg3.win 10).blk t).view.read (Elt Ideal) (fun i : S102400x1.Idx =>
      sigmoid1 (fun k : Fin 16 => feature V c (i 0) k) (fun k : Fin 16 => V c main_v73 (ix2 k (i 1)))
        (V c main_v75 (ix2 0 (i 1)))) := by
  show (cfg3.win 10).cut (grid3.coords t) ((dat3 V c).after 10 t) = _
  rw [after3_10]
  unfold out3_10
  rw [View.canon_unit_zero zero_offsets]
  simp only [View.ld_unit_zero (S := S4096x16) zero_offsets,
    View.ld_unit_zero (S := S4096x8) zero_offsets,
    View.ld_unit_zero (S := S4096x4) zero_offsets,
    View.ld_unit_zero (S := S16x16) zero_offsets,
    View.ld_unit_zero (S := S8x16) zero_offsets,
    View.ld_unit_zero (S := S4x16) zero_offsets,
    View.ld_unit_zero (S := S1x16) zero_offsets,
    View.ld_unit_zero (S := S16x1) zero_offsets,
    View.ld_unit_zero (S := S1x1) zero_offsets]
  refine funext fun (y : S4096x1.Idx) => ?_
  obtain ⟨p, q, rfl⟩ : ∃ (p : Fin 4096) (q : Fin 1), y = ix2 p q := ⟨y 0, y 1, eq_ix2 y⟩
  obtain ⟨-, -, -, -, -, -, -, -, -, -, ⟨e0, e1⟩⟩ := block_indices t
  have ht : t.val < 25 := lt_of_lt_of_eq t.isLt N_3
  have hemb : ((cfg3.win 10).blk t).view.emb (ix2 p q) = ix2 (⟨t.val * 4096 + p.val, by omega⟩ : Fin 102400) q :=
    funext fun a => Fin.ext (by
      match a with
      | ⟨0, _⟩ => show win3_10.index t (0 : Fin 2) * 4096 + 1 * p.val = t.val * 4096 + p.val; rw [e0]; omega
      | ⟨1, _⟩ => show win3_10.index t (1 : Fin 2) * 1 + 1 * q.val = q.val; rw [e1]; omega)
  show k3_pay1 (F := Ideal) (k3_pay3 (F := Ideal) (iblk3 V c 0 t) (iblk3 V c 1 t) (iblk3 V c 2 t) (iblk3 V c 3 t) (iblk3 V c 4 t) (iblk3 V c 5 t) (iblk3 V c 6 t) (iblk3 V c 7 t)) (iblk3 V c 8 t) (ix2 p q)
    = (fun i : S102400x1.Idx =>
      sigmoid1 (fun k : Fin 16 => feature V c (i 0) k) (fun k : Fin 16 => V c main_v73 (ix2 k (i 1)))
        (V c main_v75 (ix2 0 (i 1)))) (((cfg3.win 10).blk t).view.emb (ix2 p q))
  rw [hemb]
  exact readout_block_entry V c t p q _ rfl

/-- A row of the read-out array lies in point t's block iff it is one of rows 4096·t … 4096·t + 4095. -/
private theorem mem_readout_block (t : Fin cfg3.N) (i : S102400x1.Idx) :
    i ∈ ((cfg3.win 10).blk t).view.set ↔ ∀ a : Fin 2, win3_10.index t a * S4096x1.size a ≤ (i a).val
      ∧ (i a).val < win3_10.index t a * S4096x1.size a + S4096x1.size a := by
  show i ∈ ((View.whole main_v76_1).slice (win3_10.rect t)).set ↔ _
  rw [View.set_slice_whole, Rect.mem_set_unit]
  exact Iff.rfl

/-- Every row n is in a block: that of point n / 4096. -/
private theorem readout_cover (i : S102400x1.Idx) :
    ∃ t : Fin cfg3.N, (cfg3.win 10).flush t = true ∧ i ∈ ((cfg3.win 10).blk t).view.set := by
  have hi0 : (i 0).val < 102400 := idx2_lt0 i
  have hi1 : (i 1).val < 1 := idx2_lt1 i
  have ht : (i 0).val / 4096 < cfg3.N := by rw [show cfg3.N = 25 from N_3]; omega
  obtain ⟨-, -, -, -, -, -, -, -, -, -, ⟨e0, e1⟩⟩ := block_indices ⟨(i 0).val / 4096, ht⟩
  refine ⟨⟨(i 0).val / 4096, ht⟩, flush3_10 _, ?_⟩
  rw [mem_readout_block]
  intro a
  match a with
  | ⟨0, _⟩ =>
    show win3_10.index ⟨(i 0).val / 4096, ht⟩ (0 : Fin 2) * 4096 ≤ (i 0).val
      ∧ (i 0).val < win3_10.index ⟨(i 0).val / 4096, ht⟩ (0 : Fin 2) * 4096 + 4096
    rw [e0]
    show (i 0).val / 4096 * 4096 ≤ (i 0).val ∧ (i 0).val < (i 0).val / 4096 * 4096 + 4096
    omega
  | ⟨1, _⟩ =>
    show win3_10.index ⟨(i 0).val / 4096, ht⟩ (1 : Fin 2) * 1 ≤ (i 1).val
      ∧ (i 1).val < win3_10.index ⟨(i 0).val / 4096, ht⟩ (1 : Fin 2) * 1 + 1
    rw [e1]
    omega

/-- And the read-out array holds, at node n, logistic (features[n]·Wro + bro). -/
theorem readout_eq (c : Dev nD) :
    (dat3 (F := Ideal) V c).arrAt 10 cfg3.N = fun i : S102400x1.Idx =>
      sigmoid1 (fun k : Fin 16 => feature V c (i 0) k) (fun k : Fin 16 => V c main_v73 (ix2 k (i 1)))
        (V c main_v75 (ix2 0 (i 1))) :=
  (dat3 (F := Ideal) V c).arrAt_eq_of_cover 10 (fun i : S102400x1.Idx =>
      sigmoid1 (fun k : Fin 16 => feature V c (i 0) k) (fun k : Fin 16 => V c main_v73 (ix2 k (i 1)))
        (V c main_v75 (ix2 0 (i 1))))
    (fun t _ => readout_flushed V c t) readout_cover

end Cert.KernelIdeal.NodeHidden

end
-- ==== Proof.NodesSecond.lean ====
/-
  The second node update and the node read-out: what the kernel program leaves in its last region's two output arrays
  are the reference's second node stage and its first result.

  Before the last region the host takes the mean of the second edge update over each node's incoming edges and
  gathers every node's graph's vector (a guarded gather, plain once the graph indices are in range).  The region writes
  the updated node features and, from them, the logistic read-out; the reference computes the same layer and spells the
  logistic function out as 1 / (1 + exp (-x)).
-/
import proofs.«401216_j29635274342505_1_alg».proof.Proof.Gen.KernelIdeal.Frame
import proofs.«401216_j29635274342505_1_alg».proof.Proof.Stages
import proofs.«401216_j29635274342505_1_alg».proof.Proof.Walk
import proofs.«401216_j29635274342505_1_alg».proof.Proof.GuardedGather
import proofs.«401216_j29635274342505_1_alg».proof.Proof.NodeHidden
import proofs.«401216_j29635274342505_1_alg».proof.Proof.RefLayers
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Chain

open Cert.KernelIdeal Cert.KernelIdeal.Gen Cert.Stages Cert.ReferenceIdeal.Read Cert.DenseRow
open Idealize.ShloMosaic Idealize.ShloMosaic.TcCoe Idealize.SL.Sem Idealize.ShloMosaic.StableHlo Idealize.ShloMosaic.ValueIdx

section Readings  -- what the host operations compute, at any reading of the floats

variable {F : FTy → Type} [FloatOps F]
variable (m : (ℓ : Loc nD τ sig) → Buf (Elt F) ℓ) (ρ : Dev nD → PrngReg)

/-! ## The arrays the last region finds -/

theorem entry3_nodes (c : Dev nD) (hn1 : W5 m ρ c (Proc.devRef .tc main_v19) = nodes1 m c) : V14 m ρ c main_v19 = nodes1 m c := by
  show W14 m ρ c (Proc.devRef .tc main_v19) = _
  read_back [x11 main_v19]
  exact hn1

set_option maxHeartbeats 4000000 in
theorem entry3_edgeMean (c : Dev nD) (he2 : W11 m ρ c (Proc.devRef .tc main_v57) = edges2 m c) : V14 m ρ c main_v68 = edgeMean2 m c := by
  show W14 m ρ c (Proc.devRef .tc main_v68) = _
  read_back [x11 main_arg3, x5 main_arg3, x3 main_arg3]
  rw [he2]
  rfl

set_option maxHeartbeats 32000000 in
/-- Each node's graph's vector as the host computes it: the guarded gather of the updated per-graph vector. -/
theorem entry3_graphRows_filled (c : Dev nD) (he1 : W3 m ρ c (Proc.devRef .tc main_v4) = edges1 m c) (hn1 : W5 m ρ c (Proc.devRef .tc main_v19) = nodes1 m c) :
    V14 m ρ c main_v69 = TakeRows.nodeGraphRowsAt (graph1 m c) (A4 m c) := by
  show W14 m ρ c (Proc.devRef .tc main_v69) = _
  read_back [x11 main_v50, x11 main_arg4, x5 main_v4, x5 main_arg4, x3 main_arg4, x5 main_arg5, x3 main_arg5, x5 main_arg12, x3 main_arg12, x5 main_arg13, x3 main_arg13, x5 main_arg14, x3 main_arg14]
  simp only [ofBuf_toBuf]
  have hs : (TRef.of main_arg4 : TRef sig ⟨S102400, .i32⟩).ofBuf (W0 m ρ c (Proc.devRef .tc main_arg4)) = A4 m c := rfl
  rw [hs, he1, hn1]
  refine eq_of_heq ((toBuf_heq _ _).trans (heq_of_eq ?_))
  rfl

theorem gather_nodeGraph (c : Dev nD) :
    Host.gather gather_S64x4_S102400x1_S102400x4_1_0_n_n_0_1_14 (graph1 m c) (TakeRows.wrapN 64#32 (A4 m c))
      = nodeGraph1 m c := rfl

theorem entry3_weightNode (c : Dev nD) : V14 m ρ c main_v70 = val_main_v93 (F := F) (A19 m c) := by
  show W14 m ρ c (Proc.devRef .tc main_v70) = _
  read_back [x11 main_arg19, x5 main_arg19, x3 main_arg19] <;> rfl

theorem entry3_weightMean (c : Dev nD) : V14 m ρ c main_v71 = val_main_v106 (F := F) (A20 m c) := by
  show W14 m ρ c (Proc.devRef .tc main_v71) = _
  read_back [x11 main_arg20, x5 main_arg20, x3 main_arg20] <;> rfl

theorem entry3_weightGraph (c : Dev nD) : V14 m ρ c main_v72 = val_main_v116 (F := F) (A21 m c) := by
  show W14 m ρ c (Proc.devRef .tc main_v72) = _
  read_back [x11 main_arg21, x5 main_arg21, x3 main_arg21] <;> rfl

theorem entry3_weightReadout (c : Dev nD) : V14 m ρ c main_v73 = val_main_v157 (F := F) (A27 m c) := by
  show W14 m ρ c (Proc.devRef .tc main_v73) = _
  read_back [x11 main_arg27, x5 main_arg27, x3 main_arg27] <;> rfl

theorem entry3_bias (c : Dev nD) (j : Fin 16) : V14 m ρ c main_v74 (ix2 0 j) = A22 m c (ix1 j) := by
  show W14 m ρ c (Proc.devRef .tc main_v74) (ix2 0 j) = _
  read_back [x11 main_arg22, x5 main_arg22, x3 main_arg22]
  exact reshape_row_apply _ _ j

theorem entry3_biasReadout (c : Dev nD) (j : Fin 1) : V14 m ρ c main_v75 (ix2 0 j) = A28 m c (ix1 j) := by
  show W14 m ρ c (Proc.devRef .tc main_v75) (ix2 0 j) = _
  read_back [x11 main_arg28, x5 main_arg28, x3 main_arg28]
  exact reshape_row_apply _ _ j

end Readings

section Layer  -- over the extended reals

variable (m : (ℓ : Loc nD τ sig) → Buf (Elt Ideal) ℓ) (ρ : Dev nD → PrngReg)

theorem entry3_graphRows (c : Dev nD) (hng : ∀ n : S102400.Idx, (-64 : Int) ≤ (A4 m c n).toInt ∧ (A4 m c n).toInt < 64) (he1 : W3 m ρ c (Proc.devRef .tc main_v4) = edges1 m c) (hn1 : W5 m ρ c (Proc.devRef .tc main_v19) = nodes1 m c) :
    V14 m ρ c main_v69 = nodeGraph1 m c := by
  rw [entry3_graphRows_filled m ρ c he1 hn1, TakeRows.nodeGraphRowsAt_ideal, TakeRows.nodeGraphRows_eq _ _ hng]
  exact gather_nodeGraph m c

/-! ## The second node update and the node read-out -/

/-- Entry by entry, the features the last region writes are the reference's second node stage. -/
theorem features_eq (c : Dev nD) (hng : ∀ n : S102400.Idx, (-64 : Int) ≤ (A4 m c n).toInt ∧ (A4 m c n).toInt < 64) (he1 : W3 m ρ c (Proc.devRef .tc main_v4) = edges1 m c) (hn1 : W5 m ρ c (Proc.devRef .tc main_v19) = nodes1 m c) (he2 : W11 m ρ c (Proc.devRef .tc main_v57) = edges2 m c) :
    (fun i : S102400x16.Idx => NodeHidden.feature (V14 m ρ) c (i 0) (i 1)) = nodes2 m c := by
  funext i
  unfold NodeHidden.feature
  rw [entry3_nodes m ρ c hn1, entry3_weightNode, entry3_edgeMean m ρ c he2, entry3_weightMean,
    entry3_graphRows m ρ c hng he1 hn1, entry3_weightGraph]
  refine (congrArg _ (entry3_bias m ρ c (i 1))).trans ?_
  exact (Cert.ReferenceIdeal.RefLayers.node_hidden_entry (nodes1 m c) (val_main_v93 (F := Ideal) (A19 m c)) (edgeMean2 m c)
    (val_main_v106 (F := Ideal) (A20 m c)) (nodeGraph1 m c) (val_main_v116 (F := Ideal) (A21 m c)) (A22 m c) i).symm

theorem nodes_second (c : Dev nD) (hng : ∀ n : S102400.Idx, (-64 : Int) ≤ (A4 m c n).toInt ∧ (A4 m c n).toInt < 64) (he1 : W3 m ρ c (Proc.devRef .tc main_v4) = edges1 m c) (hn1 : W5 m ρ c (Proc.devRef .tc main_v19) = nodes1 m c) (he2 : W11 m ρ c (Proc.devRef .tc main_v57) = edges2 m c) :
    W15 m ρ c (Proc.devRef .tc main_v76_0) = nodes2 m c := by
  refine (W15_arr m ρ c 9).trans ?_
  rw [NodeHidden.array_eq]
  exact features_eq m ρ c hng he1 hn1 he2

theorem nodes_readout (c : Dev nD) (hng : ∀ n : S102400.Idx, (-64 : Int) ≤ (A4 m c n).toInt ∧ (A4 m c n).toInt < 64) (he1 : W3 m ρ c (Proc.devRef .tc main_v4) = edges1 m c) (hn1 : W5 m ρ c (Proc.devRef .tc main_v19) = nodes1 m c) (he2 : W11 m ρ c (Proc.devRef .tc main_v57) = edges2 m c) :
    W15 m ρ c (Proc.devRef .tc main_v76_1) = nodesOut m c := by
  refine (W15_arr m ρ c 10).trans ?_
  rw [NodeHidden.readout_eq]
  funext i
  have hf : ∀ k : Fin 16, NodeHidden.feature (V14 m ρ) c (i 0) k = nodes2 m c (ix2 (i 0) k) :=
    fun k => congrFun (features_eq m ρ c hng he1 hn1 he2) (ix2 (i 0) k)
  simp only [hf]
  rw [entry3_weightReadout]
  refine (congrArg _ (entry3_biasReadout m ρ c (i 1))).trans ?_
  exact (Cert.ReferenceIdeal.RefLayers.readout_entry (nodes2 m c) (val_main_v157 (F := Ideal) (A27 m c)) (A28 m c) i).symm

end Layer

end Cert.Chain

end
-- ==== Proof.GraphReadout.lean ====
/-
  The two results at the end of the run.

  After the last region the host updates the per-graph vector once more (the means of the second edge and node updates
  over each graph, three small products, a bias, a ReLU) and reads it out through 1 / (1 + exp (-x)): the same
  operations in both programs, applied to values already identified.  No host operation after the last region writes the
  node read-out's array, so it ends as the region left it.
-/
import proofs.«401216_j29635274342505_1_alg».proof.Proof.Gen.KernelIdeal.Frame
import proofs.«401216_j29635274342505_1_alg».proof.Proof.Stages
import proofs.«401216_j29635274342505_1_alg».proof.Proof.Walk
import proofs.«401216_j29635274342505_1_alg».proof.Proof.DenseRow
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Chain

open Cert.KernelIdeal Cert.KernelIdeal.Gen Cert.Stages Cert.ReferenceIdeal.Read Cert.DenseRow
open Idealize.ShloMosaic Idealize.ShloMosaic.TcCoe Idealize.SL.Sem Idealize.ShloMosaic.StableHlo Idealize.ShloMosaic.ValueIdx

section Readings  -- what the host operations compute, at any reading of the floats

variable {F : FTy → Type} [FloatOps F]
variable (m : (ℓ : Loc nD τ sig) → Buf (Elt F) ℓ) (ρ : Dev nD → PrngReg)

set_option maxHeartbeats 4000000 in
/-- The node read-out passes the last host operations unchanged. -/
theorem nodes_result (c : Dev nD) :
    W18 m ρ c (Proc.devRef .tc main_v76_1) = W15 m ρ c (Proc.devRef .tc main_v76_1) := by
  show W18 m ρ c (Proc.devRef .tc main_v76_1) = _
  read_back

set_option maxHeartbeats 64000000 in
/-- The per-graph read-out is the reference's second result. -/
theorem graphs_result (c : Dev nD) (he1 : W3 m ρ c (Proc.devRef .tc main_v4) = edges1 m c) (hn1 : W5 m ρ c (Proc.devRef .tc main_v19) = nodes1 m c) (he2 : W11 m ρ c (Proc.devRef .tc main_v57) = edges2 m c) (hn2 : W15 m ρ c (Proc.devRef .tc main_v76_0) = nodes2 m c) :
    W18 m ρ c (Proc.devRef .tc main_v121) = graphsOut m c := by
  show W18 m ρ c (Proc.devRef .tc main_v121) = _
  read_back [x15 main_v57, x15 main_v50, x11 main_v50, x5 main_v4,
    x15 main_arg4, x11 main_arg4, x5 main_arg4, x3 main_arg4, x15 main_arg5, x11 main_arg5, x5 main_arg5, x3 main_arg5,
    x15 main_arg23, x11 main_arg23, x5 main_arg23, x3 main_arg23, x15 main_arg24, x11 main_arg24, x5 main_arg24, x3 main_arg24, x15 main_arg25, x11 main_arg25, x5 main_arg25, x3 main_arg25, x15 main_arg26, x11 main_arg26, x5 main_arg26, x3 main_arg26, x15 main_arg29, x11 main_arg29, x5 main_arg29, x3 main_arg29, x15 main_arg30, x11 main_arg30, x5 main_arg30, x3 main_arg30,
    x5 main_arg12, x3 main_arg12, x5 main_arg13, x3 main_arg13, x5 main_arg14, x3 main_arg14]
  rw [he1, hn1, he2, hn2]
  rfl

end Readings

end Cert.Chain

end
-- ==== Proof.lean ====
/-
  A graph network's forward pass: the kernel program against its reference, equal over the extended reals.

  102400 nodes (60 input features), 1638400 edges (1 feature), 64 graphs.  An encoder block and one hidden block each update
  the edges from their own features, their sender's and (hidden block) their graph's, the nodes from their own features,
  the mean of their incoming edges and (hidden block) their graph's, and the per-graph vector from the means of its edges
  and nodes; every update is a dense layer with bias and ReLU.  The results are a logistic read-out of the nodes and one
  of the graphs.  The kernel program computes the four large layers (and the node read-out) in kernels over blocks of
  4096 rows, with the products' operands cut to bf16, and everything else on the host exactly as the reference does.

  Over the extended reals cutting to bf16 is the identity, a product into a zero accumulator is the plain sum, and both
  programs add the partial sums of a layer left to right and the bias last; so layer by layer the two compute one
  function, and no law of the extended reals beyond reading a sum at an index is used: in particular the finiteness of
  the inputs is never needed.  What IS needed is that every index that selects a ROW of a table lies in the table's
  range (negative indices counted from the end): the kernel program's gathers replace a row read out of range by NaN
  words where the reference's gathers clamp the index, and that difference reaches the results.  The precondition says
  so for the three index inputs that select rows (the senders, and the graph of every edge and of every node); the
  receivers only ever name a segment to sum into, which both programs do with the same operations.

  The proof follows the run.  Proof/KernelValueRun.lean runs the kernel program with its two results named at the last
  boundary; Proof/EdgesFirst.lean, NodesFirst.lean, EdgesSecond.lean, NodesSecond.lean and GraphReadout.lean identify, one
  region at a time, what the kernel program holds with the reference's value of the same arguments (each from a region's
  array-wide function, Proof/EdgeEncoder.lean … NodeHidden.lean, the reference's layer at an entry, Proof/RefLayers.lean,
  and the gathers, Proof/TakeRows.lean); here the two runs are put side by side.
-/
import proofs.«401216_j29635274342505_1_alg».proof.Defs
import proofs.«401216_j29635274342505_1_alg».proof.Proof.Gen.Kernel
import proofs.«401216_j29635274342505_1_alg».proof.Proof.Gen.Kernel.Skeleton
import proofs.«401216_j29635274342505_1_alg».proof.Proof.Gen.Kernel.Launch
import proofs.«401216_j29635274342505_1_alg».proof.Proof.Gen.Kernel.Points
import proofs.«401216_j29635274342505_1_alg».proof.Proof.Gen.Kernel.Frame
import proofs.«401216_j29635274342505_1_alg».proof.Proof.Gen.KernelIdeal
import proofs.«401216_j29635274342505_1_alg».proof.Proof.Gen.KernelIdeal.Skeleton
import proofs.«401216_j29635274342505_1_alg».proof.Proof.Gen.KernelIdeal.Launch
import proofs.«401216_j29635274342505_1_alg».proof.Proof.Gen.KernelIdeal.Points
import proofs.«401216_j29635274342505_1_alg».proof.Proof.Gen.KernelIdeal.Frame
import proofs.«401216_j29635274342505_1_alg».proof.Proof.Gen.ReferenceIdeal
import proofs.«401216_j29635274342505_1_alg».proof.Proof.Gen.ReferenceIdeal.Run
import proofs.«401216_j29635274342505_1_alg».proof.Proof.Gen.ReferenceIdeal.Read
import proofs.«401216_j29635274342505_1_alg».proof.Proof.Gen.Pre_finite_inputs
import proofs.«401216_j29635274342505_1_alg».proof.Proof.KernelValueRun
import proofs.«401216_j29635274342505_1_alg».proof.Proof.InBounds
import proofs.«401216_j29635274342505_1_alg».proof.Proof.EdgesFirst
import proofs.«401216_j29635274342505_1_alg».proof.Proof.NodesFirst
import proofs.«401216_j29635274342505_1_alg».proof.Proof.EdgesSecond
import proofs.«401216_j29635274342505_1_alg».proof.Proof.NodesSecond
import proofs.«401216_j29635274342505_1_alg».proof.Proof.GraphReadout
import Idealize.ShloMosaic.Adequacy
import Idealize.ShloMosaic.Init

noncomputable section

namespace Cert.Proof

open Idealize.ShloMosaic Idealize.SL.Sem

/-- The word-level kernel program terminates without a fault, its arguments unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation of the kernel program was rewritten to read it over the extended reals: nothing to preserve. -/
theorem preserves : Cert.preserves_Kernel_KernelIdeal := trivial

/-- From memories that agree on the arguments, with the row indices in range, both programs end with the same two
    results: the reference's values of the arguments. -/
theorem algebraic : Cert.algebraic_KernelIdeal_ReferenceIdeal := by
  intro m ρ m' ρ' hpre hagree
  refine ⟨fun c => Cert.Stages.nodesOut m c, fun c => Cert.Stages.graphsOut m c, ?_, ?_⟩
  · -- the kernel program: its run with the results named, then the results identified region by region
    refine (θ_run Cert.KernelIdeal.defs _ _).mono (fun r h c => ?_) (Cert.KernelIdeal.ValueRun.run_values (F := Ideal) m ρ)
    obtain ⟨h0, h1, hargs⟩ := h c
    obtain ⟨hs, heg, hng⟩ := Cert.InBounds.of_pre _ _ _ _ _ _ _ _ _ _ _ _ _ _ _ _ _ _ _ _ _ _ _ _ _ _ _ _ _ _ _ (hpre c)
    have he1 := Cert.Chain.edges_first m ρ c hs
    have hn1 := Cert.Chain.nodes_first m ρ c he1
    have he2 := Cert.Chain.edges_second m ρ c hs heg he1 hn1
    have hn2 := Cert.Chain.nodes_second m ρ c hng he1 hn1 he2
    exact ⟨h0.trans ((Cert.Chain.nodes_result m ρ c).trans (Cert.Chain.nodes_readout m ρ c hng he1 hn1 he2)),
      h1.trans (Cert.Chain.graphs_result m ρ c he1 hn1 he2 hn2), hargs⟩
  · -- the reference: its run, each result's term the stage of its own arguments, which are the kernel program's
    refine (θ_run Cert.ReferenceIdeal.defs _ _).mono (fun _ h c => ?_) (Cert.ReferenceIdeal.Value.run (F := Ideal) m' ρ')
    obtain ⟨h0, h1, hargs⟩ := h c
    obtain ⟨g0, g1, g2, g3, g4, g5, g6, g7, g8, g9, g10, g11, g12, g13, g14, g15, g16, g17, g18, g19, g20, g21, g22, g23, g24, g25, g26, g27, g28, g29, g30⟩ := hagree c
    refine ⟨h0.trans ?_, h1.trans ?_, hargs⟩
    · rw [Cert.ReferenceIdeal.Read.val_main_v167_eq]
      simp only [g0, g1, g2, g3, g4, g5, g6, g7, g8, g9, g10, g11, g12, g13, g14, g15, g16, g17, g18, g19, g20, g21, g22, g23, g24, g25, g26, g27, g28, g29, g30]
    · rw [Cert.ReferenceIdeal.Read.val_main_v178_eq]
      simp only [g0, g1, g2, g3, g4, g5, g6, g7, g8, g9, g10, g11, g12, g13, g14, g15, g16, g17, g18, g19, g20, g21, g22, g23, g24, g25, g26, g27, g28, g29, g30]

/-- The certificate: the three programs' stated facts, the three frames, the (empty) idealization ledger, and the
    equality of the results. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
